-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x64x64 : Shape := ⟨4, ![4, 128, 64, 64]⟩
abbrev S4x512x256 : Shape := ⟨3, ![4, 512, 256]⟩
abbrev S512 : Shape := ⟨1, ![512]⟩
abbrev S4096 : Shape := ⟨1, ![4096]⟩
abbrev S_ : Shape := ⟨0, ![]⟩

class Facts : Prop where
  bcast_S_S4x128x64x64 : S_.BroadcastsInDim S4x128x64x64 (![] : Fin 0 → Fin S4x128x64x64.rank)
  reducesTo_S4x128x64x64_S_d0_1_2_3 : S4x128x64x64.ReducesTo [0, 1, 2, 3] S_
  h_S_ : 0 < S_.numel
  bcast_S_S4x512x256 : S_.BroadcastsInDim S4x512x256 (![] : Fin 0 → Fin S4x512x256.rank)
  reducesTo_S4x512x256_S_d0_1_2 : S4x512x256.ReducesTo [0, 1, 2] S_
  bcast_S_S512 : S_.BroadcastsInDim S512 (![] : Fin 0 → Fin S512.rank)
  reducesTo_S512_S_d0 : S512.ReducesTo [0] S_
  bcast_S_S4096 : S_.BroadcastsInDim S4096 (![] : Fin 0 → Fin S4096.rank)
  reducesTo_S4096_S_d0 : S4096.ReducesTo [0] S_

variable [Facts]

def fn_part5 {F : FTy → Type} [FloatOps F] (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  main_v88

def fn_part4 {F : FTy → Type} [FloatOps F] (main_arg14 : FVec F S512 .f32) (main_arg15 : FVec F S512 .f32) (main_arg16 : FVec F S512 .f32) (main_arg17 : FVec F S512 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512 .f32 := Host.absf main_arg15
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512 .f32 := Host.absf main_arg16
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S512 .f32 := Host.absf main_arg17
  let main_cst_32 : FVec F S_ .f32 := constant S_ .f32 0x7F800000#32
  fn_part5 (F := F) main_v83 main_v84 main_cst_32

def fn_part3 {F : FTy → Type} [FloatOps F] (main_arg11 : FVec F S4096 .f32) (main_arg12 : FVec F S4096 .f32) (main_arg13 : FVec F S4096 .f32) (main_arg14 : FVec F S512 .f32) (main_arg15 : FVec F S512 .f32) (main_arg16 : FVec F S512 .f32) (main_arg17 : FVec F S512 .f32) (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  let main_v54 : FVec F S4096 .f32 := Host.absf main_arg11
  let main_cst_20 : FVec F S_ .f32 := constant S_ .f32 0x7F800000#32
  let main_v55 : FVec F S4096 .f32 := broadcastInDim S4096 ![] bcast_S_S4096 main_cst_20
  let main_v56 : IVec S4096 1 := cmpf .olt main_v54 main_v55
  let main_c_21 : IVec S_ 1 := constantI S_ 1 1#1
  let main_v57 : IVec S_ 1 := (fun x v => Host.reduce IntOp.andi x v reducesTo_S4096_S_d0 h_S_) main_v56 main_c_21
  let main_v58 : IVec S_ 1 := andi main_v53 main_v57
  let main_v59 : FVec F S4096 .f32 := Host.absf main_arg12
  let main_cst_22 : FVec F S_ .f32 := constant S_ .f32 0x7F800000#32
  let main_v60 : FVec F S4096 .f32 := broadcastInDim S4096 ![] bcast_S_S4096 main_cst_22
  let main_v61 : IVec S4096 1 := cmpf .olt main_v59 main_v60
  let main_c_23 : IVec S_ 1 := constantI S_ 1 1#1
  let main_v62 : IVec S_ 1 := (fun x v => Host.reduce IntOp.andi x v reducesTo_S4096_S_d0 h_S_) main_v61 main_c_23
  let main_v63 : IVec S_ 1 := andi main_v58 main_v62
  let main_v64 : FVec F S4096 .f32 := Host.absf main_arg13
  let main_cst_24 : FVec F S_ .f32 := constant S_ .f32 0x7F800000#32
  let main_v65 : FVec F S4096 .f32 := broadcastInDim S4096 ![] bcast_S_S4096 main_cst_24
  let main_v66 : IVec S4096 1 := cmpf .olt main_v64 main_v65
  let main_c_25 : IVec S_ 1 := constantI S_ 1 1#1
  let main_v67 : IVec S_ 1 := (fun x v => Host.reduce IntOp.andi x v reducesTo_S4096_S_d0 h_S_) main_v66 main_c_25
  fn_part4 (F := F) main_arg14 main_arg15 main_arg16 main_arg17 main_v63 main_v67

def fn_part2 {F : FTy → Type} [FloatOps F] (main_arg7 : FVec F S512 .f32) (main_arg8 : FVec F S512 .f32) (main_arg9 : FVec F S512 .f32) (main_arg10 : FVec F S4096 .f32) (main_arg11 : FVec F S4096 .f32) (main_arg12 : FVec F S4096 .f32) (main_arg13 : FVec F S4096 .f32) (main_arg14 : FVec F S512 .f32) (main_arg15 : FVec F S512 .f32) (main_arg16 : FVec F S512 .f32) (main_arg17 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S4096 .f32 := Host.absf main_arg10
  let main_cst_18 : FVec F S_ .f32 := constant S_ .f32 0x7F800000#32
  let main_v50 : FVec F S4096 .f32 := broadcastInDim S4096 ![] bcast_S_S4096 main_cst_18
  fn_part3 (F := F) main_arg11 main_arg12 main_arg13 main_arg14 main_arg15 main_arg16 main_arg17 main_v48 main_v49 main_v50

def fn_part1 {F : FTy → Type} [FloatOps F] (main_arg4 : FVec F S512 .f32) (main_arg5 : FVec F S512 .f32) (main_arg6 : FVec F S512 .f32) (main_arg7 : FVec F S512 .f32) (main_arg8 : FVec F S512 .f32) (main_arg9 : FVec F S512 .f32) (main_arg10 : FVec F S4096 .f32) (main_arg11 : FVec F S4096 .f32) (main_arg12 : FVec F S4096 .f32) (main_arg13 : FVec F S4096 .f32) (main_arg14 : FVec F S512 .f32) (main_arg15 : FVec F S512 .f32) (main_arg16 : FVec F S512 .f32) (main_arg17 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S4x128x64x64 .f32) (main_arg1 : FVec F S4x512x256 .f32) (main_arg2 : FVec F S512 .f32) (main_arg3 : FVec F S512 .f32) (main_arg4 : FVec F S512 .f32) (main_arg5 : FVec F S512 .f32) (main_arg6 : FVec F S512 .f32) (main_arg7 : FVec F S512 .f32) (main_arg8 : FVec F S512 .f32) (main_arg9 : FVec F S512 .f32) (main_arg10 : FVec F S4096 .f32) (main_arg11 : FVec F S4096 .f32) (main_arg12 : FVec F S4096 .f32) (main_arg13 : FVec F S4096 .f32) (main_arg14 : FVec F S512 .f32) (main_arg15 : FVec F S512 .f32) (main_arg16 : FVec F S512 .f32) (main_arg17 : FVec F S512 .f32) : IVec S_ 1 :=
  let main_v0 : FVec F S4x128x64x64 .f32 := Host.absf main_arg0
  let main_cst : FVec F S_ .f32 := constant S_ .f32 0x7F800000#32
  let main_v1 : FVec F S4x128x64x64 .f32 := broadcastInDim S4x128x64x64 ![] bcast_S_S4x128x64x64 main_cst
  let main_v2 : IVec S4x128x64x64 1 := cmpf .olt main_v0 main_v1
  let main_c : IVec S_ 1 := constantI S_ 1 1#1
  let main_v3 : IVec S_ 1 := (fun x v => Host.reduce IntOp.andi x v reducesTo_S4x128x64x64_S_d0_1_2_3 h_S_) main_v2 main_c
  let main_v4 : FVec F S4x512x256 .f32 := Host.absf main_arg1
  let main_cst_0 : FVec F S_ .f32 := constant S_ .f32 0x7F800000#32
  let main_v5 : FVec F S4x512x256 .f32 := broadcastInDim S4x512x256 ![] bcast_S_S4x512x256 main_cst_0
  let main_v6 : IVec S4x512x256 1 := cmpf .olt main_v4 main_v5
  let main_c_1 : IVec S_ 1 := constantI S_ 1 1#1
  let main_v7 : IVec S_ 1 := (fun x v => Host.reduce IntOp.andi x v reducesTo_S4x512x256_S_d0_1_2 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S4x128x64x64 : Shape := ⟨4, ![4, 128, 64, 64]⟩
abbrev S4x512x256 : Shape := ⟨3, ![4, 512, 256]⟩
abbrev S512 : Shape := ⟨1, ![512]⟩
abbrev S4096 : Shape := ⟨1, ![4096]⟩
abbrev S512x1 : Shape := ⟨2, ![512, 1]⟩
abbrev S512x8 : Shape := ⟨2, ![512, 8]⟩
abbrev S1x128x64x64 : Shape := ⟨4, ![1, 128, 64, 64]⟩
abbrev S1x512x256 : Shape := ⟨3, ![1, 512, 256]⟩
abbrev S512x64 : Shape := ⟨2, ![512, 64]⟩
abbrev S1x1 : Shape := ⟨2, ![1, 1]⟩
abbrev S1x16x64x64 : Shape := ⟨4, ![1, 16, 64, 64]⟩
abbrev S16x64x64 : Shape := ⟨3, ![16, 64, 64]⟩
abbrev S16x1x64x64 : Shape := ⟨4, ![16, 1, 64, 64]⟩
abbrev S16x4x64x64 : Shape := ⟨4, ![16, 4, 64, 64]⟩
abbrev S64x64x64 : Shape := ⟨3, ![64, 64, 64]⟩
abbrev S64x1 : Shape := ⟨2, ![64, 1]⟩
abbrev S64x1x1 : Shape := ⟨3, ![64, 1, 1]⟩
abbrev S64x64 : Shape := ⟨2, ![64, 64]⟩
abbrev S64 : Shape := ⟨1, ![64]⟩
abbrev S1 : Shape := ⟨1, ![1]⟩
abbrev S1x1x1 : Shape := ⟨3, ![1, 1, 1]⟩
abbrev S64x512 : Shape := ⟨2, ![64, 512]⟩
abbrev S64x1x512 : Shape := ⟨3, ![64, 1, 512]⟩
abbrev S64x4x512 : Shape := ⟨3, ![64, 4, 512]⟩
abbrev S256x512 : Shape := ⟨2, ![256, 512]⟩
abbrev S512x256 : Shape := ⟨2, ![512, 256]⟩
abbrev S512x8x1 : Shape := ⟨3, ![512, 8, 1]⟩
abbrev S512x1x256 : Shape := ⟨3, ![512, 1, 256]⟩
abbrev S512x8x256 : Shape := ⟨3, ![512, 8, 256]⟩

abbrev nBuf : Space → Nat
  | .hbm => 35
  | .vmem => 24
  | .smem => 0
  | _ => 0

abbrev bufTy : (tb : Table) → Fin (tcTables nBuf tb) → BufTy
  | .hbm, ⟨0, _⟩ => ⟨S4x128x64x64, .f32⟩
  | .hbm, ⟨1, _⟩ => ⟨S4x512x256, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S4096, .f32⟩
  | .hbm, ⟨11, _⟩ => ⟨S4096, .f32⟩
  | .hbm, ⟨12, _⟩ => ⟨S4096, .f32⟩
  | .hbm, ⟨13, _⟩ => ⟨S4096, .f32⟩
  | .hbm, ⟨14, _⟩ => ⟨S512, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S512x1, .f32⟩
  | .hbm, ⟨19, _⟩ => ⟨S512x1, .f32⟩
  | .hbm, ⟨20, _⟩ => ⟨S512x1, .f32⟩
  | .hbm, ⟨21, _⟩ => ⟨S512x1, .f32⟩
  | .hbm, ⟨22, _⟩ => ⟨S512x1, .f32⟩
  | .hbm, ⟨23, _⟩ => ⟨S512x1, .f32⟩
  | .hbm, ⟨24, _⟩ => ⟨S512x1, .f32⟩
  | .hbm, ⟨25, _⟩ => ⟨S512x1, .f32⟩
  | .hbm, ⟨26, _⟩ => ⟨S512x8, .f32⟩
  | .hbm, ⟨27, _⟩ => ⟨S512x8, .f32⟩
  | .hbm, ⟨28, _⟩ => ⟨S512x8, .f32⟩
  | .hbm, ⟨29, _⟩ => ⟨S512x8, .f32⟩
  | .hbm, ⟨30, _⟩ => ⟨S512x1, .f32⟩
  | .hbm, ⟨31, _⟩ => ⟨S512x1, .f32⟩
  | .hbm, ⟨32, _⟩ => ⟨S512x1, .f32⟩
  | .hbm, ⟨33, _⟩ => ⟨S512x1, .f32⟩
  | .hbm, ⟨34, _⟩ => ⟨S4x512x256, .f32⟩
  | .local _ .vmem, ⟨0, _⟩ => ⟨S1x128x64x64, .f32⟩
  | .local _ .vmem, ⟨1, _⟩ => ⟨S1x128x64x64, .f32⟩
  | .local _ .vmem, ⟨2, _⟩ => ⟨S1x512x256, .f32⟩
  | .local _ .vmem, ⟨3, _⟩ => ⟨S1x512x256, .f32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x8, .f32⟩
  | .local _ .vmem, ⟨13, _⟩ => ⟨S512x8, .f32⟩
  | .local _ .vmem, ⟨14, _⟩ => ⟨S512x8, .f32⟩
  | .local _ .vmem, ⟨15, _⟩ => ⟨S512x8, .f32⟩
  | .local _ .vmem, ⟨16, _⟩ => ⟨S512x1, .f32⟩
  | .local _ .vmem, ⟨17, _⟩ => ⟨S512x1, .f32⟩
  | .local _ .vmem, ⟨18, _⟩ => ⟨S512x1, .f32⟩
  | .local _ .vmem, ⟨19, _⟩ => ⟨S512x1, .f32⟩
  | .local _ .vmem, ⟨20, _⟩ => ⟨S1x512x256, .f32⟩
  | .local _ .vmem, ⟨21, _⟩ => ⟨S1x512x256, .f32⟩
  | .local _ .vmem, ⟨22, _⟩ => ⟨S512x64, .f32⟩
  | .local _ .vmem, ⟨23, _⟩ => ⟨S512x64, .f32⟩
  | _, _ => ⟨S4x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg18_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem18_1 : DmaSem sig := 21

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c8_i32 : BitVec 32 := 8#32
  let v1 : BitVec 32 := Scalar.addi c0_i32 c8_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg22 : BitVec 32 := Scf.iv c0_i32 c1_i32 k0_t1
  let c64_i32 : BitVec 32 := 64#32
  let v153 : BitVec 32 := Scalar.muli arg22 c64_i32
  v153
def k0_mult2 (k0_t1 : Fin k0_t1_loop.trips) : BitVec 32 :=
  let c0_i32 : BitVec 32 := 0#32
  let c1_i32 : BitVec 32 := 1#32
  let arg22 : BitVec 32 := Scf.iv c0_i32 c1_i32 k0_t1
  let c16_i32 : BitVec 32 := 16#32
  let v155 : BitVec 32 := Scalar.muli arg22 c16_i32
  v155
def k0_off1 (k0_t1 : Fin k0_t1_loop.trips) : Fin 4 → Nat :=
  let c0_66 : Index := 0#32
  let c0_i32 : BitVec 32 := 0#32
  let c1_i32 : BitVec 32 := 1#32
  let arg22 : BitVec 32 := Scf.iv c0_i32 c1_i32 k0_t1
  let c16_i32 : BitVec 32 := 16#32
  let v155 : BitVec 32 := Scalar.muli arg22 c16_i32
  let v156 : BitVec 32 := v155
  let v157 : Index := Scalar.indexCast v156
  let c0_67 : Index := 0#32
  let c0_68 : Index := 0#32
  ![0, v157.toNat, 0, 0]
def k0_off2 (k0_t1 : Fin k0_t1_loop.trips) : Fin 2 → Nat :=
  let c0_i32 : BitVec 32 := 0#32
  let c1_i32 : BitVec 32 := 1#32
  let arg22 : BitVec 32 := Scf.iv c0_i32 c1_i32 k0_t1
  let c64_i32 : BitVec 32 := 64#32
  let v153 : BitVec 32 := Scalar.muli arg22 c64_i32
  let v154 : BitVec 32 := v153
  let v164 : Index := Scalar.indexCast v154
  let c0_69 : Index := 0#32
  ![v164.toNat, 0]
@[reducible] def k0_t2_loop : Scf.Loop 32 :=
  let c0_i32_3 : BitVec 32 := 0#32
  let c8_i32_4 : BitVec 32 := 8#32
  let v7 : BitVec 32 := Scalar.addi c0_i32_3 c8_i32_4
  let c1_i32_5 : BitVec 32 := 1#32
  ⟨c0_i32_3, v7, c1_i32_5⟩
def k0_mult3 (k0_t2 : Fin k0_t2_loop.trips) : BitVec 32 :=
  let c0_i32_3 : BitVec 32 := 0#32
  let c1_i32_5 : BitVec 32 := 1#32
  let arg22 : BitVec 32 := Scf.iv c0_i32_3 c1_i32_5 k0_t2
  let c64_i32 : BitVec 32 := 64#32
  let v153 : BitVec 32 := Scalar.muli arg22 c64_i32
  v153
def k0_mult4 (k0_t2 : Fin k0_t2_loop.trips) : BitVec 32 :=
  let c0_i32_3 : BitVec 32 := 0#32
  let c1_i32_5 : BitVec 32 := 1#32
  let arg22 : BitVec 32 := Scf.iv c0_i32_3 c1_i32_5 k0_t2
  let c16_i32 : BitVec 32 := 16#32
  let v155 : BitVec 32 := Scalar.muli arg22 c16_i32
  v155
def k0_off3 (k0_t2 : Fin k0_t2_loop.trips) : Fin 4 → Nat :=
  let c0_66 : Index := 0#32
  let c0_i32_3 : BitVec 32 := 0#32
  let c1_i32_5 : BitVec 32 := 1#32
  let arg22 : BitVec 32 := Scf.iv c0_i32_3 c1_i32_5 k0_t2
  let c16_i32 : BitVec 32 := 16#32
  let v155 : BitVec 32 := Scalar.muli arg22 c16_i32
  let v156 : BitVec 32 := v155
  let v157 : Index := Scalar.indexCast v156
  let c0_67 : Index := 0#32
  let c0_68 : Index := 0#32
  ![0, v157.toNat, 0, 0]
def k0_off4 (k0_t2 : Fin k0_t2_loop.trips) : Fin 2 → Nat :=
  let c0_i32_3 : BitVec 32 := 0#32
  let c1_i32_5 : BitVec 32 := 1#32
  let arg22 : BitVec 32 := Scf.iv c0_i32_3 c1_i32_5 k0_t2
  let c64_i32 : BitVec 32 := 64#32
  let v153 : BitVec 32 := Scalar.muli arg22 c64_i32
  let v154 : BitVec 32 := v153
  let v164 : Index := Scalar.indexCast v154
  let c0_69 : Index := 0#32
  ![v164.toNat, 0]
@[reducible] def k0_t3_loop : Scf.Loop 32 :=
  let c0_i32_11 : BitVec 32 := 0#32
  let c8_i32_12 : BitVec 32 := 8#32
  let v19 : BitVec 32 := Scalar.addi c0_i32_11 c8_i32_12
  let c1_i32_13 : BitVec 32 := 1#32
  ⟨c0_i32_11, v19, c1_i32_13⟩
def k0_mult5 (k0_t3 : Fin k0_t3_loop.trips) : BitVec 32 :=
  let c0_i32_11 : BitVec 32 := 0#32
  let c1_i32_13 : BitVec 32 := 1#32
  let arg22 : BitVec 32 := Scf.iv c0_i32_11 c1_i32_13 k0_t3
  let c64_i32 : BitVec 32 := 64#32
  let v153 : BitVec 32 := Scalar.muli arg22 c64_i32
  v153
def k0_mult6 (k0_t3 : Fin k0_t3_loop.trips) : BitVec 32 :=
  let c0_i32_11 : BitVec 32 := 0#32
  let c1_i32_13 : BitVec 32 := 1#32
  let arg22 : BitVec 32 := Scf.iv c0_i32_11 c1_i32_13 k0_t3
  let c16_i32 : BitVec 32 := 16#32
  let v155 : BitVec 32 := Scalar.muli arg22 c16_i32
  v155
def k0_off5 (k0_t3 : Fin k0_t3_loop.trips) : Fin 4 → Nat :=
  let c0_66 : Index := 0#32
  let c0_i32_11 : BitVec 32 := 0#32
  let c1_i32_13 : BitVec 32 := 1#32
  let arg22 : BitVec 32 := Scf.iv c0_i32_11 c1_i32_13 k0_t3
  let c16_i32 : BitVec 32 := 16#32
  let v155 : BitVec 32 := Scalar.muli arg22 c16_i32
  let v156 : BitVec 32 := v155
  let v157 : Index := Scalar.indexCast v156
  let c0_67 : Index := 0#32
  let c0_68 : Index := 0#32
  ![0, v157.toNat, 0, 0]
def k0_off6 (k0_t3 : Fin k0_t3_loop.trips) : Fin 2 → Nat :=
  let c0_i32_11 : BitVec 32 := 0#32
  let c1_i32_13 : BitVec 32 := 1#32
  let arg22 : BitVec 32 := Scf.iv c0_i32_11 c1_i32_13 k0_t3
  let c64_i32 : BitVec 32 := 64#32
  let v153 : BitVec 32 := Scalar.muli arg22 c64_i32
  let v154 : BitVec 32 := v153
  let v164 : Index := Scalar.indexCast v154
  let c0_69 : Index := 0#32
  ![v164.toNat, 0]
def k0_off7 (k0_t3 : Fin k0_t3_loop.trips) : Fin 2 → Nat :=
  let c0_i32_11 : BitVec 32 := 0#32
  let c1_i32_13 : BitVec 32 := 1#32
  let arg22 : BitVec 32 := Scf.iv c0_i32_11 c1_i32_13 k0_t3
  let c64_i32 : BitVec 32 := 64#32
  let v153 : BitVec 32 := Scalar.muli arg22 c64_i32
  let v154 : BitVec 32 := v153
  let v195 : Index := Scalar.indexCast v154
  let c0_74 : Index := 0#32
  ![v195.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S1x512x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  shapeCasts_S512_S512x1 : S512.ShapeCasts S512x1
  shapeCasts_S4096_S512x8 : S4096.ShapeCasts S512x8
  h_S1x16x64x64 : 0 < S1x16x64x64.numel
  shapeCasts_S1x16x64x64_S16x64x64 : S1x16x64x64.ShapeCasts S16x64x64
  shapeCasts_S16x64x64_S16x1x64x64 : S16x64x64.ShapeCasts S16x1x64x64
  shapeCasts_S16x1x64x64_S16x1x64x64 : S16x1x64x64.ShapeCasts S16x1x64x64
  broadcasts_S16x1x64x64_S16x4x64x64 : S16x1x64x64.Broadcasts S16x4x64x64
  shapeCasts_S16x4x64x64_S64x64x64 : S16x4x64x64.ShapeCasts S64x64x64
  h_S64x1 : 0 < S64x1.numel
  shapeCasts_S64x1_S64x1 : S64x1.ShapeCasts S64x1
  shapeCasts_S64x1_S64x1x1 : S64x1.ShapeCasts S64x1x1
  broadcasts_S64x1x1_S64x64x64 : S64x1x1.Broadcasts S64x64x64
  reduces_S64x64x64_S64x64 : S64x64x64.Reduces [2] S64x64
  reduces_S64x64_S64 : S64x64.Reduces [1] S64
  shapeCasts_S64_S64x1 : S64.ShapeCasts S64x1
  reduces_S64x1_S1 : S64x1.Reduces [0] S1
  shapeCasts_S1_S1x1 : S1.ShapeCasts S1x1
  shapeCasts_S1x1_S1x1x1 : S1x1.ShapeCasts S1x1x1
  broadcasts_S1x1x1_S64x64x64 : S1x1x1.Broadcasts S64x64x64
  h_S64x64 : 0 < S64x64.numel
  shapeCasts_S64x64_S64x64 : S64x64.ShapeCasts S64x64
  inb_S512x64_S512x64_0_0 : ∀ a, (![0, 0] : Fin 2 → Nat) a + S512x64.size a ≤ S512x64.size a
  h_S512x64 : 0 < S512x64.numel
  transposes_S512x64_p1_0_S64x512 : S512x64.Transposes [1, 0] S64x512
  shapeCasts_S64x512_S64x1x512 : S64x512.ShapeCasts S64x1x512
  shapeCasts_S64x1x512_S64x1x512 : S64x1x512.ShapeCasts S64x1x512
  broadcasts_S64x1x512_S64x4x512 : S64x1x512.Broadcasts S64x4x512
  shapeCasts_S64x4x512_S256x512 : S64x4x512.ShapeCasts S256x512
  transposes_S256x512_p1_0_S512x256 : S256x512.Transposes [1, 0] S512x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S512x8_S512x8_0_0 : ∀ a, (![0, 0] : Fin 2 → Nat) a + S512x8.size a ≤ S512x8.size a
  h_S512x8 : 0 < S512x8.numel
  shapeCasts_S512x8_S512x8 : S512x8.ShapeCasts S512x8
  shapeCasts_S512x8_S512x8x1 : S512x8.ShapeCasts S512x8x1
  shapeCasts_S512x256_S512x1x256 : S512x256.ShapeCasts S512x1x256
  shapeCasts_S512x1x256_S512x1x256 : S512x1x256.ShapeCasts S512x1x256
  broadcasts_S512x1x256_S512x8x256 : S512x1x256.Broadcasts S512x8x256
  broadcasts_S512x8x1_S512x8x256 : S512x8x1.Broadcasts S512x8x256
  reduces_S512x8x256_S512x8 : S512x8x256.Reduces [2] S512x8
  reduces_S512x8_S512 : S512x8.Reduces [1] S512
  reduces_S512x1_S1 : S512x1.Reduces [0] S1
  broadcasts_S1x1x1_S512x8x256 : S1x1x1.Broadcasts S512x8x256
  reduces_S512x8x256_S512x256 : S512x8x256.Reduces [1] S512x256
  broadcasts_S1x1_S512x1 : S1x1.Broadcasts S512x1
  broadcasts_S512x1_S512x256 : S512x1.Broadcasts S512x256
  broadcasts_S1x1_S512x256 : S1x1.Broadcasts S512x256
  reduces_S512x256_S512 : S512x256.Reduces [1] S512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  shapeCasts_S512x256_S1x512x256 : S512x256.ShapeCasts S1x512x256
  hrank0 : 0 < grid0.rank
  k0_t1_ok : k0_t1_loop.OK
  k0_mult1_dvd : ∀ k0_t1 : Fin k0_t1_loop.trips, 64 ∣ (k0_mult1 k0_t1).toNat
  k0_mult2_dvd : ∀ k0_t1 : Fin k0_t1_loop.trips, 16 ∣ (k0_mult2 k0_t1).toNat
  k0_off1_inb : ∀ k0_t1 : Fin k0_t1_loop.trips, ∀ a, (k0_off1 k0_t1) a + S1x16x64x64.size a ≤ S1x128x64x64.size a
  k0_off2_inb : ∀ k0_t1 : Fin k0_t1_loop.trips, ∀ a, (k0_off2 k0_t1) a + S64x1.size a ≤ S512x1.size a
  k0_t2_ok : k0_t2_loop.OK
  k0_mult3_dvd : ∀ k0_t2 : Fin k0_t2_loop.trips, 64 ∣ (k0_mult3 k0_t2).toNat
  k0_mult4_dvd : ∀ k0_t2 : Fin k0_t2_loop.trips, 16 ∣ (k0_mult4 k0_t2).toNat
  k0_off3_inb : ∀ k0_t2 : Fin k0_t2_loop.trips, ∀ a, (k0_off3 k0_t2) a + S1x16x64x64.size a ≤ S1x128x64x64.size a
  k0_off4_inb : ∀ k0_t2 : Fin k0_t2_loop.trips, ∀ a, (k0_off4 k0_t2) a + S64x1.size a ≤ S512x1.size a
  k0_t3_ok : k0_t3_loop.OK
  k0_mult5_dvd : ∀ k0_t3 : Fin k0_t3_loop.trips, 64 ∣ (k0_mult5 k0_t3).toNat
  k0_mult6_dvd : ∀ k0_t3 : Fin k0_t3_loop.trips, 16 ∣ (k0_mult6 k0_t3).toNat
  k0_off5_inb : ∀ k0_t3 : Fin k0_t3_loop.trips, ∀ a, (k0_off5 k0_t3) a + S1x16x64x64.size a ≤ S1x128x64x64.size a
  k0_off6_inb : ∀ k0_t3 : Fin k0_t3_loop.trips, ∀ a, (k0_off6 k0_t3) a + S64x1.size a ≤ S512x1.size a
  k0_off7_inb : ∀ k0_t3 : Fin k0_t3_loop.trips, ∀ a, (k0_off7 k0_t3) a + S64x64.size a ≤ S512x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x64x64.size a ≤ S4x128x64x64.size a
  hwx0_0 : ∀ i : grid0.Coords, EltTy.bits .f32 = 32 ∨ (Rect.block (s := S4x128x64x64) S1x128x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x256.size a ≤ S4x512x256.size a
  hwx0_1 : ∀ i : grid0.Coords, EltTy.bits .f32 = 32 ∨ (Rect.block (s := S4x512x256) S1x512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .f32 = 32 ∨ (Rect.block (s := S512x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S512x1.size a
  hwx0_3 : ∀ i : grid0.Coords, EltTy.bits .f32 = 32 ∨ (Rect.block (s := S512x1) S512x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S512x1.size a
  hwx0_4 : ∀ i : grid0.Coords, EltTy.bits .f32 = 32 ∨ (Rect.block (s := S512x1) S512x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S512x1.size a
  hwx0_5 : ∀ i : grid0.Coords, EltTy.bits .f32 = 32 ∨ (Rect.block (s := S512x1) S512x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S512x1.size a
  hwx0_6 : ∀ i : grid0.Coords, EltTy.bits .f32 = 32 ∨ (Rect.block (s := S512x1) S512x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S512x1.size a
  hwx0_7 : ∀ i : grid0.Coords, EltTy.bits .f32 = 32 ∨ (Rect.block (s := S512x1) S512x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x1.size a ≤ S512x1.size a
  hwx0_8 : ∀ i : grid0.Coords, EltTy.bits .f32 = 32 ∨ (Rect.block (s := S512x1) S512x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x1.size a ≤ S512x1.size a
  hwx0_9 : ∀ i : grid0.Coords, EltTy.bits .f32 = 32 ∨ (Rect.block (s := S512x1) S512x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x8.size a ≤ S512x8.size a
  hwx0_10 : ∀ i : grid0.Coords, EltTy.bits .f32 = 32 ∨ (Rect.block (s := S512x8) S512x8.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x8.size a ≤ S512x8.size a
  hwx0_11 : ∀ i : grid0.Coords, EltTy.bits .f32 = 32 ∨ (Rect.block (s := S512x8) S512x8.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x8.size a ≤ S512x8.size a
  hwx0_12 : ∀ i : grid0.Coords, EltTy.bits .f32 = 32 ∨ (Rect.block (s := S512x8) S512x8.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x8.size a ≤ S512x8.size a
  hwx0_13 : ∀ i : grid0.Coords, EltTy.bits .f32 = 32 ∨ (Rect.block (s := S512x8) S512x8.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512x1.size a ≤ S512x1.size a
  hwx0_14 : ∀ i : grid0.Coords, EltTy.bits .f32 = 32 ∨ (Rect.block (s := S512x1) S512x1.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S512x1.size a ≤ S512x1.size a
  hwx0_15 : ∀ i : grid0.Coords, EltTy.bits .f32 = 32 ∨ (Rect.block (s := S512x1) S512x1.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S512x1.size a ≤ S512x1.size a
  hwx0_16 : ∀ i : grid0.Coords, EltTy.bits .f32 = 32 ∨ (Rect.block (s := S512x1) S512x1.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S512x1.size a ≤ S512x1.size a
  hwx0_17 : ∀ i : grid0.Coords, EltTy.bits .f32 = 32 ∨ (Rect.block (s := S512x1) S512x1.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1x512x256.size a ≤ S4x512x256.size a
  hwx0_18 : ∀ i : grid0.Coords, EltTy.bits .f32 = 32 ∨ (Rect.block (s := S4x512x256) S1x512x256.size (cc0_transform_18 i) (hinb0_18 i)).WholeWords (EltTy.packing .f32)

variable [Facts₀]

abbrev win0_0 : Pipeline.Window sig grid0 :=
  Pipeline.Window.ofSpec (Memref.whole main_arg0) S1x128x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S512x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S512x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S512x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S512x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S512x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S512x8.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S512x8.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v10) S512x8.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v11) S512x8.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v12) S512x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v13) S512x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v14) S512x1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v15) S512x1.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v16) S1x512x256.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S4x128x64x64 : Shape := ⟨4, ![4, 128, 64, 64]⟩
abbrev S4x512x256 : Shape := ⟨3, ![4, 512, 256]⟩
abbrev S512 : Shape := ⟨1, ![512]⟩
abbrev S4096 : Shape := ⟨1, ![4096]⟩
abbrev S4x128x4x64x64 : Shape := ⟨5, ![4, 128, 4, 64, 64]⟩
abbrev S4x512x64x64 : Shape := ⟨4, ![4, 512, 64, 64]⟩
abbrev S1x512x1x1 : Shape := ⟨4, ![1, 512, 1, 1]⟩
abbrev S_ : Shape := ⟨0, ![]⟩
abbrev S4 : Shape := ⟨1, ![4]⟩
abbrev S4x1x1x1 : Shape := ⟨4, ![4, 1, 1, 1]⟩
abbrev S256 : Shape := ⟨1, ![256]⟩
abbrev S256x1 : Shape := ⟨2, ![256, 1]⟩
abbrev S4x512x256x64 : Shape := ⟨4, ![4, 512, 256, 64]⟩
abbrev S4x512x8x256 : Shape := ⟨4, ![4, 512, 8, 256]⟩
abbrev S4x4096x256 : Shape := ⟨3, ![4, 4096, 256]⟩
abbrev S1x4096x1 : Shape := ⟨3, ![1, 4096, 1]⟩
abbrev S4x1x1 : Shape := ⟨3, ![4, 1, 1]⟩
abbrev S4x512 : Shape := ⟨2, ![4, 512]⟩
abbrev S4x512x1 : Shape := ⟨3, ![4, 512, 1]⟩
abbrev S1x512x1 : Shape := ⟨3, ![1, 512, 1]⟩
abbrev S4x512x256x1 : Shape := ⟨4, ![4, 512, 256, 1]⟩

abbrev nBuf : Space → Nat
  | .hbm => 235
  | .vmem => 0
  | .smem => 0
  | _ => 0

abbrev hbmTy0_0 (i : Nat) : BufTy := match i % 128 with
  | 0 => ⟨S4x128x64x64, .f32⟩
  | 1 => ⟨S4x512x256, .f32⟩
  | 2 => ⟨S512, .f32⟩
  | 3 => ⟨S512, .f32⟩
  | 4 => ⟨S512, .f32⟩
  | 5 => ⟨S512, .f32⟩
  | 6 => ⟨S512, .f32⟩
  | 7 => ⟨S512, .f32⟩
  | 8 => ⟨S512, .f32⟩
  | 9 => ⟨S512, .f32⟩
  | 10 => ⟨S4096, .f32⟩
  | 11 => ⟨S4096, .f32⟩
  | 12 => ⟨S4096, .f32⟩
  | 13 => ⟨S4096, .f32⟩
  | 14 => ⟨S512, .f32⟩
  | 15 => ⟨S512, .f32⟩
  | 16 => ⟨S512, .f32⟩
  | 17 => ⟨S512, .f32⟩
  | 18 => ⟨S4x128x4x64x64, .f32⟩
  | 19 => ⟨S4x512x64x64, .f32⟩
  | 20 => ⟨S1x512x1x1, .f32⟩
  | 21 => ⟨S4x512x64x64, .f32⟩
  | 22 => ⟨S4x512x64x64, .f32⟩
  | 23 => ⟨S1x512x1x1, .f32⟩
  | 24 => ⟨S4x512x64x64, .f32⟩
  | 25 => ⟨S4x512x64x64, .f32⟩
  | 26 => ⟨S_, .f32⟩
  | 27 => ⟨S4, .f32⟩
  | 28 => ⟨S4x1x1x1, .f32⟩
  | 29 => ⟨S_, .f32⟩
  | 30 => ⟨S4x1x1x1, .f32⟩
  | 31 => ⟨S4x1x1x1, .f32⟩
  | 32 => ⟨S4x512x64x64, .f32⟩
  | 33 => ⟨S4x512x64x64, .f32⟩
  | 34 => ⟨S4x512x64x64, .f32⟩
  | 35 => ⟨S_, .f32⟩
  | 36 => ⟨S4, .f32⟩
  | 37 => ⟨S4x1x1x1, .f32⟩
  | 38 => ⟨S_, .f32⟩
  | 39 => ⟨S4x1x1x1, .f32⟩
  | 40 => ⟨S4x1x1x1, .f32⟩
  | 41 => ⟨S4x512x64x64, .f32⟩
  | 42 => ⟨S4x512x64x64, .f32⟩
  | 43 => ⟨S_, .f32⟩
  | 44 => ⟨S4x1x1x1, .f32⟩
  | 45 => ⟨S4x1x1x1, .f32⟩
  | 46 => ⟨S4x1x1x1, .f32⟩
  | 47 => ⟨S4x512x64x64, .f32⟩
  | 48 => ⟨S4x512x64x64, .f32⟩
  | 49 => ⟨S1x512x1x1, .f32⟩
  | 50 => ⟨S4x512x64x64, .f32⟩
  | 51 => ⟨S4x512x64x64, .f32⟩
  | 52 => ⟨S1x512x1x1, .f32⟩
  | 53 => ⟨S4x512x64x64, .f32⟩
  | 54 => ⟨S4x512x64x64, .f32⟩
  | 55 => ⟨S1x512x1x1, .f32⟩
  | 56 => ⟨S4x512x64x64, .f32⟩
  | 57 => ⟨S4x512x64x64, .f32⟩
  | 58 => ⟨S1x512x1x1, .f32⟩
  | 59 => ⟨S4x512x64x64, .f32⟩
  | 60 => ⟨S4x512x64x64, .f32⟩
  | 61 => ⟨S_, .f32⟩
  | 62 => ⟨S4, .f32⟩
  | 63 => ⟨S4x1x1x1, .f32⟩
  | 64 => ⟨S_, .f32⟩
  | 65 => ⟨S4x1x1x1, .f32⟩
  | 66 => ⟨S4x1x1x1, .f32⟩
  | 67 => ⟨S4x512x64x64, .f32⟩
  | 68 => ⟨S4x512x64x64, .f32⟩
  | 69 => ⟨S4x512x64x64, .f32⟩
  | 70 => ⟨S_, .f32⟩
  | 71 => ⟨S4, .f32⟩
  | 72 => ⟨S4x1x1x1, .f32⟩
  | 73 => ⟨S_, .f32⟩
  | 74 => ⟨S4x1x1x1, .f32⟩
  | 75 => ⟨S4x1x1x1, .f32⟩
  | 76 => ⟨S4x512x64x64, .f32⟩
  | 77 => ⟨S4x512x64x64, .f32⟩
  | 78 => ⟨S_, .f32⟩
  | 79 => ⟨S4x1x1x1, .f32⟩
  | 80 => ⟨S4x1x1x1, .f32⟩
  | 81 => ⟨S4x1x1x1, .f32⟩
  | 82 => ⟨S4x512x64x64, .f32⟩
  | 83 => ⟨S4x512x64x64, .f32⟩
  | 84 => ⟨S1x512x1x1, .f32⟩
  | 85 => ⟨S4x512x64x64, .f32⟩
  | 86 => ⟨S4x512x64x64, .f32⟩
  | 87 => ⟨S1x512x1x1, .f32⟩
  | 88 => ⟨S4x512x64x64, .f32⟩
  | 89 => ⟨S4x512x64x64, .f32⟩
  | 90 => ⟨S_, .f32⟩
  | 91 => ⟨S4x512x64x64, .f32⟩
  | 92 => ⟨S4x512x64x64, .f32⟩
  | 93 => ⟨S256, .i32⟩
  | 94 => ⟨S_, .i32⟩
  | 95 => ⟨S256, .i32⟩
  | 96 => ⟨S256, .i32⟩
  | 97 => ⟨S_, .i32⟩
  | 98 => ⟨S_, .i32⟩
  | 99 => ⟨S256, .i32⟩
  | 100 => ⟨S256, .i32⟩
  | 101 => ⟨S256, .i32⟩
  | 102 => ⟨S_, .i32⟩
  | 103 => ⟨S256, .i32⟩
  | 104 => ⟨S256, .i1⟩
  | 105 => ⟨S256, .i32⟩
  | 106 => ⟨S256, .i32⟩
  | 107 => ⟨S_, .i32⟩
  | 108 => ⟨S256, .i32⟩
  | 109 => ⟨S256, .i1⟩
  | 110 => ⟨S256, .i1⟩
  | 111 => ⟨S_, .i32⟩
  | 112 => ⟨S256, .i32⟩
  | 113 => ⟨S256, .i32⟩
  | 114 => ⟨S256, .i32⟩
  | 115 => ⟨S_, .i32⟩
  | 116 => ⟨S256, .i32⟩
  | 117 => ⟨S256, .i1⟩
  | 118 => ⟨S_, .i32⟩
  | 119 => ⟨S256, .i32⟩
  | 120 => ⟨S256, .i32⟩
  | 121 => ⟨S256, .i32⟩
  | 122 => ⟨S256x1, .i32⟩
  | 123 => ⟨S4x512x256x64, .f32⟩
  | 124 => ⟨S_, .i32⟩
  | 125 => ⟨S256, .i32⟩
  | 126 => ⟨S256, .i1⟩
  | 127 => ⟨S_, .i32⟩
  | _ => ⟨S4x128x64x64, .f32⟩

abbrev hbmTy0_1 (i : Nat) : BufTy := match i % 128 with
  | 0 => ⟨S256, .i32⟩
  | 1 => ⟨S256, .i32⟩
  | 2 => ⟨S256, .i32⟩
  | 3 => ⟨S256x1, .i32⟩
  | 4 => ⟨S4x512x256x64, .f32⟩
  | 5 => ⟨S4x512x8x256, .f32⟩
  | 6 => ⟨S4x4096x256, .f32⟩
  | 7 => ⟨S1x4096x1, .f32⟩
  | 8 => ⟨S4x4096x256, .f32⟩
  | 9 => ⟨S4x4096x256, .f32⟩
  | 10 => ⟨S1x4096x1, .f32⟩
  | 11 => ⟨S4x4096x256, .f32⟩
  | 12 => ⟨S4x4096x256, .f32⟩
  | 13 => ⟨S_, .f32⟩
  | 14 => ⟨S4, .f32⟩
  | 15 => ⟨S4x1x1, .f32⟩
  | 16 => ⟨S_, .f32⟩
  | 17 => ⟨S4x1x1, .f32⟩
  | 18 => ⟨S4x1x1, .f32⟩
  | 19 => ⟨S4x4096x256, .f32⟩
  | 20 => ⟨S4x4096x256, .f32⟩
  | 21 => ⟨S4x4096x256, .f32⟩
  | 22 => ⟨S_, .f32⟩
  | 23 => ⟨S4, .f32⟩
  | 24 => ⟨S4x1x1, .f32⟩
  | 25 => ⟨S_, .f32⟩
  | 26 => ⟨S4x1x1, .f32⟩
  | 27 => ⟨S4x1x1, .f32⟩
  | 28 => ⟨S4x4096x256, .f32⟩
  | 29 => ⟨S4x4096x256, .f32⟩
  | 30 => ⟨S_, .f32⟩
  | 31 => ⟨S4x1x1, .f32⟩
  | 32 => ⟨S4x1x1, .f32⟩
  | 33 => ⟨S4x1x1, .f32⟩
  | 34 => ⟨S4x4096x256, .f32⟩
  | 35 => ⟨S4x4096x256, .f32⟩
  | 36 => ⟨S1x4096x1, .f32⟩
  | 37 => ⟨S4x4096x256, .f32⟩
  | 38 => ⟨S4x4096x256, .f32⟩
  | 39 => ⟨S1x4096x1, .f32⟩
  | 40 => ⟨S4x4096x256, .f32⟩
  | 41 => ⟨S4x4096x256, .f32⟩
  | 42 => ⟨S4x512x8x256, .f32⟩
  | 43 => ⟨S_, .f32⟩
  | 44 => ⟨S4x512x256, .f32⟩
  | 45 => ⟨S_, .f32⟩
  | 46 => ⟨S4x512x256, .f32⟩
  | 47 => ⟨S4x512x256, .f32⟩
  | 48 => ⟨S_, .f32⟩
  | 49 => ⟨S4x512, .f32⟩
  | 50 => ⟨S_, .f32⟩
  | 51 => ⟨S4x512, .f32⟩
  | 52 => ⟨S4x512, .f32⟩
  | 53 => ⟨S4x512x1, .f32⟩
  | 54 => ⟨S4x512x256, .f32⟩
  | 55 => ⟨S4x512x256, .f32⟩
  | 56 => ⟨S4x512x256, .f32⟩
  | 57 => ⟨S_, .f32⟩
  | 58 => ⟨S4x512, .f32⟩
  | 59 => ⟨S4x512x1, .f32⟩
  | 60 => ⟨S4x512x256, .f32⟩
  | 61 => ⟨S4x512x256, .f32⟩
  | 62 => ⟨S1x512x1, .f32⟩
  | 63 => ⟨S4x512x256, .f32⟩
  | 64 => ⟨S4x512x256, .f32⟩
  | 65 => ⟨S1x512x1, .f32⟩
  | 66 => ⟨S4x512x256, .f32⟩
  | 67 => ⟨S4x512x256, .f32⟩
  | 68 => ⟨S_, .f32⟩
  | 69 => ⟨S4, .f32⟩
  | 70 => ⟨S4x1x1, .f32⟩
  | 71 => ⟨S_, .f32⟩
  | 72 => ⟨S4x1x1, .f32⟩
  | 73 => ⟨S4x1x1, .f32⟩
  | 74 => ⟨S4x512x256, .f32⟩
  | 75 => ⟨S4x512x256, .f32⟩
  | 76 => ⟨S4x512x256, .f32⟩
  | 77 => ⟨S_, .f32⟩
  | 78 => ⟨S4, .f32⟩
  | 79 => ⟨S4x1x1, .f32⟩
  | 80 => ⟨S_, .f32⟩
  | 81 => ⟨S4x1x1, .f32⟩
  | 82 => ⟨S4x1x1, .f32⟩
  | 83 => ⟨S4x512x256, .f32⟩
  | 84 => ⟨S4x512x256, .f32⟩
  | 85 => ⟨S_, .f32⟩
  | 86 => ⟨S4x1x1, .f32⟩
  | 87 => ⟨S4x1x1, .f32⟩
  | 88 => ⟨S4x1x1, .f32⟩
  | 89 => ⟨S4x512x256, .f32⟩
  | 90 => ⟨S4x512x256, .f32⟩
  | 91 => ⟨S1x512x1, .f32⟩
  | 92 => ⟨S4x512x256, .f32⟩
  | 93 => ⟨S4x512x256, .f32⟩
  | 94 => ⟨S1x512x1, .f32⟩
  | 95 => ⟨S4x512x256, .f32⟩
  | 96 => ⟨S4x512x256, .f32⟩
  | 97 => ⟨S4x512x256x1, .f32⟩
  | 98 => ⟨S4x512x256x64, .f32⟩
  | 99 => ⟨S4x512x256x64, .f32⟩
  | 100 => ⟨S4x512x256x1, .f32⟩
  | 101 => ⟨S4x512x256x64, .f32⟩
  | 102 => ⟨S4x512x256x64, .f32⟩
  | 103 => ⟨S4x512x256x64, .f32⟩
  | 104 => ⟨S_, .f32⟩
  | 105 => ⟨S4x512x256, .f32⟩
  | 106 => ⟨S4x512x256, .f32⟩
  | _ => ⟨S4x128x64x64, .f32⟩

abbrev hbmTy (i : Nat) : BufTy := match i / 128 with
  | 0 => hbmTy0_0 i
  | 1 => hbmTy0_1 i
  | _ => ⟨S4x128x64x64, .f32⟩

abbrev bufTy : (tb : Table) → Fin (tcTables nBuf tb) → BufTy
  | .hbm, ⟨i, _⟩ => hbmTy i
  | _, _ => ⟨S4x128x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_cst_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_1 : Ref sig .tc := ⟨.hbm, 35, rfl⟩
abbrev main_v15 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_4 : Ref sig .tc := ⟨.hbm, 61, rfl⟩
abbrev main_v38 : Ref sig .tc := ⟨.hbm, 62, rfl⟩
abbrev main_v39 : Ref sig .tc := ⟨.hbm, 63, rfl⟩
abbrev main_cst_5 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_6 : Ref sig .tc := ⟨.hbm, 70, rfl⟩
abbrev main_v45 : Ref sig .tc := ⟨.hbm, 71, rfl⟩
abbrev main_v46 : Ref sig .tc := ⟨.hbm, 72, rfl⟩
abbrev main_cst_7 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_8 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_call0_cst : Ref sig .tc := ⟨.hbm, 90, rfl⟩
abbrev main_call0_v0 : Ref sig .tc := ⟨.hbm, 91, rfl⟩
abbrev main_v62 : Ref sig .tc := ⟨.hbm, 92, rfl⟩
abbrev main_v63 : Ref sig .tc := ⟨.hbm, 93, rfl⟩
abbrev main_c : Ref sig .tc := ⟨.hbm, 94, rfl⟩
abbrev main_v64 : Ref sig .tc := ⟨.hbm, 95, rfl⟩
abbrev main_v65 : Ref sig .tc := ⟨.hbm, 96, rfl⟩
abbrev main_c_9 : Ref sig .tc := ⟨.hbm, 97, rfl⟩
abbrev main_call1_v0 : Ref sig .tc := ⟨.hbm, 98, rfl⟩
abbrev main_call1_v1 : Ref sig .tc := ⟨.hbm, 99, rfl⟩
abbrev main_call1_v2 : Ref sig .tc := ⟨.hbm, 100, rfl⟩
abbrev main_call1_v3 : Ref sig .tc := ⟨.hbm, 101, rfl⟩
abbrev main_call1_v4 : Ref sig .tc := ⟨.hbm, 102, rfl⟩
abbrev main_call1_v5 : Ref sig .tc := ⟨.hbm, 103, rfl⟩
abbrev main_call1_v6 : Ref sig .tc := ⟨.hbm, 104, rfl⟩
abbrev main_call1_v7 : Ref sig .tc := ⟨.hbm, 105, rfl⟩
abbrev main_call1_v8 : Ref sig .tc := ⟨.hbm, 106, rfl⟩
abbrev main_call1_c : Ref sig .tc := ⟨.hbm, 107, rfl⟩
abbrev main_call1_v9 : Ref sig .tc := ⟨.hbm, 108, rfl⟩
abbrev main_call1_v10 : Ref sig .tc := ⟨.hbm, 109, rfl⟩
abbrev main_call1_v11 : Ref sig .tc := ⟨.hbm, 110, rfl⟩
abbrev main_call1_c_0 : Ref sig .tc := ⟨.hbm, 111, rfl⟩
abbrev main_call1_v12 : Ref sig .tc := ⟨.hbm, 112, rfl⟩
abbrev main_call1_v13 : Ref sig .tc := ⟨.hbm, 113, rfl⟩
abbrev main_v66 : Ref sig .tc := ⟨.hbm, 114, rfl⟩
abbrev main_c_10 : Ref sig .tc := ⟨.hbm, 115, rfl⟩
abbrev main_v67 : Ref sig .tc := ⟨.hbm, 116, rfl⟩
abbrev main_v68 : Ref sig .tc := ⟨.hbm, 117, rfl⟩
abbrev main_c_11 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_c_12 : Ref sig .tc := ⟨.hbm, 124, rfl⟩
abbrev main_v74 : Ref sig .tc := ⟨.hbm, 125, rfl⟩
abbrev main_v75 : Ref sig .tc := ⟨.hbm, 126, rfl⟩
abbrev main_c_13 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_cst_14 : Ref sig .tc := ⟨.hbm, 141, rfl⟩
abbrev main_v89 : Ref sig .tc := ⟨.hbm, 142, rfl⟩
abbrev main_v90 : Ref sig .tc := ⟨.hbm, 143, rfl⟩
abbrev main_cst_15 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_cst_16 : Ref sig .tc := ⟨.hbm, 150, rfl⟩
abbrev main_v96 : Ref sig .tc := ⟨.hbm, 151, rfl⟩
abbrev main_v97 : Ref sig .tc := ⟨.hbm, 152, rfl⟩
abbrev main_cst_17 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_cst_18 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_cst_19 : Ref sig .tc := ⟨.hbm, 171, rfl⟩
abbrev main_v114 : Ref sig .tc := ⟨.hbm, 172, rfl⟩
abbrev main_cst_20 : Ref sig .tc := ⟨.hbm, 173, rfl⟩
abbrev main_v115 : Ref sig .tc := ⟨.hbm, 174, rfl⟩
abbrev main_v116 : Ref sig .tc := ⟨.hbm, 175, rfl⟩
abbrev main_cst_21 : Ref sig .tc := ⟨.hbm, 176, rfl⟩
abbrev main_v117 : Ref sig .tc := ⟨.hbm, 177, rfl⟩
abbrev main_cst_22 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_cst_23 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_cst_24 : Ref sig .tc := ⟨.hbm, 196, rfl⟩
abbrev main_v134 : Ref sig .tc := ⟨.hbm, 197, rfl⟩
abbrev main_v135 : Ref sig .tc := ⟨.hbm, 198, rfl⟩
abbrev main_cst_25 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_cst_26 : Ref sig .tc := ⟨.hbm, 205, rfl⟩
abbrev main_v141 : Ref sig .tc := ⟨.hbm, 206, rfl⟩
abbrev main_v142 : Ref sig .tc := ⟨.hbm, 207, rfl⟩
abbrev main_cst_27 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_cst_28 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_cst_29 : Ref sig .tc := ⟨.hbm, 232, rfl⟩
abbrev main_v165 : Ref sig .tc := ⟨.hbm, 233, rfl⟩
abbrev main_v166 : Ref sig .tc := ⟨.hbm, 234, rfl⟩

abbrev nD : Nat := 1
abbrev τ : Topo := Topo.v7x

variable {F : FTy → Type} [FloatOps F]

class Facts₀ : Prop where
  bcast_S4x128x64x64_S4x128x4x64x64_0_1_3_4 : S4x128x64x64.BroadcastsInDim S4x128x4x64x64 (![0, 1, 3, 4] : Fin 4 → Fin S4x128x4x64x64.rank)
  shapeCasts_S4x128x4x64x64_S4x512x64x64 : S4x128x4x64x64.ShapeCasts S4x512x64x64
  bcast_S512_S1x512x1x1_1 : S512.BroadcastsInDim S1x512x1x1 (![1] : Fin 1 → Fin S1x512x1x1.rank)
  bcast_S1x512x1x1_S4x512x64x64_0_1_2_3 : S1x512x1x1.BroadcastsInDim S4x512x64x64 (![0, 1, 2, 3] : Fin 4 → Fin S4x512x64x64.rank)
  reducesTo_S4x512x64x64_S4_d1_2_3 : S4x512x64x64.ReducesTo [1, 2, 3] S4
  h_S_ : 0 < S_.numel
  bcast_S4_S4x1x1x1_0 : S4.BroadcastsInDim S4x1x1x1 (![0] : Fin 1 → Fin S4x1x1x1.rank)
  bcast_S_S4x1x1x1 : S_.BroadcastsInDim S4x1x1x1 (![] : Fin 0 → Fin S4x1x1x1.rank)
  bcast_S4x1x1x1_S4x512x64x64_0_1_2_3 : S4x1x1x1.BroadcastsInDim S4x512x64x64 (![0, 1, 2, 3] : Fin 4 → Fin S4x512x64x64.rank)
  shapeCasts_S512_S1x512x1x1 : S512.ShapeCasts S1x512x1x1
  bcast_S_S4x512x64x64 : S_.BroadcastsInDim S4x512x64x64 (![] : Fin 0 → Fin S4x512x64x64.rank)
  bcast_S_S256 : S_.BroadcastsInDim S256 (![] : Fin 0 → Fin S256.rank)
  bcast_S256_S256x1_0 : S256.BroadcastsInDim S256x1 (![0] : Fin 1 → Fin S256x1.rank)
  bcast_S4x512x256_S4x512x8x256_0_1_3 : S4x512x256.BroadcastsInDim S4x512x8x256 (![0, 1, 3] : Fin 3 → Fin S4x512x8x256.rank)
  shapeCasts_S4x512x8x256_S4x4096x256 : S4x512x8x256.ShapeCasts S4x4096x256
  bcast_S4096_S1x4096x1_1 : S4096.BroadcastsInDim S1x4096x1 (![1] : Fin 1 → Fin S1x4096x1.rank)
  bcast_S1x4096x1_S4x4096x256_0_1_2 : S1x4096x1.BroadcastsInDim S4x4096x256 (![0, 1, 2] : Fin 3 → Fin S4x4096x256.rank)
  reducesTo_S4x4096x256_S4_d1_2 : S4x4096x256.ReducesTo [1, 2] S4
  bcast_S4_S4x1x1_0 : S4.BroadcastsInDim S4x1x1 (![0] : Fin 1 → Fin S4x1x1.rank)
  bcast_S_S4x1x1 : S_.BroadcastsInDim S4x1x1 (![] : Fin 0 → Fin S4x1x1.rank)
  bcast_S4x1x1_S4x4096x256_0_1_2 : S4x1x1.BroadcastsInDim S4x4096x256 (![0, 1, 2] : Fin 3 → Fin S4x4096x256.rank)
  shapeCasts_S4096_S1x4096x1 : S4096.ShapeCasts S1x4096x1
  shapeCasts_S4x4096x256_S4x512x8x256 : S4x4096x256.ShapeCasts S4x512x8x256
  reducesTo_S4x512x8x256_S4x512x256_d2 : S4x512x8x256.ReducesTo [2] S4x512x256
  bcast_S_S4x512x256 : S_.BroadcastsInDim S4x512x256 (![] : Fin 0 → Fin S4x512x256.rank)
  reducesTo_S4x512x256_S4x512_d2 : S4x512x256.ReducesTo [2] S4x512
  bcast_S_S4x512 : S_.BroadcastsInDim S4x512 (![] : Fin 0 → Fin S4x512.rank)
  bcast_S4x512_S4x512x1_0_1 : S4x512.BroadcastsInDim S4x512x1 (![0, 1] : Fin 2 → Fin S4x512x1.rank)
  bcast_S4x512x1_S4x512x256_0_1_2 : S4x512x1.BroadcastsInDim S4x512x256 (![0, 1, 2] : Fin 3 → Fin S4x512x256.rank)
  bcast_S512_S1x512x1_1 : S512.BroadcastsInDim S1x512x1 (![1] : Fin 1 → Fin S1x512x1.rank)
  bcast_S1x512x1_S4x512x256_0_1_2 : S1x512x1.BroadcastsInDim S4x512x256 (![0, 1, 2] : Fin 3 → Fin S4x512x256.rank)
  reducesTo_S4x512x256_S4_d1_2 : S4x512x256.ReducesTo [1, 2] S4
  bcast_S4x1x1_S4x512x256_0_1_2 : S4x1x1.BroadcastsInDim S4x512x256 (![0, 1, 2] : Fin 3 → Fin S4x512x256.rank)
  shapeCasts_S512_S1x512x1 : S512.ShapeCasts S1x512x1
  bcast_S4x512x256_S4x512x256x1_0_1_2 : S4x512x256.BroadcastsInDim S4x512x256x1 (![0, 1, 2] : Fin 3 → Fin S4x512x256x1.rank)
  bcast_S4x512x256x1_S4x512x256x64_0_1_2_3 : S4x512x256x1.BroadcastsInDim S4x512x256x64 (![0, 1, 2, 3] : Fin 4 → Fin S4x512x256x64.rank)
  reducesTo_S4x512x256x64_S4x512x256_d3 : S4x512x256x64.ReducesTo [3] S4x512x256
  gather_S4x512x64x64_S256x1_S4x512x256x64_013_2_n_n_2_1_4512164_wf : GatherDims.WF S4x512x64x64 S256x1 S4x512x256x64 [0, 1, 3] [2] [] [2] [] 1 ![4, 512, 1, 64]

variable [Facts₀]

def gather_S4x512x64x64_S256x1_S4x512x256x64_013_2_n_n_2_1_4512164 : GatherDims S4x512x64x64 S256x1 S4x512x256x64 where
  offsetDims := [0, 1, 3]
  collapsedSliceDims := [2]
  operandBatchingDims := []
  startIndicesBatchingDims := []
  startIndexMap := [2]
  indexVectorDim := 1
  sliceSizes := ![4, 512, 1, 64]
  wf := gather_S4x512x64x64_S256x1_S4x512x256x64_013_2_n_n_2_1_4512164_wf

class Facts : Prop extends Facts₀ where

variable [Facts]
-- ==== Proof.KTermB.lean ====
/-
  The kernel's body as one function of the eighteen input blocks of a grid point.

  The body makes three passes over the audio block in eight chunks of sixteen audio channels (sixty-four expanded
  channels): the first pass adds up both scaled-and-shifted expansions, the second their squared deviations from the means,
  the third writes the two normalised branches, summed over the frequency axis, into two [512, 64] buffers row chunk by row
  chunk. Both buffers are then repeated four times along time, and the video part combines them with the attention and the
  key. Here each pass is a fold of the pass's printed arithmetic over the eight chunks, and the two buffers are read as
  functions of (row, time).
-/
import proofs.«420707_j90769838834068_3_alg».proof.Proof.Gen.Kernel.Skeleton
import Idealize.ShloMosaic.Lib.ValueIdx

noncomputable section

namespace Cert.Kernel.KTerm

open Idealize.ShloMosaic Idealize.ShloMosaic.ValueIdx Cert.Kernel Cert.Kernel.Gen

variable {F : FTy → Type} [FloatOps F] [Cert.Kernel.Facts]

/-- Chunk k of the audio block: audio channels 16k … 16k + 15. -/
def chA (x0 : Vec F S1x128x64x64 .f32) (k : Fin 8) : Vec F S1x16x64x64 .f32 :=
  fun y => x0 (ix4 (0 : Fin 1) (⟨16 * k.val + (y 1).val, by have := (y 1).isLt; have : (y 1).val < 16 := this; omega⟩ : Fin 128)
    (⟨(y 2).val, (y 2).isLt⟩ : Fin 64) (⟨(y 3).val, (y 3).isLt⟩ : Fin 64))

/-- Chunk k of a per-channel parameter column: rows 64k … 64k + 63. -/
def chP (x : Vec F S512x1 .f32) (k : Fin 8) : Vec F S64x1 .f32 :=
  fun y => x (ix2 (⟨64 * k.val + (y 0).val, by have : (y 0).val < 64 := (y 0).isLt; omega⟩ : Fin 512) (0 : Fin 1))

/-- One chunk of the first pass: both running sums with the chunk's contributions added. -/
def step1 (x0 : Vec F S1x128x64x64 .f32) (x2 x3 x6 x7 : Vec F S512x1 .f32) (k : Fin 8)
    (acc : FVec F S1x1 .f32 × FVec F S1x1 .f32) : FVec F S1x1 .f32 × FVec F S1x1 .f32 :=
  (k0_pay3 acc.1 (chA x0 k) (chP x2 k) (chP x3 k), k0_pay11 acc.2 (k0_pay4 (chA x0 k) (chP x6 k) (chP x7 k)))

/-- The first pass: the two sums over the whole expanded audio. -/
def sums1 (x0 : Vec F S1x128x64x64 .f32) (x2 x3 x6 x7 : Vec F S512x1 .f32) : FVec F S1x1 .f32 × FVec F S1x1 .f32 :=
  Fin.foldl 8 (fun acc k => step1 x0 x2 x3 x6 x7 k acc) (k0_pay10, k0_pay10)

/-- One chunk of the second pass: both running sums of squared deviations with the chunk's contributions added. -/
def step2 (x0 : Vec F S1x128x64x64 .f32) (x2 x3 x6 x7 : Vec F S512x1 .f32) (s : FVec F S1x1 .f32 × FVec F S1x1 .f32)
    (k : Fin 8) (acc : FVec F S1x1 .f32 × FVec F S1x1 .f32) : FVec F S1x1 .f32 × FVec F S1x1 .f32 :=
  (k0_pay14 acc.1 (k0_pay7 (k0_pay12 s.1) (chA x0 k) (chP x2 k) (chP x3 k)),
   k0_pay15 acc.2 (k0_pay6 (k0_pay13 s.2) (chA x0 k) (chP x6 k) (chP x7 k)))

/-- The second pass: the two sums of squared deviations. -/
def sums2 (x0 : Vec F S1x128x64x64 .f32) (x2 x3 x6 x7 : Vec F S512x1 .f32) : FVec F S1x1 .f32 × FVec F S1x1 .f32 :=
  Fin.foldl 8 (fun acc k => step2 x0 x2 x3 x6 x7 (sums1 x0 x2 x3 x6 x7) k acc) (k0_pay10, k0_pay10)

/-- The chunk a row of the two buffers belongs to, and the row inside the chunk. -/
def rowChunk (r : Fin 512) : Fin 8 := ⟨r.val / 64, by omega⟩
def rowIn (r : Fin 512) : Fin 64 := ⟨r.val % 64, by omega⟩

/-- The value-branch buffer after the third pass. -/
def sval (x0 : Vec F S1x128x64x64 .f32) (x2 x3 x4 x5 x6 x7 : Vec F S512x1 .f32) : Vec F S512x64 .f32 :=
  fun y => k0_pay9 (k0_pay12 (sums1 x0 x2 x3 x6 x7).1) (k0_pay16 (sums2 x0 x2 x3 x6 x7).1)
    (chA x0 (rowChunk ⟨(y 0).val, (y 0).isLt⟩)) (chP x2 (rowChunk ⟨(y 0).val, (y 0).isLt⟩)) (chP x3 (rowChunk ⟨(y 0).val, (y 0).isLt⟩))
    (chP x4 (rowChunk ⟨(y 0).val, (y 0).isLt⟩)) (chP x5 (rowChunk ⟨(y 0).val, (y 0).isLt⟩))
    (ix2 (rowIn ⟨(y 0).val, (y 0).isLt⟩) (⟨(y 1).val, (y 1).isLt⟩ : Fin 64))

/-- The gate-branch buffer after the third pass. -/
def sgate (x0 : Vec F S1x128x64x64 .f32) (x2 x3 x6 x7 x8 x9 : Vec F S512x1 .f32) : Vec F S512x64 .f32 :=
  fun y => k0_pay17 (sums1 x0 x2 x3 x6 x7).2 (sums2 x0 x2 x3 x6 x7).2
    (k0_pay8 (chA x0 (rowChunk ⟨(y 0).val, (y 0).isLt⟩))) (chP x6 (rowChunk ⟨(y 0).val, (y 0).isLt⟩)) (chP x7 (rowChunk ⟨(y 0).val, (y 0).isLt⟩))
    (chP x8 (rowChunk ⟨(y 0).val, (y 0).isLt⟩)) (chP x9 (rowChunk ⟨(y 0).val, (y 0).isLt⟩))
    (ix2 (rowIn ⟨(y 0).val, (y 0).isLt⟩) (⟨(y 1).val, (y 1).isLt⟩ : Fin 64))

/-- The body's stored block as a function of the input blocks. -/
def out (x0 : Vec F S1x128x64x64 .f32) (x1 : Vec F S1x512x256 .f32) (x2 x3 x4 x5 x6 x7 x8 x9 : Vec F S512x1 .f32)
    (x10 x11 x12 x13 : Vec F S512x8 .f32) (x14 x15 x16 x17 : Vec F S512x1 .f32) : FVec F S1x512x256 .f32 :=
  k0_pay1 (k0_pay18 (sval x0 x2 x3 x4 x5 x6 x7)) (k0_pay19 (sgate x0 x2 x3 x6 x7 x8 x9)) (k0_pay20 x1)
    (k0_pay25 (k0_pay21 x12) (k0_pay22 x1 x10 x11) (k0_pay23 x1 x10 x11) (k0_pay24 x1 x10 x11) x12 x13)
    (k0_pay26 x14) (k0_pay27 x15) (k0_pay28 x16) x17

end Cert.Kernel.KTerm

end
-- ==== Proof.KTripsB.lean ====
/-
  The kernel's three counted passes read back from the loops' invariants: one trip of each pass, on whole input buffers
  held at given blocks, yields the pass's printed arithmetic on chunk k of the blocks; so the value carried out of the
  first two passes is the fold of that arithmetic over the eight chunks, and the two buffers the third pass fills hold,
  at row 64·k + j, what its arithmetic gives for chunk k at row j.
-/
import proofs.«420707_j90769838834068_3_alg».proof.Proof.Gen.Kernel.Loops
import proofs.«420707_j90769838834068_3_alg».proof.Proof.KTermB
import Idealize.ShloMosaic.Lib.WholeRead
import Idealize.ShloMosaic.Lib.Pipeline.Value

noncomputable section

namespace Cert.Kernel.KTrips

open Idealize.ShloMosaic Idealize.ShloMosaic.TcCoe Idealize.ShloMosaic.Tactic Idealize.ShloMosaic.ValueIdx
open Idealize.SL Idealize.SL.Sem
open Cert.Kernel Cert.Kernel.Gen Cert.Kernel.KTerm

variable {F : FTy → Type} [FloatOps F] [Cert.Kernel.Facts]

/-- The value-branch buffer for given mean-sum and squared-deviation-sum arrays. -/
def svalOf (s1 s2 : FVec F S1x1 .f32) (x0 : Vec F S1x128x64x64 .f32) (x2 x3 x4 x5 : Vec F S512x1 .f32) : Vec F S512x64 .f32 :=
  fun y => k0_pay9 (k0_pay12 s1) (k0_pay16 s2)
    (chA x0 (rowChunk ⟨(y 0).val, (y 0).isLt⟩)) (chP x2 (rowChunk ⟨(y 0).val, (y 0).isLt⟩)) (chP x3 (rowChunk ⟨(y 0).val, (y 0).isLt⟩))
    (chP x4 (rowChunk ⟨(y 0).val, (y 0).isLt⟩)) (chP x5 (rowChunk ⟨(y 0).val, (y 0).isLt⟩))
    (ix2 (rowIn ⟨(y 0).val, (y 0).isLt⟩) (⟨(y 1).val, (y 1).isLt⟩ : Fin 64))

/-- The gate-branch buffer for given mean-sum and squared-deviation-sum arrays. -/
def sgateOf (s1 s2 : FVec F S1x1 .f32) (x0 : Vec F S1x128x64x64 .f32) (x6 x7 x8 x9 : Vec F S512x1 .f32) : Vec F S512x64 .f32 :=
  fun y => k0_pay17 s1 s2
    (k0_pay8 (chA x0 (rowChunk ⟨(y 0).val, (y 0).isLt⟩))) (chP x6 (rowChunk ⟨(y 0).val, (y 0).isLt⟩)) (chP x7 (rowChunk ⟨(y 0).val, (y 0).isLt⟩))
    (chP x8 (rowChunk ⟨(y 0).val, (y 0).isLt⟩)) (chP x9 (rowChunk ⟨(y 0).val, (y 0).isLt⟩))
    (ix2 (rowIn ⟨(y 0).val, (y 0).isLt⟩) (⟨(y 1).val, (y 1).isLt⟩ : Fin 64))

theorem sval_eq (x0 : Vec F S1x128x64x64 .f32) (x2 x3 x4 x5 x6 x7 x8 x9 : Vec F S512x1 .f32) :
    sval x0 x2 x3 x4 x5 x6 x7 = svalOf (sums1 x0 x2 x3 x6 x7).1 (sums2 x0 x2 x3 x6 x7).1 x0 x2 x3 x4 x5 := rfl
theorem sgate_eq (x0 : Vec F S1x128x64x64 .f32) (x2 x3 x4 x5 x6 x7 x8 x9 : Vec F S512x1 .f32) :
    sgate x0 x2 x3 x6 x7 x8 x9 = sgateOf (sums1 x0 x2 x3 x6 x7).2 (sums2 x0 x2 x3 x6 x7).2 x0 x6 x7 x8 x9 := rfl

/-! ## Loads of chunk k through whole buffers -/

/-- A load of sixteen audio channels from channel 16·k, through a whole buffer held at the block x0, reads chunk k. -/
theorem readA {arg : Memref sig .tc .vmem S1x128x64x64 .f32} (harg : arg.IsWhole) (x0 : Vec F S1x128x64x64 .f32) (k : Fin 8)
    {off : Fin 4 → ℕ} (hoff : off = ![0, 16 * k.val, 0, 0]) {inb : ∀ a, off a + S1x16x64x64.size a ≤ S1x128x64x64.size a} :
    View.readAt (Elt F) arg.view (Rect.unit (s := S1x128x64x64) off S1x16x64x64.size inb).toLoadRect (harg.unread x0)
      = chA x0 k := by
  subst hoff
  funext y
  rw [Memref.IsWhole.readAt_unread]
  unfold chA
  congr 1
  funext a
  have h0 : (y 0).val < 1 := (y 0).isLt
  match a with
  | ⟨0, _⟩ => exact Fin.ext (by show 0 + 1 * (y 0).val = 0; omega)
  | ⟨1, _⟩ => exact Fin.ext (by show 16 * k.val + 1 * (y 1).val = 16 * k.val + (y 1).val; omega)
  | ⟨2, _⟩ => exact Fin.ext (by show 0 + 1 * (y 2).val = (y 2).val; omega)
  | ⟨3, _⟩ => exact Fin.ext (by show 0 + 1 * (y 3).val = (y 3).val; omega)

/-- A load of sixty-four rows from row 64·k of a parameter column, through a whole buffer held at the block x, reads
    chunk k. -/
theorem readP {arg : Memref sig .tc .vmem S512x1 .f32} (harg : arg.IsWhole) (x : Vec F S512x1 .f32) (k : Fin 8)
    {off : Fin 2 → ℕ} (hoff : off = ![64 * k.val, 0]) {inb : ∀ a, off a + S64x1.size a ≤ S512x1.size a} :
    View.readAt (Elt F) arg.view (Rect.unit (s := S512x1) off S64x1.size inb).toLoadRect (harg.unread x) = chP x k := by
  subst hoff
  funext y
  rw [Memref.IsWhole.readAt_unread]
  unfold chP
  congr 1
  funext a
  have h1 : (y 1).val < 1 := (y 1).isLt
  match a with
  | ⟨0, _⟩ => exact Fin.ext (by show 64 * k.val + 1 * (y 0).val = 64 * k.val + (y 0).val; omega)
  | ⟨1, _⟩ => exact Fin.ext (by show 0 + 1 * (y 1).val = 0; omega)

/-! ## The two buffers at row 64·k + j -/

/-- The value-branch buffer at an index whose row is 64·k + x₀: the third pass's arithmetic for chunk k at (x₀, x₁). -/
theorem svalOf_apply (s1 s2 : FVec F S1x1 .f32) (x0 : Vec F S1x128x64x64 .f32) (x2 x3 x4 x5 : Vec F S512x1 .f32)
    (Y : S512x64.Idx) (k : Fin 8) (x : S64x64.Idx) (e0 : (Y 0).val = 64 * k.val + (x 0).val) (e1 : (Y 1).val = (x 1).val) :
    svalOf s1 s2 x0 x2 x3 x4 x5 Y
      = k0_pay9 (k0_pay12 s1) (k0_pay16 s2) (chA x0 k) (chP x2 k) (chP x3 k) (chP x4 k) (chP x5 k) x := by
  have hx0 : (x 0).val < 64 := (x 0).isLt
  have hc : rowChunk ⟨(Y 0).val, (Y 0).isLt⟩ = k := Fin.ext (by show (Y 0).val / 64 = k.val; omega)
  have hi : (ix2 (rowIn ⟨(Y 0).val, (Y 0).isLt⟩) (⟨(Y 1).val, (Y 1).isLt⟩ : Fin 64) : S64x64.Idx) = x := by
    funext a
    match a with
    | ⟨0, _⟩ => exact Fin.ext (by show (Y 0).val % 64 = (x 0).val; omega)
    | ⟨1, _⟩ => exact Fin.ext e1
  unfold svalOf
  rw [hc, hi]

/-- The gate-branch buffer likewise. -/
theorem sgateOf_apply (s1 s2 : FVec F S1x1 .f32) (x0 : Vec F S1x128x64x64 .f32) (x6 x7 x8 x9 : Vec F S512x1 .f32)
    (Y : S512x64.Idx) (k : Fin 8) (x : S64x64.Idx) (e0 : (Y 0).val = 64 * k.val + (x 0).val) (e1 : (Y 1).val = (x 1).val) :
    sgateOf s1 s2 x0 x6 x7 x8 x9 Y
      = k0_pay17 s1 s2 (k0_pay8 (chA x0 k)) (chP x6 k) (chP x7 k) (chP x8 k) (chP x9 k) x := by
  have hx0 : (x 0).val < 64 := (x 0).isLt
  have hc : rowChunk ⟨(Y 0).val, (Y 0).isLt⟩ = k := Fin.ext (by show (Y 0).val / 64 = k.val; omega)
  have hi : (ix2 (rowIn ⟨(Y 0).val, (Y 0).isLt⟩) (⟨(Y 1).val, (Y 1).isLt⟩ : Fin 64) : S64x64.Idx) = x := by
    funext a
    match a with
    | ⟨0, _⟩ => exact Fin.ext (by show (Y 0).val % 64 = (x 0).val; omega)
    | ⟨1, _⟩ => exact Fin.ext e1
  unfold sgateOf
  rw [hc, hi]

/-- A trip index as a chunk index. -/
def c8 {n : ℕ} (h : n ≤ 8) (k : Fin n) : Fin 8 := ⟨k.val, Nat.lt_of_lt_of_le k.isLt h⟩

/-- The piece trip k of the third pass writes into the value-branch buffer: rows 64·k … 64·k + 63. -/
def P20 (s1 s2 : FVec F S1x1 .f32) (x0 : Vec F S1x128x64x64 .f32) (x2 x3 x4 x5 : Vec F S512x1 .f32)
    (k : Fin k0_t3_loop.trips) : View.Piece (Elt F) S512x64 .f32 :=
  ⟨Rect.unit (s := S512x64) (k0_off7 k) S64x64.size (Gen.k0_off7_inb k),
    k0_pay9 (k0_pay12 s1) (k0_pay16 s2) (chA x0 (c8 k0_t3_abs.2.1 k)) (chP x2 (c8 k0_t3_abs.2.1 k)) (chP x3 (c8 k0_t3_abs.2.1 k))
      (chP x4 (c8 k0_t3_abs.2.1 k)) (chP x5 (c8 k0_t3_abs.2.1 k))⟩

/-- … and into the gate-branch buffer. -/
def P21 (s1 s2 : FVec F S1x1 .f32) (x0 : Vec F S1x128x64x64 .f32) (x6 x7 x8 x9 : Vec F S512x1 .f32)
    (k : Fin k0_t3_loop.trips) : View.Piece (Elt F) S512x64 .f32 :=
  ⟨Rect.unit (s := S512x64) (k0_off7 k) S64x64.size (Gen.k0_off7_inb k),
    k0_pay17 s1 s2 (k0_pay8 (chA x0 (c8 k0_t3_abs.2.1 k))) (chP x6 (c8 k0_t3_abs.2.1 k)) (chP x7 (c8 k0_t3_abs.2.1 k))
      (chP x8 (c8 k0_t3_abs.2.1 k)) (chP x9 (c8 k0_t3_abs.2.1 k))⟩

/-- Piece k is the block of svalOf at rows 64·k … 64·k + 63. -/
theorem P20_block (s1 s2 : FVec F S1x1 .f32) (x0 : Vec F S1x128x64x64 .f32) (x2 x3 x4 x5 : Vec F S512x1 .f32)
    (k : Fin k0_t3_loop.trips) (x : (P20 s1 s2 x0 x2 x3 x4 x5 k).1.shape.Idx) :
    (P20 s1 s2 x0 x2 x3 x4 x5 k).2 x = svalOf s1 s2 x0 x2 x3 x4 x5 ((P20 s1 s2 x0 x2 x3 x4 x5 k).1.emb x) := by
  have o0 : k0_off7 k 0 = 64 * k.val := congrFun (k0_off7_eq k) 0
  have o1 : k0_off7 k 1 = 0 := congrFun (k0_off7_eq k) 1
  refine (svalOf_apply s1 s2 x0 x2 x3 x4 x5 _ (c8 k0_t3_abs.2.1 k) x ?_ ?_).symm
  · show k0_off7 k 0 + 1 * (x 0).val = 64 * k.val + (x 0).val
    rw [o0]; omega
  · show k0_off7 k 1 + 1 * (x 1).val = (x 1).val
    rw [o1]; omega

theorem P21_block (s1 s2 : FVec F S1x1 .f32) (x0 : Vec F S1x128x64x64 .f32) (x6 x7 x8 x9 : Vec F S512x1 .f32)
    (k : Fin k0_t3_loop.trips) (x : (P21 s1 s2 x0 x6 x7 x8 x9 k).1.shape.Idx) :
    (P21 s1 s2 x0 x6 x7 x8 x9 k).2 x = sgateOf s1 s2 x0 x6 x7 x8 x9 ((P21 s1 s2 x0 x6 x7 x8 x9 k).1.emb x) := by
  have o0 : k0_off7 k 0 = 64 * k.val := congrFun (k0_off7_eq k) 0
  have o1 : k0_off7 k 1 = 0 := congrFun (k0_off7_eq k) 1
  refine (sgateOf_apply s1 s2 x0 x6 x7 x8 x9 _ (c8 k0_t3_abs.2.1 k) x ?_ ?_).symm
  · show k0_off7 k 0 + 1 * (x 0).val = 64 * k.val + (x 0).val
    rw [o0]; omega
  · show k0_off7 k 1 + 1 * (x 1).val = (x 1).val
    rw [o1]; omega

/-- Row y₀ lies in the rectangle of trip ⌊y₀/64⌋. -/
theorem mem_P_set (y : S512x64.Idx) (k : Fin k0_t3_loop.trips) (hk : k.val = (y 0).val / 64) :
    y ∈ (Rect.unit (s := S512x64) (k0_off7 k) S64x64.size (Gen.k0_off7_inb k)).set := by
  have hy1 : (y 1).val < 64 := (y 1).isLt
  rw [Rect.mem_set_unit, k0_off7_eq k]
  intro a
  match a with
  | ⟨0, _⟩ =>
    show 64 * k.val ≤ (y 0).val ∧ (y 0).val < 64 * k.val + 64
    omega
  | ⟨1, _⟩ =>
    show 0 ≤ (y 1).val ∧ (y 1).val < 0 + 64
    omega

/-! ## One trip of each pass, and the recursions -/

section Trips

variable (𝒱 : Variants) (c : Dev nD) (bd : Option 𝒱.V) (i : grid0.Coords) (arg1 : Memref sig .tc .vmem S1x128x64x64 .f32) (harg1 : arg1.IsWhole) (arg2 : Memref sig .tc .vmem S1x512x256 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x8 .f32) (harg11 : arg11.IsWhole) (arg12 : Memref sig .tc .vmem S512x8 .f32) (harg12 : arg12.IsWhole) (arg13 : Memref sig .tc .vmem S512x8 .f32) (harg13 : arg13.IsWhole) (arg14 : Memref sig .tc .vmem S512x8 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S1x512x256 .f32) (harg19 : arg19.IsWhole) (arg20 : Memref sig .tc .vmem S512x64 .f32) (harg20 : arg20.IsWhole) (arg21 : Memref sig .tc .vmem S512x64 .f32) (harg21 : arg21.IsWhole)
  (x0 : Vec F S1x128x64x64 .f32) (x2 x3 x4 x5 x6 x7 x8 x9 : Vec F S512x1 .f32) (v2_0 v2_1 v8_0 v8_1 : FVec F S1x1 .f32)

/-- One trip of the first pass is its arithmetic on chunk k. -/
theorem trip1_eq (k : Fin k0_t1_loop.trips) (acc : FVec F S1x1 .f32 × FVec F S1x1 .f32) :
    tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg1.unread x0) (harg3.unread x2) (harg4.unread x3) (harg7.unread x6) (harg8.unread x7) k acc = step1 x0 x2 x3 x6 x7 (c8 k0_t1_abs.2.1 k) acc := by
  unfold tripR_k0_t1
  unfold trip_k0_t1
  dsimp only
  sl_unfold_run_names
  rw [readA harg1 x0 (c8 k0_t1_abs.2.1 k) (k0_off1_eq k), readP harg3 x2 (c8 k0_t1_abs.2.1 k) (k0_off2_eq k),
    readP harg4 x3 (c8 k0_t1_abs.2.1 k) (k0_off2_eq k), readP harg7 x6 (c8 k0_t1_abs.2.1 k) (k0_off2_eq k),
    readP harg8 x7 (c8 k0_t1_abs.2.1 k) (k0_off2_eq k)]
  rfl

/-- One trip of the second pass is its arithmetic on chunk k. -/
theorem trip2_eq (k : Fin k0_t2_loop.trips) (acc : FVec F S1x1 .f32 × FVec F S1x1 .f32) :
    tripR_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 (harg1.unread x0) (harg3.unread x2) (harg4.unread x3) (harg7.unread x6) (harg8.unread x7) k acc = step2 x0 x2 x3 x6 x7 (v2_0, v2_1) (c8 k0_t2_abs.2.1 k) acc := by
  unfold tripR_k0_t2
  unfold trip_k0_t2
  dsimp only
  sl_unfold_run_names
  rw [readA harg1 x0 (c8 k0_t2_abs.2.1 k) (k0_off3_eq k), readP harg3 x2 (c8 k0_t2_abs.2.1 k) (k0_off4_eq k),
    readP harg4 x3 (c8 k0_t2_abs.2.1 k) (k0_off4_eq k), readP harg7 x6 (c8 k0_t2_abs.2.1 k) (k0_off4_eq k),
    readP harg8 x7 (c8 k0_t2_abs.2.1 k) (k0_off4_eq k)]
  rfl

/-- One trip of the third pass writes one piece into each buffer, whatever the buffers held. -/
theorem trip3_eq (k : Fin k0_t3_loop.trips) (f20 : BufTy.Contents (Elt F) arg20.view.ty) (f21 : BufTy.Contents (Elt F) arg21.view.ty) :
    tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 v8_0 v8_1 (harg1.unread x0) (harg3.unread x2) (harg4.unread x3) (harg5.unread x4) (harg6.unread x5) (harg7.unread x6) (harg8.unread x7) (harg9.unread x8) (harg10.unread x9) k f20 f21
      = ([P20 v2_0 v8_0 x0 x2 x3 x4 x5 k], [P21 v2_1 v8_1 x0 x6 x7 x8 x9 k]) := by
  unfold tripL_k0_t3
  unfold trip_k0_t3
  dsimp only
  sl_unfold_run_names
  rw [readA harg1 x0 (c8 k0_t3_abs.2.1 k) (k0_off5_eq k), readP harg3 x2 (c8 k0_t3_abs.2.1 k) (k0_off6_eq k),
    readP harg4 x3 (c8 k0_t3_abs.2.1 k) (k0_off6_eq k), readP harg5 x4 (c8 k0_t3_abs.2.1 k) (k0_off6_eq k),
    readP harg6 x5 (c8 k0_t3_abs.2.1 k) (k0_off6_eq k), readP harg7 x6 (c8 k0_t3_abs.2.1 k) (k0_off6_eq k),
    readP harg8 x7 (c8 k0_t3_abs.2.1 k) (k0_off6_eq k), readP harg9 x8 (c8 k0_t3_abs.2.1 k) (k0_off6_eq k),
    readP harg10 x9 (c8 k0_t3_abs.2.1 k) (k0_off6_eq k)]
  rfl

/-- The first pass's carried value before trip n is the fold of its arithmetic over the first n chunks. -/
theorem st1_fold (init : FVec F S1x1 .f32 × FVec F S1x1 .f32) (h8 : k0_t1_loop.trips = 8) : ∀ (n : ℕ) (hn : n ≤ 8),
    st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg1.unread x0) (harg3.unread x2) (harg4.unread x3) (harg7.unread x6) (harg8.unread x7) init n
      = Fin.foldl n (fun acc (k : Fin n) => step1 x0 x2 x3 x6 x7 (c8 hn k) acc) init := by
  intro n
  induction n with
  | zero => intro hn; rw [Fin.foldl_zero]; rfl
  | succ n ih =>
    intro hn
    have hlt : n < k0_t1_loop.trips := by omega
    have e : st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg1.unread x0) (harg3.unread x2) (harg4.unread x3) (harg7.unread x6) (harg8.unread x7) init (n + 1) = _ :=
      st_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg1.unread x0) (harg3.unread x2) (harg4.unread x3) (harg7.unread x6) (harg8.unread x7) init ⟨n, hlt⟩
    rw [e, trip1_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 ⟨n, hlt⟩, ih (by omega), Fin.foldl_succ_last]
    rfl

/-- The second pass's carried value before trip n likewise. -/
theorem st2_fold (init : FVec F S1x1 .f32 × FVec F S1x1 .f32) (h8 : k0_t2_loop.trips = 8) : ∀ (n : ℕ) (hn : n ≤ 8),
    st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 (harg1.unread x0) (harg3.unread x2) (harg4.unread x3) (harg7.unread x6) (harg8.unread x7) init n
      = Fin.foldl n (fun acc (k : Fin n) => step2 x0 x2 x3 x6 x7 (v2_0, v2_1) (c8 hn k) acc) init := by
  intro n
  induction n with
  | zero => intro hn; rw [Fin.foldl_zero]; rfl
  | succ n ih =>
    intro hn
    have hlt : n < k0_t2_loop.trips := by omega
    have e : st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 (harg1.unread x0) (harg3.unread x2) (harg4.unread x3) (harg7.unread x6) (harg8.unread x7) init (n + 1) = _ :=
      st_k0_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 (harg1.unread x0) (harg3.unread x2) (harg4.unread x3) (harg7.unread x6) (harg8.unread x7) init ⟨n, hlt⟩
    rw [e, trip2_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 v2_0 v2_1 ⟨n, hlt⟩, ih (by omega), Fin.foldl_succ_last]
    rfl

/-- The pieces of the trips before n in the value-branch buffer are the pieces P20 k, k < n. -/
theorem pb3_mem20 (G20 : BufTy.Contents (Elt F) arg20.view.ty) (G21 : BufTy.Contents (Elt F) arg21.view.ty)
    (h8 : k0_t3_loop.trips = 8) : ∀ (n : ℕ), n ≤ 8 → ∀ pc : View.Piece (Elt F) S512x64 .f32,
    pc ∈ (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 v8_0 v8_1 (harg1.unread x0) (harg3.unread x2) (harg4.unread x3) (harg5.unread x4) (harg6.unread x5) (harg7.unread x6) (harg8.unread x7) (harg9.unread x8) (harg10.unread x9) G20 G21 n).1
      ↔ ∃ k : Fin k0_t3_loop.trips, k.val < n ∧ pc = P20 v2_0 v8_0 x0 x2 x3 x4 x5 k := by
  intro n
  induction n with
  | zero =>
    intro _ pc
    constructor
    · intro h
      have h' : pc ∈ ([] : List (View.Piece (Elt F) S512x64 .f32)) := h
      exact absurd h' List.not_mem_nil
    · rintro ⟨k, hk, _⟩
      exact absurd hk (Nat.not_lt_zero _)
  | succ n ih =>
    intro hn pc
    have hlt : n < k0_t3_loop.trips := by omega
    have e : pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 v8_0 v8_1 (harg1.unread x0) (harg3.unread x2) (harg4.unread x3) (harg5.unread x4) (harg6.unread x5) (harg7.unread x6) (harg8.unread x7) (harg9.unread x8) (harg10.unread x9) G20 G21 (n + 1) = _ :=
      pb_k0_t3_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 v8_0 v8_1 (harg1.unread x0) (harg3.unread x2) (harg4.unread x3) (harg5.unread x4) (harg6.unread x5) (harg7.unread x6) (harg8.unread x7) (harg9.unread x8) (harg10.unread x9) G20 G21 ⟨n, hlt⟩
    rw [e, trip3_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x4 x5 x6 x7 x8 x9 v2_0 v2_1 v8_0 v8_1 ⟨n, hlt⟩]
    show pc ∈ P20 v2_0 v8_0 x0 x2 x3 x4 x5 ⟨n, hlt⟩ :: (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 v8_0 v8_1 (harg1.unread x0) (harg3.unread x2) (harg4.unread x3) (harg5.unread x4) (harg6.unread x5) (harg7.unread x6) (harg8.unread x7) (harg9.unread x8) (harg10.unread x9) G20 G21 n).1 ↔ _
    rw [List.mem_cons, ih (by omega) pc]
    constructor
    · rintro (rfl | ⟨k, hk, rfl⟩)
      · exact ⟨⟨n, hlt⟩, Nat.lt_succ_self n, rfl⟩
      · exact ⟨k, Nat.lt_succ_of_lt hk, rfl⟩
    · rintro ⟨k, hk, rfl⟩
      by_cases hkn : k.val = n
      · left
        have hk' : k = ⟨n, hlt⟩ := Fin.ext hkn
        rw [hk']
      · right
        exact ⟨k, by omega, rfl⟩

/-- … and in the gate-branch buffer the pieces P21 k, k < n. -/
theorem pb3_mem21 (G20 : BufTy.Contents (Elt F) arg20.view.ty) (G21 : BufTy.Contents (Elt F) arg21.view.ty)
    (h8 : k0_t3_loop.trips = 8) : ∀ (n : ℕ), n ≤ 8 → ∀ pc : View.Piece (Elt F) S512x64 .f32,
    pc ∈ (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 v8_0 v8_1 (harg1.unread x0) (harg3.unread x2) (harg4.unread x3) (harg5.unread x4) (harg6.unread x5) (harg7.unread x6) (harg8.unread x7) (harg9.unread x8) (harg10.unread x9) G20 G21 n).2
      ↔ ∃ k : Fin k0_t3_loop.trips, k.val < n ∧ pc = P21 v2_1 v8_1 x0 x6 x7 x8 x9 k := by
  intro n
  induction n with
  | zero =>
    intro _ pc
    constructor
    · intro h
      have h' : pc ∈ ([] : List (View.Piece (Elt F) S512x64 .f32)) := h
      exact absurd h' List.not_mem_nil
    · rintro ⟨k, hk, _⟩
      exact absurd hk (Nat.not_lt_zero _)
  | succ n ih =>
    intro hn pc
    have hlt : n < k0_t3_loop.trips := by omega
    have e : pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 v8_0 v8_1 (harg1.unread x0) (harg3.unread x2) (harg4.unread x3) (harg5.unread x4) (harg6.unread x5) (harg7.unread x6) (harg8.unread x7) (harg9.unread x8) (harg10.unread x9) G20 G21 (n + 1) = _ :=
      pb_k0_t3_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 v8_0 v8_1 (harg1.unread x0) (harg3.unread x2) (harg4.unread x3) (harg5.unread x4) (harg6.unread x5) (harg7.unread x6) (harg8.unread x7) (harg9.unread x8) (harg10.unread x9) G20 G21 ⟨n, hlt⟩
    rw [e, trip3_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x4 x5 x6 x7 x8 x9 v2_0 v2_1 v8_0 v8_1 ⟨n, hlt⟩]
    show pc ∈ P21 v2_1 v8_1 x0 x6 x7 x8 x9 ⟨n, hlt⟩ :: (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 v8_0 v8_1 (harg1.unread x0) (harg3.unread x2) (harg4.unread x3) (harg5.unread x4) (harg6.unread x5) (harg7.unread x6) (harg8.unread x7) (harg9.unread x8) (harg10.unread x9) G20 G21 n).2 ↔ _
    rw [List.mem_cons, ih (by omega) pc]
    constructor
    · rintro (rfl | ⟨k, hk, rfl⟩)
      · exact ⟨⟨n, hlt⟩, Nat.lt_succ_self n, rfl⟩
      · exact ⟨k, Nat.lt_succ_of_lt hk, rfl⟩
    · rintro ⟨k, hk, rfl⟩
      by_cases hkn : k.val = n
      · left
        have hk' : k = ⟨n, hlt⟩ := Fin.ext hkn
        rw [hk']
      · right
        exact ⟨k, by omega, rfl⟩

end Trips

section Cover

variable (𝒱 : Variants) (c : Dev nD) (bd : Option 𝒱.V) (i : grid0.Coords) (arg1 : Memref sig .tc .vmem S1x128x64x64 .f32) (harg1 : arg1.IsWhole) (arg2 : Memref sig .tc .vmem S1x512x256 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x8 .f32) (harg11 : arg11.IsWhole) (arg12 : Memref sig .tc .vmem S512x8 .f32) (harg12 : arg12.IsWhole) (arg13 : Memref sig .tc .vmem S512x8 .f32) (harg13 : arg13.IsWhole) (arg14 : Memref sig .tc .vmem S512x8 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S1x512x256 .f32) (harg19 : arg19.IsWhole) (arg20 : Memref sig .tc .vmem S512x64 .f32) (harg20 : arg20.IsWhole) (arg21 : Memref sig .tc .vmem S512x64 .f32) (harg21 : arg21.IsWhole)
  (x0 : Vec F S1x128x64x64 .f32) (x2 x3 x4 x5 x6 x7 x8 x9 : Vec F S512x1 .f32) (v2_0 v2_1 v8_0 v8_1 : FVec F S1x1 .f32)
  (G20 : BufTy.Contents (Elt F) arg20.view.ty) (G21 : BufTy.Contents (Elt F) arg21.view.ty)

/-- Every index of the value-branch buffer lies in the piece of trip ⌊row/64⌋. -/
theorem cover20_aux (y : S512x64.Idx) :
    ∃ pc ∈ (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 v8_0 v8_1 (harg1.unread x0) (harg3.unread x2) (harg4.unread x3) (harg5.unread x4) (harg6.unread x5) (harg7.unread x6) (harg8.unread x7) (harg9.unread x8) (harg10.unread x9) G20 G21 k0_t3_loop.trips).1, y ∈ pc.1.set := by
  have h8 : k0_t3_loop.trips = 8 := by decide
  have hy0 : (y 0).val < 512 := (y 0).isLt
  obtain ⟨k, hk⟩ : ∃ k : Fin k0_t3_loop.trips, k.val = (y 0).val / 64 := ⟨⟨(y 0).val / 64, by omega⟩, rfl⟩
  exact ⟨P20 v2_0 v8_0 x0 x2 x3 x4 x5 k,
    (pb3_mem20 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x4 x5 x6 x7 x8 x9 v2_0 v2_1 v8_0 v8_1 G20 G21 h8 k0_t3_loop.trips (le_of_eq h8) _).mpr ⟨k, k.isLt, rfl⟩, mem_P_set y k hk⟩

theorem cover21_aux (y : S512x64.Idx) :
    ∃ pc ∈ (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 v8_0 v8_1 (harg1.unread x0) (harg3.unread x2) (harg4.unread x3) (harg5.unread x4) (harg6.unread x5) (harg7.unread x6) (harg8.unread x7) (harg9.unread x8) (harg10.unread x9) G20 G21 k0_t3_loop.trips).2, y ∈ pc.1.set := by
  have h8 : k0_t3_loop.trips = 8 := by decide
  have hy0 : (y 0).val < 512 := (y 0).isLt
  obtain ⟨k, hk⟩ : ∃ k : Fin k0_t3_loop.trips, k.val = (y 0).val / 64 := ⟨⟨(y 0).val / 64, by omega⟩, rfl⟩
  exact ⟨P21 v2_1 v8_1 x0 x6 x7 x8 x9 k,
    (pb3_mem21 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x4 x5 x6 x7 x8 x9 v2_0 v2_1 v8_0 v8_1 G20 G21 h8 k0_t3_loop.trips (le_of_eq h8) _).mpr ⟨k, k.isLt, rfl⟩, mem_P_set y k hk⟩

/-- The pieces are all blocks of svalOf and cover the buffer, so read back they are svalOf. -/
theorem canon20_aux :
    View.canon (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 v8_0 v8_1 (harg1.unread x0) (harg3.unread x2) (harg4.unread x3) (harg5.unread x4) (harg6.unread x5) (harg7.unread x6) (harg8.unread x7) (harg9.unread x8) (harg10.unread x9) G20 G21 k0_t3_loop.trips).1
      = svalOf v2_0 v8_0 x0 x2 x3 x4 x5 := by
  have h8 : k0_t3_loop.trips = 8 := by decide
  funext y
  refine View.canon_apply_of_pieces (svalOf v2_0 v8_0 x0 x2 x3 x4 x5) _ ?_ y
    (cover20_aux 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x4 x5 x6 x7 x8 x9 v2_0 v2_1 v8_0 v8_1 G20 G21 y)
  intro p hp x
  obtain ⟨k, -, rfl⟩ := (pb3_mem20 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x4 x5 x6 x7 x8 x9 v2_0 v2_1 v8_0 v8_1 G20 G21 h8 _ (le_of_eq h8) p).mp hp
  exact P20_block v2_0 v8_0 x0 x2 x3 x4 x5 k x

theorem canon21_aux :
    View.canon (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 v8_0 v8_1 (harg1.unread x0) (harg3.unread x2) (harg4.unread x3) (harg5.unread x4) (harg6.unread x5) (harg7.unread x6) (harg8.unread x7) (harg9.unread x8) (harg10.unread x9) G20 G21 k0_t3_loop.trips).2
      = sgateOf v2_1 v8_1 x0 x6 x7 x8 x9 := by
  have h8 : k0_t3_loop.trips = 8 := by decide
  funext y
  refine View.canon_apply_of_pieces (sgateOf v2_1 v8_1 x0 x6 x7 x8 x9) _ ?_ y
    (cover21_aux 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x4 x5 x6 x7 x8 x9 v2_0 v2_1 v8_0 v8_1 G20 G21 y)
  intro p hp x
  obtain ⟨k, -, rfl⟩ := (pb3_mem21 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x4 x5 x6 x7 x8 x9 v2_0 v2_1 v8_0 v8_1 G20 G21 h8 _ (le_of_eq h8) p).mp hp
  exact P21_block v2_1 v8_1 x0 x6 x7 x8 x9 k x

end Cover

/-- The first pass's carried value after its eight trips is the fold of its arithmetic over the chunks. -/
theorem st1_eq (𝒱 : Variants) (c : Dev nD) (bd : Option 𝒱.V) (i : grid0.Coords) (arg1 : Memref sig .tc .vmem S1x128x64x64 .f32) (harg1 : arg1.IsWhole) (arg2 : Memref sig .tc .vmem S1x512x256 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x8 .f32) (harg11 : arg11.IsWhole) (arg12 : Memref sig .tc .vmem S512x8 .f32) (harg12 : arg12.IsWhole) (arg13 : Memref sig .tc .vmem S512x8 .f32) (harg13 : arg13.IsWhole) (arg14 : Memref sig .tc .vmem S512x8 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S1x512x256 .f32) (harg19 : arg19.IsWhole) (arg20 : Memref sig .tc .vmem S512x64 .f32) (harg20 : arg20.IsWhole) (arg21 : Memref sig .tc .vmem S512x64 .f32) (harg21 : arg21.IsWhole) (x0 : Vec F S1x128x64x64 .f32) (x2 x3 x4 x5 x6 x7 x8 x9 : Vec F S512x1 .f32) (init : FVec F S1x1 .f32 × FVec F S1x1 .f32) :
    st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg1.unread x0) (harg3.unread x2) (harg4.unread x3) (harg7.unread x6) (harg8.unread x7) init k0_t1_loop.trips
      = Fin.foldl 8 (fun acc k => step1 x0 x2 x3 x6 x7 k acc) init := by
  have h8 : k0_t1_loop.trips = 8 := by decide
  rw [h8]
  exact st1_fold 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 init h8 8 le_rfl

/-- The second pass's carried value after its eight trips, for whatever the first pass left. -/
theorem st2_eq (𝒱 : Variants) (c : Dev nD) (bd : Option 𝒱.V) (i : grid0.Coords) (arg1 : Memref sig .tc .vmem S1x128x64x64 .f32) (harg1 : arg1.IsWhole) (arg2 : Memref sig .tc .vmem S1x512x256 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x8 .f32) (harg11 : arg11.IsWhole) (arg12 : Memref sig .tc .vmem S512x8 .f32) (harg12 : arg12.IsWhole) (arg13 : Memref sig .tc .vmem S512x8 .f32) (harg13 : arg13.IsWhole) (arg14 : Memref sig .tc .vmem S512x8 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S1x512x256 .f32) (harg19 : arg19.IsWhole) (arg20 : Memref sig .tc .vmem S512x64 .f32) (harg20 : arg20.IsWhole) (arg21 : Memref sig .tc .vmem S512x64 .f32) (harg21 : arg21.IsWhole) (v2_0 v2_1 : FVec F S1x1 .f32) (x0 : Vec F S1x128x64x64 .f32) (x2 x3 x4 x5 x6 x7 x8 x9 : Vec F S512x1 .f32) (init : FVec F S1x1 .f32 × FVec F S1x1 .f32) :
    st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 (harg1.unread x0) (harg3.unread x2) (harg4.unread x3) (harg7.unread x6) (harg8.unread x7) init k0_t2_loop.trips
      = Fin.foldl 8 (fun acc k => step2 x0 x2 x3 x6 x7 (v2_0, v2_1) k acc) init := by
  have h8 : k0_t2_loop.trips = 8 := by decide
  rw [h8]
  exact st2_fold 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 v2_0 v2_1 init h8 8 le_rfl

/-- The pieces the third pass's eight trips write into the value-branch buffer, read back, are the buffer svalOf. -/
theorem pb3_canon20 (𝒱 : Variants) (c : Dev nD) (bd : Option 𝒱.V) (i : grid0.Coords) (arg1 : Memref sig .tc .vmem S1x128x64x64 .f32) (harg1 : arg1.IsWhole) (arg2 : Memref sig .tc .vmem S1x512x256 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x8 .f32) (harg11 : arg11.IsWhole) (arg12 : Memref sig .tc .vmem S512x8 .f32) (harg12 : arg12.IsWhole) (arg13 : Memref sig .tc .vmem S512x8 .f32) (harg13 : arg13.IsWhole) (arg14 : Memref sig .tc .vmem S512x8 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S1x512x256 .f32) (harg19 : arg19.IsWhole) (arg20 : Memref sig .tc .vmem S512x64 .f32) (harg20 : arg20.IsWhole) (arg21 : Memref sig .tc .vmem S512x64 .f32) (harg21 : arg21.IsWhole) (v2_0 v2_1 v8_0 v8_1 : FVec F S1x1 .f32) (x0 : Vec F S1x128x64x64 .f32) (x2 x3 x4 x5 x6 x7 x8 x9 : Vec F S512x1 .f32)
    (G20 : BufTy.Contents (Elt F) arg20.view.ty) (G21 : BufTy.Contents (Elt F) arg21.view.ty) :
    View.canon (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 v8_0 v8_1 (harg1.unread x0) (harg3.unread x2) (harg4.unread x3) (harg5.unread x4) (harg6.unread x5) (harg7.unread x6) (harg8.unread x7) (harg9.unread x8) (harg10.unread x9) G20 G21 k0_t3_loop.trips).1
      = svalOf v2_0 v8_0 x0 x2 x3 x4 x5 := by
  exact canon20_aux 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x4 x5 x6 x7 x8 x9 v2_0 v2_1 v8_0 v8_1 G20 G21

/-- … and into the gate-branch buffer, the buffer sgateOf. -/
theorem pb3_canon21 (𝒱 : Variants) (c : Dev nD) (bd : Option 𝒱.V) (i : grid0.Coords) (arg1 : Memref sig .tc .vmem S1x128x64x64 .f32) (harg1 : arg1.IsWhole) (arg2 : Memref sig .tc .vmem S1x512x256 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x8 .f32) (harg11 : arg11.IsWhole) (arg12 : Memref sig .tc .vmem S512x8 .f32) (harg12 : arg12.IsWhole) (arg13 : Memref sig .tc .vmem S512x8 .f32) (harg13 : arg13.IsWhole) (arg14 : Memref sig .tc .vmem S512x8 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S1x512x256 .f32) (harg19 : arg19.IsWhole) (arg20 : Memref sig .tc .vmem S512x64 .f32) (harg20 : arg20.IsWhole) (arg21 : Memref sig .tc .vmem S512x64 .f32) (harg21 : arg21.IsWhole) (v2_0 v2_1 v8_0 v8_1 : FVec F S1x1 .f32) (x0 : Vec F S1x128x64x64 .f32) (x2 x3 x4 x5 x6 x7 x8 x9 : Vec F S512x1 .f32)
    (G20 : BufTy.Contents (Elt F) arg20.view.ty) (G21 : BufTy.Contents (Elt F) arg21.view.ty) :
    View.canon (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 v8_0 v8_1 (harg1.unread x0) (harg3.unread x2) (harg4.unread x3) (harg5.unread x4) (harg6.unread x5) (harg7.unread x6) (harg8.unread x7) (harg9.unread x8) (harg10.unread x9) G20 G21 k0_t3_loop.trips).2
      = sgateOf v2_1 v8_1 x0 x6 x7 x8 x9 := by
  exact canon21_aux 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x4 x5 x6 x7 x8 x9 v2_0 v2_1 v8_0 v8_1 G20 G21

/-- The third pass's pieces cover the value-branch buffer … -/
theorem pb3_cover20 (𝒱 : Variants) (c : Dev nD) (bd : Option 𝒱.V) (i : grid0.Coords) (arg1 : Memref sig .tc .vmem S1x128x64x64 .f32) (harg1 : arg1.IsWhole) (arg2 : Memref sig .tc .vmem S1x512x256 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x8 .f32) (harg11 : arg11.IsWhole) (arg12 : Memref sig .tc .vmem S512x8 .f32) (harg12 : arg12.IsWhole) (arg13 : Memref sig .tc .vmem S512x8 .f32) (harg13 : arg13.IsWhole) (arg14 : Memref sig .tc .vmem S512x8 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S1x512x256 .f32) (harg19 : arg19.IsWhole) (arg20 : Memref sig .tc .vmem S512x64 .f32) (harg20 : arg20.IsWhole) (arg21 : Memref sig .tc .vmem S512x64 .f32) (harg21 : arg21.IsWhole) (v2_0 v2_1 v8_0 v8_1 : FVec F S1x1 .f32) (x0 : Vec F S1x128x64x64 .f32) (x2 x3 x4 x5 x6 x7 x8 x9 : Vec F S512x1 .f32)
    (G20 : BufTy.Contents (Elt F) arg20.view.ty) (G21 : BufTy.Contents (Elt F) arg21.view.ty) (y : S512x64.Idx) :
    ∃ pc ∈ (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 v8_0 v8_1 (harg1.unread x0) (harg3.unread x2) (harg4.unread x3) (harg5.unread x4) (harg6.unread x5) (harg7.unread x6) (harg8.unread x7) (harg9.unread x8) (harg10.unread x9) G20 G21 k0_t3_loop.trips).1, y ∈ pc.1.set := by
  exact cover20_aux 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x4 x5 x6 x7 x8 x9 v2_0 v2_1 v8_0 v8_1 G20 G21 y

/-- … and the gate-branch buffer. -/
theorem pb3_cover21 (𝒱 : Variants) (c : Dev nD) (bd : Option 𝒱.V) (i : grid0.Coords) (arg1 : Memref sig .tc .vmem S1x128x64x64 .f32) (harg1 : arg1.IsWhole) (arg2 : Memref sig .tc .vmem S1x512x256 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x8 .f32) (harg11 : arg11.IsWhole) (arg12 : Memref sig .tc .vmem S512x8 .f32) (harg12 : arg12.IsWhole) (arg13 : Memref sig .tc .vmem S512x8 .f32) (harg13 : arg13.IsWhole) (arg14 : Memref sig .tc .vmem S512x8 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S1x512x256 .f32) (harg19 : arg19.IsWhole) (arg20 : Memref sig .tc .vmem S512x64 .f32) (harg20 : arg20.IsWhole) (arg21 : Memref sig .tc .vmem S512x64 .f32) (harg21 : arg21.IsWhole) (v2_0 v2_1 v8_0 v8_1 : FVec F S1x1 .f32) (x0 : Vec F S1x128x64x64 .f32) (x2 x3 x4 x5 x6 x7 x8 x9 : Vec F S512x1 .f32)
    (G20 : BufTy.Contents (Elt F) arg20.view.ty) (G21 : BufTy.Contents (Elt F) arg21.view.ty) (y : S512x64.Idx) :
    ∃ pc ∈ (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 v8_0 v8_1 (harg1.unread x0) (harg3.unread x2) (harg4.unread x3) (harg5.unread x4) (harg6.unread x5) (harg7.unread x6) (harg8.unread x7) (harg9.unread x8) (harg10.unread x9) G20 G21 k0_t3_loop.trips).2, y ∈ pc.1.set := by
  exact cover21_aux 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x4 x5 x6 x7 x8 x9 v2_0 v2_1 v8_0 v8_1 G20 G21 y

end Cert.Kernel.KTrips

end
-- ==== Proof.KScratchB.lean ====
/-
  The two buffers the third pass fills, loaded whole after the pass: whatever the buffers held before, the load reads the
  pass's arithmetic chunk by chunk — the eight trips' pieces cover the buffer, so the earlier contents do not show.
-/
import proofs.«420707_j90769838834068_3_alg».proof.Proof.KTripsB
import Idealize.ShloMosaic.Lib.Pipeline.FrameBody

noncomputable section

namespace Cert.Kernel.KScratch

open Idealize.ShloMosaic Idealize.ShloMosaic.TcCoe Idealize.ShloMosaic.ValueIdx
open Idealize.SL Idealize.SL.Sem
open Cert.Kernel Cert.Kernel.Gen Cert.Kernel.KTerm Cert.Kernel.KTrips

variable {F : FTy → Type} [FloatOps F] [Cert.Kernel.Facts]

theorem hz2 : (![0, 0] : Fin 2 → Nat) = fun _ => 0 := funext fun a => by fin_cases a <;> rfl

/-- The whole-buffer load of the value-branch buffer after the third pass. -/
theorem readAt20 (𝒱 : Variants) (c : Dev nD) (bd : Option 𝒱.V) (i : grid0.Coords) (arg1 : Memref sig .tc .vmem S1x128x64x64 .f32) (harg1 : arg1.IsWhole) (arg2 : Memref sig .tc .vmem S1x512x256 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x8 .f32) (harg11 : arg11.IsWhole) (arg12 : Memref sig .tc .vmem S512x8 .f32) (harg12 : arg12.IsWhole) (arg13 : Memref sig .tc .vmem S512x8 .f32) (harg13 : arg13.IsWhole) (arg14 : Memref sig .tc .vmem S512x8 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S1x512x256 .f32) (harg19 : arg19.IsWhole) (arg20 : Memref sig .tc .vmem S512x64 .f32) (harg20 : arg20.IsWhole) (arg21 : Memref sig .tc .vmem S512x64 .f32) (harg21 : arg21.IsWhole) (v2_0 v2_1 v8_0 v8_1 : FVec F S1x1 .f32) (x0 : Vec F S1x128x64x64 .f32) (x2 x3 x4 x5 x6 x7 x8 x9 : Vec F S512x1 .f32)
    (G20 : BufTy.Contents (Elt F) arg20.view.ty) (G21 : BufTy.Contents (Elt F) arg21.view.ty) (n : ℕ) (hn : n = k0_t3_loop.trips)
    (inb : ∀ a, (![0, 0] : Fin 2 → Nat) a + S512x64.size a ≤ S512x64.size a) :
    View.readAt (Elt F) arg20.view (Rect.unit ![0, 0] S512x64.size inb).toLoadRect
        (arg20.view.writes (Elt F) G20 (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 v8_0 v8_1 (harg1.unread x0) (harg3.unread x2) (harg4.unread x3) (harg5.unread x4) (harg6.unread x5) (harg7.unread x6) (harg8.unread x7) (harg9.unread x8) (harg10.unread x9) G20 G21 n).1)
      = svalOf v2_0 v8_0 x0 x2 x3 x4 x5 := by
  subst hn
  rw [View.readAt_eq_ld, View.read_writes_eq_canon _ _ _ (pb3_cover20 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 v8_0 v8_1 x0 x2 x3 x4 x5 x6 x7 x8 x9 G20 G21),
    pb3_canon20, View.ld_unit_zero hz2]

/-- The whole-buffer load of the gate-branch buffer after the third pass. -/
theorem readAt21 (𝒱 : Variants) (c : Dev nD) (bd : Option 𝒱.V) (i : grid0.Coords) (arg1 : Memref sig .tc .vmem S1x128x64x64 .f32) (harg1 : arg1.IsWhole) (arg2 : Memref sig .tc .vmem S1x512x256 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x8 .f32) (harg11 : arg11.IsWhole) (arg12 : Memref sig .tc .vmem S512x8 .f32) (harg12 : arg12.IsWhole) (arg13 : Memref sig .tc .vmem S512x8 .f32) (harg13 : arg13.IsWhole) (arg14 : Memref sig .tc .vmem S512x8 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S1x512x256 .f32) (harg19 : arg19.IsWhole) (arg20 : Memref sig .tc .vmem S512x64 .f32) (harg20 : arg20.IsWhole) (arg21 : Memref sig .tc .vmem S512x64 .f32) (harg21 : arg21.IsWhole) (v2_0 v2_1 v8_0 v8_1 : FVec F S1x1 .f32) (x0 : Vec F S1x128x64x64 .f32) (x2 x3 x4 x5 x6 x7 x8 x9 : Vec F S512x1 .f32)
    (G20 : BufTy.Contents (Elt F) arg20.view.ty) (G21 : BufTy.Contents (Elt F) arg21.view.ty) (n : ℕ) (hn : n = k0_t3_loop.trips)
    (inb : ∀ a, (![0, 0] : Fin 2 → Nat) a + S512x64.size a ≤ S512x64.size a) :
    View.readAt (Elt F) arg21.view (Rect.unit ![0, 0] S512x64.size inb).toLoadRect
        (arg21.view.writes (Elt F) G21 (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 v8_0 v8_1 (harg1.unread x0) (harg3.unread x2) (harg4.unread x3) (harg5.unread x4) (harg6.unread x5) (harg7.unread x6) (harg8.unread x7) (harg9.unread x8) (harg10.unread x9) G20 G21 n).2)
      = sgateOf v2_1 v8_1 x0 x6 x7 x8 x9 := by
  subst hn
  rw [View.readAt_eq_ld, View.read_writes_eq_canon _ _ _ (pb3_cover21 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 v8_0 v8_1 x0 x2 x3 x4 x5 x6 x7 x8 x9 G20 G21),
    pb3_canon21, View.ld_unit_zero hz2]

end Cert.Kernel.KScratch

end
-- ==== Proof.KTerm.lean ====
/-
  The kernel's body as one function of the eighteen input blocks of a grid point.

  The body makes three passes over the audio block in eight chunks of sixteen audio channels (sixty-four expanded
  channels): the first pass adds up both scaled-and-shifted expansions, the second their squared deviations from the means,
  the third writes the two normalised branches, summed over the frequency axis, into two [512, 64] buffers row chunk by row
  chunk. Both buffers are then repeated four times along time, and the video part combines them with the attention and the
  key. Here each pass is a fold of the pass's printed arithmetic over the eight chunks, and the two buffers are read as
  functions of (row, time).
-/
import proofs.«420707_j90769838834068_3_alg».proof.Proof.Gen.KernelIdeal.Skeleton
import Idealize.ShloMosaic.Lib.ValueIdx

noncomputable section

namespace Cert.KernelIdeal.KTerm

open Idealize.ShloMosaic Idealize.ShloMosaic.ValueIdx Cert.KernelIdeal Cert.KernelIdeal.Gen

variable {F : FTy → Type} [FloatOps F] [Cert.KernelIdeal.Facts]

/-- Chunk k of the audio block: audio channels 16k … 16k + 15. -/
def chA (x0 : Vec F S1x128x64x64 .f32) (k : Fin 8) : Vec F S1x16x64x64 .f32 :=
  fun y => x0 (ix4 (0 : Fin 1) (⟨16 * k.val + (y 1).val, by have := (y 1).isLt; have : (y 1).val < 16 := this; omega⟩ : Fin 128)
    (⟨(y 2).val, (y 2).isLt⟩ : Fin 64) (⟨(y 3).val, (y 3).isLt⟩ : Fin 64))

/-- Chunk k of a per-channel parameter column: rows 64k … 64k + 63. -/
def chP (x : Vec F S512x1 .f32) (k : Fin 8) : Vec F S64x1 .f32 :=
  fun y => x (ix2 (⟨64 * k.val + (y 0).val, by have : (y 0).val < 64 := (y 0).isLt; omega⟩ : Fin 512) (0 : Fin 1))

/-- One chunk of the first pass: both running sums with the chunk's contributions added. -/
def step1 (x0 : Vec F S1x128x64x64 .f32) (x2 x3 x6 x7 : Vec F S512x1 .f32) (k : Fin 8)
    (acc : FVec F S1x1 .f32 × FVec F S1x1 .f32) : FVec F S1x1 .f32 × FVec F S1x1 .f32 :=
  (k0_pay3 acc.1 (chA x0 k) (chP x2 k) (chP x3 k), k0_pay11 acc.2 (k0_pay4 (chA x0 k) (chP x6 k) (chP x7 k)))

/-- The first pass: the two sums over the whole expanded audio. -/
def sums1 (x0 : Vec F S1x128x64x64 .f32) (x2 x3 x6 x7 : Vec F S512x1 .f32) : FVec F S1x1 .f32 × FVec F S1x1 .f32 :=
  Fin.foldl 8 (fun acc k => step1 x0 x2 x3 x6 x7 k acc) (k0_pay10, k0_pay10)

/-- One chunk of the second pass: both running sums of squared deviations with the chunk's contributions added. -/
def step2 (x0 : Vec F S1x128x64x64 .f32) (x2 x3 x6 x7 : Vec F S512x1 .f32) (s : FVec F S1x1 .f32 × FVec F S1x1 .f32)
    (k : Fin 8) (acc : FVec F S1x1 .f32 × FVec F S1x1 .f32) : FVec F S1x1 .f32 × FVec F S1x1 .f32 :=
  (k0_pay14 acc.1 (k0_pay7 (k0_pay12 s.1) (chA x0 k) (chP x2 k) (chP x3 k)),
   k0_pay15 acc.2 (k0_pay6 (k0_pay13 s.2) (chA x0 k) (chP x6 k) (chP x7 k)))

/-- The second pass: the two sums of squared deviations. -/
def sums2 (x0 : Vec F S1x128x64x64 .f32) (x2 x3 x6 x7 : Vec F S512x1 .f32) : FVec F S1x1 .f32 × FVec F S1x1 .f32 :=
  Fin.foldl 8 (fun acc k => step2 x0 x2 x3 x6 x7 (sums1 x0 x2 x3 x6 x7) k acc) (k0_pay10, k0_pay10)

/-- The chunk a row of the two buffers belongs to, and the row inside the chunk. -/
def rowChunk (r : Fin 512) : Fin 8 := ⟨r.val / 64, by omega⟩
def rowIn (r : Fin 512) : Fin 64 := ⟨r.val % 64, by omega⟩

/-- The value-branch buffer after the third pass. -/
def sval (x0 : Vec F S1x128x64x64 .f32) (x2 x3 x4 x5 x6 x7 : Vec F S512x1 .f32) : Vec F S512x64 .f32 :=
  fun y => k0_pay9 (k0_pay12 (sums1 x0 x2 x3 x6 x7).1) (k0_pay16 (sums2 x0 x2 x3 x6 x7).1)
    (chA x0 (rowChunk ⟨(y 0).val, (y 0).isLt⟩)) (chP x2 (rowChunk ⟨(y 0).val, (y 0).isLt⟩)) (chP x3 (rowChunk ⟨(y 0).val, (y 0).isLt⟩))
    (chP x4 (rowChunk ⟨(y 0).val, (y 0).isLt⟩)) (chP x5 (rowChunk ⟨(y 0).val, (y 0).isLt⟩))
    (ix2 (rowIn ⟨(y 0).val, (y 0).isLt⟩) (⟨(y 1).val, (y 1).isLt⟩ : Fin 64))

/-- The gate-branch buffer after the third pass. -/
def sgate (x0 : Vec F S1x128x64x64 .f32) (x2 x3 x6 x7 x8 x9 : Vec F S512x1 .f32) : Vec F S512x64 .f32 :=
  fun y => k0_pay17 (sums1 x0 x2 x3 x6 x7).2 (sums2 x0 x2 x3 x6 x7).2
    (k0_pay8 (chA x0 (rowChunk ⟨(y 0).val, (y 0).isLt⟩))) (chP x6 (rowChunk ⟨(y 0).val, (y 0).isLt⟩)) (chP x7 (rowChunk ⟨(y 0).val, (y 0).isLt⟩))
    (chP x8 (rowChunk ⟨(y 0).val, (y 0).isLt⟩)) (chP x9 (rowChunk ⟨(y 0).val, (y 0).isLt⟩))
    (ix2 (rowIn ⟨(y 0).val, (y 0).isLt⟩) (⟨(y 1).val, (y 1).isLt⟩ : Fin 64))

/-- The body's stored block as a function of the input blocks. -/
def out (x0 : Vec F S1x128x64x64 .f32) (x1 : Vec F S1x512x256 .f32) (x2 x3 x4 x5 x6 x7 x8 x9 : Vec F S512x1 .f32)
    (x10 x11 x12 x13 : Vec F S512x8 .f32) (x14 x15 x16 x17 : Vec F S512x1 .f32) : FVec F S1x512x256 .f32 :=
  k0_pay1 (k0_pay18 (sval x0 x2 x3 x4 x5 x6 x7)) (k0_pay19 (sgate x0 x2 x3 x6 x7 x8 x9)) (k0_pay20 x1)
    (k0_pay25 (k0_pay21 x12) (k0_pay22 x1 x10 x11) (k0_pay23 x1 x10 x11) (k0_pay24 x1 x10 x11) x12 x13)
    (k0_pay26 x14) (k0_pay27 x15) (k0_pay28 x16) x17

end Cert.KernelIdeal.KTerm

end
-- ==== Proof.KTrips.lean ====
/-
  The kernel's three counted passes read back from the loops' invariants: one trip of each pass, on whole input buffers
  held at given blocks, yields the pass's printed arithmetic on chunk k of the blocks; so the value carried out of the
  first two passes is the fold of that arithmetic over the eight chunks, and the two buffers the third pass fills hold,
  at row 64·k + j, what its arithmetic gives for chunk k at row j.
-/
import proofs.«420707_j90769838834068_3_alg».proof.Proof.Gen.KernelIdeal.Loops
import proofs.«420707_j90769838834068_3_alg».proof.Proof.KTerm
import Idealize.ShloMosaic.Lib.WholeRead
import Idealize.ShloMosaic.Lib.Pipeline.Value

noncomputable section

namespace Cert.KernelIdeal.KTrips

open Idealize.ShloMosaic Idealize.ShloMosaic.TcCoe Idealize.ShloMosaic.Tactic Idealize.ShloMosaic.ValueIdx
open Idealize.SL Idealize.SL.Sem
open Cert.KernelIdeal Cert.KernelIdeal.Gen Cert.KernelIdeal.KTerm

variable {F : FTy → Type} [FloatOps F] [Cert.KernelIdeal.Facts]

/-- The value-branch buffer for given mean-sum and squared-deviation-sum arrays. -/
def svalOf (s1 s2 : FVec F S1x1 .f32) (x0 : Vec F S1x128x64x64 .f32) (x2 x3 x4 x5 : Vec F S512x1 .f32) : Vec F S512x64 .f32 :=
  fun y => k0_pay9 (k0_pay12 s1) (k0_pay16 s2)
    (chA x0 (rowChunk ⟨(y 0).val, (y 0).isLt⟩)) (chP x2 (rowChunk ⟨(y 0).val, (y 0).isLt⟩)) (chP x3 (rowChunk ⟨(y 0).val, (y 0).isLt⟩))
    (chP x4 (rowChunk ⟨(y 0).val, (y 0).isLt⟩)) (chP x5 (rowChunk ⟨(y 0).val, (y 0).isLt⟩))
    (ix2 (rowIn ⟨(y 0).val, (y 0).isLt⟩) (⟨(y 1).val, (y 1).isLt⟩ : Fin 64))

/-- The gate-branch buffer for given mean-sum and squared-deviation-sum arrays. -/
def sgateOf (s1 s2 : FVec F S1x1 .f32) (x0 : Vec F S1x128x64x64 .f32) (x6 x7 x8 x9 : Vec F S512x1 .f32) : Vec F S512x64 .f32 :=
  fun y => k0_pay17 s1 s2
    (k0_pay8 (chA x0 (rowChunk ⟨(y 0).val, (y 0).isLt⟩))) (chP x6 (rowChunk ⟨(y 0).val, (y 0).isLt⟩)) (chP x7 (rowChunk ⟨(y 0).val, (y 0).isLt⟩))
    (chP x8 (rowChunk ⟨(y 0).val, (y 0).isLt⟩)) (chP x9 (rowChunk ⟨(y 0).val, (y 0).isLt⟩))
    (ix2 (rowIn ⟨(y 0).val, (y 0).isLt⟩) (⟨(y 1).val, (y 1).isLt⟩ : Fin 64))

theorem sval_eq (x0 : Vec F S1x128x64x64 .f32) (x2 x3 x4 x5 x6 x7 x8 x9 : Vec F S512x1 .f32) :
    sval x0 x2 x3 x4 x5 x6 x7 = svalOf (sums1 x0 x2 x3 x6 x7).1 (sums2 x0 x2 x3 x6 x7).1 x0 x2 x3 x4 x5 := rfl
theorem sgate_eq (x0 : Vec F S1x128x64x64 .f32) (x2 x3 x4 x5 x6 x7 x8 x9 : Vec F S512x1 .f32) :
    sgate x0 x2 x3 x6 x7 x8 x9 = sgateOf (sums1 x0 x2 x3 x6 x7).2 (sums2 x0 x2 x3 x6 x7).2 x0 x6 x7 x8 x9 := rfl

/-! ## Loads of chunk k through whole buffers -/

/-- A load of sixteen audio channels from channel 16·k, through a whole buffer held at the block x0, reads chunk k. -/
theorem readA {arg : Memref sig .tc .vmem S1x128x64x64 .f32} (harg : arg.IsWhole) (x0 : Vec F S1x128x64x64 .f32) (k : Fin 8)
    {off : Fin 4 → ℕ} (hoff : off = ![0, 16 * k.val, 0, 0]) {inb : ∀ a, off a + S1x16x64x64.size a ≤ S1x128x64x64.size a} :
    View.readAt (Elt F) arg.view (Rect.unit (s := S1x128x64x64) off S1x16x64x64.size inb).toLoadRect (harg.unread x0)
      = chA x0 k := by
  subst hoff
  funext y
  rw [Memref.IsWhole.readAt_unread]
  unfold chA
  congr 1
  funext a
  have h0 : (y 0).val < 1 := (y 0).isLt
  match a with
  | ⟨0, _⟩ => exact Fin.ext (by show 0 + 1 * (y 0).val = 0; omega)
  | ⟨1, _⟩ => exact Fin.ext (by show 16 * k.val + 1 * (y 1).val = 16 * k.val + (y 1).val; omega)
  | ⟨2, _⟩ => exact Fin.ext (by show 0 + 1 * (y 2).val = (y 2).val; omega)
  | ⟨3, _⟩ => exact Fin.ext (by show 0 + 1 * (y 3).val = (y 3).val; omega)

/-- A load of sixty-four rows from row 64·k of a parameter column, through a whole buffer held at the block x, reads
    chunk k. -/
theorem readP {arg : Memref sig .tc .vmem S512x1 .f32} (harg : arg.IsWhole) (x : Vec F S512x1 .f32) (k : Fin 8)
    {off : Fin 2 → ℕ} (hoff : off = ![64 * k.val, 0]) {inb : ∀ a, off a + S64x1.size a ≤ S512x1.size a} :
    View.readAt (Elt F) arg.view (Rect.unit (s := S512x1) off S64x1.size inb).toLoadRect (harg.unread x) = chP x k := by
  subst hoff
  funext y
  rw [Memref.IsWhole.readAt_unread]
  unfold chP
  congr 1
  funext a
  have h1 : (y 1).val < 1 := (y 1).isLt
  match a with
  | ⟨0, _⟩ => exact Fin.ext (by show 64 * k.val + 1 * (y 0).val = 64 * k.val + (y 0).val; omega)
  | ⟨1, _⟩ => exact Fin.ext (by show 0 + 1 * (y 1).val = 0; omega)

/-! ## The two buffers at row 64·k + j -/

/-- The value-branch buffer at an index whose row is 64·k + x₀: the third pass's arithmetic for chunk k at (x₀, x₁). -/
theorem svalOf_apply (s1 s2 : FVec F S1x1 .f32) (x0 : Vec F S1x128x64x64 .f32) (x2 x3 x4 x5 : Vec F S512x1 .f32)
    (Y : S512x64.Idx) (k : Fin 8) (x : S64x64.Idx) (e0 : (Y 0).val = 64 * k.val + (x 0).val) (e1 : (Y 1).val = (x 1).val) :
    svalOf s1 s2 x0 x2 x3 x4 x5 Y
      = k0_pay9 (k0_pay12 s1) (k0_pay16 s2) (chA x0 k) (chP x2 k) (chP x3 k) (chP x4 k) (chP x5 k) x := by
  have hx0 : (x 0).val < 64 := (x 0).isLt
  have hc : rowChunk ⟨(Y 0).val, (Y 0).isLt⟩ = k := Fin.ext (by show (Y 0).val / 64 = k.val; omega)
  have hi : (ix2 (rowIn ⟨(Y 0).val, (Y 0).isLt⟩) (⟨(Y 1).val, (Y 1).isLt⟩ : Fin 64) : S64x64.Idx) = x := by
    funext a
    match a with
    | ⟨0, _⟩ => exact Fin.ext (by show (Y 0).val % 64 = (x 0).val; omega)
    | ⟨1, _⟩ => exact Fin.ext e1
  unfold svalOf
  rw [hc, hi]

/-- The gate-branch buffer likewise. -/
theorem sgateOf_apply (s1 s2 : FVec F S1x1 .f32) (x0 : Vec F S1x128x64x64 .f32) (x6 x7 x8 x9 : Vec F S512x1 .f32)
    (Y : S512x64.Idx) (k : Fin 8) (x : S64x64.Idx) (e0 : (Y 0).val = 64 * k.val + (x 0).val) (e1 : (Y 1).val = (x 1).val) :
    sgateOf s1 s2 x0 x6 x7 x8 x9 Y
      = k0_pay17 s1 s2 (k0_pay8 (chA x0 k)) (chP x6 k) (chP x7 k) (chP x8 k) (chP x9 k) x := by
  have hx0 : (x 0).val < 64 := (x 0).isLt
  have hc : rowChunk ⟨(Y 0).val, (Y 0).isLt⟩ = k := Fin.ext (by show (Y 0).val / 64 = k.val; omega)
  have hi : (ix2 (rowIn ⟨(Y 0).val, (Y 0).isLt⟩) (⟨(Y 1).val, (Y 1).isLt⟩ : Fin 64) : S64x64.Idx) = x := by
    funext a
    match a with
    | ⟨0, _⟩ => exact Fin.ext (by show (Y 0).val % 64 = (x 0).val; omega)
    | ⟨1, _⟩ => exact Fin.ext e1
  unfold sgateOf
  rw [hc, hi]

/-- A trip index as a chunk index. -/
def c8 {n : ℕ} (h : n ≤ 8) (k : Fin n) : Fin 8 := ⟨k.val, Nat.lt_of_lt_of_le k.isLt h⟩

/-- The piece trip k of the third pass writes into the value-branch buffer: rows 64·k … 64·k + 63. -/
def P20 (s1 s2 : FVec F S1x1 .f32) (x0 : Vec F S1x128x64x64 .f32) (x2 x3 x4 x5 : Vec F S512x1 .f32)
    (k : Fin k0_t3_loop.trips) : View.Piece (Elt F) S512x64 .f32 :=
  ⟨Rect.unit (s := S512x64) (k0_off7 k) S64x64.size (Gen.k0_off7_inb k),
    k0_pay9 (k0_pay12 s1) (k0_pay16 s2) (chA x0 (c8 k0_t3_abs.2.1 k)) (chP x2 (c8 k0_t3_abs.2.1 k)) (chP x3 (c8 k0_t3_abs.2.1 k))
      (chP x4 (c8 k0_t3_abs.2.1 k)) (chP x5 (c8 k0_t3_abs.2.1 k))⟩

/-- … and into the gate-branch buffer. -/
def P21 (s1 s2 : FVec F S1x1 .f32) (x0 : Vec F S1x128x64x64 .f32) (x6 x7 x8 x9 : Vec F S512x1 .f32)
    (k : Fin k0_t3_loop.trips) : View.Piece (Elt F) S512x64 .f32 :=
  ⟨Rect.unit (s := S512x64) (k0_off7 k) S64x64.size (Gen.k0_off7_inb k),
    k0_pay17 s1 s2 (k0_pay8 (chA x0 (c8 k0_t3_abs.2.1 k))) (chP x6 (c8 k0_t3_abs.2.1 k)) (chP x7 (c8 k0_t3_abs.2.1 k))
      (chP x8 (c8 k0_t3_abs.2.1 k)) (chP x9 (c8 k0_t3_abs.2.1 k))⟩

/-- Piece k is the block of svalOf at rows 64·k … 64·k + 63. -/
theorem P20_block (s1 s2 : FVec F S1x1 .f32) (x0 : Vec F S1x128x64x64 .f32) (x2 x3 x4 x5 : Vec F S512x1 .f32)
    (k : Fin k0_t3_loop.trips) (x : (P20 s1 s2 x0 x2 x3 x4 x5 k).1.shape.Idx) :
    (P20 s1 s2 x0 x2 x3 x4 x5 k).2 x = svalOf s1 s2 x0 x2 x3 x4 x5 ((P20 s1 s2 x0 x2 x3 x4 x5 k).1.emb x) := by
  have o0 : k0_off7 k 0 = 64 * k.val := congrFun (k0_off7_eq k) 0
  have o1 : k0_off7 k 1 = 0 := congrFun (k0_off7_eq k) 1
  refine (svalOf_apply s1 s2 x0 x2 x3 x4 x5 _ (c8 k0_t3_abs.2.1 k) x ?_ ?_).symm
  · show k0_off7 k 0 + 1 * (x 0).val = 64 * k.val + (x 0).val
    rw [o0]; omega
  · show k0_off7 k 1 + 1 * (x 1).val = (x 1).val
    rw [o1]; omega

theorem P21_block (s1 s2 : FVec F S1x1 .f32) (x0 : Vec F S1x128x64x64 .f32) (x6 x7 x8 x9 : Vec F S512x1 .f32)
    (k : Fin k0_t3_loop.trips) (x : (P21 s1 s2 x0 x6 x7 x8 x9 k).1.shape.Idx) :
    (P21 s1 s2 x0 x6 x7 x8 x9 k).2 x = sgateOf s1 s2 x0 x6 x7 x8 x9 ((P21 s1 s2 x0 x6 x7 x8 x9 k).1.emb x) := by
  have o0 : k0_off7 k 0 = 64 * k.val := congrFun (k0_off7_eq k) 0
  have o1 : k0_off7 k 1 = 0 := congrFun (k0_off7_eq k) 1
  refine (sgateOf_apply s1 s2 x0 x6 x7 x8 x9 _ (c8 k0_t3_abs.2.1 k) x ?_ ?_).symm
  · show k0_off7 k 0 + 1 * (x 0).val = 64 * k.val + (x 0).val
    rw [o0]; omega
  · show k0_off7 k 1 + 1 * (x 1).val = (x 1).val
    rw [o1]; omega

/-- Row y₀ lies in the rectangle of trip ⌊y₀/64⌋. -/
theorem mem_P_set (y : S512x64.Idx) (k : Fin k0_t3_loop.trips) (hk : k.val = (y 0).val / 64) :
    y ∈ (Rect.unit (s := S512x64) (k0_off7 k) S64x64.size (Gen.k0_off7_inb k)).set := by
  have hy1 : (y 1).val < 64 := (y 1).isLt
  rw [Rect.mem_set_unit, k0_off7_eq k]
  intro a
  match a with
  | ⟨0, _⟩ =>
    show 64 * k.val ≤ (y 0).val ∧ (y 0).val < 64 * k.val + 64
    omega
  | ⟨1, _⟩ =>
    show 0 ≤ (y 1).val ∧ (y 1).val < 0 + 64
    omega

/-! ## One trip of each pass, and the recursions -/

section Trips

variable (𝒱 : Variants) (c : Dev nD) (bd : Option 𝒱.V) (i : grid0.Coords) (arg1 : Memref sig .tc .vmem S1x128x64x64 .f32) (harg1 : arg1.IsWhole) (arg2 : Memref sig .tc .vmem S1x512x256 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x8 .f32) (harg11 : arg11.IsWhole) (arg12 : Memref sig .tc .vmem S512x8 .f32) (harg12 : arg12.IsWhole) (arg13 : Memref sig .tc .vmem S512x8 .f32) (harg13 : arg13.IsWhole) (arg14 : Memref sig .tc .vmem S512x8 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S1x512x256 .f32) (harg19 : arg19.IsWhole) (arg20 : Memref sig .tc .vmem S512x64 .f32) (harg20 : arg20.IsWhole) (arg21 : Memref sig .tc .vmem S512x64 .f32) (harg21 : arg21.IsWhole)
  (x0 : Vec F S1x128x64x64 .f32) (x2 x3 x4 x5 x6 x7 x8 x9 : Vec F S512x1 .f32) (v2_0 v2_1 v8_0 v8_1 : FVec F S1x1 .f32)

/-- One trip of the first pass is its arithmetic on chunk k. -/
theorem trip1_eq (k : Fin k0_t1_loop.trips) (acc : FVec F S1x1 .f32 × FVec F S1x1 .f32) :
    tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg1.unread x0) (harg3.unread x2) (harg4.unread x3) (harg7.unread x6) (harg8.unread x7) k acc = step1 x0 x2 x3 x6 x7 (c8 k0_t1_abs.2.1 k) acc := by
  unfold tripR_k0_t1
  unfold trip_k0_t1
  dsimp only
  sl_unfold_run_names
  rw [readA harg1 x0 (c8 k0_t1_abs.2.1 k) (k0_off1_eq k), readP harg3 x2 (c8 k0_t1_abs.2.1 k) (k0_off2_eq k),
    readP harg4 x3 (c8 k0_t1_abs.2.1 k) (k0_off2_eq k), readP harg7 x6 (c8 k0_t1_abs.2.1 k) (k0_off2_eq k),
    readP harg8 x7 (c8 k0_t1_abs.2.1 k) (k0_off2_eq k)]
  rfl

/-- One trip of the second pass is its arithmetic on chunk k. -/
theorem trip2_eq (k : Fin k0_t2_loop.trips) (acc : FVec F S1x1 .f32 × FVec F S1x1 .f32) :
    tripR_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 (harg1.unread x0) (harg3.unread x2) (harg4.unread x3) (harg7.unread x6) (harg8.unread x7) k acc = step2 x0 x2 x3 x6 x7 (v2_0, v2_1) (c8 k0_t2_abs.2.1 k) acc := by
  unfold tripR_k0_t2
  unfold trip_k0_t2
  dsimp only
  sl_unfold_run_names
  rw [readA harg1 x0 (c8 k0_t2_abs.2.1 k) (k0_off3_eq k), readP harg3 x2 (c8 k0_t2_abs.2.1 k) (k0_off4_eq k),
    readP harg4 x3 (c8 k0_t2_abs.2.1 k) (k0_off4_eq k), readP harg7 x6 (c8 k0_t2_abs.2.1 k) (k0_off4_eq k),
    readP harg8 x7 (c8 k0_t2_abs.2.1 k) (k0_off4_eq k)]
  rfl

/-- One trip of the third pass writes one piece into each buffer, whatever the buffers held. -/
theorem trip3_eq (k : Fin k0_t3_loop.trips) (f20 : BufTy.Contents (Elt F) arg20.view.ty) (f21 : BufTy.Contents (Elt F) arg21.view.ty) :
    tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 v8_0 v8_1 (harg1.unread x0) (harg3.unread x2) (harg4.unread x3) (harg5.unread x4) (harg6.unread x5) (harg7.unread x6) (harg8.unread x7) (harg9.unread x8) (harg10.unread x9) k f20 f21
      = ([P20 v2_0 v8_0 x0 x2 x3 x4 x5 k], [P21 v2_1 v8_1 x0 x6 x7 x8 x9 k]) := by
  unfold tripL_k0_t3
  unfold trip_k0_t3
  dsimp only
  sl_unfold_run_names
  rw [readA harg1 x0 (c8 k0_t3_abs.2.1 k) (k0_off5_eq k), readP harg3 x2 (c8 k0_t3_abs.2.1 k) (k0_off6_eq k),
    readP harg4 x3 (c8 k0_t3_abs.2.1 k) (k0_off6_eq k), readP harg5 x4 (c8 k0_t3_abs.2.1 k) (k0_off6_eq k),
    readP harg6 x5 (c8 k0_t3_abs.2.1 k) (k0_off6_eq k), readP harg7 x6 (c8 k0_t3_abs.2.1 k) (k0_off6_eq k),
    readP harg8 x7 (c8 k0_t3_abs.2.1 k) (k0_off6_eq k), readP harg9 x8 (c8 k0_t3_abs.2.1 k) (k0_off6_eq k),
    readP harg10 x9 (c8 k0_t3_abs.2.1 k) (k0_off6_eq k)]
  rfl

/-- The first pass's carried value before trip n is the fold of its arithmetic over the first n chunks. -/
theorem st1_fold (init : FVec F S1x1 .f32 × FVec F S1x1 .f32) (h8 : k0_t1_loop.trips = 8) : ∀ (n : ℕ) (hn : n ≤ 8),
    st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg1.unread x0) (harg3.unread x2) (harg4.unread x3) (harg7.unread x6) (harg8.unread x7) init n
      = Fin.foldl n (fun acc (k : Fin n) => step1 x0 x2 x3 x6 x7 (c8 hn k) acc) init := by
  intro n
  induction n with
  | zero => intro hn; rw [Fin.foldl_zero]; rfl
  | succ n ih =>
    intro hn
    have hlt : n < k0_t1_loop.trips := by omega
    have e : st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg1.unread x0) (harg3.unread x2) (harg4.unread x3) (harg7.unread x6) (harg8.unread x7) init (n + 1) = _ :=
      st_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg1.unread x0) (harg3.unread x2) (harg4.unread x3) (harg7.unread x6) (harg8.unread x7) init ⟨n, hlt⟩
    rw [e, trip1_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 ⟨n, hlt⟩, ih (by omega), Fin.foldl_succ_last]
    rfl

/-- The second pass's carried value before trip n likewise. -/
theorem st2_fold (init : FVec F S1x1 .f32 × FVec F S1x1 .f32) (h8 : k0_t2_loop.trips = 8) : ∀ (n : ℕ) (hn : n ≤ 8),
    st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 (harg1.unread x0) (harg3.unread x2) (harg4.unread x3) (harg7.unread x6) (harg8.unread x7) init n
      = Fin.foldl n (fun acc (k : Fin n) => step2 x0 x2 x3 x6 x7 (v2_0, v2_1) (c8 hn k) acc) init := by
  intro n
  induction n with
  | zero => intro hn; rw [Fin.foldl_zero]; rfl
  | succ n ih =>
    intro hn
    have hlt : n < k0_t2_loop.trips := by omega
    have e : st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 (harg1.unread x0) (harg3.unread x2) (harg4.unread x3) (harg7.unread x6) (harg8.unread x7) init (n + 1) = _ :=
      st_k0_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 (harg1.unread x0) (harg3.unread x2) (harg4.unread x3) (harg7.unread x6) (harg8.unread x7) init ⟨n, hlt⟩
    rw [e, trip2_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 v2_0 v2_1 ⟨n, hlt⟩, ih (by omega), Fin.foldl_succ_last]
    rfl

/-- The pieces of the trips before n in the value-branch buffer are the pieces P20 k, k < n. -/
theorem pb3_mem20 (G20 : BufTy.Contents (Elt F) arg20.view.ty) (G21 : BufTy.Contents (Elt F) arg21.view.ty)
    (h8 : k0_t3_loop.trips = 8) : ∀ (n : ℕ), n ≤ 8 → ∀ pc : View.Piece (Elt F) S512x64 .f32,
    pc ∈ (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 v8_0 v8_1 (harg1.unread x0) (harg3.unread x2) (harg4.unread x3) (harg5.unread x4) (harg6.unread x5) (harg7.unread x6) (harg8.unread x7) (harg9.unread x8) (harg10.unread x9) G20 G21 n).1
      ↔ ∃ k : Fin k0_t3_loop.trips, k.val < n ∧ pc = P20 v2_0 v8_0 x0 x2 x3 x4 x5 k := by
  intro n
  induction n with
  | zero =>
    intro _ pc
    constructor
    · intro h
      have h' : pc ∈ ([] : List (View.Piece (Elt F) S512x64 .f32)) := h
      exact absurd h' List.not_mem_nil
    · rintro ⟨k, hk, _⟩
      exact absurd hk (Nat.not_lt_zero _)
  | succ n ih =>
    intro hn pc
    have hlt : n < k0_t3_loop.trips := by omega
    have e : pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 v8_0 v8_1 (harg1.unread x0) (harg3.unread x2) (harg4.unread x3) (harg5.unread x4) (harg6.unread x5) (harg7.unread x6) (harg8.unread x7) (harg9.unread x8) (harg10.unread x9) G20 G21 (n + 1) = _ :=
      pb_k0_t3_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 v8_0 v8_1 (harg1.unread x0) (harg3.unread x2) (harg4.unread x3) (harg5.unread x4) (harg6.unread x5) (harg7.unread x6) (harg8.unread x7) (harg9.unread x8) (harg10.unread x9) G20 G21 ⟨n, hlt⟩
    rw [e, trip3_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x4 x5 x6 x7 x8 x9 v2_0 v2_1 v8_0 v8_1 ⟨n, hlt⟩]
    show pc ∈ P20 v2_0 v8_0 x0 x2 x3 x4 x5 ⟨n, hlt⟩ :: (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 v8_0 v8_1 (harg1.unread x0) (harg3.unread x2) (harg4.unread x3) (harg5.unread x4) (harg6.unread x5) (harg7.unread x6) (harg8.unread x7) (harg9.unread x8) (harg10.unread x9) G20 G21 n).1 ↔ _
    rw [List.mem_cons, ih (by omega) pc]
    constructor
    · rintro (rfl | ⟨k, hk, rfl⟩)
      · exact ⟨⟨n, hlt⟩, Nat.lt_succ_self n, rfl⟩
      · exact ⟨k, Nat.lt_succ_of_lt hk, rfl⟩
    · rintro ⟨k, hk, rfl⟩
      by_cases hkn : k.val = n
      · left
        have hk' : k = ⟨n, hlt⟩ := Fin.ext hkn
        rw [hk']
      · right
        exact ⟨k, by omega, rfl⟩

/-- … and in the gate-branch buffer the pieces P21 k, k < n. -/
theorem pb3_mem21 (G20 : BufTy.Contents (Elt F) arg20.view.ty) (G21 : BufTy.Contents (Elt F) arg21.view.ty)
    (h8 : k0_t3_loop.trips = 8) : ∀ (n : ℕ), n ≤ 8 → ∀ pc : View.Piece (Elt F) S512x64 .f32,
    pc ∈ (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 v8_0 v8_1 (harg1.unread x0) (harg3.unread x2) (harg4.unread x3) (harg5.unread x4) (harg6.unread x5) (harg7.unread x6) (harg8.unread x7) (harg9.unread x8) (harg10.unread x9) G20 G21 n).2
      ↔ ∃ k : Fin k0_t3_loop.trips, k.val < n ∧ pc = P21 v2_1 v8_1 x0 x6 x7 x8 x9 k := by
  intro n
  induction n with
  | zero =>
    intro _ pc
    constructor
    · intro h
      have h' : pc ∈ ([] : List (View.Piece (Elt F) S512x64 .f32)) := h
      exact absurd h' List.not_mem_nil
    · rintro ⟨k, hk, _⟩
      exact absurd hk (Nat.not_lt_zero _)
  | succ n ih =>
    intro hn pc
    have hlt : n < k0_t3_loop.trips := by omega
    have e : pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 v8_0 v8_1 (harg1.unread x0) (harg3.unread x2) (harg4.unread x3) (harg5.unread x4) (harg6.unread x5) (harg7.unread x6) (harg8.unread x7) (harg9.unread x8) (harg10.unread x9) G20 G21 (n + 1) = _ :=
      pb_k0_t3_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 v8_0 v8_1 (harg1.unread x0) (harg3.unread x2) (harg4.unread x3) (harg5.unread x4) (harg6.unread x5) (harg7.unread x6) (harg8.unread x7) (harg9.unread x8) (harg10.unread x9) G20 G21 ⟨n, hlt⟩
    rw [e, trip3_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x4 x5 x6 x7 x8 x9 v2_0 v2_1 v8_0 v8_1 ⟨n, hlt⟩]
    show pc ∈ P21 v2_1 v8_1 x0 x6 x7 x8 x9 ⟨n, hlt⟩ :: (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 v8_0 v8_1 (harg1.unread x0) (harg3.unread x2) (harg4.unread x3) (harg5.unread x4) (harg6.unread x5) (harg7.unread x6) (harg8.unread x7) (harg9.unread x8) (harg10.unread x9) G20 G21 n).2 ↔ _
    rw [List.mem_cons, ih (by omega) pc]
    constructor
    · rintro (rfl | ⟨k, hk, rfl⟩)
      · exact ⟨⟨n, hlt⟩, Nat.lt_succ_self n, rfl⟩
      · exact ⟨k, Nat.lt_succ_of_lt hk, rfl⟩
    · rintro ⟨k, hk, rfl⟩
      by_cases hkn : k.val = n
      · left
        have hk' : k = ⟨n, hlt⟩ := Fin.ext hkn
        rw [hk']
      · right
        exact ⟨k, by omega, rfl⟩

end Trips

section Cover

variable (𝒱 : Variants) (c : Dev nD) (bd : Option 𝒱.V) (i : grid0.Coords) (arg1 : Memref sig .tc .vmem S1x128x64x64 .f32) (harg1 : arg1.IsWhole) (arg2 : Memref sig .tc .vmem S1x512x256 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x8 .f32) (harg11 : arg11.IsWhole) (arg12 : Memref sig .tc .vmem S512x8 .f32) (harg12 : arg12.IsWhole) (arg13 : Memref sig .tc .vmem S512x8 .f32) (harg13 : arg13.IsWhole) (arg14 : Memref sig .tc .vmem S512x8 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S1x512x256 .f32) (harg19 : arg19.IsWhole) (arg20 : Memref sig .tc .vmem S512x64 .f32) (harg20 : arg20.IsWhole) (arg21 : Memref sig .tc .vmem S512x64 .f32) (harg21 : arg21.IsWhole)
  (x0 : Vec F S1x128x64x64 .f32) (x2 x3 x4 x5 x6 x7 x8 x9 : Vec F S512x1 .f32) (v2_0 v2_1 v8_0 v8_1 : FVec F S1x1 .f32)
  (G20 : BufTy.Contents (Elt F) arg20.view.ty) (G21 : BufTy.Contents (Elt F) arg21.view.ty)

/-- Every index of the value-branch buffer lies in the piece of trip ⌊row/64⌋. -/
theorem cover20_aux (y : S512x64.Idx) :
    ∃ pc ∈ (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 v8_0 v8_1 (harg1.unread x0) (harg3.unread x2) (harg4.unread x3) (harg5.unread x4) (harg6.unread x5) (harg7.unread x6) (harg8.unread x7) (harg9.unread x8) (harg10.unread x9) G20 G21 k0_t3_loop.trips).1, y ∈ pc.1.set := by
  have h8 : k0_t3_loop.trips = 8 := by decide
  have hy0 : (y 0).val < 512 := (y 0).isLt
  obtain ⟨k, hk⟩ : ∃ k : Fin k0_t3_loop.trips, k.val = (y 0).val / 64 := ⟨⟨(y 0).val / 64, by omega⟩, rfl⟩
  exact ⟨P20 v2_0 v8_0 x0 x2 x3 x4 x5 k,
    (pb3_mem20 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x4 x5 x6 x7 x8 x9 v2_0 v2_1 v8_0 v8_1 G20 G21 h8 k0_t3_loop.trips (le_of_eq h8) _).mpr ⟨k, k.isLt, rfl⟩, mem_P_set y k hk⟩

theorem cover21_aux (y : S512x64.Idx) :
    ∃ pc ∈ (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 v8_0 v8_1 (harg1.unread x0) (harg3.unread x2) (harg4.unread x3) (harg5.unread x4) (harg6.unread x5) (harg7.unread x6) (harg8.unread x7) (harg9.unread x8) (harg10.unread x9) G20 G21 k0_t3_loop.trips).2, y ∈ pc.1.set := by
  have h8 : k0_t3_loop.trips = 8 := by decide
  have hy0 : (y 0).val < 512 := (y 0).isLt
  obtain ⟨k, hk⟩ : ∃ k : Fin k0_t3_loop.trips, k.val = (y 0).val / 64 := ⟨⟨(y 0).val / 64, by omega⟩, rfl⟩
  exact ⟨P21 v2_1 v8_1 x0 x6 x7 x8 x9 k,
    (pb3_mem21 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x4 x5 x6 x7 x8 x9 v2_0 v2_1 v8_0 v8_1 G20 G21 h8 k0_t3_loop.trips (le_of_eq h8) _).mpr ⟨k, k.isLt, rfl⟩, mem_P_set y k hk⟩

/-- The pieces are all blocks of svalOf and cover the buffer, so read back they are svalOf. -/
theorem canon20_aux :
    View.canon (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 v8_0 v8_1 (harg1.unread x0) (harg3.unread x2) (harg4.unread x3) (harg5.unread x4) (harg6.unread x5) (harg7.unread x6) (harg8.unread x7) (harg9.unread x8) (harg10.unread x9) G20 G21 k0_t3_loop.trips).1
      = svalOf v2_0 v8_0 x0 x2 x3 x4 x5 := by
  have h8 : k0_t3_loop.trips = 8 := by decide
  funext y
  refine View.canon_apply_of_pieces (svalOf v2_0 v8_0 x0 x2 x3 x4 x5) _ ?_ y
    (cover20_aux 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x4 x5 x6 x7 x8 x9 v2_0 v2_1 v8_0 v8_1 G20 G21 y)
  intro p hp x
  obtain ⟨k, -, rfl⟩ := (pb3_mem20 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x4 x5 x6 x7 x8 x9 v2_0 v2_1 v8_0 v8_1 G20 G21 h8 _ (le_of_eq h8) p).mp hp
  exact P20_block v2_0 v8_0 x0 x2 x3 x4 x5 k x

theorem canon21_aux :
    View.canon (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 v8_0 v8_1 (harg1.unread x0) (harg3.unread x2) (harg4.unread x3) (harg5.unread x4) (harg6.unread x5) (harg7.unread x6) (harg8.unread x7) (harg9.unread x8) (harg10.unread x9) G20 G21 k0_t3_loop.trips).2
      = sgateOf v2_1 v8_1 x0 x6 x7 x8 x9 := by
  have h8 : k0_t3_loop.trips = 8 := by decide
  funext y
  refine View.canon_apply_of_pieces (sgateOf v2_1 v8_1 x0 x6 x7 x8 x9) _ ?_ y
    (cover21_aux 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x4 x5 x6 x7 x8 x9 v2_0 v2_1 v8_0 v8_1 G20 G21 y)
  intro p hp x
  obtain ⟨k, -, rfl⟩ := (pb3_mem21 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x4 x5 x6 x7 x8 x9 v2_0 v2_1 v8_0 v8_1 G20 G21 h8 _ (le_of_eq h8) p).mp hp
  exact P21_block v2_1 v8_1 x0 x6 x7 x8 x9 k x

end Cover

/-- The first pass's carried value after its eight trips is the fold of its arithmetic over the chunks. -/
theorem st1_eq (𝒱 : Variants) (c : Dev nD) (bd : Option 𝒱.V) (i : grid0.Coords) (arg1 : Memref sig .tc .vmem S1x128x64x64 .f32) (harg1 : arg1.IsWhole) (arg2 : Memref sig .tc .vmem S1x512x256 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x8 .f32) (harg11 : arg11.IsWhole) (arg12 : Memref sig .tc .vmem S512x8 .f32) (harg12 : arg12.IsWhole) (arg13 : Memref sig .tc .vmem S512x8 .f32) (harg13 : arg13.IsWhole) (arg14 : Memref sig .tc .vmem S512x8 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S1x512x256 .f32) (harg19 : arg19.IsWhole) (arg20 : Memref sig .tc .vmem S512x64 .f32) (harg20 : arg20.IsWhole) (arg21 : Memref sig .tc .vmem S512x64 .f32) (harg21 : arg21.IsWhole) (x0 : Vec F S1x128x64x64 .f32) (x2 x3 x4 x5 x6 x7 x8 x9 : Vec F S512x1 .f32) (init : FVec F S1x1 .f32 × FVec F S1x1 .f32) :
    st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg1.unread x0) (harg3.unread x2) (harg4.unread x3) (harg7.unread x6) (harg8.unread x7) init k0_t1_loop.trips
      = Fin.foldl 8 (fun acc k => step1 x0 x2 x3 x6 x7 k acc) init := by
  have h8 : k0_t1_loop.trips = 8 := by decide
  rw [h8]
  exact st1_fold 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 init h8 8 le_rfl

/-- The second pass's carried value after its eight trips, for whatever the first pass left. -/
theorem st2_eq (𝒱 : Variants) (c : Dev nD) (bd : Option 𝒱.V) (i : grid0.Coords) (arg1 : Memref sig .tc .vmem S1x128x64x64 .f32) (harg1 : arg1.IsWhole) (arg2 : Memref sig .tc .vmem S1x512x256 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x8 .f32) (harg11 : arg11.IsWhole) (arg12 : Memref sig .tc .vmem S512x8 .f32) (harg12 : arg12.IsWhole) (arg13 : Memref sig .tc .vmem S512x8 .f32) (harg13 : arg13.IsWhole) (arg14 : Memref sig .tc .vmem S512x8 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S1x512x256 .f32) (harg19 : arg19.IsWhole) (arg20 : Memref sig .tc .vmem S512x64 .f32) (harg20 : arg20.IsWhole) (arg21 : Memref sig .tc .vmem S512x64 .f32) (harg21 : arg21.IsWhole) (v2_0 v2_1 : FVec F S1x1 .f32) (x0 : Vec F S1x128x64x64 .f32) (x2 x3 x4 x5 x6 x7 x8 x9 : Vec F S512x1 .f32) (init : FVec F S1x1 .f32 × FVec F S1x1 .f32) :
    st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 (harg1.unread x0) (harg3.unread x2) (harg4.unread x3) (harg7.unread x6) (harg8.unread x7) init k0_t2_loop.trips
      = Fin.foldl 8 (fun acc k => step2 x0 x2 x3 x6 x7 (v2_0, v2_1) k acc) init := by
  have h8 : k0_t2_loop.trips = 8 := by decide
  rw [h8]
  exact st2_fold 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 v2_0 v2_1 init h8 8 le_rfl

/-- The pieces the third pass's eight trips write into the value-branch buffer, read back, are the buffer svalOf. -/
theorem pb3_canon20 (𝒱 : Variants) (c : Dev nD) (bd : Option 𝒱.V) (i : grid0.Coords) (arg1 : Memref sig .tc .vmem S1x128x64x64 .f32) (harg1 : arg1.IsWhole) (arg2 : Memref sig .tc .vmem S1x512x256 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x8 .f32) (harg11 : arg11.IsWhole) (arg12 : Memref sig .tc .vmem S512x8 .f32) (harg12 : arg12.IsWhole) (arg13 : Memref sig .tc .vmem S512x8 .f32) (harg13 : arg13.IsWhole) (arg14 : Memref sig .tc .vmem S512x8 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S1x512x256 .f32) (harg19 : arg19.IsWhole) (arg20 : Memref sig .tc .vmem S512x64 .f32) (harg20 : arg20.IsWhole) (arg21 : Memref sig .tc .vmem S512x64 .f32) (harg21 : arg21.IsWhole) (v2_0 v2_1 v8_0 v8_1 : FVec F S1x1 .f32) (x0 : Vec F S1x128x64x64 .f32) (x2 x3 x4 x5 x6 x7 x8 x9 : Vec F S512x1 .f32)
    (G20 : BufTy.Contents (Elt F) arg20.view.ty) (G21 : BufTy.Contents (Elt F) arg21.view.ty) :
    View.canon (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 v8_0 v8_1 (harg1.unread x0) (harg3.unread x2) (harg4.unread x3) (harg5.unread x4) (harg6.unread x5) (harg7.unread x6) (harg8.unread x7) (harg9.unread x8) (harg10.unread x9) G20 G21 k0_t3_loop.trips).1
      = svalOf v2_0 v8_0 x0 x2 x3 x4 x5 := by
  exact canon20_aux 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x4 x5 x6 x7 x8 x9 v2_0 v2_1 v8_0 v8_1 G20 G21

/-- … and into the gate-branch buffer, the buffer sgateOf. -/
theorem pb3_canon21 (𝒱 : Variants) (c : Dev nD) (bd : Option 𝒱.V) (i : grid0.Coords) (arg1 : Memref sig .tc .vmem S1x128x64x64 .f32) (harg1 : arg1.IsWhole) (arg2 : Memref sig .tc .vmem S1x512x256 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x8 .f32) (harg11 : arg11.IsWhole) (arg12 : Memref sig .tc .vmem S512x8 .f32) (harg12 : arg12.IsWhole) (arg13 : Memref sig .tc .vmem S512x8 .f32) (harg13 : arg13.IsWhole) (arg14 : Memref sig .tc .vmem S512x8 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S1x512x256 .f32) (harg19 : arg19.IsWhole) (arg20 : Memref sig .tc .vmem S512x64 .f32) (harg20 : arg20.IsWhole) (arg21 : Memref sig .tc .vmem S512x64 .f32) (harg21 : arg21.IsWhole) (v2_0 v2_1 v8_0 v8_1 : FVec F S1x1 .f32) (x0 : Vec F S1x128x64x64 .f32) (x2 x3 x4 x5 x6 x7 x8 x9 : Vec F S512x1 .f32)
    (G20 : BufTy.Contents (Elt F) arg20.view.ty) (G21 : BufTy.Contents (Elt F) arg21.view.ty) :
    View.canon (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 v8_0 v8_1 (harg1.unread x0) (harg3.unread x2) (harg4.unread x3) (harg5.unread x4) (harg6.unread x5) (harg7.unread x6) (harg8.unread x7) (harg9.unread x8) (harg10.unread x9) G20 G21 k0_t3_loop.trips).2
      = sgateOf v2_1 v8_1 x0 x6 x7 x8 x9 := by
  exact canon21_aux 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x4 x5 x6 x7 x8 x9 v2_0 v2_1 v8_0 v8_1 G20 G21

/-- The third pass's pieces cover the value-branch buffer … -/
theorem pb3_cover20 (𝒱 : Variants) (c : Dev nD) (bd : Option 𝒱.V) (i : grid0.Coords) (arg1 : Memref sig .tc .vmem S1x128x64x64 .f32) (harg1 : arg1.IsWhole) (arg2 : Memref sig .tc .vmem S1x512x256 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x8 .f32) (harg11 : arg11.IsWhole) (arg12 : Memref sig .tc .vmem S512x8 .f32) (harg12 : arg12.IsWhole) (arg13 : Memref sig .tc .vmem S512x8 .f32) (harg13 : arg13.IsWhole) (arg14 : Memref sig .tc .vmem S512x8 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S1x512x256 .f32) (harg19 : arg19.IsWhole) (arg20 : Memref sig .tc .vmem S512x64 .f32) (harg20 : arg20.IsWhole) (arg21 : Memref sig .tc .vmem S512x64 .f32) (harg21 : arg21.IsWhole) (v2_0 v2_1 v8_0 v8_1 : FVec F S1x1 .f32) (x0 : Vec F S1x128x64x64 .f32) (x2 x3 x4 x5 x6 x7 x8 x9 : Vec F S512x1 .f32)
    (G20 : BufTy.Contents (Elt F) arg20.view.ty) (G21 : BufTy.Contents (Elt F) arg21.view.ty) (y : S512x64.Idx) :
    ∃ pc ∈ (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 v8_0 v8_1 (harg1.unread x0) (harg3.unread x2) (harg4.unread x3) (harg5.unread x4) (harg6.unread x5) (harg7.unread x6) (harg8.unread x7) (harg9.unread x8) (harg10.unread x9) G20 G21 k0_t3_loop.trips).1, y ∈ pc.1.set := by
  exact cover20_aux 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x4 x5 x6 x7 x8 x9 v2_0 v2_1 v8_0 v8_1 G20 G21 y

/-- … and the gate-branch buffer. -/
theorem pb3_cover21 (𝒱 : Variants) (c : Dev nD) (bd : Option 𝒱.V) (i : grid0.Coords) (arg1 : Memref sig .tc .vmem S1x128x64x64 .f32) (harg1 : arg1.IsWhole) (arg2 : Memref sig .tc .vmem S1x512x256 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x8 .f32) (harg11 : arg11.IsWhole) (arg12 : Memref sig .tc .vmem S512x8 .f32) (harg12 : arg12.IsWhole) (arg13 : Memref sig .tc .vmem S512x8 .f32) (harg13 : arg13.IsWhole) (arg14 : Memref sig .tc .vmem S512x8 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S1x512x256 .f32) (harg19 : arg19.IsWhole) (arg20 : Memref sig .tc .vmem S512x64 .f32) (harg20 : arg20.IsWhole) (arg21 : Memref sig .tc .vmem S512x64 .f32) (harg21 : arg21.IsWhole) (v2_0 v2_1 v8_0 v8_1 : FVec F S1x1 .f32) (x0 : Vec F S1x128x64x64 .f32) (x2 x3 x4 x5 x6 x7 x8 x9 : Vec F S512x1 .f32)
    (G20 : BufTy.Contents (Elt F) arg20.view.ty) (G21 : BufTy.Contents (Elt F) arg21.view.ty) (y : S512x64.Idx) :
    ∃ pc ∈ (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 v8_0 v8_1 (harg1.unread x0) (harg3.unread x2) (harg4.unread x3) (harg5.unread x4) (harg6.unread x5) (harg7.unread x6) (harg8.unread x7) (harg9.unread x8) (harg10.unread x9) G20 G21 k0_t3_loop.trips).2, y ∈ pc.1.set := by
  exact cover21_aux 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x4 x5 x6 x7 x8 x9 v2_0 v2_1 v8_0 v8_1 G20 G21 y

end Cert.KernelIdeal.KTrips

end
-- ==== Proof.KScratch.lean ====
/-
  The two buffers the third pass fills, loaded whole after the pass: whatever the buffers held before, the load reads the
  pass's arithmetic chunk by chunk — the eight trips' pieces cover the buffer, so the earlier contents do not show.
-/
import proofs.«420707_j90769838834068_3_alg».proof.Proof.KTrips
import Idealize.ShloMosaic.Lib.Pipeline.FrameBody

noncomputable section

namespace Cert.KernelIdeal.KScratch

open Idealize.ShloMosaic Idealize.ShloMosaic.TcCoe Idealize.ShloMosaic.ValueIdx
open Idealize.SL Idealize.SL.Sem
open Cert.KernelIdeal Cert.KernelIdeal.Gen Cert.KernelIdeal.KTerm Cert.KernelIdeal.KTrips

variable {F : FTy → Type} [FloatOps F] [Cert.KernelIdeal.Facts]

theorem hz2 : (![0, 0] : Fin 2 → Nat) = fun _ => 0 := funext fun a => by fin_cases a <;> rfl

/-- The whole-buffer load of the value-branch buffer after the third pass. -/
theorem readAt20 (𝒱 : Variants) (c : Dev nD) (bd : Option 𝒱.V) (i : grid0.Coords) (arg1 : Memref sig .tc .vmem S1x128x64x64 .f32) (harg1 : arg1.IsWhole) (arg2 : Memref sig .tc .vmem S1x512x256 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x8 .f32) (harg11 : arg11.IsWhole) (arg12 : Memref sig .tc .vmem S512x8 .f32) (harg12 : arg12.IsWhole) (arg13 : Memref sig .tc .vmem S512x8 .f32) (harg13 : arg13.IsWhole) (arg14 : Memref sig .tc .vmem S512x8 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S1x512x256 .f32) (harg19 : arg19.IsWhole) (arg20 : Memref sig .tc .vmem S512x64 .f32) (harg20 : arg20.IsWhole) (arg21 : Memref sig .tc .vmem S512x64 .f32) (harg21 : arg21.IsWhole) (v2_0 v2_1 v8_0 v8_1 : FVec F S1x1 .f32) (x0 : Vec F S1x128x64x64 .f32) (x2 x3 x4 x5 x6 x7 x8 x9 : Vec F S512x1 .f32)
    (G20 : BufTy.Contents (Elt F) arg20.view.ty) (G21 : BufTy.Contents (Elt F) arg21.view.ty) (n : ℕ) (hn : n = k0_t3_loop.trips)
    (inb : ∀ a, (![0, 0] : Fin 2 → Nat) a + S512x64.size a ≤ S512x64.size a) :
    View.readAt (Elt F) arg20.view (Rect.unit ![0, 0] S512x64.size inb).toLoadRect
        (arg20.view.writes (Elt F) G20 (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 v8_0 v8_1 (harg1.unread x0) (harg3.unread x2) (harg4.unread x3) (harg5.unread x4) (harg6.unread x5) (harg7.unread x6) (harg8.unread x7) (harg9.unread x8) (harg10.unread x9) G20 G21 n).1)
      = svalOf v2_0 v8_0 x0 x2 x3 x4 x5 := by
  subst hn
  rw [View.readAt_eq_ld, View.read_writes_eq_canon _ _ _ (pb3_cover20 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 v8_0 v8_1 x0 x2 x3 x4 x5 x6 x7 x8 x9 G20 G21),
    pb3_canon20, View.ld_unit_zero hz2]

/-- The whole-buffer load of the gate-branch buffer after the third pass. -/
theorem readAt21 (𝒱 : Variants) (c : Dev nD) (bd : Option 𝒱.V) (i : grid0.Coords) (arg1 : Memref sig .tc .vmem S1x128x64x64 .f32) (harg1 : arg1.IsWhole) (arg2 : Memref sig .tc .vmem S1x512x256 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x8 .f32) (harg11 : arg11.IsWhole) (arg12 : Memref sig .tc .vmem S512x8 .f32) (harg12 : arg12.IsWhole) (arg13 : Memref sig .tc .vmem S512x8 .f32) (harg13 : arg13.IsWhole) (arg14 : Memref sig .tc .vmem S512x8 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S1x512x256 .f32) (harg19 : arg19.IsWhole) (arg20 : Memref sig .tc .vmem S512x64 .f32) (harg20 : arg20.IsWhole) (arg21 : Memref sig .tc .vmem S512x64 .f32) (harg21 : arg21.IsWhole) (v2_0 v2_1 v8_0 v8_1 : FVec F S1x1 .f32) (x0 : Vec F S1x128x64x64 .f32) (x2 x3 x4 x5 x6 x7 x8 x9 : Vec F S512x1 .f32)
    (G20 : BufTy.Contents (Elt F) arg20.view.ty) (G21 : BufTy.Contents (Elt F) arg21.view.ty) (n : ℕ) (hn : n = k0_t3_loop.trips)
    (inb : ∀ a, (![0, 0] : Fin 2 → Nat) a + S512x64.size a ≤ S512x64.size a) :
    View.readAt (Elt F) arg21.view (Rect.unit ![0, 0] S512x64.size inb).toLoadRect
        (arg21.view.writes (Elt F) G21 (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 v8_0 v8_1 (harg1.unread x0) (harg3.unread x2) (harg4.unread x3) (harg5.unread x4) (harg6.unread x5) (harg7.unread x6) (harg8.unread x7) (harg9.unread x8) (harg10.unread x9) G20 G21 n).2)
      = sgateOf v2_1 v8_1 x0 x6 x7 x8 x9 := by
  subst hn
  rw [View.readAt_eq_ld, View.read_writes_eq_canon _ _ _ (pb3_cover21 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2_0 v2_1 v8_0 v8_1 x0 x2 x3 x4 x5 x6 x7 x8 x9 G20 G21),
    pb3_canon21, View.ld_unit_zero hz2]

end Cert.KernelIdeal.KScratch

end
-- ==== Proof.KRun.lean ====
/-
  The kernel's body run read back: what the whole-body run leaves in the output's staging buffer at a grid point, read
  back, is the function KTerm.out of the point's eighteen input blocks — the final store's arithmetic on the two buffers
  the third pass filled, whose contents are the pass's arithmetic chunk by chunk with the means and reciprocal deviations
  the first two passes' folds give.
-/
import proofs.«420707_j90769838834068_3_alg».proof.Proof.KIFrame
import proofs.«420707_j90769838834068_3_alg».proof.Proof.KTrips

set_option maxRecDepth 16384

noncomputable section

namespace Cert.KernelIdeal.KRun

open Idealize.ShloMosaic Idealize.ShloMosaic.TcCoe Idealize.ShloMosaic.Tactic Idealize.ShloMosaic.ValueIdx
open Idealize.SL Idealize.SL.Sem
open Cert.KernelIdeal Cert.KernelIdeal.Gen Cert.KernelIdeal.GenP Cert.KernelIdeal.KTerm Cert.KernelIdeal.KTrips

variable {F : FTy → Type} [FloatOps F] [Cert.KernelIdeal.Facts]

theorem hz2 : (![0, 0] : Fin 2 → Nat) = fun _ => 0 := funext fun a => by fin_cases a <;> rfl
theorem hz3 : (![0, 0, 0] : Fin 3 → Nat) = fun _ => 0 := funext fun a => by fin_cases a <;> rfl

/-- A load of a whole buffer held at the contents that read x reads x. -/
theorem readWhole {s : Shape} {mm : Memref sig .tc .vmem s .f32} (h : mm.IsWhole) (x : Vec F s .f32)
    {off : Fin s.rank → Nat} (hz : off = fun _ => 0) (inb : ∀ a, off a + s.size a ≤ s.size a) :
    View.readAt (Elt F) mm.view (Rect.unit off s.size inb).toLoadRect (h.unread x) = x := by
  rw [View.readAt_eq_ld, h.read_unread, View.ld_unit_zero hz]

/-- What the body leaves in the output's staging buffer, read back, is KTerm.out of the input blocks. -/
theorem out0_eq (c : Dev nD) (i : grid0.Coords) (arg1 : Memref sig .tc .vmem S1x128x64x64 .f32) (harg1 : arg1.IsWhole) (arg2 : Memref sig .tc .vmem S1x512x256 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x8 .f32) (harg11 : arg11.IsWhole) (arg12 : Memref sig .tc .vmem S512x8 .f32) (harg12 : arg12.IsWhole) (arg13 : Memref sig .tc .vmem S512x8 .f32) (harg13 : arg13.IsWhole) (arg14 : Memref sig .tc .vmem S512x8 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S1x512x256 .f32) (harg19 : arg19.IsWhole) (arg20 : Memref sig .tc .vmem S512x64 .f32) (harg20 : arg20.IsWhole) (arg21 : Memref sig .tc .vmem S512x64 .f32) (harg21 : arg21.IsWhole) (x0 : Vec F S1x128x64x64 .f32) (x1 : Vec F S1x512x256 .f32) (x2 x3 x4 x5 x6 x7 x8 x9 : Vec F S512x1 .f32) (x10 x11 x12 x13 : Vec F S512x8 .f32) (x14 x15 x16 x17 : Vec F S512x1 .f32) :
    out0_A_18 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 = KTerm.out x0 x1 x2 x3 x4 x5 x6 x7 x8 x9 x10 x11 x12 x13 x14 x15 x16 x17 := by
  unfold out0_A_18
  rw [View.read_writes_eq_canon _ _ _ (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17)]
  unfold kernelRun0_A
  dsimp only
  rw [View.canon_unit_zero hz3]
  have e1 : st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg1.unread x0) (harg3.unread x2) (harg4.unread x3) (harg7.unread x6) (harg8.unread x7) (k0_pay10, k0_pay10) (Scf.trips (0#32) (Scalar.addi 0#32 8#32) 1#32)
      = sums1 x0 x2 x3 x6 x7 :=
    st1_eq Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x4 x5 x6 x7 x8 x9 (k0_pay10, k0_pay10)
  rw [e1]
  have e2 : st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (sums1 x0 x2 x3 x6 x7).1 (sums1 x0 x2 x3 x6 x7).2 (harg1.unread x0) (harg3.unread x2) (harg4.unread x3) (harg7.unread x6) (harg8.unread x7) (k0_pay10, k0_pay10) (Scf.trips (0#32) (Scalar.addi 0#32 8#32) 1#32)
      = sums2 x0 x2 x3 x6 x7 :=
    st2_eq Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (sums1 x0 x2 x3 x6 x7).1 (sums1 x0 x2 x3 x6 x7).2 x0 x2 x3 x4 x5 x6 x7 x8 x9 (k0_pay10, k0_pay10)
  rw [e2]
  rw [readWhole harg2 x1 hz3, readWhole harg11 x10 hz2, readWhole harg12 x11 hz2, readWhole harg13 x12 hz2,
    readWhole harg14 x13 hz2, readWhole harg15 x14 hz2, readWhole harg16 x15 hz2, readWhole harg17 x16 hz2,
    readWhole harg18 x17 hz2]
  rw [← sval_eq x0 x2 x3 x4 x5 x6 x7 x8 x9, ← sgate_eq x0 x2 x3 x4 x5 x6 x7 x8 x9]
  rfl

end Cert.KernelIdeal.KRun

end
-- ==== Proof.KBlocks.lean ====
/-
  From blocks to the array: after the kernel's run, the result array at (b, c, t) is the body's function KTerm.out of batch
  element b's input blocks at (0, c, t). Grid point b stages block b of the audio and of the video and the whole parameter
  columns (the [512] and [4096] parameters reshaped by the host to [512, 1] and [512, 8]), and writes block b of the result.
-/
import proofs.«420707_j90769838834068_3_alg».proof.Proof.KIValue
import proofs.«420707_j90769838834068_3_alg».proof.Proof.KRun
import Idealize.ShloMosaic.Lib.Pipeline.Value

set_option maxRecDepth 16384

noncomputable section

namespace Cert.KernelIdeal.KBlocks

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.KernelIdeal.ValueP Cert.KernelIdeal.KTerm

/-! ## The windows' block indices at a grid point, decided over the four points -/

/-- The audio, the video and the result move with the point along the batch axis and sit at block 0 on every other
    axis. -/
theorem idx_batch : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0
    ∧ win0_18.index t (0 : Fin 3) = t.val ∧ win0_18.index t (1 : Fin 3) = 0 ∧ win0_18.index t (2 : Fin 3) = 0 :=
  (by decide +kernel : ∀ t : Fin grid0.N, _)

/-- Every parameter window sits at block 0 on both axes at every point. -/
theorem idx_par : ∀ t : Fin cfg0.N,
    (∀ a : Fin 2, win0_2.index t a = 0) ∧ (∀ a : Fin 2, win0_3.index t a = 0) ∧ (∀ a : Fin 2, win0_4.index t a = 0)
    ∧ (∀ a : Fin 2, win0_5.index t a = 0) ∧ (∀ a : Fin 2, win0_6.index t a = 0) ∧ (∀ a : Fin 2, win0_7.index t a = 0)
    ∧ (∀ a : Fin 2, win0_8.index t a = 0) ∧ (∀ a : Fin 2, win0_9.index t a = 0) ∧ (∀ a : Fin 2, win0_10.index t a = 0)
    ∧ (∀ a : Fin 2, win0_11.index t a = 0) ∧ (∀ a : Fin 2, win0_12.index t a = 0) ∧ (∀ a : Fin 2, win0_13.index t a = 0)
    ∧ (∀ a : Fin 2, win0_14.index t a = 0) ∧ (∀ a : Fin 2, win0_15.index t a = 0) ∧ (∀ a : Fin 2, win0_16.index t a = 0)
    ∧ (∀ a : Fin 2, win0_17.index t a = 0) :=
  (by decide +kernel : ∀ t : Fin grid0.N, _)

variable {F : FTy → Type} [FloatOps F] [Cert.KernelIdeal.Facts]

/-- Batch element b of the audio array as a [1, 128, 64, 64] block. -/
def inA (x : Vec F S4x128x64x64 .f32) (b : Fin 4) : Vec F S1x128x64x64 .f32 :=
  fun y => x (ix4 b (⟨(y 1).val, (y 1).isLt⟩ : Fin 128) (⟨(y 2).val, (y 2).isLt⟩ : Fin 64) (⟨(y 3).val, (y 3).isLt⟩ : Fin 64))
/-- Batch element b of the video array as a [1, 512, 256] block. -/
def inV (x : Vec F S4x512x256 .f32) (b : Fin 4) : Vec F S1x512x256 .f32 :=
  fun y => x (ix3 b (⟨(y 1).val, (y 1).isLt⟩ : Fin 512) (⟨(y 2).val, (y 2).isLt⟩ : Fin 256))
/-- A [512] parameter as a [512, 1] column. -/
def inP (x : Vec F S512 .f32) : Vec F S512x1 .f32 := fun y => x (ix1 (⟨(y 0).val, (y 0).isLt⟩ : Fin 512))
/-- A [4096] parameter as a [512, 8] matrix, row-major. -/
def inP8 (x : Vec F S4096 .f32) : Vec F S512x8 .f32 :=
  fun y => x (ix1 (⟨8 * (y 0).val + (y 1).val, by have h0 : (y 0).val < 512 := (y 0).isLt; have h1 : (y 1).val < 8 := (y 1).isLt; omega⟩ : Fin 4096))

variable (m : (ℓ : Loc nD τ sig) → Buf (Elt F) ℓ)

/-- The grid has four points. -/
theorem N_eq : cfg0.N = 4 := N_0

/-- The batch element a grid point works on. -/
def bOf (t : Fin cfg0.N) : Fin 4 := t.cast N_eq

/-! ## The input blocks -/

/-- The audio block at a grid point is the point's batch element of the audio argument. -/
theorem iblk0_eq (c : Dev nD) (t : Fin cfg0.N) :
    (iblk m c 0 t : Vec F S1x128x64x64 .f32) = inA (m ((c : Thread nD τ).loc main_arg0)) (bOf t) := by
  obtain ⟨h0, h1, h2, h3, -⟩ := idx_batch t
  funext y
  unfold iblk inA
  rw [View.read_apply]
  show V m c main_arg0 _ = m ((c : Thread nD τ).loc main_arg0) _
  rw [V_main_arg0 m c]
  congr 1
  funext a
  apply Fin.ext
  match a with
  | ⟨0, _⟩ => show win0_0.index t (0 : Fin 4) * 1 + 1 * (y 0).val = t.val; rw [h0]; have : (y 0).val < 1 := (y 0).isLt; omega
  | ⟨1, _⟩ => show win0_0.index t (1 : Fin 4) * 128 + 1 * (y 1).val = (y 1).val; rw [h1]; omega
  | ⟨2, _⟩ => show win0_0.index t (2 : Fin 4) * 64 + 1 * (y 2).val = (y 2).val; rw [h2]; omega
  | ⟨3, _⟩ => show win0_0.index t (3 : Fin 4) * 64 + 1 * (y 3).val = (y 3).val; rw [h3]; omega

/-- The video block at a grid point is the point's batch element of the video argument. -/
theorem iblk1_eq (c : Dev nD) (t : Fin cfg0.N) :
    (iblk m c 1 t : Vec F S1x512x256 .f32) = inV (m ((c : Thread nD τ).loc main_arg1)) (bOf t) := by
  obtain ⟨-, -, -, -, h0, h1, h2, -⟩ := idx_batch t
  funext y
  unfold iblk inV
  rw [View.read_apply]
  show V m c main_arg1 _ = m ((c : Thread nD τ).loc main_arg1) _
  rw [V_main_arg1 m c]
  congr 1
  funext a
  apply Fin.ext
  match a with
  | ⟨0, _⟩ => show win0_1.index t (0 : Fin 3) * 1 + 1 * (y 0).val = t.val; rw [h0]; have : (y 0).val < 1 := (y 0).isLt; omega
  | ⟨1, _⟩ => show win0_1.index t (1 : Fin 3) * 512 + 1 * (y 1).val = (y 1).val; rw [h1]; omega
  | ⟨2, _⟩ => show win0_1.index t (2 : Fin 3) * 256 + 1 * (y 2).val = (y 2).val; rw [h2]; omega

/-! ## The parameter columns: host reshapes of the arguments, staged whole -/

/-- A [512] vector reshaped to [512, 1], read at an index. -/
theorem shapeCast_col (x : Vec F S512 .f32) (h : S512.ShapeCasts S512x1) (y : S512x1.Idx) :
    shapeCast S512x1 x h y = inP x y := by
  refine shapeCast_apply x h y (ix1 (⟨(y 0).val, (y 0).isLt⟩ : Fin 512)) ?_
  rw [Shape.rowMajor_val_one, Shape.rowMajor_val_two]
  show (y 0).val = (y 0).val * 1 + (y 1).val
  have : (y 1).val < 1 := (y 1).isLt
  omega

/-- A [4096] vector reshaped to [512, 8], read at an index. -/
theorem shapeCast_mat (x : Vec F S4096 .f32) (h : S4096.ShapeCasts S512x8) (y : S512x8.Idx) :
    shapeCast S512x8 x h y = inP8 x y := by
  have h0 : (y 0).val < 512 := (y 0).isLt
  have h1 : (y 1).val < 8 := (y 1).isLt
  refine shapeCast_apply x h y (ix1 (⟨8 * (y 0).val + (y 1).val, by omega⟩ : Fin 4096)) ?_
  rw [Shape.rowMajor_val_one, Shape.rowMajor_val_two]
  show 8 * (y 0).val + (y 1).val = (y 0).val * 8 + (y 1).val
  omega

set_option maxHeartbeats 4000000 in
/-- What the region finds in each staged parameter array: the host's reshape of the argument. -/
theorem V_par (c : Dev nD) :
    (V m c main_v0 : S512x1.Idx → Elt F .f32) = inP (m ((c : Thread nD τ).loc main_arg2))
    ∧ (V m c main_v1 : S512x1.Idx → Elt F .f32) = inP (m ((c : Thread nD τ).loc main_arg3))
    ∧ (V m c main_v2 : S512x1.Idx → Elt F .f32) = inP (m ((c : Thread nD τ).loc main_arg4))
    ∧ (V m c main_v3 : S512x1.Idx → Elt F .f32) = inP (m ((c : Thread nD τ).loc main_arg5))
    ∧ (V m c main_v4 : S512x1.Idx → Elt F .f32) = inP (m ((c : Thread nD τ).loc main_arg6))
    ∧ (V m c main_v5 : S512x1.Idx → Elt F .f32) = inP (m ((c : Thread nD τ).loc main_arg7))
    ∧ (V m c main_v6 : S512x1.Idx → Elt F .f32) = inP (m ((c : Thread nD τ).loc main_arg8))
    ∧ (V m c main_v7 : S512x1.Idx → Elt F .f32) = inP (m ((c : Thread nD τ).loc main_arg9))
    ∧ (V m c main_v8 : S512x8.Idx → Elt F .f32) = inP8 (m ((c : Thread nD τ).loc main_arg10))
    ∧ (V m c main_v9 : S512x8.Idx → Elt F .f32) = inP8 (m ((c : Thread nD τ).loc main_arg11))
    ∧ (V m c main_v10 : S512x8.Idx → Elt F .f32) = inP8 (m ((c : Thread nD τ).loc main_arg12))
    ∧ (V m c main_v11 : S512x8.Idx → Elt F .f32) = inP8 (m ((c : Thread nD τ).loc main_arg13))
    ∧ (V m c main_v12 : S512x1.Idx → Elt F .f32) = inP (m ((c : Thread nD τ).loc main_arg14))
    ∧ (V m c main_v13 : S512x1.Idx → Elt F .f32) = inP (m ((c : Thread nD τ).loc main_arg15))
    ∧ (V m c main_v14 : S512x1.Idx → Elt F .f32) = inP (m ((c : Thread nD τ).loc main_arg16))
    ∧ (V m c main_v15 : S512x1.Idx → Elt F .f32) = inP (m ((c : Thread nD τ).loc main_arg17)) := by
  refine ⟨?_, ?_, ?_, ?_, ?_, ?_, ?_, ?_, ?_, ?_, ?_, ?_, ?_, ?_, ?_, ?_⟩
  all_goals
    dsimp only [Gen.V, Gen.hostOps0]
    after_results
    first
    | exact funext (shapeCast_col _ _)
    | exact funext (shapeCast_mat _ _)

/-- A block at index zero of the size of its whole array, read off the array's contents, is the contents. -/
theorem read_whole_blk (b : Ref sig .tc) (idx : Fin b.ty.shape.rank → Nat) (hidx : ∀ a, idx a = 0)
    (inb : ∀ a, idx a * b.ty.shape.size a + b.ty.shape.size a ≤ b.ty.shape.size a) (f : b.ty.Contents (Elt F)) :
    ((Memref.whole b).access (Rect.unit (fun a => idx a * b.ty.shape.size a) b.ty.shape.size inb) : View sig .tc _ _ _).read (Elt F) f = f :=
  Memref.read_access_unit_zero (Elt F) b (funext fun a => by rw [hidx a]; exact Nat.zero_mul _) inb f

/-- Each parameter window's block at any point is its whole array: the parameter as a column, or as a [512, 8] matrix. -/
theorem iblk_par (c : Dev nD) (t : Fin cfg0.N) :
    (iblk m c 2 t : Vec F S512x1 .f32) = inP (m ((c : Thread nD τ).loc main_arg2))
    ∧ (iblk m c 3 t : Vec F S512x1 .f32) = inP (m ((c : Thread nD τ).loc main_arg3))
    ∧ (iblk m c 4 t : Vec F S512x1 .f32) = inP (m ((c : Thread nD τ).loc main_arg4))
    ∧ (iblk m c 5 t : Vec F S512x1 .f32) = inP (m ((c : Thread nD τ).loc main_arg5))
    ∧ (iblk m c 6 t : Vec F S512x1 .f32) = inP (m ((c : Thread nD τ).loc main_arg6))
    ∧ (iblk m c 7 t : Vec F S512x1 .f32) = inP (m ((c : Thread nD τ).loc main_arg7))
    ∧ (iblk m c 8 t : Vec F S512x1 .f32) = inP (m ((c : Thread nD τ).loc main_arg8))
    ∧ (iblk m c 9 t : Vec F S512x1 .f32) = inP (m ((c : Thread nD τ).loc main_arg9))
    ∧ (iblk m c 10 t : Vec F S512x8 .f32) = inP8 (m ((c : Thread nD τ).loc main_arg10))
    ∧ (iblk m c 11 t : Vec F S512x8 .f32) = inP8 (m ((c : Thread nD τ).loc main_arg11))
    ∧ (iblk m c 12 t : Vec F S512x8 .f32) = inP8 (m ((c : Thread nD τ).loc main_arg12))
    ∧ (iblk m c 13 t : Vec F S512x8 .f32) = inP8 (m ((c : Thread nD τ).loc main_arg13))
    ∧ (iblk m c 14 t : Vec F S512x1 .f32) = inP (m ((c : Thread nD τ).loc main_arg14))
    ∧ (iblk m c 15 t : Vec F S512x1 .f32) = inP (m ((c : Thread nD τ).loc main_arg15))
    ∧ (iblk m c 16 t : Vec F S512x1 .f32) = inP (m ((c : Thread nD τ).loc main_arg16))
    ∧ (iblk m c 17 t : Vec F S512x1 .f32) = inP (m ((c : Thread nD τ).loc main_arg17)) := by
  obtain ⟨i2, i3, i4, i5, i6, i7, i8, i9, i10, i11, i12, i13, i14, i15, i16, i17⟩ := idx_par t
  obtain ⟨v0, v1, v2, v3, v4, v5, v6, v7, v8, v9, v10, v11, v12, v13, v14, v15⟩ := V_par m c
  refine ⟨?_, ?_, ?_, ?_, ?_, ?_, ?_, ?_, ?_, ?_, ?_, ?_, ?_, ?_, ?_, ?_⟩
  · rw [← v0]; exact read_whole_blk main_v0 (win0_2.index t) i2 _ (V m c main_v0)
  · rw [← v1]; exact read_whole_blk main_v1 (win0_3.index t) i3 _ (V m c main_v1)
  · rw [← v2]; exact read_whole_blk main_v2 (win0_4.index t) i4 _ (V m c main_v2)
  · rw [← v3]; exact read_whole_blk main_v3 (win0_5.index t) i5 _ (V m c main_v3)
  · rw [← v4]; exact read_whole_blk main_v4 (win0_6.index t) i6 _ (V m c main_v4)
  · rw [← v5]; exact read_whole_blk main_v5 (win0_7.index t) i7 _ (V m c main_v5)
  · rw [← v6]; exact read_whole_blk main_v6 (win0_8.index t) i8 _ (V m c main_v6)
  · rw [← v7]; exact read_whole_blk main_v7 (win0_9.index t) i9 _ (V m c main_v7)
  · rw [← v8]; exact read_whole_blk main_v8 (win0_10.index t) i10 _ (V m c main_v8)
  · rw [← v9]; exact read_whole_blk main_v9 (win0_11.index t) i11 _ (V m c main_v9)
  · rw [← v10]; exact read_whole_blk main_v10 (win0_12.index t) i12 _ (V m c main_v10)
  · rw [← v11]; exact read_whole_blk main_v11 (win0_13.index t) i13 _ (V m c main_v11)
  · rw [← v12]; exact read_whole_blk main_v12 (win0_14.index t) i14 _ (V m c main_v12)
  · rw [← v13]; exact read_whole_blk main_v13 (win0_15.index t) i15 _ (V m c main_v13)
  · rw [← v14]; exact read_whole_blk main_v14 (win0_16.index t) i16 _ (V m c main_v14)
  · rw [← v15]; exact read_whole_blk main_v15 (win0_17.index t) i17 _ (V m c main_v15)

/-! ## The result block of a grid point inside the result array -/

/-- The grid point that works on batch element b. -/
def ptOf (b : Fin 4) : Fin cfg0.N := b.cast N_eq.symm

theorem bOf_ptOf (b : Fin 4) : bOf (ptOf b) = b := rfl

/-- Entry (0, ch, t) of the result block of batch element b's grid point is entry (b, ch, t) of the result array. -/
theorem out_emb (b : Fin 4) (ch : Fin 512) (t : Fin 256) :
    (((cfg0.win 18).blk (ptOf b)).view.emb (ix3 (0 : Fin 1) ch t) : S4x512x256.Idx) = ix3 b ch t := by
  obtain ⟨-, -, -, -, -, -, -, h0, h1, h2⟩ := idx_batch (ptOf b)
  funext a
  apply Fin.ext
  match a with
  | ⟨0, _⟩ => show win0_18.index (ptOf b) (0 : Fin 3) * 1 + 1 * 0 = b.val; rw [h0]; show b.val * 1 + 1 * 0 = b.val; omega
  | ⟨1, _⟩ => show win0_18.index (ptOf b) (1 : Fin 3) * 512 + 1 * ch.val = ch.val; rw [h1]; omega
  | ⟨2, _⟩ => show win0_18.index (ptOf b) (2 : Fin 3) * 256 + 1 * t.val = t.val; rw [h2]; omega

/-- An array read through batch element b's result block at (0, ch, t) is the array at (b, ch, t). -/
theorem read_out_blk (c : Dev nD) (f : Buf (Elt F) ((cfg0.win 18).arr.view.loc (c.tc : Thread nD τ))) (b : Fin 4) (ch : Fin 512)
    (t : Fin 256) : ((cfg0.win 18).blk (ptOf b)).view.read (Elt F) f (ix3 (0 : Fin 1) ch t) = f (ix3 b ch t) :=
  congrArg f (out_emb b ch t)

/-! ## What a grid point writes back, and the result array -/

/-- What a grid point writes back is the body's function of its batch element's blocks and the parameter columns. -/
theorem flushed_eq (c : Dev nD) (t : Fin cfg0.N) :
    (dats m 0 c).flushed 18 t
      = KTerm.out (inA (m ((c : Thread nD τ).loc main_arg0)) (bOf t)) (inV (m ((c : Thread nD τ).loc main_arg1)) (bOf t)) (inP (m ((c : Thread nD τ).loc main_arg2))) (inP (m ((c : Thread nD τ).loc main_arg3))) (inP (m ((c : Thread nD τ).loc main_arg4))) (inP (m ((c : Thread nD τ).loc main_arg5))) (inP (m ((c : Thread nD τ).loc main_arg6))) (inP (m ((c : Thread nD τ).loc main_arg7))) (inP (m ((c : Thread nD τ).loc main_arg8))) (inP (m ((c : Thread nD τ).loc main_arg9)))
        (inP8 (m ((c : Thread nD τ).loc main_arg10))) (inP8 (m ((c : Thread nD τ).loc main_arg11))) (inP8 (m ((c : Thread nD τ).loc main_arg12))) (inP8 (m ((c : Thread nD τ).loc main_arg13))) (inP (m ((c : Thread nD τ).loc main_arg14))) (inP (m ((c : Thread nD τ).loc main_arg15))) (inP (m ((c : Thread nD τ).loc main_arg16))) (inP (m ((c : Thread nD τ).loc main_arg17))) := by
  obtain ⟨p2, p3, p4, p5, p6, p7, p8, p9, p10, p11, p12, p13, p14, p15, p16, p17⟩ := iblk_par m c t
  have h := (flushed18_A m c t).trans (congrArg ((cfg0.win 18).cut (grid0.coords t))
    (KRun.out0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t)
      scM0_0 (Memref.isWhole_whole _) scM0_1 (Memref.isWhole_whole _)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)))
  rw [iblk0_eq m c t, iblk1_eq m c t, p2, p3, p4, p5, p6, p7, p8, p9, p10, p11, p12, p13, p14, p15, p16, p17] at h
  exact h

/-- The result array after the run, entry by entry. -/
theorem arrAt_apply (c : Dev nD) (b : Fin 4) (ch : Fin 512) (t : Fin 256) :
    (dats m 0 c).arrAt 18 cfg0.N (ix3 b ch t)
      = KTerm.out (inA (m ((c.tc : Thread nD τ).loc main_arg0)) b) (inV (m ((c.tc : Thread nD τ).loc main_arg1)) b) (inP (m ((c.tc : Thread nD τ).loc main_arg2))) (inP (m ((c.tc : Thread nD τ).loc main_arg3))) (inP (m ((c.tc : Thread nD τ).loc main_arg4))) (inP (m ((c.tc : Thread nD τ).loc main_arg5))) (inP (m ((c.tc : Thread nD τ).loc main_arg6))) (inP (m ((c.tc : Thread nD τ).loc main_arg7))) (inP (m ((c.tc : Thread nD τ).loc main_arg8))) (inP (m ((c.tc : Thread nD τ).loc main_arg9)))
          (inP8 (m ((c.tc : Thread nD τ).loc main_arg10))) (inP8 (m ((c.tc : Thread nD τ).loc main_arg11))) (inP8 (m ((c.tc : Thread nD τ).loc main_arg12))) (inP8 (m ((c.tc : Thread nD τ).loc main_arg13))) (inP (m ((c.tc : Thread nD τ).loc main_arg14))) (inP (m ((c.tc : Thread nD τ).loc main_arg15))) (inP (m ((c.tc : Thread nD τ).loc main_arg16))) (inP (m ((c.tc : Thread nD τ).loc main_arg17)))
          (ix3 (0 : Fin 1) ch t) := by
  have hb := congrFun (blocks18 m c (ptOf b) (flush0_18 (ptOf b))) (ix3 (0 : Fin 1) ch t)
  rw [flushed_eq m c (ptOf b), bOf_ptOf] at hb
  exact (read_out_blk c ((dats m 0 c).arrAt 18 cfg0.N) b ch t).symm.trans hb

end Cert.KernelIdeal.KBlocks

end
-- ==== Proof.Spec.lean ====
/-
  The two programs' results as functions of real arrays, for one batch element.

  The audio array a[ca, ta, f] (128 × 64 × 64) is expanded to 512 channels by repeating each channel four times, scaled and
  shifted per channel, normalised over all its 512·64·64 entries (mean, variance, reciprocal square root of variance + ε),
  and scaled and shifted per channel again: once with the first parameter set (the value branch) and once, followed by
  max(·, 0), with the second (the gate branch). The video array v[c, t] (512 × 256) goes through two branches: expanded to
  eight heads per channel with per-(channel, head) scale and shift, normalised over all 512·8·256 entries, affine per
  (channel, head), averaged over the heads and soft-maxed over t (the attention); and scaled, shifted, normalised over its
  512·256 entries and affine per channel (the key). The result at (c, t) combines the audio branches at time ⌊t/4⌋ with the
  attention and the key and adds v[c, t]. The reference sums over f the products entry by entry; the kernel first sums
  each audio branch over f and works with the head averages of the affine parameters instead of the affine heads.
-/
import Idealize.ShloMosaic.PureOps.Ideal

noncomputable section

open scoped BigOperators

namespace Cert.Spec

open Idealize.ShloMosaic

/-- The audio of one batch element. -/
abbrev Aud := Fin 128 → Fin 64 → Fin 64 → ℝ
/-- The video of one batch element. -/
abbrev Vid := Fin 512 → Fin 256 → ℝ
/-- A per-channel parameter. -/
abbrev Par := Fin 512 → ℝ
/-- A per-(channel, head) parameter. -/
abbrev Par8 := Fin 512 → Fin 8 → ℝ

/-- The audio channel that feeds expanded channel c. -/
def q4 (c : Fin 512) : Fin 128 := ⟨c.val / 4, by omega⟩
/-- The audio time step that feeds video time step t. -/
def t4 (t : Fin 256) : Fin 64 := ⟨t.val / 4, by omega⟩

/-- A parameter over the 4096 head channels as a per-(channel, head) parameter: head channel 8·c + h. -/
def p8 (w : Fin 4096 → ℝ) : Par8 := fun c h => w ⟨8 * c.val + h.val, by omega⟩

/-- The variance offset ε: the real the f32 pattern of 1e-5 denotes. -/
def eps : ℝ := (Ideal.ofBits .f32 0x3727C5AC#32).toReal

/-- 1/√x. -/
def rsq (x : ℝ) : ℝ := (Real.sqrt x)⁻¹

/-! ## The audio branches -/

/-- The expanded, scaled and shifted audio. -/
def xa (a : Aud) (w b : Par) (c : Fin 512) (ta f : Fin 64) : ℝ := a (q4 c) ta f * w c + b c
/-- Its mean over all entries. -/
def muA (a : Aud) (w b : Par) : ℝ := (∑ c, ∑ ta, ∑ f, xa a w b c ta f) / 2097152
/-- Its variance over all entries. -/
def varA (a : Aud) (w b : Par) : ℝ :=
  (∑ c, ∑ ta, ∑ f, (xa a w b c ta f - muA a w b) * (xa a w b c ta f - muA a w b)) / 2097152
/-- The normalised audio, affine per channel. -/
def gnA (a : Aud) (w b g be : Par) (c : Fin 512) (ta f : Fin 64) : ℝ :=
  (xa a w b c ta f - muA a w b) * rsq (varA a w b + eps) * g c + be c

/-! ## The attention branch of the video -/

/-- The video expanded to eight heads, scaled and shifted. -/
def xv (v : Vid) (w b : Par8) (c : Fin 512) (h : Fin 8) (t : Fin 256) : ℝ := v c t * w c h + b c h
/-- Its mean over all entries. -/
def muV (v : Vid) (w b : Par8) : ℝ := (∑ c, ∑ h, ∑ t, xv v w b c h t) / 1048576
/-- Its variance over all entries. -/
def varV (v : Vid) (w b : Par8) : ℝ :=
  (∑ c, ∑ h, ∑ t, (xv v w b c h t - muV v w b) * (xv v w b c h t - muV v w b)) / 1048576
/-- The head average of the normalised, affine heads: the reference's form. -/
def vmR (v : Vid) (w b g be : Par8) (c : Fin 512) (t : Fin 256) : ℝ :=
  (∑ h, ((xv v w b c h t - muV v w b) * rsq (varV v w b + eps) * g c h + be c h)) / 8
/-- The same average from the head averages of the parameters: the kernel's form. -/
def vmK (v : Vid) (w b g be : Par8) (c : Fin 512) (t : Fin 256) : ℝ :=
  rsq (varV v w b + eps) * ((∑ h, xv v w b c h t * g c h) / 8 - muV v w b * ((∑ h, g c h) / 8)) + (∑ h, be c h) / 8
/-- The largest entry of a row. -/
def rowMax (r : Fin 256 → ℝ) : ℝ := Finset.univ.sup' Finset.univ_nonempty r
/-- The soft-max of a row. -/
def smax (r : Fin 256 → ℝ) (t : Fin 256) : ℝ :=
  Real.exp (r t - rowMax r) / ∑ t', Real.exp (r t' - rowMax r)

/-! ## The key branch of the video -/

/-- The scaled and shifted video. -/
def xk (v : Vid) (w b : Par) (c : Fin 512) (t : Fin 256) : ℝ := v c t * w c + b c
/-- Its mean over all entries. -/
def muK (v : Vid) (w b : Par) : ℝ := (∑ c, ∑ t, xk v w b c t) / 131072
/-- Its variance over all entries. -/
def varK (v : Vid) (w b : Par) : ℝ := (∑ c, ∑ t, (xk v w b c t - muK v w b) * (xk v w b c t - muK v w b)) / 131072
/-- The key: normalised and affine per channel. -/
def vkey (v : Vid) (w b g be : Par) (c : Fin 512) (t : Fin 256) : ℝ :=
  (xk v w b c t - muK v w b) * rsq (varK v w b + eps) * g c + be c

/-! ## The two results -/

/-- The reference's result at (c, t): the sum over f of the products, plus the video. -/
def refOut (a : Aud) (v : Vid) (p1w p1b p1g p1be p2w p2b p2g p2be : Par) (f1w f1b f1g f1be : Par8) (f2w f2b f2g f2be : Par)
    (c : Fin 512) (t : Fin 256) : ℝ :=
  (∑ f, (gnA a p1w p1b p1g p1be c (t4 t) f * smax (vmR v f1w f1b f1g f1be c) t
          + max (gnA a p2w p2b p2g p2be c (t4 t) f) 0 * vkey v f2w f2b f2g f2be c t)) + v c t

/-- The kernel's result at (c, t): the attention times the value branch summed over f, plus the key times the gate
    branch summed over f, plus the video. -/
def kerOut (a : Aud) (v : Vid) (p1w p1b p1g p1be p2w p2b p2g p2be : Par) (f1w f1b f1g f1be : Par8) (f2w f2b f2g f2be : Par)
    (c : Fin 512) (t : Fin 256) : ℝ :=
  smax (vmK v f1w f1b f1g f1be c) t * (∑ f, gnA a p1w p1b p1g p1be c (t4 t) f)
    + vkey v f2w f2b f2g f2be c t * (∑ f, max (gnA a p2w p2b p2g p2be c (t4 t) f) 0) + v c t

end Cert.Spec

end
-- ==== Proof.Consts.lean ====
/-
  The float constants the two programs spell, as the extended reals their f32 patterns denote: the three element counts
  2^21, 2^20 and 2^17 by which the sums are divided, the head count 8, zero, and -∞.
-/
import Idealize.ShloMosaic.PureOps.Ideal

noncomputable section

namespace Cert.Consts

open Idealize.ShloMosaic

theorem ofBits_2p21 : Ideal.ofBits .f32 0x4A000000#32 = ((2097152 : ℝ) : EReal) := by
  simp [Ideal.ofBits, Ideal.ieee, -EReal.coe_mul]; norm_num
theorem ofBits_2p20 : Ideal.ofBits .f32 0x49800000#32 = ((1048576 : ℝ) : EReal) := by
  simp [Ideal.ofBits, Ideal.ieee, -EReal.coe_mul]; norm_num
theorem ofBits_2p17 : Ideal.ofBits .f32 0x48000000#32 = ((131072 : ℝ) : EReal) := by
  simp [Ideal.ofBits, Ideal.ieee, -EReal.coe_mul]; norm_num
theorem ofBits_8 : Ideal.ofBits .f32 0x41000000#32 = ((8 : ℝ) : EReal) := by
  simp [Ideal.ofBits, Ideal.ieee, -EReal.coe_mul]; norm_num
theorem ofBits_zero : Ideal.ofBits .f32 0x00000000#32 = ((0 : ℝ) : EReal) := by
  simp [Ideal.ofBits, Ideal.ieee]
theorem ofBits_negInf : Ideal.ofBits .f32 0xFF800000#32 = (⊥ : EReal) := by
  simp [Ideal.ofBits, Ideal.ieee]

/-- The pattern of 1e-5, the variance offset ε: the normal number (2^23 + 2606508) · 2^(110 - 127 - 23) = 2748779 / 2^38. -/
theorem ofBits_eps : Ideal.ofBits .f32 0x3727C5AC#32 = ((2748779 / 274877906944 : ℝ) : EReal) := by
  simp [Ideal.ofBits, Ideal.ieee, -EReal.coe_mul]; norm_num

end Cert.Consts

end
-- ==== Proof.SpecMath.lean ====
/-
  The two results of Spec.lean are one function, and the side facts the readings of the two programs need: ε is the real its
  pattern denotes and is positive, the three variances are nonnegative, and a soft-max's denominator is positive.
-/
import proofs.«420707_j90769838834068_3_alg».proof.Proof.Spec
import proofs.«420707_j90769838834068_3_alg».proof.Proof.Consts

noncomputable section

open scoped BigOperators

namespace Cert.Spec

open Idealize.ShloMosaic

/-- ε as an extended real is the value of its f32 pattern. -/
theorem coe_eps : ((eps : ℝ) : EReal) = Ideal.ofBits .f32 0x3727C5AC#32 := by
  rw [eps, Cert.Consts.ofBits_eps, EReal.toReal_coe]
theorem eps_pos : 0 < eps := by
  rw [eps, Cert.Consts.ofBits_eps, EReal.toReal_coe]; norm_num

theorem varA_nonneg (a : Aud) (w b : Par) : 0 ≤ varA a w b := by
  exact div_nonneg (Finset.sum_nonneg fun _ _ => Finset.sum_nonneg fun _ _ => Finset.sum_nonneg fun _ _ => mul_self_nonneg _)
    (by norm_num)
theorem varV_nonneg (v : Vid) (w b : Par8) : 0 ≤ varV v w b := by
  exact div_nonneg (Finset.sum_nonneg fun _ _ => Finset.sum_nonneg fun _ _ => Finset.sum_nonneg fun _ _ => mul_self_nonneg _)
    (by norm_num)
theorem varK_nonneg (v : Vid) (w b : Par) : 0 ≤ varK v w b := by
  exact div_nonneg (Finset.sum_nonneg fun _ _ => Finset.sum_nonneg fun _ _ => mul_self_nonneg _) (by norm_num)
theorem varA_eps_pos (a : Aud) (w b : Par) : 0 < varA a w b + eps := by
  exact add_pos_of_nonneg_of_pos (varA_nonneg a w b) eps_pos
theorem varV_eps_pos (v : Vid) (w b : Par8) : 0 < varV v w b + eps := by
  exact add_pos_of_nonneg_of_pos (varV_nonneg v w b) eps_pos
theorem varK_eps_pos (v : Vid) (w b : Par) : 0 < varK v w b + eps := by
  exact add_pos_of_nonneg_of_pos (varK_nonneg v w b) eps_pos

/-- The denominator of a soft-max is positive. -/
theorem sumexp_pos (r : Fin 256 → ℝ) : 0 < ∑ t', Real.exp (r t' - rowMax r) := by
  exact Finset.sum_pos (fun _ _ => Real.exp_pos _) Finset.univ_nonempty

/-- The head average of the affine heads is the affine map of the head averages. -/
theorem vmK_eq_vmR (v : Vid) (w b g be : Par8) (c : Fin 512) (t : Fin 256) : vmK v w b g be c t = vmR v w b g be c t := by
  unfold vmK vmR
  simp only [Fin.sum_univ_eight]
  ring

/-- The kernel's result is the reference's. -/
theorem kerOut_eq_refOut (a : Aud) (v : Vid) (p1w p1b p1g p1be p2w p2b p2g p2be : Par) (f1w f1b f1g f1be : Par8)
    (f2w f2b f2g f2be : Par) (c : Fin 512) (t : Fin 256) :
    kerOut a v p1w p1b p1g p1be p2w p2b p2g p2be f1w f1b f1g f1be f2w f2b f2g f2be c t
      = refOut a v p1w p1b p1g p1be p2w p2b p2g p2be f1w f1b f1g f1be f2w f2b f2g f2be c t := by
  have hvm : vmK v f1w f1b f1g f1be c = vmR v f1w f1b f1g f1be c := funext fun t' => vmK_eq_vmR v f1w f1b f1g f1be c t'
  unfold kerOut refOut
  rw [hvm, Finset.sum_add_distrib, ← Finset.sum_mul, ← Finset.sum_mul]
  ring

end Cert.Spec

end
-- ==== Proof.LibReal.lean ====
/-
  Reals inside the extended reals, and the finiteness precondition read back.

  General facts, independent of any program: the cast of a finite sum of reals; the f32 pattern of -∞; an extended
  real whose absolute value is below +∞ is a real; and one conjunct of a printed "all inputs finite" precondition —
  an and-reduce to a scalar of the elementwise test |x| < +∞ that came out 1 — makes every entry of the array a real.
-/
import Idealize.ShloMosaic.PureOps.Ideal
import Idealize.ShloMosaic.PureOps.Ideal.Laws
import Idealize.ShloMosaic.Lib.ReduceAll
import Idealize.ShloMosaic.Lib.Pipeline.Value
import Idealize.ShloMosaic.Lib.ValueIdx

noncomputable section

open scoped BigOperators

namespace Cert.LibReal

open Idealize.ShloMosaic Idealize.ShloMosaic.ValueIdx

/-- An extended real that is a real. -/
def IsReal (x : EReal) : Prop := ∃ r : ℝ, x = (r : EReal)

/-- The cast of a finite sum of reals is the sum of the casts. -/
theorem coe_sum {ι : Type*} (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

/-- The f32 pattern of -∞ is the bottom of the extended reals. -/
theorem ofBits_negInf_f32 : Ideal.ofBits .f32 0xFF800000#32 = ⊥ := by simp [Ideal.ofBits, Ideal.ieee]

/-- The f32 pattern of +∞ is the top of the extended reals. -/
theorem ofBits_posInf_f32 : Ideal.ofBits .f32 0x7F800000#32 = ⊤ := by simp [Ideal.ofBits, Ideal.ieee]

/-- The scalar shape has one index. -/
instance : Subsingleton (⟨0, ![]⟩ : Shape).Idx := ⟨fun a b => funext fun d => d.elim0⟩

/-- An extended real whose absolute value is below +∞ is a real. -/
theorem isReal_of_abs_lt_top (x : EReal) (h : max x (-x) < ⊤) : IsReal x := by
  induction x using EReal.rec with
  | bot => simp at h
  | top => simp at h
  | coe r => exact ⟨r, rfl⟩

/-- One conjunct of a finiteness precondition: an and-reduce to a scalar of "|x| < +∞" that is 1 makes every entry of
    x a real, at any shape and whichever axes the reduce names. -/
theorem isReal_of_all {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi (cmpf .olt (Host.absf x) (broadcastInDim s ![] hb (constant (F := Ideal) ⟨0, ![]⟩ .f32 0x7F800000#32)))
      (constantI ⟨0, ![]⟩ 1 1#1) hr hu ix0 = 1#1) (i : s.Idx) : IsReal (x i) := by
  have h1 := Host.reduce_andi_all _ _ hr hu ix0 e i
  rw [cmpf_apply, broadcastInDim_apply ![] hb _ i ix0 (fun a => a.elim0)] at h1
  have h3 : Ideal.cmp .olt (max (x i) (-(x i))) (Ideal.ofBits .f32 0x7F800000#32) = 1#1 := h1
  rw [ofBits_posInf_f32] at h3
  refine isReal_of_abs_lt_top _ ?_
  by_contra hn
  unfold Ideal.cmp at h3
  simp [hn] at h3

end Cert.LibReal

end
-- ==== Proof.Arr.lean ====
/-
  Arrays of reals as arrays of extended reals, by coordinates: the cast of a real array of rank 1 to 4, read at an index built
  from coordinates, and the converse — an array of extended reals whose every entry is a real is such a cast.
-/
import Idealize.ShloMosaic.Lib.ValueIdx
import proofs.«420707_j90769838834068_3_alg».proof.Proof.LibReal

noncomputable section

namespace Cert.Arr

open Idealize.ShloMosaic Idealize.ShloMosaic.ValueIdx Cert.LibReal

/-- A real vector as an array of extended reals. -/
def arr1 {n0 : Nat} (a : Fin n0 → ℝ) : (⟨1, ![n0]⟩ : Shape).Idx → EReal := fun i => ((a (i 0) : ℝ) : EReal)
/-- A real matrix as an array of extended reals. -/
def arr2 {n0 n1 : Nat} (a : Fin n0 → Fin n1 → ℝ) : (⟨2, ![n0, n1]⟩ : Shape).Idx → EReal :=
  fun i => ((a (i 0) (i 1) : ℝ) : EReal)
/-- A real rank-3 array as an array of extended reals. -/
def arr3 {n0 n1 n2 : Nat} (a : Fin n0 → Fin n1 → Fin n2 → ℝ) : (⟨3, ![n0, n1, n2]⟩ : Shape).Idx → EReal :=
  fun i => ((a (i 0) (i 1) (i 2) : ℝ) : EReal)
/-- A real rank-4 array as an array of extended reals. -/
def arr4 {n0 n1 n2 n3 : Nat} (a : Fin n0 → Fin n1 → Fin n2 → Fin n3 → ℝ) : (⟨4, ![n0, n1, n2, n3]⟩ : Shape).Idx → EReal :=
  fun i => ((a (i 0) (i 1) (i 2) (i 3) : ℝ) : EReal)

theorem arr1_apply {n0 : Nat} (a : Fin n0 → ℝ) (i : (⟨1, ![n0]⟩ : Shape).Idx) : arr1 a i = ((a (i 0) : ℝ) : EReal) := rfl
theorem arr2_apply {n0 n1 : Nat} (a : Fin n0 → Fin n1 → ℝ) (i : (⟨2, ![n0, n1]⟩ : Shape).Idx) :
    arr2 a i = ((a (i 0) (i 1) : ℝ) : EReal) := rfl
theorem arr3_apply {n0 n1 n2 : Nat} (a : Fin n0 → Fin n1 → Fin n2 → ℝ) (i : (⟨3, ![n0, n1, n2]⟩ : Shape).Idx) :
    arr3 a i = ((a (i 0) (i 1) (i 2) : ℝ) : EReal) := rfl
theorem arr4_apply {n0 n1 n2 n3 : Nat} (a : Fin n0 → Fin n1 → Fin n2 → Fin n3 → ℝ)
    (i : (⟨4, ![n0, n1, n2, n3]⟩ : Shape).Idx) : arr4 a i = ((a (i 0) (i 1) (i 2) (i 3) : ℝ) : EReal) := rfl

theorem arr1_ix1 {n0 : Nat} (a : Fin n0 → ℝ) (p : Fin n0) : arr1 a (ix1 p) = ((a p : ℝ) : EReal) := rfl
theorem arr2_ix2 {n0 n1 : Nat} (a : Fin n0 → Fin n1 → ℝ) (p : Fin n0) (q : Fin n1) :
    arr2 a (ix2 p q) = ((a p q : ℝ) : EReal) := rfl
theorem arr3_ix3 {n0 n1 n2 : Nat} (a : Fin n0 → Fin n1 → Fin n2 → ℝ) (p : Fin n0) (q : Fin n1) (r : Fin n2) :
    arr3 a (ix3 p q r) = ((a p q r : ℝ) : EReal) := rfl
theorem arr4_ix4 {n0 n1 n2 n3 : Nat} (a : Fin n0 → Fin n1 → Fin n2 → Fin n3 → ℝ) (p : Fin n0) (q : Fin n1) (r : Fin n2)
    (s : Fin n3) : arr4 a (ix4 p q r s) = ((a p q r s : ℝ) : EReal) := rfl

/-- An array of extended reals whose every entry is a real is the cast of a real vector. -/
theorem exists_arr1 {n0 : Nat} (x : (⟨1, ![n0]⟩ : Shape).Idx → EReal) (h : ∀ i, IsReal (x i)) : ∃ a, x = arr1 a := by
  refine ⟨fun p => (x (ix1 p)).toReal, funext fun i => ?_⟩
  obtain ⟨r, hr⟩ := h i
  exact (by rw [hr, EReal.toReal_coe] : x i = (((x i).toReal : ℝ) : EReal)).trans
    (congrArg (fun j => (((x j).toReal : ℝ) : EReal)) (eq_ix1 i))
theorem exists_arr3 {n0 n1 n2 : Nat} (x : (⟨3, ![n0, n1, n2]⟩ : Shape).Idx → EReal) (h : ∀ i, IsReal (x i)) :
    ∃ a, x = arr3 a := by
  refine ⟨fun p q r => (x (ix3 p q r)).toReal, funext fun i => ?_⟩
  obtain ⟨r, hr⟩ := h i
  exact (by rw [hr, EReal.toReal_coe] : x i = (((x i).toReal : ℝ) : EReal)).trans
    (congrArg (fun j => (((x j).toReal : ℝ) : EReal)) (eq_ix3 i))
theorem exists_arr4 {n0 n1 n2 n3 : Nat} (x : (⟨4, ![n0, n1, n2, n3]⟩ : Shape).Idx → EReal) (h : ∀ i, IsReal (x i)) :
    ∃ a, x = arr4 a := by
  refine ⟨fun p q r s => (x (ix4 p q r s)).toReal, funext fun i => ?_⟩
  obtain ⟨r, hr⟩ := h i
  exact (by rw [hr, EReal.toReal_coe] : x i = (((x i).toReal : ℝ) : EReal)).trans
    (congrArg (fun j => (((x j).toReal : ℝ) : EReal)) (eq_ix4 i))

end Cert.Arr

end
-- ==== Proof.LibCoe.lean ====
/-
  Reals inside the extended reals: how the operations of the ideal float instance act on real arguments.

  General facts, independent of any program. The cast of a finite sum of reals; the quotient of two reals with a nonzero
  divisor; the reciprocal square root of a positive real; the exponential, the maximum and the maximum of a finite family
  folded from -∞, each of real arguments: all are again reals, the ones the real operations give.
-/
import Idealize.ShloMosaic.PureOps.Ideal

noncomputable section

open scoped BigOperators

namespace Cert.LibCoe

open Idealize.ShloMosaic

/-- The cast of a finite sum of reals is the sum of the casts. -/
theorem coe_sum {ι : Type*} (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

/-- The ideal quotient of two reals with a nonzero divisor is the real quotient. -/
theorem div_coe_coe (x : ℝ) {y : ℝ} (h : y ≠ 0) : Ideal.div (x : EReal) (y : EReal) = ((x / y : ℝ) : EReal) := by
  rw [Ideal.div_coe h, ← EReal.coe_mul, mul_one_div]

/-- The ideal reciprocal square root of a positive real is the real one. -/
theorem rsqrt_coe_pos {x : ℝ} (h : 0 < x) : Ideal.rsqrt (x : EReal) = (((Real.sqrt x)⁻¹ : ℝ) : EReal) := by
  rw [Ideal.rsqrt_coe, if_neg (not_lt.mpr h.le), if_neg h.ne']

/-- The ideal exponential of a real is the real one. -/
theorem exp_coe (x : ℝ) : Ideal.exp (x : EReal) = ((Real.exp x : ℝ) : EReal) := rfl

/-- The maximum of two reals, taken in the extended reals, is the real maximum. -/
theorem max_coe (x y : ℝ) : max (x : EReal) (y : EReal) = ((max x y : ℝ) : EReal) := by
  rcases le_total x y with hxy | hxy
  · rw [max_eq_right hxy, max_eq_right (EReal.coe_le_coe_iff.mpr hxy)]
  · rw [max_eq_left hxy, max_eq_left (EReal.coe_le_coe_iff.mpr hxy)]

/-- The maximum of a nonempty finite family of reals, folded in the extended reals from -∞, is the real maximum. -/
theorem fold_max_bot_coe {ι : Type*} [Fintype ι] [Nonempty ι] (r : ι → ℝ) :
    (Finset.univ : Finset ι).fold max (⊥ : EReal) (fun k => (r k : EReal))
      = ((Finset.univ.sup' Finset.univ_nonempty r : ℝ) : EReal) := by
  rw [Finset.comp_sup'_eq_sup'_comp Finset.univ_nonempty (fun x : ℝ => (x : EReal)) (fun x y => (max_coe x y).symm),
    Finset.sup'_eq_sup]
  rfl

end Cert.LibCoe

end
-- ==== Proof.LibSums.lean ====
/-
  Sums over the index set of a literal shape, split by coordinates, and the counting facts a masked mean needs.

  * A sum over the indices of a rank-3 or rank-4 shape is the iterated sum over its coordinates.
  * The coercion of a finite sum of reals to the extended reals is the sum of the coercions.
  * Summing, as 32-bit words, the widened bits of a mask over ALL of its indices counts the set bits, as long as the
    number of indices is below 2^32; read as a signed integer the count is itself when it is below 2^31.
  * An or-fold of one-bit words is 1 exactly when some word is 1; a max-fold, from the bottom element, of the
    extended reals 1 (bit set) and 0 (bit clear) is above zero exactly when some bit is set.
-/
import Idealize.ShloMosaic.Lib.ValueIdx
import Idealize.ShloMosaic.Lib.StableHlo.Predicate
import Idealize.ShloMosaic.PureOps.Reduce
import Idealize.ShloMosaic.PureOps.Ideal.Laws

noncomputable section

open scoped BigOperators

namespace Cert.LibSums

open Idealize.ShloMosaic Idealize.ShloMosaic.ValueIdx

/-! ## Sums by coordinates -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- The number of indices of a rank-4 shape is the product of its extents. -/
theorem card_idx4 {n0 n1 n2 n3 : Nat} : Fintype.card (⟨4, ![n0, n1, n2, n3]⟩ : Shape).Idx = n0 * n1 * n2 * n3 := by
  rw [Fintype.card_congr (idxEquiv4 (n0 := n0) (n1 := n1) (n2 := n2) (n3 := n3))]
  simp [Fintype.card_prod, Nat.mul_assoc]

/-! ## Reals inside the extended reals -/

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## Counting the set bits of a mask -/

/-- Summing the widened bits of a mask over all its indices (a reduce over every axis, to rank 0) counts the set bits,
    when the mask has fewer than 2^32 indices. -/
theorem toNat_reduce_count_total {s : Shape} {axes : List (Fin s.rank)} (mask : IVec s 1) (hw : 1 < 32)
    (h : s.ReducesTo axes ⟨0, ![]⟩) {u : Shape} (hu : 0 < u.numel) (hcard : Fintype.card s.Idx < 2 ^ 32)
    (j : (⟨0, ![]⟩ : Shape).Idx) :
    (Host.reduce IntOp.addi (extui 32 mask hw) (constantI u 32 0#32) h hu j).toNat
      = (Finset.univ.filter (fun i : s.Idx => mask i = 1#1)).card := by
  classical
  rw [Host.reduce_eq_fold]
  have hall : (Finset.univ.filter fun i : s.Idx => h.drop i = j) = Finset.univ :=
    Finset.filter_true_of_mem fun i _ => funext fun b => b.elim0
  rw [hall]
  have hval : ∀ i, (extui 32 mask hw i).toNat = if mask i = 1#1 then 1 else 0 :=
    fun i => StableHlo.Predicate.toNat_setWidth_bit (mask i)
  have hsum : ∑ i : s.Idx, (extui 32 mask hw i).toNat = (Finset.univ.filter (fun i : s.Idx => mask i = 1#1)).card := by
    rw [Finset.card_filter]; exact Finset.sum_congr rfl fun i _ => hval i
  show (Finset.fold IntOp.addi 0#32 (extui 32 mask hw) Finset.univ).toNat = _
  rw [StableHlo.Predicate.toNat_fold_addi _ _ (by
    rw [hsum]; exact lt_of_le_of_lt (Finset.card_le_univ _) (by simpa using hcard)), hsum]

/-- A 32-bit word whose unsigned value is a count below 2^31 reads, as a signed integer cast to the reals, as that
    count. -/
theorem toInt_cast_of_toNat {w : BitVec 32} {n : ℕ} (hw : w.toNat = n) (hn : n < 2 ^ 31) : ((w.toInt : ℝ)) = (n : ℝ) := by
  rw [StableHlo.Predicate.toInt_eq_toNat_of_lt (by omega), hw]; simp

/-- A widened bit read as a signed integer, as a real: 1 when the bit is set, 0 otherwise. -/
theorem bit_toInt (b : BitVec 1) : (((b.setWidth 32).toInt : ℝ)) = if b = 1#1 then 1 else 0 := by
  rcases BitVec.eq_zero_or_eq_one b with rfl | rfl
  · simp
  · simp

/-! ## "Some bit is set" -/

/-- An or-fold of one-bit words from 0 is 1 exactly when some word is 1. -/
theorem fold_ori_eq_one {ι : Type*} (S : Finset ι) (f : ι → BitVec 1) :
    S.fold IntOp.ori 0#1 f = 1#1 ↔ ∃ i ∈ S, f i = 1#1 := by
  classical
  induction S using Finset.induction_on with
  | empty => simp
  | insert a S ha ih =>
    rw [Finset.fold_insert ha]
    have hor : ∀ x y : BitVec 1, IntOp.ori x y = 1#1 ↔ x = 1#1 ∨ y = 1#1 := by decide
    rw [hor, ih]
    constructor
    · rintro (h | ⟨i, hi, h⟩)
      · exact ⟨a, Finset.mem_insert_self _ _, h⟩
      · exact ⟨i, Finset.mem_insert_of_mem hi, h⟩
    · rintro ⟨i, hi, h⟩
      rcases Finset.mem_insert.1 hi with rfl | hi
      · exact Or.inl h
      · exact Or.inr ⟨i, hi, h⟩

/-- A max-fold from the bottom element of the extended reals "1 where the bit is set, 0 where it is clear" is above
    zero exactly when some bit is set. -/
theorem zero_lt_fold_max {ι : Type*} (S : Finset ι) (f : ι → BitVec 1) :
    (0 : EReal) < S.fold max (⊥ : EReal) (fun i => if f i = 1#1 then (1 : EReal) else 0) ↔ ∃ i ∈ S, f i = 1#1 := by
  classical
  induction S using Finset.induction_on with
  | empty => simp
  | insert a S ha ih =>
    rw [Finset.fold_insert ha, lt_max_iff, ih]
    constructor
    · rintro (h | ⟨i, hi, h⟩)
      · refine ⟨a, Finset.mem_insert_self _ _, ?_⟩
        by_contra hne
        rw [if_neg hne] at h
        exact lt_irrefl _ h
      · exact ⟨i, Finset.mem_insert_of_mem hi, h⟩
    · rintro ⟨i, hi, h⟩
      rcases Finset.mem_insert.1 hi with rfl | hi
      · left; rw [if_pos h]; exact zero_lt_one
      · exact Or.inr ⟨i, hi, h⟩

end Cert.LibSums

end
-- ==== Proof.KBlk.lean ====
/-
  The kernel's input blocks of one grid point as casts of real arrays: the audio and video of one batch element with their
  leading unit axis, a per-channel parameter as a [512, 1] column, a scalar as a [1, 1] array.
-/
import proofs.«420707_j90769838834068_3_alg».proof.Proof.KTerm
import proofs.«420707_j90769838834068_3_alg».proof.Proof.Spec
import proofs.«420707_j90769838834068_3_alg».proof.Proof.Arr

noncomputable section

open scoped BigOperators

namespace Cert.KRead

open Idealize.ShloMosaic Idealize.ShloMosaic.ValueIdx Cert.KernelIdeal Cert.KernelIdeal.Gen Cert.KernelIdeal.KTerm Cert.Arr

variable [Cert.KernelIdeal.Facts]

/-- One batch element's audio as the kernel's [1, 128, 64, 64] block of extended reals. -/
abbrev blkA (a : Cert.Spec.Aud) : Vec Ideal S1x128x64x64 .f32 := arr4 (fun (_ : Fin 1) ca ta f => a ca ta f)
/-- One batch element's video as the kernel's [1, 512, 256] block. -/
abbrev blkV (v : Cert.Spec.Vid) : Vec Ideal S1x512x256 .f32 := arr3 (fun (_ : Fin 1) c t => v c t)
/-- A per-channel parameter as the kernel's [512, 1] column. -/
abbrev colP (w : Cert.Spec.Par) : Vec Ideal S512x1 .f32 := arr2 (fun c (_ : Fin 1) => w c)
/-- A scalar as a [1, 1] array. -/
abbrev one1 (x : ℝ) : FVec Ideal S1x1 .f32 := fun _ => ((x : ℝ) : EReal)

end Cert.KRead

end
-- ==== Proof.KReadExp.lean ====
/-
  The expansion of a chunk of the audio block read at an index.

  Each pass of the kernel reshapes the [1, 16, 64, 64] chunk to [16, 64, 64], inserts a unit axis, repeats it four times along
  that axis and reshapes [16, 4, 64, 64] to [64, 64, 64]: row j of the result is audio channel ⌊j/4⌋ of the chunk. On chunk k
  of a real audio block that is the audio channel feeding expanded channel 64 k + j. The three passes print the same
  function under three names.

  Also here, because every pass needs them: a [64, 1] parameter column reshaped to [64, 1, 1] and repeated over [64, 64, 64],
  and the lane sums of a [64, 64, 64] array (last axis, then the next, then down the
  column), each read at an index and all three together as the sum over all entries.
-/
import proofs.«420707_j90769838834068_3_alg».proof.Proof.KTerm
import proofs.«420707_j90769838834068_3_alg».proof.Proof.Spec
import proofs.«420707_j90769838834068_3_alg».proof.Proof.Arr
import Idealize.ShloMosaic.Lib.ValueIdx
import Idealize.ShloMosaic.Lib.ValueLayout
import Idealize.ShloMosaic.Lib.Pipeline.Value
import Idealize.ShloMosaic.PureOps.Ideal.Laws
import proofs.«420707_j90769838834068_3_alg».proof.Proof.KBlk

noncomputable section

open scoped BigOperators

namespace Cert.KRead

open Idealize.ShloMosaic Idealize.ShloMosaic.ValueIdx Cert.KernelIdeal Cert.KernelIdeal.Gen Cert.KernelIdeal.KTerm Cert.Arr

variable [Cert.KernelIdeal.Facts]

/-- The expansion of a chunk of sixteen audio channels to sixty-four rows, read at (j, ta, f): row j repeats audio channel
    ⌊j/4⌋ of the chunk. -/
theorem pay2_apply {F : FTy → Type} [FloatOps F] (x : Vec F S1x16x64x64 .f32) (j ta f : Fin 64) :
    k0_pay2 x (ix3 j ta f) = x (ix4 (0 : Fin 1) (⟨j.val / 4, by omega⟩ : Fin 16) ta f) := by
  unfold k0_pay2
  refine (shapeCast_apply _ _ (ix3 j ta f)
    (ix4 (⟨j.val / 4, by omega⟩ : Fin 16) (⟨j.val % 4, Nat.mod_lt _ (by norm_num)⟩ : Fin 4) ta f) ?_).trans ?_
  · rw [Shape.rowMajor_val_four, Shape.rowMajor_val_three]
    show (((j.val / 4) * 4 + j.val % 4) * 64 + ta.val) * 64 + f.val = (j.val * 64 + ta.val) * 64 + f.val
    rw [Nat.div_add_mod']
  refine (broadcastTo_apply _ _ _ (ix4 (⟨j.val / 4, by omega⟩ : Fin 16) (0 : Fin 1) ta f) fun ax => ?_).trans ?_
  · match ax with
    | ⟨0, _⟩ => rfl
    | ⟨1, _⟩ => rfl
    | ⟨2, _⟩ => rfl
    | ⟨3, _⟩ => rfl
  refine (shapeCast_apply _ _ _ (ix4 (⟨j.val / 4, by omega⟩ : Fin 16) (0 : Fin 1) ta f) rfl).trans ?_
  refine (shapeCast_apply _ _ _ (ix3 (⟨j.val / 4, by omega⟩ : Fin 16) ta f) ?_).trans ?_
  · rw [Shape.rowMajor_val_four, Shape.rowMajor_val_three]
    show ((j.val / 4) * 64 + ta.val) * 64 + f.val = ((((j.val / 4) * 1 + 0) * 64 + ta.val) * 64 + f.val)
    rw [Nat.mul_one, Nat.add_zero]
  exact shapeCast_1abc_abc_apply _ _ _ _ _

/-- The expansion of a chunk of sixteen audio channels to sixty-four rows, read at (j, ta, f): row j repeats audio channel
    ⌊j/4⌋ of the chunk. -/
theorem pay5_apply {F : FTy → Type} [FloatOps F] (x : Vec F S1x16x64x64 .f32) (j ta f : Fin 64) :
    k0_pay5 x (ix3 j ta f) = x (ix4 (0 : Fin 1) (⟨j.val / 4, by omega⟩ : Fin 16) ta f) := by
  unfold k0_pay5
  refine (shapeCast_apply _ _ (ix3 j ta f)
    (ix4 (⟨j.val / 4, by omega⟩ : Fin 16) (⟨j.val % 4, Nat.mod_lt _ (by norm_num)⟩ : Fin 4) ta f) ?_).trans ?_
  · rw [Shape.rowMajor_val_four, Shape.rowMajor_val_three]
    show (((j.val / 4) * 4 + j.val % 4) * 64 + ta.val) * 64 + f.val = (j.val * 64 + ta.val) * 64 + f.val
    rw [Nat.div_add_mod']
  refine (broadcastTo_apply _ _ _ (ix4 (⟨j.val / 4, by omega⟩ : Fin 16) (0 : Fin 1) ta f) fun ax => ?_).trans ?_
  · match ax with
    | ⟨0, _⟩ => rfl
    | ⟨1, _⟩ => rfl
    | ⟨2, _⟩ => rfl
    | ⟨3, _⟩ => rfl
  refine (shapeCast_apply _ _ _ (ix4 (⟨j.val / 4, by omega⟩ : Fin 16) (0 : Fin 1) ta f) rfl).trans ?_
  refine (shapeCast_apply _ _ _ (ix3 (⟨j.val / 4, by omega⟩ : Fin 16) ta f) ?_).trans ?_
  · rw [Shape.rowMajor_val_four, Shape.rowMajor_val_three]
    show ((j.val / 4) * 64 + ta.val) * 64 + f.val = ((((j.val / 4) * 1 + 0) * 64 + ta.val) * 64 + f.val)
    rw [Nat.mul_one, Nat.add_zero]
  exact shapeCast_1abc_abc_apply _ _ _ _ _

/-- The expansion of a chunk of sixteen audio channels to sixty-four rows, read at (j, ta, f): row j repeats audio channel
    ⌊j/4⌋ of the chunk. -/
theorem pay8_apply {F : FTy → Type} [FloatOps F] (x : Vec F S1x16x64x64 .f32) (j ta f : Fin 64) :
    k0_pay8 x (ix3 j ta f) = x (ix4 (0 : Fin 1) (⟨j.val / 4, by omega⟩ : Fin 16) ta f) := by
  unfold k0_pay8
  refine (shapeCast_apply _ _ (ix3 j ta f)
    (ix4 (⟨j.val / 4, by omega⟩ : Fin 16) (⟨j.val % 4, Nat.mod_lt _ (by norm_num)⟩ : Fin 4) ta f) ?_).trans ?_
  · rw [Shape.rowMajor_val_four, Shape.rowMajor_val_three]
    show (((j.val / 4) * 4 + j.val % 4) * 64 + ta.val) * 64 + f.val = (j.val * 64 + ta.val) * 64 + f.val
    rw [Nat.div_add_mod']
  refine (broadcastTo_apply _ _ _ (ix4 (⟨j.val / 4, by omega⟩ : Fin 16) (0 : Fin 1) ta f) fun ax => ?_).trans ?_
  · match ax with
    | ⟨0, _⟩ => rfl
    | ⟨1, _⟩ => rfl
    | ⟨2, _⟩ => rfl
    | ⟨3, _⟩ => rfl
  refine (shapeCast_apply _ _ _ (ix4 (⟨j.val / 4, by omega⟩ : Fin 16) (0 : Fin 1) ta f) rfl).trans ?_
  refine (shapeCast_apply _ _ _ (ix3 (⟨j.val / 4, by omega⟩ : Fin 16) ta f) ?_).trans ?_
  · rw [Shape.rowMajor_val_four, Shape.rowMajor_val_three]
    show ((j.val / 4) * 64 + ta.val) * 64 + f.val = ((((j.val / 4) * 1 + 0) * 64 + ta.val) * 64 + f.val)
    rw [Nat.mul_one, Nat.add_zero]
  exact shapeCast_1abc_abc_apply _ _ _ _ _

/-- On a real audio block, row j of the expansion of chunk k holds the audio channel that feeds expanded channel 64 k + j. -/
theorem pay2_chA (a : Cert.Spec.Aud) (k : Fin 8) (j ta f : Fin 64) :
    k0_pay2 (F := Ideal) (chA (blkA a) k) (ix3 j ta f)
      = ((a (Cert.Spec.q4 ⟨64 * k.val + j.val, by omega⟩) ta f : ℝ) : EReal) := by
  rw [pay2_apply]
  exact congrArg (fun c => ((a c ta f : ℝ) : EReal))
    (Fin.ext (by show 16 * k.val + j.val / 4 = (64 * k.val + j.val) / 4; omega))

/-- On a real audio block, row j of the expansion of chunk k holds the audio channel that feeds expanded channel 64 k + j. -/
theorem pay5_chA (a : Cert.Spec.Aud) (k : Fin 8) (j ta f : Fin 64) :
    k0_pay5 (F := Ideal) (chA (blkA a) k) (ix3 j ta f)
      = ((a (Cert.Spec.q4 ⟨64 * k.val + j.val, by omega⟩) ta f : ℝ) : EReal) := by
  rw [pay5_apply]
  exact congrArg (fun c => ((a c ta f : ℝ) : EReal))
    (Fin.ext (by show 16 * k.val + j.val / 4 = (64 * k.val + j.val) / 4; omega))

/-- On a real audio block, row j of the expansion of chunk k holds the audio channel that feeds expanded channel 64 k + j. -/
theorem pay8_chA (a : Cert.Spec.Aud) (k : Fin 8) (j ta f : Fin 64) :
    k0_pay8 (F := Ideal) (chA (blkA a) k) (ix3 j ta f)
      = ((a (Cert.Spec.q4 ⟨64 * k.val + j.val, by omega⟩) ta f : ℝ) : EReal) := by
  rw [pay8_apply]
  exact congrArg (fun c => ((a c ta f : ℝ) : EReal))
    (Fin.ext (by show 16 * k.val + j.val / 4 = (64 * k.val + j.val) / 4; omega))

/-- A [64, 1] column reshaped to [64, 1, 1] and repeated over [64, 64, 64] reads, at (j, ta, f), the column's row j. -/
theorem col_bcast_apply {F : FTy → Type} [FloatOps F] (v : Vec F S64x1 .f32) (j ta f : Fin 64) :
    broadcastTo S64x64x64 (shapeCast S64x1x1 (shapeCast S64x1 v Facts₀.shapeCasts_S64x1_S64x1) Facts₀.shapeCasts_S64x1_S64x1x1)
      Facts₀.broadcasts_S64x1x1_S64x64x64 (ix3 j ta f) = v (ix2 j (0 : Fin 1)) := by
  refine (broadcastTo_apply _ _ _ (ix3 j (0 : Fin 1) (0 : Fin 1)) fun ax => ?_).trans ?_
  · match ax with
    | ⟨0, _⟩ => rfl
    | ⟨1, _⟩ => rfl
    | ⟨2, _⟩ => rfl
  refine (shapeCast_apply _ _ _ (ix2 j (0 : Fin 1)) ?_).trans ?_
  · rw [Shape.rowMajor_val_three, Shape.rowMajor_val_two]
    show j.val * 1 + 0 = (j.val * 1 + 0) * 1 + 0
    omega
  exact shapeCast_apply _ _ _ _ rfl

/-- The sum over the last axis of a [64, 64, 64] array, at (j, ta). -/
theorem sum_axis2_apply (x : FVec Ideal S64x64x64 .f32) (j ta : Fin 64) :
    multiReduction .add [2] S64x64 x 0x00000000#32 Facts₀.reduces_S64x64x64_S64x64 (.inl rfl) rfl (ix2 j ta)
      = ∑ f : Fin 64, x (ix3 j ta f) := by
  refine (Ideal.multiReduction_add_single x _ _ _ _ (ix2 j ta)).trans ?_
  exact Finset.sum_congr rfl fun f _ => congrArg x (funext fun ax =>
    match ax with | ⟨0, _⟩ => rfl | ⟨1, _⟩ => rfl | ⟨2, _⟩ => rfl)

/-- The sum over the last axis of a [64, 64] array, at j. -/
theorem sum_axis1_apply (x : FVec Ideal S64x64 .f32) (j : Fin 64) :
    multiReduction .add [1] S64 x 0x00000000#32 Facts₀.reduces_S64x64_S64 (.inl rfl) rfl (ix1 j)
      = ∑ ta : Fin 64, x (ix2 j ta) := by
  refine (Ideal.multiReduction_add_single x _ _ _ _ (ix1 j)).trans ?_
  exact Finset.sum_congr rfl fun ta _ => congrArg x (funext fun ax =>
    match ax with | ⟨0, _⟩ => rfl | ⟨1, _⟩ => rfl)

/-- The sum down a [64, 1] column. -/
theorem sum_axis0_apply (x : FVec Ideal S64x1 .f32) (u : Fin 1) :
    multiReduction .add [0] S1 x 0x00000000#32 Facts₀.reduces_S64x1_S1 (.inl rfl) rfl (ix1 u)
      = ∑ j : Fin 64, x (ix2 j u) := by
  refine (Ideal.multiReduction_add_single x _ _ _ _ (ix1 u)).trans ?_
  exact Finset.sum_congr rfl fun j _ => congrArg x (funext fun ax =>
    match ax with | ⟨0, _⟩ => rfl | ⟨1, _⟩ => rfl)

/-- A vector of 64 entries reshaped to a [64, 1] column reads, at (j, u), entry j. -/
theorem shapeCast_col_apply {α : Type} (x : S64.Idx → α) (j : Fin 64) (u : Fin 1) :
    shapeCast S64x1 x Facts₀.shapeCasts_S64_S64x1 (ix2 j u) = x (ix1 j) :=
  shapeCast_apply x _ _ _ (by
    have hu : u.val = 0 := by omega
    rw [Shape.rowMajor_val_two, Shape.rowMajor_val_one]
    show j.val = j.val * 1 + u.val
    rw [hu, Nat.mul_one, Nat.add_zero])

/-- The three sums of a [64, 64, 64] array, last axis first, each result kept as an array: the [1, 1] result holds the sum
    over all entries. -/
theorem total_apply (x : FVec Ideal S64x64x64 .f32) (u v : Fin 1) :
    shapeCast S1x1 (multiReduction .add [0] S1 (shapeCast S64x1 (multiReduction .add [1] S64
        (multiReduction .add [2] S64x64 x 0x00000000#32 Facts₀.reduces_S64x64x64_S64x64 (.inl rfl) rfl)
        0x00000000#32 Facts₀.reduces_S64x64_S64 (.inl rfl) rfl) Facts₀.shapeCasts_S64_S64x1)
        0x00000000#32 Facts₀.reduces_S64x1_S1 (.inl rfl) rfl) Facts₀.shapeCasts_S1_S1x1 (ix2 u v)
      = ∑ j : Fin 64, ∑ ta : Fin 64, ∑ f : Fin 64, x (ix3 j ta f) := by
  refine (shapeCast_a_1a_apply _ _ u v).trans ?_
  refine (sum_axis0_apply _ v).trans (Finset.sum_congr rfl fun j _ => ?_)
  refine (shapeCast_col_apply _ j v).trans ?_
  refine (sum_axis1_apply _ j).trans (Finset.sum_congr rfl fun ta _ => ?_)
  exact sum_axis2_apply x j ta

end Cert.KRead

end
-- ==== Proof.KSumChunks.lean ====
/-
  A sum over 512 channels is the sum over the eight chunks of the sums over the sixty-four channels of each chunk.
-/
import Idealize.ShloMosaic.PureOps.Ideal

noncomputable section

open scoped BigOperators

namespace Cert.KRead

/-- Channel c = 64 k + j runs through all 512 channels once as k runs through the 8 chunks and j through the 64 channels
    of a chunk. -/
theorem sum_chunks (g : Fin 512 → ℝ) :
    ∑ c, g c = ∑ k : Fin 8, ∑ j : Fin 64, g ⟨64 * k.val + j.val, by omega⟩ := by
  rw [← Equiv.sum_comp (finProdFinEquiv : Fin 8 × Fin 64 ≃ Fin 512) g, Fintype.sum_prod_type]
  refine Finset.sum_congr rfl fun k _ => Finset.sum_congr rfl fun j _ => congrArg g (Fin.ext ?_)
  rw [finProdFinEquiv_apply_val]
  exact Nat.add_comm _ _

end Cert.KRead

end
-- ==== Proof.KReadS1.lean ====
/-
  The kernel's first pass read back: on real blocks the two running sums folded over the eight chunks are the sums of the
  two scaled-and-shifted expansions over all 512 · 64 · 64 entries.
-/
import proofs.«420707_j90769838834068_3_alg».proof.Proof.KTerm
import proofs.«420707_j90769838834068_3_alg».proof.Proof.Spec
import proofs.«420707_j90769838834068_3_alg».proof.Proof.SpecMath
import proofs.«420707_j90769838834068_3_alg».proof.Proof.Arr
import proofs.«420707_j90769838834068_3_alg».proof.Proof.LibCoe
import proofs.«420707_j90769838834068_3_alg».proof.Proof.Consts
import proofs.«420707_j90769838834068_3_alg».proof.Proof.LibSums
import Idealize.ShloMosaic.Lib.ValueIdx
import Idealize.ShloMosaic.Lib.ValueLayout
import Idealize.ShloMosaic.Lib.Pipeline.Value
import Idealize.ShloMosaic.PureOps.Ideal.Laws
import proofs.«420707_j90769838834068_3_alg».proof.Proof.KBlk
import proofs.«420707_j90769838834068_3_alg».proof.Proof.KReadExp
import proofs.«420707_j90769838834068_3_alg».proof.Proof.KSumChunks

noncomputable section

open scoped BigOperators

namespace Cert.KRead

open Idealize.ShloMosaic Idealize.ShloMosaic.ValueIdx Cert.KernelIdeal Cert.KernelIdeal.Gen Cert.KernelIdeal.KTerm Cert.Arr

variable [Cert.KernelIdeal.Facts]

/-- Chunk k of a real parameter column, at row j, is the parameter of channel 64 k + j. -/
private theorem chP_colP (w : Cert.Spec.Par) (k : Fin 8) (j : Fin 64) :
    chP (F := Ideal) (colP w) k (ix2 j (0 : Fin 1)) = ((w ⟨64 * k.val + j.val, by omega⟩ : ℝ) : EReal) := rfl

/-- The scaled and shifted expansion of chunk k of a real audio block, at (j, ta, f): the specification's entry of
    expanded channel 64 k + j. -/
private theorem xa_chunk_apply (a : Cert.Spec.Aud) (w b : Cert.Spec.Par) (k : Fin 8) (j ta f : Fin 64) :
    addf (mulf (k0_pay2 (F := Ideal) (chA (blkA a) k))
        (broadcastTo S64x64x64 (shapeCast S64x1x1 (shapeCast S64x1 (chP (colP w) k) Facts₀.shapeCasts_S64x1_S64x1)
          Facts₀.shapeCasts_S64x1_S64x1x1) Facts₀.broadcasts_S64x1x1_S64x64x64))
        (broadcastTo S64x64x64 (shapeCast S64x1x1 (shapeCast S64x1 (chP (colP b) k) Facts₀.shapeCasts_S64x1_S64x1)
          Facts₀.shapeCasts_S64x1_S64x1x1) Facts₀.broadcasts_S64x1x1_S64x64x64) (ix3 j ta f)
      = ((Cert.Spec.xa a w b ⟨64 * k.val + j.val, by omega⟩ ta f : ℝ) : EReal) := by
  refine (addf_apply _ _ _).trans ?_
  rw [mulf_apply, pay2_chA, col_bcast_apply, col_bcast_apply, chP_colP, chP_colP, ← EReal.coe_mul, ← EReal.coe_add]
  rfl

/-- One chunk of the first running sum on real blocks: the sum so far plus the chunk's sum of the expansion. -/
private theorem pay3_blk (acc : FVec Ideal S1x1 .f32) (a : Cert.Spec.Aud) (w b : Cert.Spec.Par) (k : Fin 8) :
    k0_pay3 (F := Ideal) acc (chA (blkA a) k) (chP (colP w) k) (chP (colP b) k)
      = fun i => acc i + ((∑ j : Fin 64, ∑ ta : Fin 64, ∑ f : Fin 64,
          Cert.Spec.xa a w b ⟨64 * k.val + j.val, by omega⟩ ta f : ℝ) : EReal) := by
  funext i
  obtain ⟨u, v, rfl⟩ : ∃ (u v : Fin 1), i = ix2 u v := ⟨i 0, i 1, eq_ix2 i⟩
  unfold k0_pay3
  refine (addf_apply _ _ _).trans (congrArg (acc (ix2 u v) + ·) ?_)
  refine (total_apply _ u v).trans ?_
  simp only [Cert.LibCoe.coe_sum]
  exact Finset.sum_congr rfl fun j _ => Finset.sum_congr rfl fun ta _ => Finset.sum_congr rfl fun f _ =>
    xa_chunk_apply a w b k j ta f

/-- One chunk of the second running sum on real blocks, likewise: its last sum is taken after the chunk's column of row sums
    has left the loop body. -/
private theorem pay11_pay4_blk (acc : FVec Ideal S1x1 .f32) (a : Cert.Spec.Aud) (w b : Cert.Spec.Par) (k : Fin 8) :
    k0_pay11 (F := Ideal) acc (k0_pay4 (chA (blkA a) k) (chP (colP w) k) (chP (colP b) k))
      = fun i => acc i + ((∑ j : Fin 64, ∑ ta : Fin 64, ∑ f : Fin 64,
          Cert.Spec.xa a w b ⟨64 * k.val + j.val, by omega⟩ ta f : ℝ) : EReal) := by
  funext i
  obtain ⟨u, v, rfl⟩ : ∃ (u v : Fin 1), i = ix2 u v := ⟨i 0, i 1, eq_ix2 i⟩
  unfold k0_pay11 k0_pay4
  refine (addf_apply _ _ _).trans (congrArg (acc (ix2 u v) + ·) ?_)
  refine (total_apply _ u v).trans ?_
  simp only [Cert.LibCoe.coe_sum]
  exact Finset.sum_congr rfl fun j _ => Finset.sum_congr rfl fun ta _ => Finset.sum_congr rfl fun f _ =>
    xa_chunk_apply a w b k j ta f

/-- A fold that adds one term per step to each of two running sums, started at zero, ends at the two totals. -/
theorem foldl_add2 {α : Type} (P : ℝ → ℝ → α) : ∀ (n : ℕ) (f : α → Fin n → α) (g1 g2 : Fin n → ℝ),
    (∀ s1 s2 k, f (P s1 s2) k = P (s1 + g1 k) (s2 + g2 k)) →
    Fin.foldl n f (P 0 0) = P (∑ k, g1 k) (∑ k, g2 k)
  | 0, f, g1, g2, _ => by simp [Fin.foldl_zero]
  | n + 1, f, g1, g2, h => by
    rw [Fin.foldl_succ_last, foldl_add2 P n (fun a i => f a i.castSucc) (fun i => g1 i.castSucc) (fun i => g2 i.castSucc)
      (fun s1 s2 k => h s1 s2 k.castSucc), h, Fin.sum_univ_castSucc, Fin.sum_univ_castSucc]

/-- The first pass's two sums. -/
theorem sums1_eq (a : Cert.Spec.Aud) (w1 b1 w2 b2 : Cert.Spec.Par) :
    sums1 (F := Ideal) (blkA a) (colP w1) (colP b1) (colP w2) (colP b2)
      = (one1 (∑ c, ∑ ta, ∑ f, Cert.Spec.xa a w1 b1 c ta f), one1 (∑ c, ∑ ta, ∑ f, Cert.Spec.xa a w2 b2 c ta f)) := by
  have h0 : k0_pay10 (F := Ideal) = one1 0 := funext fun _ => by
    unfold k0_pay10
    exact Cert.Consts.ofBits_zero
  unfold sums1
  rw [h0]
  refine (foldl_add2 (fun s1 s2 => (one1 s1, one1 s2)) 8 _
    (fun k => ∑ j : Fin 64, ∑ ta : Fin 64, ∑ f : Fin 64, Cert.Spec.xa a w1 b1 ⟨64 * k.val + j.val, by omega⟩ ta f)
    (fun k => ∑ j : Fin 64, ∑ ta : Fin 64, ∑ f : Fin 64, Cert.Spec.xa a w2 b2 ⟨64 * k.val + j.val, by omega⟩ ta f)
    (fun s1 s2 k => ?_)).trans ?_
  · unfold step1
    rw [pay3_blk, pay11_pay4_blk]
    exact Prod.ext (funext fun _ => (EReal.coe_add _ _).symm) (funext fun _ => (EReal.coe_add _ _).symm)
  · rw [sum_chunks (fun c => ∑ ta, ∑ f, Cert.Spec.xa a w1 b1 c ta f),
      sum_chunks (fun c => ∑ ta, ∑ f, Cert.Spec.xa a w2 b2 c ta f)]

end Cert.KRead

end
-- ==== Proof.KReadS2.lean ====
/-
  The kernel's second pass read back: on real blocks, given the first pass's sums, the two running sums folded over the
  eight chunks are the sums of the squared deviations of the two expansions from their means.

  A chunk's deviation array at (j, ta, f) is the expansion at (j, ta, f) times row j's scale plus row j's shift minus the
  mean; its squares are summed over f, then ta, then j and added to the running sum. The first running sum's step squares
  and sums the same array the second's is handed, so both steps are one function of the deviation array. Summing the eight
  chunks' contributions and re-indexing channel c = 64 k + j gives the sum over all 512 channels.
-/
import proofs.«420707_j90769838834068_3_alg».proof.Proof.KTerm
import proofs.«420707_j90769838834068_3_alg».proof.Proof.Spec
import proofs.«420707_j90769838834068_3_alg».proof.Proof.SpecMath
import proofs.«420707_j90769838834068_3_alg».proof.Proof.Arr
import proofs.«420707_j90769838834068_3_alg».proof.Proof.LibCoe
import proofs.«420707_j90769838834068_3_alg».proof.Proof.Consts
import proofs.«420707_j90769838834068_3_alg».proof.Proof.LibSums
import Idealize.ShloMosaic.Lib.ValueIdx
import Idealize.ShloMosaic.Lib.ValueLayout
import Idealize.ShloMosaic.Lib.Pipeline.Value
import Idealize.ShloMosaic.PureOps.Ideal.Laws
import proofs.«420707_j90769838834068_3_alg».proof.Proof.KBlk
import proofs.«420707_j90769838834068_3_alg».proof.Proof.KReadS1
import proofs.«420707_j90769838834068_3_alg».proof.Proof.KReadExp
import proofs.«420707_j90769838834068_3_alg».proof.Proof.KSumChunks

noncomputable section

open scoped BigOperators

namespace Cert.KRead

open Idealize.ShloMosaic Idealize.ShloMosaic.ValueIdx Cert.KernelIdeal Cert.KernelIdeal.Gen Cert.KernelIdeal.KTerm Cert.Arr

variable [Cert.KernelIdeal.Facts]

namespace S2

/-! ## Layout readings -/

/-- A [64, 1] column, viewed [64, 1, 1] and repeated over the last two axes, reads its row's entry. -/
theorem col_read (W : Vec Ideal S64x1 .f32) (h1 : S64x1.ShapeCasts S64x1) (h2 : S64x1.ShapeCasts S64x1x1)
    (h3 : S64x1x1.Broadcasts S64x64x64) (j ta f : Fin 64) :
    broadcastTo S64x64x64 (shapeCast S64x1x1 (shapeCast S64x1 W h1) h2) h3 (ix3 j ta f) = W (ix2 j (0 : Fin 1)) := by
  refine (broadcastTo_apply _ h3 (ix3 j ta f) (ix3 j (0 : Fin 1) (0 : Fin 1)) fun ax => ?_).trans ?_
  · match ax with
    | ⟨0, _⟩ => rfl
    | ⟨1, _⟩ => rfl
    | ⟨2, _⟩ => rfl
  rw [shapeCast_self]
  exact shapeCast_apply W h2 _ _ (by
    rw [Shape.rowMajor_val_three, Shape.rowMajor_val_two]
    show j.val * 1 + 0 = (j.val * 1 + 0) * 1 + 0
    omega)

/-- A [1, 1] array, viewed [1, 1, 1] and repeated over all three axes, reads its one entry. -/
theorem one_read (M : FVec Ideal S1x1 .f32) (h2 : S1x1.ShapeCasts S1x1x1)
    (h3 : S1x1x1.Broadcasts S64x64x64) (j ta f : Fin 64) :
    broadcastTo S64x64x64 (shapeCast S1x1x1 M h2) h3 (ix3 j ta f) = M (ix2 (0 : Fin 1) (0 : Fin 1)) := by
  refine (broadcastTo_apply _ h3 (ix3 j ta f) (ix3 (0 : Fin 1) (0 : Fin 1) (0 : Fin 1)) fun ax => ?_).trans ?_
  · match ax with
    | ⟨0, _⟩ => rfl
    | ⟨1, _⟩ => rfl
    | ⟨2, _⟩ => rfl
  exact shapeCast_apply M h2 _ _ (by
    rw [Shape.rowMajor_val_three, Shape.rowMajor_val_two]
    rfl)

/-- The deviation array of a chunk at (j, ta, f): the expansion scaled and shifted by row j's parameters, minus the mean. -/
theorem pay6_apply (M : FVec Ideal S1x1 .f32) (X : Vec Ideal S1x16x64x64 .f32) (W B : Vec Ideal S64x1 .f32) (j ta f : Fin 64) :
    k0_pay6 M X W B (ix3 j ta f)
      = k0_pay5 X (ix3 j ta f) * W (ix2 j (0 : Fin 1)) + B (ix2 j (0 : Fin 1)) - M (ix2 (0 : Fin 1) (0 : Fin 1)) := by
  unfold k0_pay6
  rw [subf_apply, addf_apply, mulf_apply, col_read, col_read, one_read]

/-! ## The three sums and the two views between them -/

/-- The sum over the last axis of a [64, 64, 64] array. -/
theorem red_f (D : FVec Ideal S64x64x64 .f32) (h : S64x64x64.Reduces [2] S64x64) (hφ : FKind.Formats .f32)
    (hacc : (0x00000000#32 : BitVec 32) = FKind.add.neutral .f32 hφ) (j ta : Fin 64) :
    multiReduction .add [2] S64x64 D 0x00000000#32 h hφ hacc (ix2 j ta) = ∑ f : Fin 64, D (ix3 j ta f) := by
  refine (Ideal.multiReduction_add_single D _ h hφ hacc (ix2 j ta)).trans ?_
  exact Finset.sum_congr rfl fun f _ => congrArg D (funext fun c => Fin.ext
    (match c with | ⟨0, _⟩ => rfl | ⟨1, _⟩ => rfl | ⟨2, _⟩ => rfl))

/-- The sum over the last axis of a [64, 64] array. -/
theorem red_t (D : FVec Ideal S64x64 .f32) (h : S64x64.Reduces [1] S64) (hφ : FKind.Formats .f32)
    (hacc : (0x00000000#32 : BitVec 32) = FKind.add.neutral .f32 hφ) (j : Fin 64) :
    multiReduction .add [1] S64 D 0x00000000#32 h hφ hacc (ix1 j) = ∑ ta : Fin 64, D (ix2 j ta) := by
  refine (Ideal.multiReduction_add_single D _ h hφ hacc (ix1 j)).trans ?_
  exact Finset.sum_congr rfl fun f _ => congrArg D (funext fun c => Fin.ext
    (match c with | ⟨0, _⟩ => rfl | ⟨1, _⟩ => rfl))

/-- The sum over the rows of a [64, 1] column. -/
theorem red_j (D : FVec Ideal S64x1 .f32) (h : S64x1.Reduces [0] S1) (hφ : FKind.Formats .f32)
    (hacc : (0x00000000#32 : BitVec 32) = FKind.add.neutral .f32 hφ) (u : Fin 1) :
    multiReduction .add [0] S1 D 0x00000000#32 h hφ hacc (ix1 u) = ∑ j : Fin 64, D (ix2 j (0 : Fin 1)) := by
  refine (Ideal.multiReduction_add_single D _ h hφ hacc (ix1 u)).trans ?_
  exact Finset.sum_congr rfl fun f _ => congrArg D (funext fun c => Fin.ext
    (match c with | ⟨0, _⟩ => rfl | ⟨1, _⟩ => by show (u : ℕ) = 0; omega))

/-- A vector of 64 entries viewed as a [64, 1] column. -/
theorem colcast_read (D : FVec Ideal S64 .f32) (h : S64.ShapeCasts S64x1) (j : Fin 64) (u : Fin 1) :
    shapeCast S64x1 D h (ix2 j u) = D (ix1 j) :=
  shapeCast_apply D h _ _ (by
    rw [Shape.rowMajor_val_two, Shape.rowMajor_val_one]
    show j.val = j.val * 1 + u.val
    omega)

/-- A vector of one entry viewed as a [1, 1] array. -/
theorem onecast_read (D : FVec Ideal S1 .f32) (h : S1.ShapeCasts S1x1) (i : S1x1.Idx) :
    shapeCast S1x1 D h i = D (ix1 (0 : Fin 1)) :=
  shapeCast_apply D h _ _ (by
    rw [Shape.rowMajor_val_two, Shape.rowMajor_val_one]
    have h0 : (i 0).val < 1 := (i 0).isLt
    have h1 : (i 1).val < 1 := (i 1).isLt
    show 0 = (i 0).val * 1 + (i 1).val
    omega)

/-- The running sum with a chunk's squared deviations added. -/
theorem pay15_apply (acc : FVec Ideal S1x1 .f32) (D : FVec Ideal S64x64x64 .f32) (i : S1x1.Idx) :
    k0_pay15 acc D i = acc i + ∑ j : Fin 64, ∑ ta : Fin 64, ∑ f : Fin 64, D (ix3 j ta f) * D (ix3 j ta f) := by
  unfold k0_pay15
  rw [addf_apply, onecast_read]
  refine congrArg (acc i + ·) ?_
  refine (red_j _ _ _ _ (0 : Fin 1)).trans (Finset.sum_congr rfl fun j _ => ?_)
  refine (colcast_read _ _ j (0 : Fin 1)).trans ?_
  refine (red_t _ _ _ _ j).trans (Finset.sum_congr rfl fun ta _ => ?_)
  exact red_f _ _ _ _ j ta

/-- The first running sum's step is the second's on the same deviation array. -/
theorem pay14_pay7 (acc M : FVec Ideal S1x1 .f32) (X : Vec Ideal S1x16x64x64 .f32) (W B : Vec Ideal S64x1 .f32) :
    k0_pay14 acc (k0_pay7 M X W B) = k0_pay15 acc (k0_pay6 M X W B) := rfl

/-! ## Constants, chunks of the parameters, and one chunk's contribution -/

/-- The zero the running sums start from. -/
theorem pay10_one1 : (k0_pay10 : FVec Ideal S1x1 .f32) = one1 0 :=
  funext fun _ => Cert.Consts.ofBits_zero

/-- A sum divided by the entry count 2^21. -/
theorem pay12_one1 (S : ℝ) : k0_pay12 (one1 S) = one1 (S / 2097152) := by
  funext i
  unfold k0_pay12
  rw [divf_apply]
  show Ideal.div ((S : ℝ) : EReal) (Ideal.ofBits .f32 0x4A000000#32) = _
  rw [Cert.Consts.ofBits_2p21, Cert.LibCoe.div_coe_coe S (by norm_num)]

theorem pay13_one1 (S : ℝ) : k0_pay13 (one1 S) = one1 (S / 2097152) := by
  funext i
  unfold k0_pay13
  rw [divf_apply]
  show Ideal.div ((S : ℝ) : EReal) (Ideal.ofBits .f32 0x4A000000#32) = _
  rw [Cert.Consts.ofBits_2p21, Cert.LibCoe.div_coe_coe S (by norm_num)]

/-- Row j of chunk k of a parameter column is the parameter of channel 64 k + j. -/
theorem par_chunk (w : Cert.Spec.Par) (k : Fin 8) (j : Fin 64) :
    chP (colP w) k (ix2 j (0 : Fin 1)) = ((w ⟨64 * k.val + j.val, by omega⟩ : ℝ) : EReal) := rfl

/-- A squared deviation of reals, computed in the extended reals. -/
theorem dev_coe (x w b m : ℝ) :
    ((x : EReal) * (w : EReal) + (b : EReal) - (m : EReal)) * ((x : EReal) * (w : EReal) + (b : EReal) - (m : EReal))
      = (((x * w + b - m) * (x * w + b - m) : ℝ) : EReal) := by
  rw [← EReal.coe_mul, ← EReal.coe_add, ← EReal.coe_sub, ← EReal.coe_mul]

/-- One chunk's contribution to a running sum of squared deviations, on real blocks. -/
theorem comp_real (a : Cert.Spec.Aud) (w b : Cert.Spec.Par) (k : Fin 8) (A : ℝ) :
    k0_pay15 (one1 A) (k0_pay6 (one1 (Cert.Spec.muA a w b)) (chA (blkA a) k) (chP (colP w) k) (chP (colP b) k))
      = one1 (A + ∑ j : Fin 64, ∑ ta, ∑ f,
          (Cert.Spec.xa a w b ⟨64 * k.val + j.val, by omega⟩ ta f - Cert.Spec.muA a w b)
            * (Cert.Spec.xa a w b ⟨64 * k.val + j.val, by omega⟩ ta f - Cert.Spec.muA a w b)) := by
  funext i
  rw [pay15_apply]
  show ((A : ℝ) : EReal) + _ = (((A + _ : ℝ)) : EReal)
  rw [EReal.coe_add, Cert.LibCoe.coe_sum]
  refine congrArg (((A : ℝ) : EReal) + ·) (Finset.sum_congr rfl fun j _ => ?_)
  rw [Cert.LibCoe.coe_sum]
  refine Finset.sum_congr rfl fun ta _ => ?_
  rw [Cert.LibCoe.coe_sum]
  refine Finset.sum_congr rfl fun f _ => ?_
  rw [pay6_apply, pay5_chA, par_chunk, par_chunk]
  exact dev_coe _ _ _ _

/-- One chunk of the second pass on real blocks, given the first pass's sums. -/
theorem step2_real (a : Cert.Spec.Aud) (w1 b1 w2 b2 : Cert.Spec.Par) (k : Fin 8) (A1 A2 : ℝ) :
    step2 (F := Ideal) (blkA a) (colP w1) (colP b1) (colP w2) (colP b2)
        (one1 (∑ c, ∑ ta, ∑ f, Cert.Spec.xa a w1 b1 c ta f), one1 (∑ c, ∑ ta, ∑ f, Cert.Spec.xa a w2 b2 c ta f)) k
        (one1 A1, one1 A2)
      = (one1 (A1 + ∑ j : Fin 64, ∑ ta, ∑ f,
          (Cert.Spec.xa a w1 b1 ⟨64 * k.val + j.val, by omega⟩ ta f - Cert.Spec.muA a w1 b1)
            * (Cert.Spec.xa a w1 b1 ⟨64 * k.val + j.val, by omega⟩ ta f - Cert.Spec.muA a w1 b1)),
         one1 (A2 + ∑ j : Fin 64, ∑ ta, ∑ f,
          (Cert.Spec.xa a w2 b2 ⟨64 * k.val + j.val, by omega⟩ ta f - Cert.Spec.muA a w2 b2)
            * (Cert.Spec.xa a w2 b2 ⟨64 * k.val + j.val, by omega⟩ ta f - Cert.Spec.muA a w2 b2))) := by
  unfold step2
  refine Prod.ext ?_ ?_
  · show k0_pay14 (one1 A1) (k0_pay7 (k0_pay12 (one1 _)) _ _ _) = _
    rw [pay14_pay7, pay12_one1]
    exact comp_real a w1 b1 k A1
  · show k0_pay15 (one1 A2) (k0_pay6 (k0_pay13 (one1 _)) _ _ _) = _
    rw [pay13_one1]
    exact comp_real a w2 b2 k A2

/-- A fold of steps that each add a real to both of two real running sums adds the sums of what they add. -/
theorem fold_sums : ∀ (n : ℕ) (step : Fin n → FVec Ideal S1x1 .f32 × FVec Ideal S1x1 .f32 → FVec Ideal S1x1 .f32 × FVec Ideal S1x1 .f32)
    (G1 G2 : Fin n → ℝ) (_ : ∀ k A1 A2, step k (one1 A1, one1 A2) = (one1 (A1 + G1 k), one1 (A2 + G2 k))) (A1 A2 : ℝ),
    Fin.foldl n (fun acc k => step k acc) (one1 A1, one1 A2) = (one1 (A1 + ∑ k, G1 k), one1 (A2 + ∑ k, G2 k))
  | 0, _, _, _, _, A1, A2 => by
    rw [Fin.foldl_zero, Finset.univ_eq_empty, Finset.sum_empty, Finset.sum_empty, add_zero, add_zero]
  | n + 1, step, G1, G2, h, A1, A2 => by
    rw [Fin.foldl_succ_last, fold_sums n (fun k => step k.castSucc) (fun k => G1 k.castSucc) (fun k => G2 k.castSucc)
      (fun k A1 A2 => h k.castSucc A1 A2) A1 A2, h, Fin.sum_univ_castSucc, Fin.sum_univ_castSucc, add_assoc, add_assoc]

end S2

/-! ## The fold over the eight chunks -/

/-- The second pass's two sums. -/
theorem sums2_eq (a : Cert.Spec.Aud) (w1 b1 w2 b2 : Cert.Spec.Par) :
    sums2 (F := Ideal) (blkA a) (colP w1) (colP b1) (colP w2) (colP b2)
      = (one1 (∑ c, ∑ ta, ∑ f, (Cert.Spec.xa a w1 b1 c ta f - Cert.Spec.muA a w1 b1) * (Cert.Spec.xa a w1 b1 c ta f - Cert.Spec.muA a w1 b1)),
         one1 (∑ c, ∑ ta, ∑ f, (Cert.Spec.xa a w2 b2 c ta f - Cert.Spec.muA a w2 b2) * (Cert.Spec.xa a w2 b2 c ta f - Cert.Spec.muA a w2 b2))) := by
  unfold sums2
  rw [sums1_eq, S2.pay10_one1]
  refine (S2.fold_sums 8
    (fun k acc => step2 (F := Ideal) (blkA a) (colP w1) (colP b1) (colP w2) (colP b2)
      (one1 (∑ c, ∑ ta, ∑ f, Cert.Spec.xa a w1 b1 c ta f), one1 (∑ c, ∑ ta, ∑ f, Cert.Spec.xa a w2 b2 c ta f)) k acc)
    (fun k => ∑ j : Fin 64, ∑ ta, ∑ f,
      (Cert.Spec.xa a w1 b1 ⟨64 * k.val + j.val, by omega⟩ ta f - Cert.Spec.muA a w1 b1)
        * (Cert.Spec.xa a w1 b1 ⟨64 * k.val + j.val, by omega⟩ ta f - Cert.Spec.muA a w1 b1))
    (fun k => ∑ j : Fin 64, ∑ ta, ∑ f,
      (Cert.Spec.xa a w2 b2 ⟨64 * k.val + j.val, by omega⟩ ta f - Cert.Spec.muA a w2 b2)
        * (Cert.Spec.xa a w2 b2 ⟨64 * k.val + j.val, by omega⟩ ta f - Cert.Spec.muA a w2 b2))
    (fun k A1 A2 => S2.step2_real a w1 b1 w2 b2 k A1 A2) 0 0).trans ?_
  rw [zero_add, zero_add,
    sum_chunks (fun c => ∑ ta, ∑ f, (Cert.Spec.xa a w1 b1 c ta f - Cert.Spec.muA a w1 b1) * (Cert.Spec.xa a w1 b1 c ta f - Cert.Spec.muA a w1 b1)),
    sum_chunks (fun c => ∑ ta, ∑ f, (Cert.Spec.xa a w2 b2 c ta f - Cert.Spec.muA a w2 b2) * (Cert.Spec.xa a w2 b2 c ta f - Cert.Spec.muA a w2 b2))]

end Cert.KRead

end
-- ==== Proof.KReadS3.lean ====
/-
  The kernel's third pass read back: on real blocks the value-branch buffer at (row r, time ta) is the sum over the
  frequency axis of the normalised, affine expansion at channel r, and the gate-branch buffer the same sum of its
  max(·, 0).
-/
import proofs.«420707_j90769838834068_3_alg».proof.Proof.KTerm
import proofs.«420707_j90769838834068_3_alg».proof.Proof.Spec
import proofs.«420707_j90769838834068_3_alg».proof.Proof.SpecMath
import proofs.«420707_j90769838834068_3_alg».proof.Proof.Arr
import proofs.«420707_j90769838834068_3_alg».proof.Proof.LibCoe
import proofs.«420707_j90769838834068_3_alg».proof.Proof.Consts
import proofs.«420707_j90769838834068_3_alg».proof.Proof.LibSums
import Idealize.ShloMosaic.Lib.ValueIdx
import Idealize.ShloMosaic.Lib.ValueLayout
import Idealize.ShloMosaic.Lib.Pipeline.Value
import Idealize.ShloMosaic.PureOps.Ideal.Laws
import proofs.«420707_j90769838834068_3_alg».proof.Proof.KBlk
import proofs.«420707_j90769838834068_3_alg».proof.Proof.KReadS1
import proofs.«420707_j90769838834068_3_alg».proof.Proof.KReadS2
import proofs.«420707_j90769838834068_3_alg».proof.Proof.KReadExp

noncomputable section

open scoped BigOperators

namespace Cert.KRead

open Idealize.ShloMosaic Idealize.ShloMosaic.ValueIdx Cert.KernelIdeal Cert.KernelIdeal.Gen Cert.KernelIdeal.KTerm Cert.Arr

variable [Cert.KernelIdeal.Facts]

namespace S3

/-! ## The scalar stages on real scalars -/

/-- A real sum divided by the element count 2^21. -/
theorem pay12_one1 (S : ℝ) : k0_pay12 (F := Ideal) (one1 S) = one1 (S / 2097152) := by
  funext i
  show Ideal.div ((S : ℝ) : EReal) (Ideal.ofBits .f32 0x4A000000#32) = _
  rw [Cert.Consts.ofBits_2p21, Cert.LibCoe.div_coe_coe S (by norm_num)]

theorem pay13_one1 (S : ℝ) : k0_pay13 (F := Ideal) (one1 S) = one1 (S / 2097152) := by
  funext i
  show Ideal.div ((S : ℝ) : EReal) (Ideal.ofBits .f32 0x4A000000#32) = _
  rw [Cert.Consts.ofBits_2p21, Cert.LibCoe.div_coe_coe S (by norm_num)]

/-- The reciprocal square root of a real sum over 2^21 plus ε, when that is positive. -/
theorem pay16_one1 (Q : ℝ) (h : 0 < Q / 2097152 + Cert.Spec.eps) :
    k0_pay16 (F := Ideal) (one1 Q) = one1 (Cert.Spec.rsq (Q / 2097152 + Cert.Spec.eps)) := by
  funext i
  show Ideal.rsqrt (Ideal.div ((Q : ℝ) : EReal) (Ideal.ofBits .f32 0x4A000000#32) + Ideal.ofBits .f32 0x3727C5AC#32) = _
  rw [Cert.Consts.ofBits_2p21, Cert.LibCoe.div_coe_coe Q (by norm_num), ← Cert.Spec.coe_eps, ← EReal.coe_add,
    Cert.LibCoe.rsqrt_coe_pos h]
  rfl

/-- A real scalar as a [1, 1] array, read at its index. -/
theorem one1_apply (x : ℝ) (i : S1x1.Idx) : one1 x i = ((x : ℝ) : EReal) := rfl

/-! ## Layout stages read at an index -/

/-- A [64, 1] column viewed [64, 1, 1] and repeated over a [64, 64, 64] block reads the column's row. -/
theorem col_apply {α : Type} (v : S64x1.Idx → α) (h2 : S64x1.ShapeCasts S64x1x1)
    (h3 : S64x1x1.Broadcasts S64x64x64) (j ta f : Fin 64) :
    broadcastTo S64x64x64 (shapeCast S64x1x1 v h2) h3 (ix3 j ta f) = v (ix2 j (0 : Fin 1)) := by
  refine (broadcastTo_apply _ h3 (ix3 j ta f) (ix3 j (0 : Fin 1) (0 : Fin 1)) (fun ax => ?_)).trans ?_
  · match ax with
    | ⟨0, _⟩ => rfl
    | ⟨1, _⟩ => rfl
    | ⟨2, _⟩ => rfl
  · exact shapeCast_apply v h2 _ (ix2 j (0 : Fin 1)) (by
      rw [Shape.rowMajor_val_three, Shape.rowMajor_val_two]
      show j.val * 1 + 0 = (j.val * 1 + 0) * 1 + 0
      omega)

/-- A [1, 1] scalar viewed [1, 1, 1] and repeated over a [64, 64, 64] block reads the scalar. -/
theorem scal_apply {α : Type} (v : S1x1.Idx → α) (h2 : S1x1.ShapeCasts S1x1x1)
    (h3 : S1x1x1.Broadcasts S64x64x64) (j ta f : Fin 64) :
    broadcastTo S64x64x64 (shapeCast S1x1x1 v h2) h3 (ix3 j ta f) = v (ix2 (0 : Fin 1) (0 : Fin 1)) := by
  refine (broadcastTo_apply _ h3 (ix3 j ta f) (ix3 (0 : Fin 1) (0 : Fin 1) (0 : Fin 1)) (fun ax => ?_)).trans ?_
  · match ax with
    | ⟨0, _⟩ => rfl
    | ⟨1, _⟩ => rfl
    | ⟨2, _⟩ => rfl
  · exact shapeCast_apply v h2 _ (ix2 (0 : Fin 1) (0 : Fin 1)) (by
      rw [Shape.rowMajor_val_three, Shape.rowMajor_val_two]; rfl)

/-- The index a sum over the last axis of a [64, 64, 64] block inserts. -/
theorem lift_last (h : S64x64x64.Reduces [2] S64x64) (j ta f : Fin 64) : h.lift (ix2 j ta) f = ix3 j ta f := by
  funext ax
  match ax with
  | ⟨0, _⟩ => exact Fin.ext rfl
  | ⟨1, _⟩ => exact Fin.ext rfl
  | ⟨2, _⟩ => exact Fin.ext rfl

/-- The sum over the last axis of a [64, 64, 64] block, at (j, ta): the sum over f of the block at (j, ta, f). -/
theorem sum_last (src : FVec Ideal S64x64x64 .f32) (h : S64x64x64.Reduces [2] S64x64) (hφ : FKind.Formats .f32)
    (hacc : (0x00000000#32 : BitVec 32) = FKind.add.neutral .f32 hφ) (j ta : Fin 64) :
    multiReduction .add [2] S64x64 src 0x00000000#32 h hφ hacc (ix2 j ta) = ∑ f : Fin 64, src (ix3 j ta f) := by
  refine (Ideal.multiReduction_add_single src _ h hφ hacc (ix2 j ta)).trans ?_
  show ∑ k : Fin 64, src (h.lift (ix2 j ta) k) = _
  exact Finset.sum_congr rfl (fun f _ => congrArg src (lift_last h j ta f))

/-- The pointwise reciprocal square root at an index. -/
theorem rsqrt_apply {s : Shape} (x : FVec Ideal s .f32) (i : s.Idx) : rsqrt x i = Ideal.rsqrt (x i) := rfl

/-! ## The value branch's chunk arithmetic read at an index -/

/-- One chunk of the value branch: with a real mean and a real reciprocal deviation, a real expansion and real parameter
    columns, the stored [64, 64] block at (j, ta) is the sum over the frequency axis of the normalised, affine entries. -/
theorem pay9_apply (m iv : ℝ) (v158 : Vec Ideal S1x16x64x64 .f32) (e : Fin 64 → Fin 64 → Fin 64 → ℝ)
    (hE : ∀ j ta f, k0_pay8 (F := Ideal) v158 (ix3 j ta f) = ((e j ta f : ℝ) : EReal))
    (w b g be : Fin 64 → ℝ) (cw cb cg cbe : Vec Ideal S64x1 .f32)
    (hw : ∀ j, cw (ix2 j (0 : Fin 1)) = ((w j : ℝ) : EReal)) (hb : ∀ j, cb (ix2 j (0 : Fin 1)) = ((b j : ℝ) : EReal))
    (hg : ∀ j, cg (ix2 j (0 : Fin 1)) = ((g j : ℝ) : EReal)) (hbe : ∀ j, cbe (ix2 j (0 : Fin 1)) = ((be j : ℝ) : EReal))
    (j ta : Fin 64) :
    k0_pay9 (F := Ideal) (one1 m) (one1 iv) v158 cw cb cg cbe (ix2 j ta)
      = ((∑ f, ((e j ta f * w j + b j - m) * iv * g j + be j) : ℝ) : EReal) := by
  unfold k0_pay9
  simp only [shapeCast_self]
  refine (sum_last _ _ _ _ j ta).trans ?_
  rw [Cert.LibCoe.coe_sum]
  refine Finset.sum_congr rfl (fun f _ => ?_)
  simp only [addf_apply, mulf_apply, subf_apply, col_apply, scal_apply, one1_apply, hE, hw, hb, hg, hbe,
    EReal.coe_add, EReal.coe_mul, EReal.coe_sub]

/-! ## The gate branch's chunk arithmetic read at an index -/

/-- One chunk of the gate branch: from the real sum and the real sum of squared deviations, a real expansion and real
    parameter columns, the stored [64, 64] block at (j, ta) is the sum over the frequency axis of max(·, 0) of the
    normalised, affine entries. -/
theorem pay17_apply (S Q : ℝ) (hpos : 0 < Q / 2097152 + Cert.Spec.eps) (E : FVec Ideal S64x64x64 .f32)
    (e : Fin 64 → Fin 64 → Fin 64 → ℝ) (hE : ∀ j ta f, E (ix3 j ta f) = ((e j ta f : ℝ) : EReal))
    (w b g be : Fin 64 → ℝ) (cw cb cg cbe : Vec Ideal S64x1 .f32)
    (hw : ∀ j, cw (ix2 j (0 : Fin 1)) = ((w j : ℝ) : EReal)) (hb : ∀ j, cb (ix2 j (0 : Fin 1)) = ((b j : ℝ) : EReal))
    (hg : ∀ j, cg (ix2 j (0 : Fin 1)) = ((g j : ℝ) : EReal)) (hbe : ∀ j, cbe (ix2 j (0 : Fin 1)) = ((be j : ℝ) : EReal))
    (j ta : Fin 64) :
    k0_pay17 (F := Ideal) (one1 S) (one1 Q) E cw cb cg cbe (ix2 j ta)
      = ((∑ f, max ((e j ta f * w j + b j - S / 2097152) * Cert.Spec.rsq (Q / 2097152 + Cert.Spec.eps) * g j + be j) 0 : ℝ) : EReal) := by
  have hinv : Ideal.rsqrt (Ideal.div ((Q : ℝ) : EReal) (Ideal.ofBits .f32 0x4A000000#32) + Ideal.ofBits .f32 0x3727C5AC#32)
      = ((Cert.Spec.rsq (Q / 2097152 + Cert.Spec.eps) : ℝ) : EReal) := congrFun (pay16_one1 Q hpos) (ix2 (0 : Fin 1) (0 : Fin 1))
  unfold k0_pay17
  simp only [shapeCast_self]
  refine (sum_last _ _ _ _ j ta).trans ?_
  rw [Cert.LibCoe.coe_sum]
  refine Finset.sum_congr rfl (fun f _ => ?_)
  simp only [maximumf_apply, addf_apply, mulf_apply, subf_apply, divf_apply, rsqrt_apply, broadcast_apply, col_apply,
    scal_apply, one1_apply, pay13_one1, Ideal.ofBits_def, hinv, Cert.Consts.ofBits_zero, hE, hw, hb, hg, hbe, ← Cert.LibCoe.max_coe,
    EReal.coe_add, EReal.coe_mul, EReal.coe_sub]

/-! ## The chunks of real blocks -/

/-- Row r of the two buffers is row r mod 64 of chunk r div 64. -/
theorem row_split (r : Fin 512) :
    (⟨64 * (rowChunk r).val + (rowIn r).val, by
      show 64 * (r.val / 64) + r.val % 64 < 512
      omega⟩ : Fin 512) = r :=
  Fin.ext (by show 64 * (r.val / 64) + r.val % 64 = r.val; omega)

/-- A chunk of a real parameter column, read at a row. -/
theorem chP_colP (w : Cert.Spec.Par) (k : Fin 8) (j : Fin 64) :
    chP (F := Ideal) (colP w) k (ix2 j (0 : Fin 1)) = ((w ⟨64 * k.val + j.val, by omega⟩ : ℝ) : EReal) := rfl

end S3

/-- The value-branch buffer at an index. -/
theorem sval_apply (a : Cert.Spec.Aud) (w1 b1 g1 be1 w2 b2 : Cert.Spec.Par) (r : Fin 512) (ta : Fin 64) :
    sval (F := Ideal) (blkA a) (colP w1) (colP b1) (colP g1) (colP be1) (colP w2) (colP b2) (ix2 r ta)
      = ((∑ f, Cert.Spec.gnA a w1 b1 g1 be1 r ta f : ℝ) : EReal) := by
  have h1 : k0_pay12 (F := Ideal) (sums1 (blkA a) (colP w1) (colP b1) (colP w2) (colP b2)).1
      = one1 (Cert.Spec.muA a w1 b1) := by
    rw [sums1_eq]; exact S3.pay12_one1 _
  have h2 : k0_pay16 (F := Ideal) (sums2 (blkA a) (colP w1) (colP b1) (colP w2) (colP b2)).1
      = one1 (Cert.Spec.rsq (Cert.Spec.varA a w1 b1 + Cert.Spec.eps)) := by
    rw [sums2_eq]; exact S3.pay16_one1 _ (Cert.Spec.varA_eps_pos a w1 b1)
  show k0_pay9 (F := Ideal) (k0_pay12 (sums1 (blkA a) (colP w1) (colP b1) (colP w2) (colP b2)).1)
      (k0_pay16 (sums2 (blkA a) (colP w1) (colP b1) (colP w2) (colP b2)).1)
      (chA (blkA a) (rowChunk r)) (chP (colP w1) (rowChunk r)) (chP (colP b1) (rowChunk r))
      (chP (colP g1) (rowChunk r)) (chP (colP be1) (rowChunk r)) (ix2 (rowIn r) ta) = _
  rw [h1, h2]
  refine (S3.pay9_apply _ _ _ _ (pay8_chA a (rowChunk r)) _ _ _ _ _ _ _ _
    (S3.chP_colP w1 (rowChunk r)) (S3.chP_colP b1 (rowChunk r)) (S3.chP_colP g1 (rowChunk r)) (S3.chP_colP be1 (rowChunk r))
    (rowIn r) ta).trans ?_
  simp only [S3.row_split]
  rfl

/-- The gate-branch buffer at an index. -/
theorem sgate_apply (a : Cert.Spec.Aud) (w1 b1 w2 b2 g2 be2 : Cert.Spec.Par) (r : Fin 512) (ta : Fin 64) :
    sgate (F := Ideal) (blkA a) (colP w1) (colP b1) (colP w2) (colP b2) (colP g2) (colP be2) (ix2 r ta)
      = ((∑ f, max (Cert.Spec.gnA a w2 b2 g2 be2 r ta f) 0 : ℝ) : EReal) := by
  show k0_pay17 (F := Ideal) (sums1 (blkA a) (colP w1) (colP b1) (colP w2) (colP b2)).2
      (sums2 (blkA a) (colP w1) (colP b1) (colP w2) (colP b2)).2
      (k0_pay8 (chA (blkA a) (rowChunk r))) (chP (colP w2) (rowChunk r)) (chP (colP b2) (rowChunk r))
      (chP (colP g2) (rowChunk r)) (chP (colP be2) (rowChunk r)) (ix2 (rowIn r) ta) = _
  rw [sums1_eq, sums2_eq]
  refine (S3.pay17_apply _ _ (Cert.Spec.varA_eps_pos a w2 b2) _ _ (pay8_chA a (rowChunk r)) _ _ _ _ _ _ _ _
    (S3.chP_colP w2 (rowChunk r)) (S3.chP_colP b2 (rowChunk r)) (S3.chP_colP g2 (rowChunk r)) (S3.chP_colP be2 (rowChunk r))
    (rowIn r) ta).trans ?_
  simp only [S3.row_split]
  rfl

end Cert.KRead

end
-- ==== Proof.KReadU.lean ====
/-
  The kernel's time expansion and its final combination read at an index: the transpose–repeat–transpose of a [512, 64]
  buffer at (c, t) is the buffer at (c, ⌊t/4⌋), for any buffer; and the stored block at (0, c, t) is
  attention · value + key · gate + video, with the key the real the specification's vkey gives.
-/
import proofs.«420707_j90769838834068_3_alg».proof.Proof.KTerm
import proofs.«420707_j90769838834068_3_alg».proof.Proof.Spec
import proofs.«420707_j90769838834068_3_alg».proof.Proof.SpecMath
import proofs.«420707_j90769838834068_3_alg».proof.Proof.Arr
import proofs.«420707_j90769838834068_3_alg».proof.Proof.LibCoe
import proofs.«420707_j90769838834068_3_alg».proof.Proof.Consts
import proofs.«420707_j90769838834068_3_alg».proof.Proof.LibSums
import Idealize.ShloMosaic.Lib.ValueIdx
import Idealize.ShloMosaic.Lib.ValueLayout
import Idealize.ShloMosaic.Lib.Pipeline.Value
import Idealize.ShloMosaic.PureOps.Ideal.Laws
import proofs.«420707_j90769838834068_3_alg».proof.Proof.KBlk

noncomputable section

open scoped BigOperators

namespace Cert.KRead

open Idealize.ShloMosaic Idealize.ShloMosaic.ValueIdx Cert.KernelIdeal Cert.KernelIdeal.Gen Cert.KernelIdeal.KTerm Cert.Arr

variable [Cert.KernelIdeal.Facts]

/-! ## The time expansion -/

/-- A [64, 512] array given a unit middle axis reads, at (ta, u, c), the operand at (ta, c). -/
theorem cast_mid_apply {α : Type} (x : S64x512.Idx → α) (h : S64x512.ShapeCasts S64x1x512) (ta : Fin 64) (u : Fin 1) (c : Fin 512) :
    shapeCast S64x1x512 x h (ix3 ta u c) = x (ix2 ta c) :=
  shapeCast_apply x h _ _ (by
    have hu : u.val = 0 := by omega
    rw [Shape.rowMajor_val_three, Shape.rowMajor_val_two]
    show ta.val * 512 + c.val = (ta.val * 1 + u.val) * 512 + c.val
    rw [hu]; omega)

/-- A [64, 4, 512] array flattened to [256, 512] reads, at (t, c), the operand at (⌊t/4⌋, t mod 4, c). -/
theorem cast_flat_apply {α : Type} (x : S64x4x512.Idx → α) (h : S64x4x512.ShapeCasts S256x512) (t : Fin 256) (c : Fin 512) :
    shapeCast S256x512 x h (ix2 t c)
      = x (ix3 (Cert.Spec.t4 t) (⟨t.val % 4, Nat.mod_lt _ (by norm_num)⟩ : Fin 4) c) :=
  shapeCast_apply x h _ _ (by
    rw [Shape.rowMajor_val_three, Shape.rowMajor_val_two]
    show ((t.val / 4) * 4 + t.val % 4) * 512 + c.val = t.val * 512 + c.val
    have := Nat.div_add_mod t.val 4
    omega)

/-- A [64, 1, 512] array repeated four times along its middle axis reads, at (ta, r, c), the operand at (ta, 0, c). -/
theorem rep4_apply {α : Type} (x : S64x1x512.Idx → α) (h : S64x1x512.Broadcasts S64x4x512) (ta : Fin 64) (r : Fin 4) (c : Fin 512) :
    broadcastTo S64x4x512 x h (ix3 ta r c) = x (ix3 ta (0 : Fin 1) c) :=
  broadcastTo_apply x h _ _ fun a => match a with | ⟨0, _⟩ => rfl | ⟨1, _⟩ => rfl | ⟨2, _⟩ => rfl

/-- The time expansion of a [512, 64] buffer — transposed, each row repeated four times, transposed back — reads, at
    (c, t), the buffer at (c, ⌊t/4⌋). -/
theorem up_apply {α : Type} (s : S512x64.Idx → α) (c : Fin 512) (t : Fin 256) :
    transpose S512x256 [1, 0]
      (shapeCast S256x512
        (broadcastTo S64x4x512
          (shapeCast S64x1x512
            (shapeCast S64x1x512 (transpose S64x512 [1, 0] s Facts₀.transposes_S512x64_p1_0_S64x512)
              Facts₀.shapeCasts_S64x512_S64x1x512)
            Facts₀.shapeCasts_S64x1x512_S64x1x512)
          Facts₀.broadcasts_S64x1x512_S64x4x512)
        Facts₀.shapeCasts_S64x4x512_S256x512)
      Facts₀.transposes_S256x512_p1_0_S512x256 (ix2 c t)
      = s (ix2 c (Cert.Spec.t4 t)) := by
  rw [transpose_ix2_apply, cast_flat_apply, rep4_apply, shapeCast_self, cast_mid_apply, transpose_ix2_apply]

/-- The time expansion of the value-branch buffer at an index. -/
theorem up18_apply (s : Vec Ideal S512x64 .f32) (c : Fin 512) (t : Fin 256) :
    k0_pay18 (F := Ideal) s (ix2 c t) = s (ix2 c (Cert.Spec.t4 t)) :=
  up_apply s c t

/-- The time expansion of the gate-branch buffer at an index. -/
theorem up19_apply (s : Vec Ideal S512x64 .f32) (c : Fin 512) (t : Fin 256) :
    k0_pay19 (F := Ideal) s (ix2 c t) = s (ix2 c (Cert.Spec.t4 t)) :=
  up_apply s c t

/-! ## The final combination -/

/-- The lane sum of a [512, 256] array along axis 1 reads, at c, the sum of row c. -/
theorem sum_axis1 (X : FVec Ideal S512x256 .f32) (h : S512x256.Reduces [1] S512) (hφ : FKind.Formats .f32)
    (hacc : (0x00000000#32 : BitVec 32) = FKind.add.neutral .f32 hφ) (c : Fin 512) :
    multiReduction .add [1] S512 X 0x00000000#32 h hφ hacc (ix1 c) = ∑ t : Fin 256, X (ix2 c t) := by
  refine (Ideal.multiReduction_add_single X _ h hφ hacc (ix1 c)).trans ?_
  exact Finset.sum_congr rfl fun t _ => congrArg X (funext fun a => match a with | ⟨0, _⟩ => rfl | ⟨1, _⟩ => rfl)

/-- The sum of a [512, 1] column along axis 0 reads, at its one index, the sum of the column. -/
theorem sum_axis0 (Y : FVec Ideal S512x1 .f32) (h : S512x1.Reduces [0] S1) (hφ : FKind.Formats .f32)
    (hacc : (0x00000000#32 : BitVec 32) = FKind.add.neutral .f32 hφ) (q : Fin 1) :
    multiReduction .add [0] S1 Y 0x00000000#32 h hφ hacc (ix1 q) = ∑ c : Fin 512, Y (ix2 c q) := by
  refine (Ideal.multiReduction_add_single Y _ h hφ hacc (ix1 q)).trans ?_
  exact Finset.sum_congr rfl fun c _ => congrArg Y (funext fun a => match a with | ⟨0, _⟩ => rfl | ⟨1, _⟩ => rfl)

/-- A vector of 512 entries kept as a [512, 1] column reads, at (c, u), the vector at c. -/
theorem cast_col_apply {α : Type} (x : S512.Idx → α) (h : S512.ShapeCasts S512x1) (c : Fin 512) (u : Fin 1) :
    shapeCast S512x1 x h (ix2 c u) = x (ix1 c) :=
  shapeCast_apply x h _ _ (by
    have hu : u.val = 0 := by omega
    rw [Shape.rowMajor_val_two, Shape.rowMajor_val_one]
    show c.val = c.val * 1 + u.val
    omega)

/-- A [1, 1] array broadcast to [512, 256] reads its one entry everywhere. -/
theorem bcast11_apply {α : Type} (x : S1x1.Idx → α) (h : S1x1.Broadcasts S512x256) (c : Fin 512) (t : Fin 256) :
    broadcastTo S512x256 x h (ix2 c t) = x (ix2 (0 : Fin 1) (0 : Fin 1)) :=
  broadcastTo_apply x h _ _ fun a => match a with | ⟨0, _⟩ => rfl | ⟨1, _⟩ => rfl

/-- A [512, 1] column broadcast to [512, 256] reads, at (c, t), the column at c. -/
theorem bcastCol_apply {α : Type} (x : S512x1.Idx → α) (h : S512x1.Broadcasts S512x256) (c : Fin 512) (t : Fin 256) :
    broadcastTo S512x256 x h (ix2 c t) = x (ix2 c (0 : Fin 1)) :=
  broadcastTo_apply x h _ _ fun a => match a with | ⟨0, _⟩ => rfl | ⟨1, _⟩ => rfl

/-- The sum over all entries of a [512, 256] array as the body takes it: along axis 1, then along axis 0, kept as [1, 1]. -/
def tot (X : FVec Ideal S512x256 .f32) : FVec Ideal S1x1 .f32 :=
  shapeCast S1x1
    (multiReduction .add [0] S1
      (shapeCast S512x1 (multiReduction .add [1] S512 X 0x00000000#32 Facts₀.reduces_S512x256_S512 (.inl rfl) rfl)
        Facts₀.shapeCasts_S512_S512x1)
      0x00000000#32 Facts₀.reduces_S512x1_S1 (.inl rfl) rfl)
    Facts₀.shapeCasts_S1_S1x1

/-- The mean over the 2^17 entries, as [1, 1]. -/
def meanOf (X : FVec Ideal S512x256 .f32) : FVec Ideal S1x1 .f32 :=
  divf (tot X) (broadcast S1x1 (Scalar.ofBits .f32 0x48000000#32))

/-- The array less its mean. -/
def cenOf (X : FVec Ideal S512x256 .f32) : FVec Ideal S512x256 .f32 :=
  subf X (broadcastTo S512x256 (meanOf X) Facts₀.broadcasts_S1x1_S512x256)

/-- The variance over the 2^17 entries, as [1, 1]. -/
def varOf (X : FVec Ideal S512x256 .f32) : FVec Ideal S1x1 .f32 := meanOf (mulf (cenOf X) (cenOf X))

/-- The normalised array, scaled and shifted per row. -/
def keyOf (X : FVec Ideal S512x256 .f32) (G Be : FVec Ideal S512x1 .f32) : FVec Ideal S512x256 .f32 :=
  addf
    (mulf
      (mulf (cenOf X)
        (broadcastTo S512x256 (rsqrt (addf (varOf X) (broadcast S1x1 (Scalar.ofBits .f32 0x3727C5AC#32))))
          Facts₀.broadcasts_S1x1_S512x256))
      (broadcastTo S512x256 G Facts₀.broadcasts_S512x1_S512x256))
    (broadcastTo S512x256 Be Facts₀.broadcasts_S512x1_S512x256)

/-- The stored block in these terms. -/
theorem k0_pay1_eq (v26 v33 v35 v109 : FVec Ideal S512x256 .f32) (v111 v113 v115 : FVec Ideal S512x1 .f32)
    (v116 : Vec Ideal S512x1 .f32) :
    k0_pay1 (F := Ideal) v26 v33 v35 v109 v111 v113 v115 v116
      = shapeCast S1x512x256
          (addf (addf (mulf v109 v26)
              (mulf (keyOf (addf (mulf v35 (broadcastTo S512x256 v111 Facts₀.broadcasts_S512x1_S512x256))
                  (broadcastTo S512x256 v113 Facts₀.broadcasts_S512x1_S512x256)) v115
                (shapeCast S512x1 v116 Facts₀.shapeCasts_S512x1_S512x1)) v33)) v35)
          Facts₀.shapeCasts_S512x256_S1x512x256 := rfl

/-- The mean of a real [512, 256] array. -/
def mu2 (f : Fin 512 → Fin 256 → ℝ) : ℝ := (∑ c, ∑ t, f c t) / 131072
/-- Its variance. -/
def var2 (f : Fin 512 → Fin 256 → ℝ) : ℝ := (∑ c, ∑ t, (f c t - mu2 f) * (f c t - mu2 f)) / 131072

/-- The body's total of any array is the iterated sum of its entries. -/
theorem tot_apply (X : FVec Ideal S512x256 .f32) (j : S1x1.Idx) : tot X j = ∑ c : Fin 512, ∑ t : Fin 256, X (ix2 c t) := by
  obtain ⟨p, q, rfl⟩ : ∃ (p q : Fin 1), j = ix2 p q := ⟨j 0, j 1, eq_ix2 j⟩
  unfold tot
  refine (shapeCast_a_1a_apply _ _ p q).trans ?_
  refine (sum_axis0 _ _ _ _ q).trans ?_
  refine Finset.sum_congr rfl fun c _ => ?_
  refine (cast_col_apply _ _ c q).trans ?_
  exact sum_axis1 _ _ _ _ c

/-- The total of the cast of a real array is the cast of its sum. -/
theorem tot_arr2 (f : Fin 512 → Fin 256 → ℝ) (j : S1x1.Idx) : tot (arr2 f) j = ((∑ c, ∑ t, f c t : ℝ) : EReal) := by
  rw [tot_apply, Cert.LibCoe.coe_sum]
  refine Finset.sum_congr rfl fun c _ => ?_
  rw [Cert.LibCoe.coe_sum]
  rfl

/-- The mean of the cast of a real array is the cast of its mean. -/
theorem meanOf_arr2 (f : Fin 512 → Fin 256 → ℝ) (j : S1x1.Idx) : meanOf (arr2 f) j = ((mu2 f : ℝ) : EReal) := by
  show Ideal.div (tot (arr2 f) j) (Ideal.ofBits .f32 0x48000000#32) = _
  rw [tot_arr2, Cert.Consts.ofBits_2p17, Cert.LibCoe.div_coe_coe _ (by norm_num)]
  rfl

/-- The centred cast is the cast of the centred array. -/
theorem cenOf_arr2 (f : Fin 512 → Fin 256 → ℝ) : cenOf (arr2 f) = arr2 (fun c t => f c t - mu2 f) := by
  funext j
  obtain ⟨c, t, rfl⟩ : ∃ (c : Fin 512) (t : Fin 256), j = ix2 c t := ⟨j 0, j 1, eq_ix2 j⟩
  show arr2 f (ix2 c t) - broadcastTo S512x256 (meanOf (arr2 f)) Facts₀.broadcasts_S1x1_S512x256 (ix2 c t) = _
  rw [bcast11_apply, meanOf_arr2, arr2_ix2, arr2_ix2, EReal.coe_sub]

/-- The entrywise square of a cast is the cast of the square. -/
theorem mulf_arr2 (g : Fin 512 → Fin 256 → ℝ) :
    (mulf (arr2 g) (arr2 g) : FVec Ideal S512x256 .f32) = arr2 (fun c t => g c t * g c t) :=
  funext fun j => (EReal.coe_mul (g (j 0) (j 1)) (g (j 0) (j 1))).symm

/-- The variance of the cast of a real array is the cast of its variance. -/
theorem varOf_arr2 (f : Fin 512 → Fin 256 → ℝ) (j : S1x1.Idx) : varOf (arr2 f) j = ((var2 f : ℝ) : EReal) := by
  unfold varOf
  rw [cenOf_arr2, mulf_arr2, meanOf_arr2]
  rfl

/-- The normalised, scaled and shifted cast of a real array whose variance plus ε is positive. -/
theorem keyOf_arr2 (f : Fin 512 → Fin 256 → ℝ) (g be : Cert.Spec.Par) (h : 0 < var2 f + Cert.Spec.eps) (c : Fin 512) (t : Fin 256) :
    keyOf (arr2 f) (colP g) (colP be) (ix2 c t)
      = (((f c t - mu2 f) * Cert.Spec.rsq (var2 f + Cert.Spec.eps) * g c + be c : ℝ) : EReal) := by
  show cenOf (arr2 f) (ix2 c t)
        * broadcastTo S512x256 (rsqrt (addf (varOf (arr2 f)) (broadcast S1x1 (Scalar.ofBits .f32 0x3727C5AC#32))))
            Facts₀.broadcasts_S1x1_S512x256 (ix2 c t)
        * broadcastTo S512x256 (colP g) Facts₀.broadcasts_S512x1_S512x256 (ix2 c t)
      + broadcastTo S512x256 (colP be) Facts₀.broadcasts_S512x1_S512x256 (ix2 c t) = _
  rw [bcast11_apply, bcastCol_apply, bcastCol_apply, cenOf_arr2]
  show ((f c t - mu2 f : ℝ) : EReal)
        * Ideal.rsqrt (varOf (arr2 f) (ix2 (0 : Fin 1) (0 : Fin 1)) + Ideal.ofBits .f32 0x3727C5AC#32)
        * ((g c : ℝ) : EReal) + ((be c : ℝ) : EReal) = _
  rw [varOf_arr2, ← Cert.Spec.coe_eps, ← EReal.coe_add, Cert.LibCoe.rsqrt_coe_pos h, ← EReal.coe_mul, ← EReal.coe_mul,
    ← EReal.coe_add]
  rfl

/-- The video scaled and shifted per row, as the cast of the specification's array. -/
theorem xk_arr2 (v : Cert.Spec.Vid) (w b : Cert.Spec.Par) :
    (addf (mulf (arr2 v) (broadcastTo S512x256 (colP w) Facts₀.broadcasts_S512x1_S512x256))
      (broadcastTo S512x256 (colP b) Facts₀.broadcasts_S512x1_S512x256) : FVec Ideal S512x256 .f32)
      = arr2 (Cert.Spec.xk v w b) := by
  funext j
  obtain ⟨c, t, rfl⟩ : ∃ (c : Fin 512) (t : Fin 256), j = ix2 c t := ⟨j 0, j 1, eq_ix2 j⟩
  show arr2 v (ix2 c t) * broadcastTo S512x256 (colP w) Facts₀.broadcasts_S512x1_S512x256 (ix2 c t)
    + broadcastTo S512x256 (colP b) Facts₀.broadcasts_S512x1_S512x256 (ix2 c t) = _
  rw [bcastCol_apply, bcastCol_apply]
  show ((v c t : ℝ) : EReal) * ((w c : ℝ) : EReal) + ((b c : ℝ) : EReal) = ((v c t * w c + b c : ℝ) : EReal)
  rw [EReal.coe_add, EReal.coe_mul]

/-- The video block with its unit axis dropped is the cast of the video. -/
theorem pay20_blkV (v : Cert.Spec.Vid) : k0_pay20 (F := Ideal) (blkV v) = arr2 v := by
  funext j
  obtain ⟨c, t, rfl⟩ : ∃ (c : Fin 512) (t : Fin 256), j = ix2 c t := ⟨j 0, j 1, eq_ix2 j⟩
  exact shapeCast_1ab_ab_apply (blkV v) Facts₀.shapeCasts_S1x512x256_S512x256 c t

/-- The stored block at an index, for any expanded buffers and attention. -/
theorem final_apply (v26 v33 v109 : FVec Ideal S512x256 .f32) (v : Cert.Spec.Vid) (w b g be : Cert.Spec.Par) (c : Fin 512) (t : Fin 256) :
    k0_pay1 (F := Ideal) v26 v33 (k0_pay20 (blkV v)) v109 (k0_pay26 (colP w)) (k0_pay27 (colP b)) (k0_pay28 (colP g)) (colP be)
        (ix3 (0 : Fin 1) c t)
      = v109 (ix2 c t) * v26 (ix2 c t) + ((Cert.Spec.vkey v w b g be c t : ℝ) : EReal) * v33 (ix2 c t) + ((v c t : ℝ) : EReal) := by
  have h26 : k0_pay26 (F := Ideal) (colP w) = colP w := shapeCast_self _ _
  have h27 : k0_pay27 (F := Ideal) (colP b) = colP b := shapeCast_self _ _
  have h28 : k0_pay28 (F := Ideal) (colP g) = colP g := shapeCast_self _ _
  rw [k0_pay1_eq, shapeCast_ab_1ab_apply, pay20_blkV, h26, h27, h28, shapeCast_self, xk_arr2]
  show v109 (ix2 c t) * v26 (ix2 c t) + keyOf (arr2 (Cert.Spec.xk v w b)) (colP g) (colP be) (ix2 c t) * v33 (ix2 c t)
      + arr2 v (ix2 c t) = _
  rw [keyOf_arr2 (Cert.Spec.xk v w b) g be (Cert.Spec.varK_eps_pos v w b) c t]
  rfl

end Cert.KRead

end
-- ==== Proof.KReadV.lean ====
/-
  The kernel's attention read at an index: on real blocks the soft-max over time of the head average, computed from the
  head averages of the affine parameters, at (c, t) is the real the specification's smax of vmK gives.
-/
import proofs.«420707_j90769838834068_3_alg».proof.Proof.KTerm
import proofs.«420707_j90769838834068_3_alg».proof.Proof.Spec
import proofs.«420707_j90769838834068_3_alg».proof.Proof.SpecMath
import proofs.«420707_j90769838834068_3_alg».proof.Proof.Arr
import proofs.«420707_j90769838834068_3_alg».proof.Proof.LibCoe
import proofs.«420707_j90769838834068_3_alg».proof.Proof.Consts
import proofs.«420707_j90769838834068_3_alg».proof.Proof.LibSums
import Idealize.ShloMosaic.Lib.ValueIdx
import Idealize.ShloMosaic.Lib.ValueLayout
import Idealize.ShloMosaic.Lib.Pipeline.Value
import Idealize.ShloMosaic.PureOps.Ideal.Laws
import proofs.«420707_j90769838834068_3_alg».proof.Proof.KBlk

noncomputable section

open scoped BigOperators

namespace Cert.KRead

open Idealize.ShloMosaic Idealize.ShloMosaic.ValueIdx Cert.KernelIdeal Cert.KernelIdeal.Gen Cert.KernelIdeal.KTerm Cert.Arr

variable [Cert.KernelIdeal.Facts]

namespace V

/-! ## Reshapes that add a unit axis, and broadcasts along unit axes, read at an index given by coordinates -/

section Layout
variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1, c]` array broadcast to `[a, b, c]` reads, at `(p, q, r)`, the operand at `(p, 0, r)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- An `[a, b, 1]` array broadcast to `[a, b, c]` reads, at `(p, q, r)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A `[1, 1, 1]` array broadcast to `[a, b, c]` reads its one entry everywhere. -/
theorem broadcastTo_111_abc_apply {a b c : ℕ} (v : (⟨3, ![1, 1, 1]⟩ : Shape).Idx → α)
    (h : (⟨3, ![1, 1, 1]⟩ : Shape).Broadcasts ⟨3, ![a, b, c]⟩) (j : (⟨3, ![a, b, c]⟩ : Shape).Idx) :
    broadcastTo ⟨3, ![a, b, c]⟩ v h j = v (ix3 (0 : Fin 1) (0 : Fin 1) (0 : Fin 1)) := by
  refine broadcastTo_apply v h j (ix3 (0 : Fin 1) (0 : Fin 1) (0 : Fin 1)) fun ax => ?_
  match ax with
  | ⟨0, _⟩ => rfl
  | ⟨1, _⟩ => rfl
  | ⟨2, _⟩ => rfl

/-- A `[1, 1]` array broadcast to `[a, b]` reads its one entry everywhere. -/
theorem broadcastTo_11_ab_apply {a b : ℕ} (v : (⟨2, ![1, 1]⟩ : Shape).Idx → α)
    (h : (⟨2, ![1, 1]⟩ : Shape).Broadcasts ⟨2, ![a, b]⟩) (j : (⟨2, ![a, b]⟩ : Shape).Idx) :
    broadcastTo ⟨2, ![a, b]⟩ v h j = v (ix2 (0 : Fin 1) (0 : Fin 1)) := by
  refine broadcastTo_apply v h j (ix2 (0 : Fin 1) (0 : Fin 1)) fun ax => ?_
  match ax with
  | ⟨0, _⟩ => rfl
  | ⟨1, _⟩ => rfl

/-- A column `[a, 1]` broadcast to `[a, b]` reads, at `(p, q)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Layout

/-! ## Sums and a maximum over one axis, read at an index given by coordinates -/

section Reduce

/-- The sum over the last axis of a rank-3 array at `(p, q)`. -/
theorem sum3_axis2_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.add.neutral .f32 hφ) (p : Fin a) (q : Fin b) :
    multiReduction .add [2] ⟨2, ![a, b]⟩ src acc h hφ hacc (ix2 p q) = ∑ r : Fin c, src (ix3 p q r) := by
  refine (Ideal.multiReduction_add_single src acc h hφ hacc (ix2 p q)).trans ?_
  refine Finset.sum_congr rfl fun r _ => congrArg src ?_
  funext ax
  match ax with
  | ⟨0, _⟩ => rfl
  | ⟨1, _⟩ => rfl
  | ⟨2, _⟩ => rfl

/-- The sum over the middle axis of a rank-3 array at `(p, r)`. -/
theorem sum3_axis1_apply {a b c : ℕ} (src : FVec Ideal ⟨3, ![a, b, c]⟩ .f32) (acc : BitVec 32)
    (h : (⟨3, ![a, b, c]⟩ : Shape).Reduces [1] ⟨2, ![a, c]⟩) (hφ : FKind.Formats .f32)
    (hacc : acc = FKind.add.neutral .f32 hφ) (p : Fin a) (r : Fin c) :
    multiReduction .add [1] ⟨2, ![a, c]⟩ src acc h hφ hacc (ix2 p r) = ∑ q : Fin b, src (ix3 p q r) := by
  refine (Ideal.multiReduction_add_single src acc h hφ hacc (ix2 p r)).trans ?_
  refine Finset.sum_congr rfl fun q _ => congrArg src ?_
  funext ax
  match ax with
  | ⟨0, _⟩ => rfl
  | ⟨1, _⟩ => rfl
  | ⟨2, _⟩ => rfl

/-- The sum over the columns of a matrix at row `p`. -/
theorem sum2_axis1_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ q : Fin b, src (ix2 p q) := by
  refine (Ideal.multiReduction_add_single src acc h hφ hacc (ix1 p)).trans ?_
  refine Finset.sum_congr rfl fun q _ => congrArg src ?_
  funext ax
  match ax with
  | ⟨0, _⟩ => rfl
  | ⟨1, _⟩ => rfl

/-- The sum over the rows of a matrix at column `q`. -/
theorem sum2_axis0_apply {a b : ℕ} (src : FVec Ideal ⟨2, ![a, b]⟩ .f32) (acc : BitVec 32)
    (h : (⟨2, ![a, b]⟩ : Shape).Reduces [0] ⟨1, ![b]⟩) (hφ : FKind.Formats .f32)
    (hacc : acc = FKind.add.neutral .f32 hφ) (q : Fin b) :
    multiReduction .add [0] ⟨1, ![b]⟩ src acc h hφ hacc (ix1 q) = ∑ p : Fin a, src (ix2 p q) := by
  refine (Ideal.multiReduction_add_single src acc h hφ hacc (ix1 q)).trans ?_
  refine Finset.sum_congr rfl fun p _ => congrArg src ?_
  funext ax
  match ax with
  | ⟨0, _⟩ => rfl
  | ⟨1, _⟩ => rfl

/-- The maximum over the columns of a matrix at row `p`: the fold of `max` from the accumulator's value. -/
theorem max2_axis1_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun q => src (ix2 p q)) := by
  refine (Ideal.multiReduction_maximumf_single src acc h hφ hacc (ix1 p)).trans ?_
  refine congrArg (fun f => (Finset.univ : Finset (Fin b)).fold max (Ideal.ofBits .f32 acc) f) ?_
  funext q
  refine congrArg src ?_
  funext ax
  match ax with
  | ⟨0, _⟩ => rfl
  | ⟨1, _⟩ => rfl

end Reduce

/-! ## The reductions' side conditions, named so that the reductions below are stated over them -/

theorem fmt32 : FKind.Formats .f32 := .inl rfl
theorem accAdd : (0x00000000#32 : BitVec FTy.f32.bits) = FKind.add.neutral .f32 fmt32 := rfl
theorem accMax : (0xFF800000#32 : BitVec FTy.f32.bits) = FKind.maximumf.neutral .f32 fmt32 := rfl

/-- An exponential at an index is the exponential of the element. -/
theorem exp_apply {s : Shape} (a : FVec Ideal s .f32) (i : s.Idx) : Idealize.ShloMosaic.exp a i = Ideal.exp (a i) := rfl

/-! ## The expanded video, its mean and the reciprocal root of its variance -/

/-- The kernel's expanded, scaled and shifted video on real blocks is the cast of the specification's. -/
theorem pay22_apply (v : Cert.Spec.Vid) (w b : Cert.Spec.Par8) (c : Fin 512) (h : Fin 8) (t : Fin 256) :
    k0_pay22 (F := Ideal) (blkV v) (arr2 w) (arr2 b) (ix3 c h t) = ((Cert.Spec.xv v w b c h t : ℝ) : EReal) := by
  unfold k0_pay22 k0_pay20
  simp only [addf_apply, mulf_apply, broadcastTo_a1c_abc_apply, broadcastTo_ab1_abc_apply, shapeCast_self,
    shapeCast_ab_a1b_apply, shapeCast_ab_ab1_apply, shapeCast_1ab_ab_apply, arr3_ix3, arr2_ix2]
  rw [← EReal.coe_mul, ← EReal.coe_add]
  rfl

theorem pay22_eq (v : Cert.Spec.Vid) (w b : Cert.Spec.Par8) :
    k0_pay22 (F := Ideal) (blkV v) (arr2 w) (arr2 b) = arr3 (Cert.Spec.xv v w b) := by
  funext j
  obtain ⟨c, h, t, rfl⟩ : ∃ (c : Fin 512) (h : Fin 8) (t : Fin 256), j = ix3 c h t := ⟨j 0, j 1, j 2, eq_ix3 j⟩
  exact pay22_apply v w b c h t

/-- The sum of all entries of a [512, 8, 256] array as the kernel takes it: over time, then over the heads, then over the
    channels, with the reshapes between. -/
def total3 (x : FVec Ideal S512x8x256 .f32) : FVec Ideal S1x1 .f32 :=
  shapeCast S1x1
    (multiReduction .add [0] S1
      (shapeCast S512x1
        (multiReduction .add [1] S512
          (multiReduction .add [2] S512x8 x 0x00000000#32 reduces_S512x8x256_S512x8 fmt32 accAdd)
          0x00000000#32 reduces_S512x8_S512 fmt32 accAdd)
        shapeCasts_S512_S512x1)
      0x00000000#32 reduces_S512x1_S1 fmt32 accAdd)
    shapeCasts_S1_S1x1

/-- On a real array it is the cast of the triple sum. -/
theorem total3_apply (R : Fin 512 → Fin 8 → Fin 256 → ℝ) (j : S1x1.Idx) :
    total3 (arr3 R) j = ((∑ c, ∑ h, ∑ t, R c h t : ℝ) : EReal) := by
  obtain ⟨u, u', rfl⟩ : ∃ (u u' : Fin 1), j = ix2 u u' := ⟨j 0, j 1, eq_ix2 j⟩
  unfold total3
  rw [shapeCast_a_a1_apply, sum2_axis0_apply, Cert.LibCoe.coe_sum]
  refine Finset.sum_congr rfl fun c _ => ?_
  rw [shapeCast_a_a1_apply, sum2_axis1_apply, Cert.LibCoe.coe_sum]
  refine Finset.sum_congr rfl fun h _ => ?_
  rw [sum3_axis2_apply, Cert.LibCoe.coe_sum]
  rfl
/-- The kernel's mean of the expanded video is the specification's. -/
theorem pay23_eq (v : Cert.Spec.Vid) (w b : Cert.Spec.Par8) :
    k0_pay23 (F := Ideal) (blkV v) (arr2 w) (arr2 b) = one1 (Cert.Spec.muV v w b) := by
  funext j
  show Ideal.div (total3 (k0_pay22 (F := Ideal) (blkV v) (arr2 w) (arr2 b)) j) (Ideal.ofBits .f32 0x49800000#32) = _
  rw [pay22_eq, total3_apply, Cert.Consts.ofBits_2p20, Cert.LibCoe.div_coe_coe _ (by norm_num)]
  rfl

/-- The squared deviation from a scalar, as the kernel builds it: the product of two copies of the difference. -/
def dev2 (x : FVec Ideal S512x8x256 .f32) (m : FVec Ideal S1x1 .f32) : FVec Ideal S512x8x256 .f32 :=
  mulf (subf x (broadcastTo S512x8x256 (shapeCast S1x1x1 m shapeCasts_S1x1_S1x1x1) broadcasts_S1x1x1_S512x8x256))
    (subf x (broadcastTo S512x8x256 (shapeCast S1x1x1 m shapeCasts_S1x1_S1x1x1) broadcasts_S1x1x1_S512x8x256))

theorem dev2_eq (R : Fin 512 → Fin 8 → Fin 256 → ℝ) (μ : ℝ) :
    dev2 (arr3 R) (one1 μ) = arr3 (fun c h t => (R c h t - μ) * (R c h t - μ)) := by
  funext j
  obtain ⟨c, h, t, rfl⟩ : ∃ (c : Fin 512) (h : Fin 8) (t : Fin 256), j = ix3 c h t := ⟨j 0, j 1, j 2, eq_ix3 j⟩
  unfold dev2
  simp only [mulf_apply, subf_apply, broadcastTo_111_abc_apply, shapeCast_ab_ab1_apply, arr3_ix3]
  rw [← EReal.coe_sub, ← EReal.coe_mul]

/-- The kernel's reciprocal root of the variance of the expanded video is the specification's. -/
theorem pay24_eq (v : Cert.Spec.Vid) (w b : Cert.Spec.Par8) :
    k0_pay24 (F := Ideal) (blkV v) (arr2 w) (arr2 b)
      = one1 (Cert.Spec.rsq (Cert.Spec.varV v w b + Cert.Spec.eps)) := by
  funext j
  show Ideal.rsqrt (Ideal.div (total3 (dev2 (k0_pay22 (F := Ideal) (blkV v) (arr2 w) (arr2 b))
      (k0_pay23 (F := Ideal) (blkV v) (arr2 w) (arr2 b))) j) (Ideal.ofBits .f32 0x49800000#32)
      + Ideal.ofBits .f32 0x3727C5AC#32) = _
  rw [pay22_eq, pay23_eq, dev2_eq, total3_apply, Cert.Consts.ofBits_2p20, Cert.LibCoe.div_coe_coe _ (by norm_num),
    ← Cert.Spec.coe_eps, ← EReal.coe_add]
  exact Cert.LibCoe.rsqrt_coe_pos (Cert.Spec.varV_eps_pos v w b)

/-! ## The head average -/

/-- The head average of the affine heads computed from the head averages of the parameters, as the kernel builds it from
    the expanded video `x`, its mean `m`, the reciprocal root `r`, the scale as a [512, 8, 1] array `g1` and the two
    parameters `g`, `be`: r · (mean_h (x · g) − m · mean_h g) + mean_h be. -/
def vmTerm (g1 : FVec Ideal S512x8x1 .f32) (x : FVec Ideal S512x8x256 .f32) (m r : FVec Ideal S1x1 .f32)
    (g be : Vec Ideal S512x8 .f32) : FVec Ideal S512x256 .f32 :=
  have gmean : FVec Ideal S512x1 .f32 :=
    divf (shapeCast S512x1 (multiReduction .add [1] S512 (shapeCast S512x8 g shapeCasts_S512x8_S512x8) 0x00000000#32
      reduces_S512x8_S512 fmt32 accAdd) shapeCasts_S512_S512x1) (broadcast S512x1 (Scalar.ofBits .f32 0x41000000#32))
  have bemean : FVec Ideal S512x1 .f32 :=
    divf (shapeCast S512x1 (multiReduction .add [1] S512 (shapeCast S512x8 be shapeCasts_S512x8_S512x8) 0x00000000#32
      reduces_S512x8_S512 fmt32 accAdd) shapeCasts_S512_S512x1) (broadcast S512x1 (Scalar.ofBits .f32 0x41000000#32))
  have pmean : FVec Ideal S512x256 .f32 :=
    divf (multiReduction .add [1] S512x256 (mulf x (broadcastTo S512x8x256 g1 broadcasts_S512x8x1_S512x8x256)) 0x00000000#32
      reduces_S512x8x256_S512x256 fmt32 accAdd) (broadcast S512x256 (Scalar.ofBits .f32 0x41000000#32))
  addf (mulf (broadcastTo S512x256 r broadcasts_S1x1_S512x256)
      (subf pmean (broadcastTo S512x256 (mulf (broadcastTo S512x1 m broadcasts_S1x1_S512x1) gmean) broadcasts_S512x1_S512x256)))
    (broadcastTo S512x256 bemean broadcasts_S512x1_S512x256)

/-- On real arrays it is the cast of the real expression. -/
theorem vmTerm_apply (X : Fin 512 → Fin 8 → Fin 256 → ℝ) (μ ρ : ℝ) (g be : Cert.Spec.Par8) (c : Fin 512) (t : Fin 256) :
    vmTerm (k0_pay21 (F := Ideal) (arr2 g)) (arr3 X) (one1 μ) (one1 ρ) (arr2 g) (arr2 be) (ix2 c t)
      = ((ρ * ((∑ h, X c h t * g c h) / 8 - μ * ((∑ h, g c h) / 8)) + (∑ h, be c h) / 8 : ℝ) : EReal) := by
  have h8 : (Scalar.ofBits (F := Ideal) .f32 0x41000000#32) = ((8 : ℝ) : EReal) := Cert.Consts.ofBits_8
  have hd : ∀ x : ℝ, Ideal.div (x : EReal) ((8 : ℝ) : EReal) = ((x / 8 : ℝ) : EReal) :=
    fun x => Cert.LibCoe.div_coe_coe x (by norm_num)
  unfold vmTerm k0_pay21
  simp only [addf_apply, mulf_apply, subf_apply, divf_apply, broadcast_apply, broadcastTo_11_ab_apply, broadcastTo_a1_ab_apply,
    shapeCast_self, shapeCast_a_a1_apply, h8]
  rw [sum3_axis1_apply, sum2_axis1_apply, sum2_axis1_apply]
  simp only [mulf_apply, broadcastTo_ab1_abc_apply, shapeCast_ab_ab1_apply, arr2_ix2, arr3_ix3, ← EReal.coe_mul,
    ← Cert.LibCoe.coe_sum, hd, ← EReal.coe_sub, ← EReal.coe_add]

/-! ## The soft-max over time -/

/-- The exponentials of a [512, 256] array less its row maxima, as the kernel builds them. -/
def expTerm (y : FVec Ideal S512x256 .f32) : FVec Ideal S512x256 .f32 :=
  Idealize.ShloMosaic.exp (subf y (broadcastTo S512x256 (shapeCast S512x1 (multiReduction .maximumf [1] S512 y 0xFF800000#32
    reduces_S512x256_S512 fmt32 accMax) shapeCasts_S512_S512x1) broadcasts_S512x1_S512x256))

/-- The soft-max over the second axis of a [512, 256] array, as the kernel builds it. -/
def smTerm (y : FVec Ideal S512x256 .f32) : FVec Ideal S512x256 .f32 :=
  divf (expTerm y) (broadcastTo S512x256 (shapeCast S512x1 (multiReduction .add [1] S512 (expTerm y) 0x00000000#32
    reduces_S512x256_S512 fmt32 accAdd) shapeCasts_S512_S512x1) broadcasts_S512x1_S512x256)

theorem expTerm_eq (R : Fin 512 → Fin 256 → ℝ) :
    expTerm (arr2 R) = arr2 (fun c t => Real.exp (R c t - Cert.Spec.rowMax (R c))) := by
  funext j
  obtain ⟨c, t, rfl⟩ : ∃ (c : Fin 512) (t : Fin 256), j = ix2 c t := ⟨j 0, j 1, eq_ix2 j⟩
  unfold expTerm
  rw [exp_apply, subf_apply, broadcastTo_a1_ab_apply, shapeCast_a_a1_apply, max2_axis1_apply, Cert.Consts.ofBits_negInf]
  simp only [arr2_ix2]
  rw [Cert.LibCoe.fold_max_bot_coe (R c), ← EReal.coe_sub, Cert.LibCoe.exp_coe]
  rfl

/-- On a real matrix the kernel's soft-max is the cast of the specification's. -/
theorem smTerm_apply (R : Fin 512 → Fin 256 → ℝ) (c : Fin 512) (t : Fin 256) :
    smTerm (arr2 R) (ix2 c t) = ((Cert.Spec.smax (R c) t : ℝ) : EReal) := by
  unfold smTerm
  rw [expTerm_eq, divf_apply, broadcastTo_a1_ab_apply, shapeCast_a_a1_apply, sum2_axis1_apply]
  simp only [arr2_ix2, ← Cert.LibCoe.coe_sum]
  rw [Cert.LibCoe.div_coe_coe _ (Cert.Spec.sumexp_pos (R c)).ne']
  rfl

/-! ## The attention -/

theorem vmTerm_eq (v : Cert.Spec.Vid) (w b g be : Cert.Spec.Par8) :
    vmTerm (k0_pay21 (F := Ideal) (arr2 g)) (arr3 (Cert.Spec.xv v w b)) (one1 (Cert.Spec.muV v w b))
        (one1 (Cert.Spec.rsq (Cert.Spec.varV v w b + Cert.Spec.eps))) (arr2 g) (arr2 be)
      = arr2 (Cert.Spec.vmK v w b g be) := by
  funext j
  obtain ⟨c, t, rfl⟩ : ∃ (c : Fin 512) (t : Fin 256), j = ix2 c t := ⟨j 0, j 1, eq_ix2 j⟩
  exact vmTerm_apply (Cert.Spec.xv v w b) _ _ g be c t

end V

open V in
/-- The kernel's attention at an index. -/
theorem attn_apply (v : Cert.Spec.Vid) (w b g be : Cert.Spec.Par8) (c : Fin 512) (t : Fin 256) :
    k0_pay25 (F := Ideal) (k0_pay21 (arr2 g)) (k0_pay22 (blkV v) (arr2 w) (arr2 b)) (k0_pay23 (blkV v) (arr2 w) (arr2 b))
        (k0_pay24 (blkV v) (arr2 w) (arr2 b)) (arr2 g) (arr2 be) (ix2 c t)
      = ((Cert.Spec.smax (Cert.Spec.vmK v w b g be c) t : ℝ) : EReal) := by
  show smTerm (vmTerm (k0_pay21 (F := Ideal) (arr2 g)) (k0_pay22 (blkV v) (arr2 w) (arr2 b))
    (k0_pay23 (blkV v) (arr2 w) (arr2 b)) (k0_pay24 (blkV v) (arr2 w) (arr2 b)) (arr2 g) (arr2 be)) (ix2 c t) = _
  rw [pay22_eq, pay23_eq, pay24_eq, vmTerm_eq, smTerm_apply]

end Cert.KRead

end
-- ==== Proof.KReadOut.lean ====
/-
  The kernel's stored block read at an index: on real blocks it is the real the specification's kerOut gives.
-/
import proofs.«420707_j90769838834068_3_alg».proof.Proof.KTerm
import proofs.«420707_j90769838834068_3_alg».proof.Proof.Spec
import proofs.«420707_j90769838834068_3_alg».proof.Proof.SpecMath
import proofs.«420707_j90769838834068_3_alg».proof.Proof.Arr
import proofs.«420707_j90769838834068_3_alg».proof.Proof.LibCoe
import proofs.«420707_j90769838834068_3_alg».proof.Proof.Consts
import proofs.«420707_j90769838834068_3_alg».proof.Proof.LibSums
import Idealize.ShloMosaic.Lib.ValueIdx
import Idealize.ShloMosaic.Lib.ValueLayout
import Idealize.ShloMosaic.Lib.Pipeline.Value
import Idealize.ShloMosaic.PureOps.Ideal.Laws
import proofs.«420707_j90769838834068_3_alg».proof.Proof.KBlk
import proofs.«420707_j90769838834068_3_alg».proof.Proof.KReadS3
import proofs.«420707_j90769838834068_3_alg».proof.Proof.KReadU
import proofs.«420707_j90769838834068_3_alg».proof.Proof.KReadV

noncomputable section

open scoped BigOperators

namespace Cert.KRead

open Idealize.ShloMosaic Idealize.ShloMosaic.ValueIdx Cert.KernelIdeal Cert.KernelIdeal.Gen Cert.KernelIdeal.KTerm Cert.Arr

variable [Cert.KernelIdeal.Facts]

/-- The kernel's stored block at (0, c, t). -/
theorem out_apply (a : Cert.Spec.Aud) (v : Cert.Spec.Vid) (p1w p1b p1g p1be p2w p2b p2g p2be : Cert.Spec.Par)
    (f1w f1b f1g f1be : Cert.Spec.Par8) (f2w f2b f2g f2be : Cert.Spec.Par) (c : Fin 512) (t : Fin 256) :
    KTerm.out (F := Ideal) (blkA a) (blkV v) (colP p1w) (colP p1b) (colP p1g) (colP p1be) (colP p2w) (colP p2b) (colP p2g)
        (colP p2be) (arr2 f1w) (arr2 f1b) (arr2 f1g) (arr2 f1be) (colP f2w) (colP f2b) (colP f2g) (colP f2be) (ix3 (0 : Fin 1) c t)
      = ((Cert.Spec.kerOut a v p1w p1b p1g p1be p2w p2b p2g p2be f1w f1b f1g f1be f2w f2b f2g f2be c t : ℝ) : EReal) := by
  unfold KTerm.out
  rw [final_apply, up18_apply, up19_apply, sval_apply, sgate_apply, attn_apply, ← EReal.coe_mul, ← EReal.coe_mul,
    ← EReal.coe_add, ← EReal.coe_add]
  rfl

end Cert.KRead

end
-- ==== Proof.RefTerm.lean ====
/-
  The reference as a composition of a dozen functions of whole arrays, each a short stretch of its host operations:
  the channel repeat of the audio, a per-channel scale and shift, the normalisation over all non-batch entries with its
  per-channel affine map (at the three shapes the reference uses), max(·, 0), the time index ⌊64·t/256⌋ with its wrap-around
  select, the gather along the time axis, the head expansion of the video, the head average, the soft-max over time, and
  the final combination summed over the frequency axis.
-/
import proofs.«420707_j90769838834068_3_alg».proof.ReferenceIdeal

noncomputable section

namespace Cert.ReferenceIdeal.RefTerm

open Idealize.ShloMosaic Cert.ReferenceIdeal Cert.ReferenceIdeal.Facts₀ Cert.ReferenceIdeal.Facts

variable {F : FTy → Type} [FloatOps F] [Cert.ReferenceIdeal.Facts]

/-! ## The audio branch -/

/-- The audio with every channel repeated four times. -/
def aexp (a : FVec F S4x128x64x64 .f32) : FVec F S4x512x64x64 .f32 :=
  shapeCast S4x512x64x64 (broadcastInDim S4x128x4x64x64 ![0, 1, 3, 4] bcast_S4x128x64x64_S4x128x4x64x64_0_1_3_4 a)
    shapeCasts_S4x128x4x64x64_S4x512x64x64

/-- x · w[c] + b[c] at rank 4. -/
def affine4 (x : FVec F S4x512x64x64 .f32) (w b : FVec F S512 .f32) : FVec F S4x512x64x64 .f32 :=
  addf (mulf x (broadcastInDim S4x512x64x64 ![0, 1, 2, 3] bcast_S1x512x1x1_S4x512x64x64_0_1_2_3
      (broadcastInDim S1x512x1x1 ![1] bcast_S512_S1x512x1x1_1 w)))
    (broadcastInDim S4x512x64x64 ![0, 1, 2, 3] bcast_S1x512x1x1_S4x512x64x64_0_1_2_3
      (broadcastInDim S1x512x1x1 ![1] bcast_S512_S1x512x1x1_1 b))

/-- The mean over the non-batch axes, kept as [4, 1, 1, 1]. -/
def mean4 (x : FVec F S4x512x64x64 .f32) : FVec F S4x1x1x1 .f32 :=
  Host.divf (broadcastInDim S4x1x1x1 ![0] bcast_S4_S4x1x1x1_0
      (Host.reduceAdd x (constant S_ .f32 0x00000000#32) reducesTo_S4x512x64x64_S4_d1_2_3 h_S_))
    (broadcastInDim S4x1x1x1 ![] bcast_S_S4x1x1x1 (constant S_ .f32 0x4A000000#32))

/-- x minus its mean. -/
def cen4 (x : FVec F S4x512x64x64 .f32) : FVec F S4x512x64x64 .f32 :=
  subf x (broadcastInDim S4x512x64x64 ![0, 1, 2, 3] bcast_S4x1x1x1_S4x512x64x64_0_1_2_3 (mean4 x))

/-- The variance over the non-batch axes, kept as [4, 1, 1, 1]. -/
def var4 (x : FVec F S4x512x64x64 .f32) : FVec F S4x1x1x1 .f32 :=
  Host.divf (broadcastInDim S4x1x1x1 ![0] bcast_S4_S4x1x1x1_0
      (Host.reduceAdd (mulf (cen4 x) (cen4 x)) (constant S_ .f32 0x00000000#32) reducesTo_S4x512x64x64_S4_d1_2_3 h_S_))
    (broadcastInDim S4x1x1x1 ![] bcast_S_S4x1x1x1 (constant S_ .f32 0x4A000000#32))

/-- The normalisation at rank 4 with its per-channel affine map. -/
def gn4 (x : FVec F S4x512x64x64 .f32) (g be : FVec F S512 .f32) : FVec F S4x512x64x64 .f32 :=
  addf (mulf (mulf (cen4 x) (broadcastInDim S4x512x64x64 ![0, 1, 2, 3] bcast_S4x1x1x1_S4x512x64x64_0_1_2_3
        (Host.rsqrt (addf (var4 x) (broadcastInDim S4x1x1x1 ![] bcast_S_S4x1x1x1 (constant S_ .f32 0x3727C5AC#32))))))
      (broadcastInDim S4x512x64x64 ![0, 1, 2, 3] bcast_S1x512x1x1_S4x512x64x64_0_1_2_3
        (shapeCast S1x512x1x1 g shapeCasts_S512_S1x512x1x1)))
    (broadcastInDim S4x512x64x64 ![0, 1, 2, 3] bcast_S1x512x1x1_S4x512x64x64_0_1_2_3
      (shapeCast S1x512x1x1 be shapeCasts_S512_S1x512x1x1))

/-- max(x, 0). -/
def relu4 (x : FVec F S4x512x64x64 .f32) : FVec F S4x512x64x64 .f32 :=
  maximumf x (broadcastInDim S4x512x64x64 ![] bcast_S_S4x512x64x64 (constant S_ .f32 0x00000000#32))

/-! ## The time index -/

/-- 64 · t for t = 0 … 255. -/
def t64 : IVec S256 32 := muli (iotaInDim S256 32 0) (broadcastInDim S256 ![] bcast_S_S256 (constantI S_ 32 64#32))

/-- ⌊64 · t / 256⌋, as the floor division computes it: the truncated quotient, less one where the signs differ and the
    remainder is not zero. -/
def tdiv : IVec S256 32 :=
  select
    (andi (cmpi .ne (signi t64) (broadcastInDim S256 ![] bcast_S_S256 (signi (id (constantI S_ 32 256#32)))))
      (cmpi .ne (Host.remsi t64 (broadcastInDim S256 ![] bcast_S_S256 (id (constantI S_ 32 256#32))))
        (broadcastInDim S256 ![] bcast_S_S256 (constantI S_ 32 0#32))))
    (subi (Host.divsi t64 (broadcastInDim S256 ![] bcast_S_S256 (id (constantI S_ 32 256#32))))
      (broadcastInDim S256 ![] bcast_S_S256 (constantI S_ 32 1#32)))
    (Host.divsi t64 (broadcastInDim S256 ![] bcast_S_S256 (id (constantI S_ 32 256#32))))

/-- The index with negative values wrapped by 64, as a column. -/
def tidx : IVec S256x1 32 :=
  broadcastInDim S256x1 ![0] bcast_S256_S256x1_0
    (select (cmpi .slt tdiv (broadcastInDim S256 ![] bcast_S_S256 (constantI S_ 32 0#32)))
      (addi tdiv (broadcastInDim S256 ![] bcast_S_S256 (constantI S_ 32 64#32))) tdiv)

/-- The gather along the time axis. -/
def take4 (x : FVec F S4x512x64x64 .f32) (i : IVec S256x1 32) : FVec F S4x512x256x64 .f32 :=
  Host.gather gather_S4x512x64x64_S256x1_S4x512x256x64_013_2_n_n_2_1_4512164 x i

/-! ## The attention branch -/

/-- The video with every channel repeated into eight heads, as [4, 4096, 256]. -/
def vrep (v : FVec F S4x512x256 .f32) : FVec F S4x4096x256 .f32 :=
  shapeCast S4x4096x256 (broadcastInDim S4x512x8x256 ![0, 1, 3] bcast_S4x512x256_S4x512x8x256_0_1_3 v)
    shapeCasts_S4x512x8x256_S4x4096x256

/-- x · w[ch] + b[ch] over the 4096 head channels. -/
def affine3h (x : FVec F S4x4096x256 .f32) (w b : FVec F S4096 .f32) : FVec F S4x4096x256 .f32 :=
  addf (mulf x (broadcastInDim S4x4096x256 ![0, 1, 2] bcast_S1x4096x1_S4x4096x256_0_1_2
      (broadcastInDim S1x4096x1 ![1] bcast_S4096_S1x4096x1_1 w)))
    (broadcastInDim S4x4096x256 ![0, 1, 2] bcast_S1x4096x1_S4x4096x256_0_1_2
      (broadcastInDim S1x4096x1 ![1] bcast_S4096_S1x4096x1_1 b))

def mean3h (x : FVec F S4x4096x256 .f32) : FVec F S4x1x1 .f32 :=
  Host.divf (broadcastInDim S4x1x1 ![0] bcast_S4_S4x1x1_0
      (Host.reduceAdd x (constant S_ .f32 0x00000000#32) reducesTo_S4x4096x256_S4_d1_2 h_S_))
    (broadcastInDim S4x1x1 ![] bcast_S_S4x1x1 (constant S_ .f32 0x49800000#32))

def cen3h (x : FVec F S4x4096x256 .f32) : FVec F S4x4096x256 .f32 :=
  subf x (broadcastInDim S4x4096x256 ![0, 1, 2] bcast_S4x1x1_S4x4096x256_0_1_2 (mean3h x))

def var3h (x : FVec F S4x4096x256 .f32) : FVec F S4x1x1 .f32 :=
  Host.divf (broadcastInDim S4x1x1 ![0] bcast_S4_S4x1x1_0
      (Host.reduceAdd (mulf (cen3h x) (cen3h x)) (constant S_ .f32 0x00000000#32) reducesTo_S4x4096x256_S4_d1_2 h_S_))
    (broadcastInDim S4x1x1 ![] bcast_S_S4x1x1 (constant S_ .f32 0x49800000#32))

/-- The normalisation over the 4096 · 256 entries with its per-head-channel affine map. -/
def gn3h (x : FVec F S4x4096x256 .f32) (g be : FVec F S4096 .f32) : FVec F S4x4096x256 .f32 :=
  addf (mulf (mulf (cen3h x) (broadcastInDim S4x4096x256 ![0, 1, 2] bcast_S4x1x1_S4x4096x256_0_1_2
        (Host.rsqrt (addf (var3h x) (broadcastInDim S4x1x1 ![] bcast_S_S4x1x1 (constant S_ .f32 0x3727C5AC#32))))))
      (broadcastInDim S4x4096x256 ![0, 1, 2] bcast_S1x4096x1_S4x4096x256_0_1_2
        (shapeCast S1x4096x1 g shapeCasts_S4096_S1x4096x1)))
    (broadcastInDim S4x4096x256 ![0, 1, 2] bcast_S1x4096x1_S4x4096x256_0_1_2
      (shapeCast S1x4096x1 be shapeCasts_S4096_S1x4096x1))

/-- The average over the eight heads of a channel. -/
def vmean (y : FVec F S4x4096x256 .f32) : FVec F S4x512x256 .f32 :=
  Host.divf (Host.reduceAdd (shapeCast S4x512x8x256 y shapeCasts_S4x4096x256_S4x512x8x256) (constant S_ .f32 0x00000000#32)
      reducesTo_S4x512x8x256_S4x512x256_d2 h_S_)
    (broadcastInDim S4x512x256 ![] bcast_S_S4x512x256 (constant S_ .f32 0x41000000#32))

/-- The row maximum the soft-max subtracts, broadcast back over time. -/
def smaxMax (x : FVec F S4x512x256 .f32) : FVec F S4x512x256 .f32 :=
  broadcastInDim S4x512x256 ![0, 1, 2] bcast_S4x512x1_S4x512x256_0_1_2
    (broadcastInDim S4x512x1 ![0, 1] bcast_S4x512_S4x512x1_0_1
      (maximumf (broadcastInDim S4x512 ![] bcast_S_S4x512 (constant S_ .f32 0xFF800000#32))
        (Host.reduce FloatOps.maximumf x (constant S_ .f32 0xFF800000#32) reducesTo_S4x512x256_S4x512_d2 h_S_)))

/-- The exponentials of the soft-max. -/
def smaxExp (x : FVec F S4x512x256 .f32) : FVec F S4x512x256 .f32 := Host.exp (subf x (smaxMax x))

/-- The soft-max over time. -/
def softmax3 (x : FVec F S4x512x256 .f32) : FVec F S4x512x256 .f32 :=
  Host.divf (smaxExp x)
    (broadcastInDim S4x512x256 ![0, 1, 2] bcast_S4x512x1_S4x512x256_0_1_2
      (broadcastInDim S4x512x1 ![0, 1] bcast_S4x512_S4x512x1_0_1
        (Host.reduceAdd (smaxExp x) (constant S_ .f32 0x00000000#32) reducesTo_S4x512x256_S4x512_d2 h_S_)))

/-! ## The key branch -/

/-- x · w[c] + b[c] at rank 3. -/
def affine3 (x : FVec F S4x512x256 .f32) (w b : FVec F S512 .f32) : FVec F S4x512x256 .f32 :=
  addf (mulf x (broadcastInDim S4x512x256 ![0, 1, 2] bcast_S1x512x1_S4x512x256_0_1_2
      (broadcastInDim S1x512x1 ![1] bcast_S512_S1x512x1_1 w)))
    (broadcastInDim S4x512x256 ![0, 1, 2] bcast_S1x512x1_S4x512x256_0_1_2
      (broadcastInDim S1x512x1 ![1] bcast_S512_S1x512x1_1 b))

def mean3 (x : FVec F S4x512x256 .f32) : FVec F S4x1x1 .f32 :=
  Host.divf (broadcastInDim S4x1x1 ![0] bcast_S4_S4x1x1_0
      (Host.reduceAdd x (constant S_ .f32 0x00000000#32) reducesTo_S4x512x256_S4_d1_2 h_S_))
    (broadcastInDim S4x1x1 ![] bcast_S_S4x1x1 (constant S_ .f32 0x48000000#32))

def cen3 (x : FVec F S4x512x256 .f32) : FVec F S4x512x256 .f32 :=
  subf x (broadcastInDim S4x512x256 ![0, 1, 2] bcast_S4x1x1_S4x512x256_0_1_2 (mean3 x))

def var3 (x : FVec F S4x512x256 .f32) : FVec F S4x1x1 .f32 :=
  Host.divf (broadcastInDim S4x1x1 ![0] bcast_S4_S4x1x1_0
      (Host.reduceAdd (mulf (cen3 x) (cen3 x)) (constant S_ .f32 0x00000000#32) reducesTo_S4x512x256_S4_d1_2 h_S_))
    (broadcastInDim S4x1x1 ![] bcast_S_S4x1x1 (constant S_ .f32 0x48000000#32))

/-- The normalisation over the 512 · 256 entries with its per-channel affine map. -/
def gn3 (x : FVec F S4x512x256 .f32) (g be : FVec F S512 .f32) : FVec F S4x512x256 .f32 :=
  addf (mulf (mulf (cen3 x) (broadcastInDim S4x512x256 ![0, 1, 2] bcast_S4x1x1_S4x512x256_0_1_2
        (Host.rsqrt (addf (var3 x) (broadcastInDim S4x1x1 ![] bcast_S_S4x1x1 (constant S_ .f32 0x3727C5AC#32))))))
      (broadcastInDim S4x512x256 ![0, 1, 2] bcast_S1x512x1_S4x512x256_0_1_2
        (shapeCast S1x512x1 g shapeCasts_S512_S1x512x1)))
    (broadcastInDim S4x512x256 ![0, 1, 2] bcast_S1x512x1_S4x512x256_0_1_2
      (shapeCast S1x512x1 be shapeCasts_S512_S1x512x1))

/-! ## The combination -/

/-- A [4, 512, 256] array repeated along a new last axis of length 64. -/
def rep64 (x : FVec F S4x512x256 .f32) : FVec F S4x512x256x64 .f32 :=
  broadcastInDim S4x512x256x64 ![0, 1, 2, 3] bcast_S4x512x256x1_S4x512x256x64_0_1_2_3
    (broadcastInDim S4x512x256x1 ![0, 1, 2] bcast_S4x512x256_S4x512x256x1_0_1_2 x)

/-- Σ_f (aval · attn + agate · key) + video. -/
def fuse (aval agate : FVec F S4x512x256x64 .f32) (attn key vid : FVec F S4x512x256 .f32) : FVec F S4x512x256 .f32 :=
  addf (Host.reduceAdd (addf (mulf aval (rep64 attn)) (mulf agate (rep64 key))) (constant S_ .f32 0x00000000#32)
      reducesTo_S4x512x256x64_S4x512x256_d3 h_S_) vid

/-- The reference's result as a function of its eighteen argument arrays. -/
def out (a : FVec F S4x128x64x64 .f32) (v : FVec F S4x512x256 .f32) (p1w p1b p1g p1be p2w p2b p2g p2be : FVec F S512 .f32)
    (f1w f1b f1g f1be : FVec F S4096 .f32) (f2w f2b f2g f2be : FVec F S512 .f32) : FVec F S4x512x256 .f32 :=
  fuse (take4 (gn4 (affine4 (aexp a) p1w p1b) p1g p1be) tidx)
    (take4 (relu4 (gn4 (affine4 (aexp a) p2w p2b) p2g p2be)) tidx)
    (softmax3 (vmean (gn3h (affine3h (vrep v) f1w f1b) f1g f1be)))
    (gn3 (affine3 v f2w f2b) f2g f2be) v

end Cert.ReferenceIdeal.RefTerm

end
-- ==== Proof.RefRun.lean ====
/-
  The reference's run read back: its @main is a straight line of host operations (the two functions it calls — max(·, 0) and
  the floor division with its inner select — taken at their call sites), so every weakly fair execution terminates with the
  result buffer at the composition RefTerm.out of the argument arrays and the argument arrays unchanged.
-/
import proofs.«420707_j90769838834068_3_alg».proof.Proof.Gen.ReferenceIdeal
import proofs.«420707_j90769838834068_3_alg».proof.Proof.RefTerm
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F] [Cert.ReferenceIdeal.Facts]

/-- A TensorCore reference as the device buffer a valuation is read at. -/
local notation:max "⟪" r "⟫" => Proc.devRef (τ := τ) (sig := sig) Proc.tc r

/-! ## The operations, window by window

@main's four printed windows, the two calls of the second taken at their sites over the calls' own buffers. Each window has the
list of buffers it writes (a buffer outside it keeps its contents), the side facts the run asks of every operation, and what
the buffers read later hold after it, as the reference's stage functions of what they held before. -/

/-- The first window's sixty operations: the channel repeat of the audio, the first scale-and-shift with its normalisation
    and affine map, and the second scale-and-shift with its mean, centred values and variance. -/
abbrev ops0 : List (HloOp τ sig (Elt F)) :=
  [ unary main_arg0 main_v0 (broadcastInDim S4x128x4x64x64 ![0, 1, 3, 4] bcast_S4x128x64x64_S4x128x4x64x64_0_1_3_4),
    reshape main_v0 main_v1 rfl shapeCasts_S4x128x4x64x64_S4x512x64x64,
    unary main_arg2 main_v2 (broadcastInDim S1x512x1x1 ![1] bcast_S512_S1x512x1x1_1),
    unary main_v2 main_v3 (broadcastInDim S4x512x64x64 ![0, 1, 2, 3] bcast_S1x512x1x1_S4x512x64x64_0_1_2_3),
    binary main_v1 main_v3 main_v4 mulf,
    unary main_arg3 main_v5 (broadcastInDim S1x512x1x1 ![1] bcast_S512_S1x512x1x1_1),
    unary main_v5 main_v6 (broadcastInDim S4x512x64x64 ![0, 1, 2, 3] bcast_S1x512x1x1_S4x512x64x64_0_1_2_3),
    binary main_v4 main_v6 main_v7 addf,
    nullary main_cst (constant S_ .f32 0x00000000#32),
    binary main_v7 main_cst main_v8 (fun x v => Host.reduceAdd x v reducesTo_S4x512x64x64_S4_d1_2_3 h_S_),
    unary main_v8 main_v9 (broadcastInDim S4x1x1x1 ![0] bcast_S4_S4x1x1x1_0),
    nullary main_cst_0 (constant S_ .f32 0x4A000000#32),
    unary main_cst_0 main_v10 (broadcastInDim S4x1x1x1 ![] bcast_S_S4x1x1x1),
    binary main_v9 main_v10 main_v11 Host.divf,
    unary main_v11 main_v12 (broadcastInDim S4x512x64x64 ![0, 1, 2, 3] bcast_S4x1x1x1_S4x512x64x64_0_1_2_3),
    binary main_v7 main_v12 main_v13 subf,
    binary main_v13 main_v13 main_v14 mulf,
    nullary main_cst_1 (constant S_ .f32 0x00000000#32),
    binary main_v14 main_cst_1 main_v15 (fun x v => Host.reduceAdd x v reducesTo_S4x512x64x64_S4_d1_2_3 h_S_),
    unary main_v15 main_v16 (broadcastInDim S4x1x1x1 ![0] bcast_S4_S4x1x1x1_0),
    nullary main_cst_2 (constant S_ .f32 0x4A000000#32),
    unary main_cst_2 main_v17 (broadcastInDim S4x1x1x1 ![] bcast_S_S4x1x1x1),
    binary main_v16 main_v17 main_v18 Host.divf,
    unary main_v11 main_v19 (broadcastInDim S4x512x64x64 ![0, 1, 2, 3] bcast_S4x1x1x1_S4x512x64x64_0_1_2_3),
    binary main_v7 main_v19 main_v20 subf,
    nullary main_cst_3 (constant S_ .f32 0x3727C5AC#32),
    unary main_cst_3 main_v21 (broadcastInDim S4x1x1x1 ![] bcast_S_S4x1x1x1),
    binary main_v18 main_v21 main_v22 addf,
    unary main_v22 main_v23 Host.rsqrt,
    unary main_v23 main_v24 (broadcastInDim S4x512x64x64 ![0, 1, 2, 3] bcast_S4x1x1x1_S4x512x64x64_0_1_2_3),
    binary main_v20 main_v24 main_v25 mulf,
    reshape main_arg4 main_v26 rfl shapeCasts_S512_S1x512x1x1,
    unary main_v26 main_v27 (broadcastInDim S4x512x64x64 ![0, 1, 2, 3] bcast_S1x512x1x1_S4x512x64x64_0_1_2_3),
    binary main_v25 main_v27 main_v28 mulf,
    reshape main_arg5 main_v29 rfl shapeCasts_S512_S1x512x1x1,
    unary main_v29 main_v30 (broadcastInDim S4x512x64x64 ![0, 1, 2, 3] bcast_S1x512x1x1_S4x512x64x64_0_1_2_3),
    binary main_v28 main_v30 main_v31 addf,
    unary main_arg6 main_v32 (broadcastInDim S1x512x1x1 ![1] bcast_S512_S1x512x1x1_1),
    unary main_v32 main_v33 (broadcastInDim S4x512x64x64 ![0, 1, 2, 3] bcast_S1x512x1x1_S4x512x64x64_0_1_2_3),
    binary main_v1 main_v33 main_v34 mulf,
    unary main_arg7 main_v35 (broadcastInDim S1x512x1x1 ![1] bcast_S512_S1x512x1x1_1),
    unary main_v35 main_v36 (broadcastInDim S4x512x64x64 ![0, 1, 2, 3] bcast_S1x512x1x1_S4x512x64x64_0_1_2_3),
    binary main_v34 main_v36 main_v37 addf,
    nullary main_cst_4 (constant S_ .f32 0x00000000#32),
    binary main_v37 main_cst_4 main_v38 (fun x v => Host.reduceAdd x v reducesTo_S4x512x64x64_S4_d1_2_3 h_S_),
    unary main_v38 main_v39 (broadcastInDim S4x1x1x1 ![0] bcast_S4_S4x1x1x1_0),
    nullary main_cst_5 (constant S_ .f32 0x4A000000#32),
    unary main_cst_5 main_v40 (broadcastInDim S4x1x1x1 ![] bcast_S_S4x1x1x1),
    binary main_v39 main_v40 main_v41 Host.divf,
    unary main_v41 main_v42 (broadcastInDim S4x512x64x64 ![0, 1, 2, 3] bcast_S4x1x1x1_S4x512x64x64_0_1_2_3),
    binary main_v37 main_v42 main_v43 subf,
    binary main_v43 main_v43 main_v44 mulf,
    nullary main_cst_6 (constant S_ .f32 0x00000000#32),
    binary main_v44 main_cst_6 main_v45 (fun x v => Host.reduceAdd x v reducesTo_S4x512x64x64_S4_d1_2_3 h_S_),
    unary main_v45 main_v46 (broadcastInDim S4x1x1x1 ![0] bcast_S4_S4x1x1x1_0),
    nullary main_cst_7 (constant S_ .f32 0x4A000000#32),
    unary main_cst_7 main_v47 (broadcastInDim S4x1x1x1 ![] bcast_S_S4x1x1x1),
    binary main_v46 main_v47 main_v48 Host.divf,
    unary main_v41 main_v49 (broadcastInDim S4x512x64x64 ![0, 1, 2, 3] bcast_S4x1x1x1_S4x512x64x64_0_1_2_3),
    binary main_v37 main_v49 main_v50 subf ]

/-- The buffers the first window writes, in order. -/
abbrev W0 : List (Ref sig .tc) :=
  [main_v0, main_v1, main_v2, main_v3, main_v4, main_v5, main_v6, main_v7, main_cst, main_v8, main_v9, main_cst_0, main_v10,
    main_v11, main_v12, main_v13, main_v14, main_cst_1, main_v15, main_v16, main_cst_2, main_v17, main_v18, main_v19, main_v20,
    main_cst_3, main_v21, main_v22, main_v23, main_v24, main_v25, main_v26, main_v27, main_v28, main_v29, main_v30, main_v31,
    main_v32, main_v33, main_v34, main_v35, main_v36, main_v37, main_cst_4, main_v38, main_v39, main_cst_5, main_v40, main_v41,
    main_v42, main_v43, main_v44, main_cst_6, main_v45, main_v46, main_cst_7, main_v47, main_v48, main_v49, main_v50]

theorem ops0_sub : (ops0 : List (HloOp τ sig (Elt F))).Forall fun op => op.bufs ⊆ tcRefs τ sig := by
  simp only [List.Forall, nullary_bufs_sub, unary_bufs_sub, binary_bufs_sub, ternary_bufs_sub, reshape_bufs_sub, and_self]

theorem ops0_fresh : ∀ op ∈ (ops0 : List (HloOp τ sig (Elt F))), op.fresh = ∅ := by
  intro _ h; (repeat (cases h with | head => rfl | tail _ h => ?_)); exact nomatch h

theorem ops0_writes : (ops0 : List (HloOp τ sig (Elt F))).Forall fun op =>
    op.writes ⊆ (W0.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer the first window does not write keeps its contents through it. -/
theorem keep0 (V : Valuation τ sig (Elt F)) (r : Ref sig .tc) (h : r ∉ W0) : after ops0 V ⟪r⟫ = V ⟪r⟫ :=
  after_of_writes_sub ops0 V ops0_writes h

/-- After the first window the first audio branch is normalised. -/
theorem w0_v31 (V : Valuation τ sig (Elt F)) :
    after ops0 V ⟪main_v31⟫ = RefTerm.gn4 (RefTerm.affine4 (RefTerm.aexp (V ⟪main_arg0⟫)) (V ⟪main_arg2⟫) (V ⟪main_arg3⟫))
      (V ⟪main_arg4⟫) (V ⟪main_arg5⟫) := by
  after_results_simp; rfl

/-- … and the second branch's scale-and-shift has its centred values … -/
theorem w0_v50 (V : Valuation τ sig (Elt F)) :
    after ops0 V ⟪main_v50⟫ = RefTerm.cen4 (RefTerm.affine4 (RefTerm.aexp (V ⟪main_arg0⟫)) (V ⟪main_arg6⟫) (V ⟪main_arg7⟫)) := by
  after_results_simp; rfl

/-- … and its variance. -/
theorem w0_v48 (V : Valuation τ sig (Elt F)) :
    after ops0 V ⟪main_v48⟫ = RefTerm.var4 (RefTerm.affine4 (RefTerm.aexp (V ⟪main_arg0⟫)) (V ⟪main_arg6⟫) (V ⟪main_arg7⟫)) := by
  after_results_simp; rfl

/-- The second window up to the time index's floor division (37 operations): the second normalisation finished with its
    affine map; max(·, 0) taken at its call; 64 · t; and the floor division by 256 taken at its call, its inner select
    included. -/
abbrev ops1a : List (HloOp τ sig (Elt F)) :=
  [ nullary main_cst_8 (constant S_ .f32 0x3727C5AC#32),
    unary main_cst_8 main_v51 (broadcastInDim S4x1x1x1 ![] bcast_S_S4x1x1x1),
    binary main_v48 main_v51 main_v52 addf,
    unary main_v52 main_v53 Host.rsqrt,
    unary main_v53 main_v54 (broadcastInDim S4x512x64x64 ![0, 1, 2, 3] bcast_S4x1x1x1_S4x512x64x64_0_1_2_3),
    binary main_v50 main_v54 main_v55 mulf,
    reshape main_arg8 main_v56 rfl shapeCasts_S512_S1x512x1x1,
    unary main_v56 main_v57 (broadcastInDim S4x512x64x64 ![0, 1, 2, 3] bcast_S1x512x1x1_S4x512x64x64_0_1_2_3),
    binary main_v55 main_v57 main_v58 mulf,
    reshape main_arg9 main_v59 rfl shapeCasts_S512_S1x512x1x1,
    unary main_v59 main_v60 (broadcastInDim S4x512x64x64 ![0, 1, 2, 3] bcast_S1x512x1x1_S4x512x64x64_0_1_2_3),
    binary main_v58 main_v60 main_v61 addf,
    TRef.nullary main_call0.cst (constant S_ .f32 0x00000000#32),
    TRef.unary main_call0.cst main_call0.v0 (broadcastInDim S4x512x64x64 ![] bcast_S_S4x512x64x64),
    TRef.binary (.of main_v61) main_call0.v0 main_call0.v1 maximumf,
    nullary main_v63 (iotaInDim S256 32 0),
    nullary main_c (constantI S_ 32 64#32),
    unary main_c main_v64 (broadcastInDim S256 ![] bcast_S_S256),
    binary main_v63 main_v64 main_v65 muli,
    nullary main_c_9 (constantI S_ 32 256#32),
    TRef.unary (.of main_c_9) main_call1.v0 id,
    TRef.unary main_call1.v0 main_call1.v1 (broadcastInDim S256 ![] bcast_S_S256),
    TRef.binary (.of main_v65) main_call1.v1 main_call1.v2 Host.divsi,
    TRef.unary (.of main_v65) main_call1.v3 signi,
    TRef.unary main_call1.v0 main_call1.v4 signi,
    TRef.unary main_call1.v4 main_call1.v5 (broadcastInDim S256 ![] bcast_S_S256),
    TRef.binary main_call1.v3 main_call1.v5 main_call1.v6 (cmpi .ne),
    TRef.unary main_call1.v0 main_call1.v7 (broadcastInDim S256 ![] bcast_S_S256),
    TRef.binary (.of main_v65) main_call1.v7 main_call1.v8 Host.remsi,
    TRef.nullary main_call1.c (constantI S_ 32 0#32),
    TRef.unary main_call1.c main_call1.v9 (broadcastInDim S256 ![] bcast_S_S256),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S256 ![] bcast_S_S256),
    TRef.binary main_call1.v2 main_call1.v12 main_call1.v13 subi,
    TRef.ternary main_call1.v11 main_call1.v13 main_call1.v2 main_call1.call0.v0 select ]

/-- The buffers the second window writes up to the floor division, in order. -/
abbrev W1a : List (Ref sig .tc) :=
  [main_cst_8, main_v51, main_v52, main_v53, main_v54, main_v55, main_v56, main_v57, main_v58, main_v59, main_v60, main_v61,
    main_call0_cst, main_call0_v0, main_v62, main_v63, main_c, main_v64, main_v65, main_c_9, main_call1_v0, main_call1_v1,
    main_call1_v2, main_call1_v3, main_call1_v4, main_call1_v5, main_call1_v6, main_call1_v7, main_call1_v8, main_call1_c,
    main_call1_v9, main_call1_v10, main_call1_v11, main_call1_c_0, main_call1_v12, main_call1_v13, main_v66]

theorem ops1a_sub : (ops1a : List (HloOp τ sig (Elt F))).Forall fun op => op.bufs ⊆ tcRefs τ sig := by
  simp only [List.Forall, nullary_bufs_sub, unary_bufs_sub, binary_bufs_sub, ternary_bufs_sub, reshape_bufs_sub, and_self]

theorem ops1a_fresh : ∀ op ∈ (ops1a : List (HloOp τ sig (Elt F))), op.fresh = ∅ := by
  intro _ h; (repeat (cases h with | head => rfl | tail _ h => ?_)); exact nomatch h

theorem ops1a_writes : (ops1a : List (HloOp τ sig (Elt F))).Forall fun op =>
    op.writes ⊆ (W1a.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer these operations do not write keeps its contents through them. -/
theorem keep1a (V : Valuation τ sig (Elt F)) (r : Ref sig .tc) (h : r ∉ W1a) : after ops1a V ⟪r⟫ = V ⟪r⟫ :=
  after_of_writes_sub ops1a V ops1a_writes h

/-- From the centred values and the variance of an array x, these operations leave max(·, 0) of x's normalisation. -/
theorem w1a_v62 (V : Valuation τ sig (Elt F)) (x : FVec F S4x512x64x64 .f32)
    (h50 : V ⟪main_v50⟫ = RefTerm.cen4 x) (h48 : V ⟪main_v48⟫ = RefTerm.var4 x) :
    after ops1a V ⟪main_v62⟫ = RefTerm.relu4 (RefTerm.gn4 x (V ⟪main_arg8⟫) (V ⟪main_arg9⟫)) := by
  after_results_simp; rw [h50, h48]; rfl

/-- … and the floor-divided time index, whatever the memory held. -/
theorem w1a_v66 (V : Valuation τ sig (Elt F)) : after ops1a V ⟪main_v66⟫ = RefTerm.tdiv := by
  after_results_simp; rfl

/-- The rest of the second window (41 operations): the wrap-around select and the gather along the time axis, once for each
    audio branch; the head expansion of the video with its scale-and-shift; its mean, centred values and variance. -/
abbrev ops1b : List (HloOp τ sig (Elt F)) :=
  [ nullary main_c_10 (constantI S_ 32 0#32),
    unary main_c_10 main_v67 (broadcastInDim S256 ![] bcast_S_S256),
    binary main_v66 main_v67 main_v68 (cmpi .slt),
    nullary main_c_11 (constantI S_ 32 64#32),
    unary main_c_11 main_v69 (broadcastInDim S256 ![] bcast_S_S256),
    binary main_v66 main_v69 main_v70 addi,
    ternary main_v68 main_v70 main_v66 main_v71 select,
    unary main_v71 main_v72 (broadcastInDim S256x1 ![0] bcast_S256_S256x1_0),
    binary main_v31 main_v72 main_v73 (fun x i => Host.gather gather_S4x512x64x64_S256x1_S4x512x256x64_013_2_n_n_2_1_4512164 x i),
    nullary main_c_12 (constantI S_ 32 0#32),
    unary main_c_12 main_v74 (broadcastInDim S256 ![] bcast_S_S256),
    binary main_v66 main_v74 main_v75 (cmpi .slt),
    nullary main_c_13 (constantI S_ 32 64#32),
    unary main_c_13 main_v76 (broadcastInDim S256 ![] bcast_S_S256),
    binary main_v66 main_v76 main_v77 addi,
    ternary main_v75 main_v77 main_v66 main_v78 select,
    unary main_v78 main_v79 (broadcastInDim S256x1 ![0] bcast_S256_S256x1_0),
    binary main_v62 main_v79 main_v80 (fun x i => Host.gather gather_S4x512x64x64_S256x1_S4x512x256x64_013_2_n_n_2_1_4512164 x i),
    unary main_arg1 main_v81 (broadcastInDim S4x512x8x256 ![0, 1, 3] bcast_S4x512x256_S4x512x8x256_0_1_3),
    reshape main_v81 main_v82 rfl shapeCasts_S4x512x8x256_S4x4096x256,
    unary main_arg10 main_v83 (broadcastInDim S1x4096x1 ![1] bcast_S4096_S1x4096x1_1),
    unary main_v83 main_v84 (broadcastInDim S4x4096x256 ![0, 1, 2] bcast_S1x4096x1_S4x4096x256_0_1_2),
    binary main_v82 main_v84 main_v85 mulf,
    unary main_arg11 main_v86 (broadcastInDim S1x4096x1 ![1] bcast_S4096_S1x4096x1_1),
    unary main_v86 main_v87 (broadcastInDim S4x4096x256 ![0, 1, 2] bcast_S1x4096x1_S4x4096x256_0_1_2),
    binary main_v85 main_v87 main_v88 addf,
    nullary main_cst_14 (constant S_ .f32 0x00000000#32),
    binary main_v88 main_cst_14 main_v89 (fun x v => Host.reduceAdd x v reducesTo_S4x4096x256_S4_d1_2 h_S_),
    unary main_v89 main_v90 (broadcastInDim S4x1x1 ![0] bcast_S4_S4x1x1_0),
    nullary main_cst_15 (constant S_ .f32 0x49800000#32),
    unary main_cst_15 main_v91 (broadcastInDim S4x1x1 ![] bcast_S_S4x1x1),
    binary main_v90 main_v91 main_v92 Host.divf,
    unary main_v92 main_v93 (broadcastInDim S4x4096x256 ![0, 1, 2] bcast_S4x1x1_S4x4096x256_0_1_2),
    binary main_v88 main_v93 main_v94 subf,
    binary main_v94 main_v94 main_v95 mulf,
    nullary main_cst_16 (constant S_ .f32 0x00000000#32),
    binary main_v95 main_cst_16 main_v96 (fun x v => Host.reduceAdd x v reducesTo_S4x4096x256_S4_d1_2 h_S_),
    unary main_v96 main_v97 (broadcastInDim S4x1x1 ![0] bcast_S4_S4x1x1_0),
    nullary main_cst_17 (constant S_ .f32 0x49800000#32),
    unary main_cst_17 main_v98 (broadcastInDim S4x1x1 ![] bcast_S_S4x1x1),
    binary main_v97 main_v98 main_v99 Host.divf ]

/-- The buffers the rest of the second window writes, in order. -/
abbrev W1b : List (Ref sig .tc) :=
  [main_c_10, main_v67, main_v68, main_c_11, main_v69, main_v70, main_v71, main_v72, main_v73, main_c_12, main_v74, main_v75,
    main_c_13, main_v76, main_v77, main_v78, main_v79, main_v80, main_v81, main_v82, main_v83, main_v84, main_v85, main_v86,
    main_v87, main_v88, main_cst_14, main_v89, main_v90, main_cst_15, main_v91, main_v92, main_v93, main_v94, main_v95,
    main_cst_16, main_v96, main_v97, main_cst_17, main_v98, main_v99]

theorem ops1b_sub : (ops1b : List (HloOp τ sig (Elt F))).Forall fun op => op.bufs ⊆ tcRefs τ sig := by
  simp only [List.Forall, nullary_bufs_sub, unary_bufs_sub, binary_bufs_sub, ternary_bufs_sub, reshape_bufs_sub, and_self]

theorem ops1b_fresh : ∀ op ∈ (ops1b : List (HloOp τ sig (Elt F))), op.fresh = ∅ := by
  intro _ h; (repeat (cases h with | head => rfl | tail _ h => ?_)); exact nomatch h

theorem ops1b_writes : (ops1b : List (HloOp τ sig (Elt F))).Forall fun op =>
    op.writes ⊆ (W1b.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

theorem keep1b (V : Valuation τ sig (Elt F)) (r : Ref sig .tc) (h : r ∉ W1b) : after ops1b V ⟪r⟫ = V ⟪r⟫ :=
  after_of_writes_sub ops1b V ops1b_writes h

/-- With the floor-divided index in place, the first audio branch is gathered along time … -/
theorem w1b_v73 (V : Valuation τ sig (Elt F)) (h66 : V ⟪main_v66⟫ = RefTerm.tdiv) :
    after ops1b V ⟪main_v73⟫ = RefTerm.take4 (V ⟪main_v31⟫) RefTerm.tidx := by
  after_results_simp; rw [h66]; rfl

/-- … and so is the second. -/
theorem w1b_v80 (V : Valuation τ sig (Elt F)) (h66 : V ⟪main_v66⟫ = RefTerm.tdiv) :
    after ops1b V ⟪main_v80⟫ = RefTerm.take4 (V ⟪main_v62⟫) RefTerm.tidx := by
  after_results_simp; rw [h66]; rfl

/-- The head-expanded video, scaled and shifted … -/
theorem w1b_v88 (V : Valuation τ sig (Elt F)) :
    after ops1b V ⟪main_v88⟫ = RefTerm.affine3h (RefTerm.vrep (V ⟪main_arg1⟫)) (V ⟪main_arg10⟫) (V ⟪main_arg11⟫) := by
  after_results_simp; rfl

/-- … its mean … -/
theorem w1b_v92 (V : Valuation τ sig (Elt F)) :
    after ops1b V ⟪main_v92⟫
      = RefTerm.mean3h (RefTerm.affine3h (RefTerm.vrep (V ⟪main_arg1⟫)) (V ⟪main_arg10⟫) (V ⟪main_arg11⟫)) := by
  after_results_simp; rfl

/-- … and its variance. -/
theorem w1b_v99 (V : Valuation τ sig (Elt F)) :
    after ops1b V ⟪main_v99⟫
      = RefTerm.var3h (RefTerm.affine3h (RefTerm.vrep (V ⟪main_arg1⟫)) (V ⟪main_arg10⟫) (V ⟪main_arg11⟫)) := by
  after_results_simp; rfl

/-- The third window's sixty operations: the head normalisation finished with its affine map, the average over the eight
    heads, the soft-max over time, and the key branch's scale-and-shift with its mean, centred values and variance plus ε. -/
abbrev ops2 : List (HloOp τ sig (Elt F)) :=
  [ unary main_v92 main_v100 (broadcastInDim S4x4096x256 ![0, 1, 2] bcast_S4x1x1_S4x4096x256_0_1_2),
    binary main_v88 main_v100 main_v101 subf,
    nullary main_cst_18 (constant S_ .f32 0x3727C5AC#32),
    unary main_cst_18 main_v102 (broadcastInDim S4x1x1 ![] bcast_S_S4x1x1),
    binary main_v99 main_v102 main_v103 addf,
    unary main_v103 main_v104 Host.rsqrt,
    unary main_v104 main_v105 (broadcastInDim S4x4096x256 ![0, 1, 2] bcast_S4x1x1_S4x4096x256_0_1_2),
    binary main_v101 main_v105 main_v106 mulf,
    reshape main_arg12 main_v107 rfl shapeCasts_S4096_S1x4096x1,
    unary main_v107 main_v108 (broadcastInDim S4x4096x256 ![0, 1, 2] bcast_S1x4096x1_S4x4096x256_0_1_2),
    binary main_v106 main_v108 main_v109 mulf,
    reshape main_arg13 main_v110 rfl shapeCasts_S4096_S1x4096x1,
    unary main_v110 main_v111 (broadcastInDim S4x4096x256 ![0, 1, 2] bcast_S1x4096x1_S4x4096x256_0_1_2),
    binary main_v109 main_v111 main_v112 addf,
    reshape main_v112 main_v113 rfl shapeCasts_S4x4096x256_S4x512x8x256,
    nullary main_cst_19 (constant S_ .f32 0x00000000#32),
    binary main_v113 main_cst_19 main_v114 (fun x v => Host.reduceAdd x v reducesTo_S4x512x8x256_S4x512x256_d2 h_S_),
    nullary main_cst_20 (constant S_ .f32 0x41000000#32),
    unary main_cst_20 main_v115 (broadcastInDim S4x512x256 ![] bcast_S_S4x512x256),
    binary main_v114 main_v115 main_v116 Host.divf,
    nullary main_cst_21 (constant S_ .f32 0xFF800000#32),
    binary main_v116 main_cst_21 main_v117 (fun x v => Host.reduce FloatOps.maximumf x v reducesTo_S4x512x256_S4x512_d2 h_S_),
    nullary main_cst_22 (constant S_ .f32 0xFF800000#32),
    unary main_cst_22 main_v118 (broadcastInDim S4x512 ![] bcast_S_S4x512),
    binary main_v118 main_v117 main_v119 maximumf,
    unary main_v119 main_v120 (broadcastInDim S4x512x1 ![0, 1] bcast_S4x512_S4x512x1_0_1),
    unary main_v120 main_v121 (broadcastInDim S4x512x256 ![0, 1, 2] bcast_S4x512x1_S4x512x256_0_1_2),
    binary main_v116 main_v121 main_v122 subf,
    unary main_v122 main_v123 Host.exp,
    nullary main_cst_23 (constant S_ .f32 0x00000000#32),
    binary main_v123 main_cst_23 main_v124 (fun x v => Host.reduceAdd x v reducesTo_S4x512x256_S4x512_d2 h_S_),
    unary main_v124 main_v125 (broadcastInDim S4x512x1 ![0, 1] bcast_S4x512_S4x512x1_0_1),
    unary main_v125 main_v126 (broadcastInDim S4x512x256 ![0, 1, 2] bcast_S4x512x1_S4x512x256_0_1_2),
    binary main_v123 main_v126 main_v127 Host.divf,
    unary main_arg14 main_v128 (broadcastInDim S1x512x1 ![1] bcast_S512_S1x512x1_1),
    unary main_v128 main_v129 (broadcastInDim S4x512x256 ![0, 1, 2] bcast_S1x512x1_S4x512x256_0_1_2),
    binary main_arg1 main_v129 main_v130 mulf,
    unary main_arg15 main_v131 (broadcastInDim S1x512x1 ![1] bcast_S512_S1x512x1_1),
    unary main_v131 main_v132 (broadcastInDim S4x512x256 ![0, 1, 2] bcast_S1x512x1_S4x512x256_0_1_2),
    binary main_v130 main_v132 main_v133 addf,
    nullary main_cst_24 (constant S_ .f32 0x00000000#32),
    binary main_v133 main_cst_24 main_v134 (fun x v => Host.reduceAdd x v reducesTo_S4x512x256_S4_d1_2 h_S_),
    unary main_v134 main_v135 (broadcastInDim S4x1x1 ![0] bcast_S4_S4x1x1_0),
    nullary main_cst_25 (constant S_ .f32 0x48000000#32),
    unary main_cst_25 main_v136 (broadcastInDim S4x1x1 ![] bcast_S_S4x1x1),
    binary main_v135 main_v136 main_v137 Host.divf,
    unary main_v137 main_v138 (broadcastInDim S4x512x256 ![0, 1, 2] bcast_S4x1x1_S4x512x256_0_1_2),
    binary main_v133 main_v138 main_v139 subf,
    binary main_v139 main_v139 main_v140 mulf,
    nullary main_cst_26 (constant S_ .f32 0x00000000#32),
    binary main_v140 main_cst_26 main_v141 (fun x v => Host.reduceAdd x v reducesTo_S4x512x256_S4_d1_2 h_S_),
    unary main_v141 main_v142 (broadcastInDim S4x1x1 ![0] bcast_S4_S4x1x1_0),
    nullary main_cst_27 (constant S_ .f32 0x48000000#32),
    unary main_cst_27 main_v143 (broadcastInDim S4x1x1 ![] bcast_S_S4x1x1),
    binary main_v142 main_v143 main_v144 Host.divf,
    unary main_v137 main_v145 (broadcastInDim S4x512x256 ![0, 1, 2] bcast_S4x1x1_S4x512x256_0_1_2),
    binary main_v133 main_v145 main_v146 subf,
    nullary main_cst_28 (constant S_ .f32 0x3727C5AC#32),
    unary main_cst_28 main_v147 (broadcastInDim S4x1x1 ![] bcast_S_S4x1x1),
    binary main_v144 main_v147 main_v148 addf ]

/-- The buffers the third window writes, in order. -/
abbrev W2 : List (Ref sig .tc) :=
  [main_v100, main_v101, main_cst_18, main_v102, main_v103, main_v104, main_v105, main_v106, main_v107, main_v108, main_v109,
    main_v110, main_v111, main_v112, main_v113, main_cst_19, main_v114, main_cst_20, main_v115, main_v116, main_cst_21, main_v117,
    main_cst_22, main_v118, main_v119, main_v120, main_v121, main_v122, main_v123, main_cst_23, main_v124, main_v125, main_v126,
    main_v127, main_v128, main_v129, main_v130, main_v131, main_v132, main_v133, main_cst_24, main_v134, main_v135, main_cst_25,
    main_v136, main_v137, main_v138, main_v139, main_v140, main_cst_26, main_v141, main_v142, main_cst_27, main_v143, main_v144,
    main_v145, main_v146, main_cst_28, main_v147, main_v148]

theorem ops2_sub : (ops2 : List (HloOp τ sig (Elt F))).Forall fun op => op.bufs ⊆ tcRefs τ sig := by
  simp only [List.Forall, nullary_bufs_sub, unary_bufs_sub, binary_bufs_sub, ternary_bufs_sub, reshape_bufs_sub, and_self]

theorem ops2_fresh : ∀ op ∈ (ops2 : List (HloOp τ sig (Elt F))), op.fresh = ∅ := by
  intro _ h; (repeat (cases h with | head => rfl | tail _ h => ?_)); exact nomatch h

theorem ops2_writes : (ops2 : List (HloOp τ sig (Elt F))).Forall fun op =>
    op.writes ⊆ (W2.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

theorem keep2 (V : Valuation τ sig (Elt F)) (r : Ref sig .tc) (h : r ∉ W2) : after ops2 V ⟪r⟫ = V ⟪r⟫ :=
  after_of_writes_sub ops2 V ops2_writes h

/-- From the scaled and shifted head array with its mean and variance, the third window leaves the soft-max over time of
    the head average of its normalisation. -/
theorem w2_v127 (V : Valuation τ sig (Elt F)) (h92 : V ⟪main_v92⟫ = RefTerm.mean3h (V ⟪main_v88⟫))
    (h99 : V ⟪main_v99⟫ = RefTerm.var3h (V ⟪main_v88⟫)) :
    after ops2 V ⟪main_v127⟫
      = RefTerm.softmax3 (RefTerm.vmean (RefTerm.gn3h (V ⟪main_v88⟫) (V ⟪main_arg12⟫) (V ⟪main_arg13⟫))) := by
  after_results_simp; rw [h92, h99]; rfl

/-- The key branch's scale-and-shift has its centred values … -/
theorem w2_v146 (V : Valuation τ sig (Elt F)) :
    after ops2 V ⟪main_v146⟫ = RefTerm.cen3 (RefTerm.affine3 (V ⟪main_arg1⟫) (V ⟪main_arg14⟫) (V ⟪main_arg15⟫)) := by
  after_results_simp; rfl

/-- … and its variance plus ε. -/
theorem w2_v148 (V : Valuation τ sig (Elt F)) :
    after ops2 V ⟪main_v148⟫
      = addf (RefTerm.var3 (RefTerm.affine3 (V ⟪main_arg1⟫) (V ⟪main_arg14⟫) (V ⟪main_arg15⟫)))
          (broadcastInDim S4x1x1 ![] bcast_S_S4x1x1 (constant S_ .f32 0x3727C5AC#32)) := by
  after_results_simp; rfl

/-- The last window's nineteen operations: the key normalisation finished with its affine map, the two products against the
    gathered audio, their sum over the frequency axis, and the video added back. -/
abbrev ops3 : List (HloOp τ sig (Elt F)) :=
  [ unary main_v148 main_v149 Host.rsqrt,
    unary main_v149 main_v150 (broadcastInDim S4x512x256 ![0, 1, 2] bcast_S4x1x1_S4x512x256_0_1_2),
    binary main_v146 main_v150 main_v151 mulf,
    reshape main_arg16 main_v152 rfl shapeCasts_S512_S1x512x1,
    unary main_v152 main_v153 (broadcastInDim S4x512x256 ![0, 1, 2] bcast_S1x512x1_S4x512x256_0_1_2),
    binary main_v151 main_v153 main_v154 mulf,
    reshape main_arg17 main_v155 rfl shapeCasts_S512_S1x512x1,
    unary main_v155 main_v156 (broadcastInDim S4x512x256 ![0, 1, 2] bcast_S1x512x1_S4x512x256_0_1_2),
    binary main_v154 main_v156 main_v157 addf,
    unary main_v127 main_v158 (broadcastInDim S4x512x256x1 ![0, 1, 2] bcast_S4x512x256_S4x512x256x1_0_1_2),
    unary main_v158 main_v159 (broadcastInDim S4x512x256x64 ![0, 1, 2, 3] bcast_S4x512x256x1_S4x512x256x64_0_1_2_3),
    binary main_v73 main_v159 main_v160 mulf,
    unary main_v157 main_v161 (broadcastInDim S4x512x256x1 ![0, 1, 2] bcast_S4x512x256_S4x512x256x1_0_1_2),
    unary main_v161 main_v162 (broadcastInDim S4x512x256x64 ![0, 1, 2, 3] bcast_S4x512x256x1_S4x512x256x64_0_1_2_3),
    binary main_v80 main_v162 main_v163 mulf,
    binary main_v160 main_v163 main_v164 addf,
    nullary main_cst_29 (constant S_ .f32 0x00000000#32),
    binary main_v164 main_cst_29 main_v165 (fun x v => Host.reduceAdd x v reducesTo_S4x512x256x64_S4x512x256_d3 h_S_),
    binary main_v165 main_arg1 main_v166 addf ]

/-- The buffers the last window writes, in order. -/
abbrev W3 : List (Ref sig .tc) :=
  [main_v149, main_v150, main_v151, main_v152, main_v153, main_v154, main_v155, main_v156, main_v157, main_v158, main_v159,
    main_v160, main_v161, main_v162, main_v163, main_v164, main_cst_29, main_v165, main_v166]

theorem ops3_sub : (ops3 : List (HloOp τ sig (Elt F))).Forall fun op => op.bufs ⊆ tcRefs τ sig := by
  simp only [List.Forall, nullary_bufs_sub, unary_bufs_sub, binary_bufs_sub, ternary_bufs_sub, reshape_bufs_sub, and_self]

theorem ops3_fresh : ∀ op ∈ (ops3 : List (HloOp τ sig (Elt F))), op.fresh = ∅ := by
  intro _ h; (repeat (cases h with | head => rfl | tail _ h => ?_)); exact nomatch h

theorem ops3_writes : (ops3 : List (HloOp τ sig (Elt F))).Forall fun op =>
    op.writes ⊆ (W3.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

theorem keep3 (V : Valuation τ sig (Elt F)) (r : Ref sig .tc) (h : r ∉ W3) : after ops3 V ⟪r⟫ = V ⟪r⟫ :=
  after_of_writes_sub ops3 V ops3_writes h

/-- From the centred values and the variance plus ε of an array x, with the two gathered audio arrays and the attention
    weights in place, the last window leaves the combination summed over the frequency axis plus the video. -/
theorem w3_v166 (V : Valuation τ sig (Elt F)) (x : FVec F S4x512x256 .f32) (h146 : V ⟪main_v146⟫ = RefTerm.cen3 x)
    (h148 : V ⟪main_v148⟫ = addf (RefTerm.var3 x) (broadcastInDim S4x1x1 ![] bcast_S_S4x1x1 (constant S_ .f32 0x3727C5AC#32))) :
    after ops3 V ⟪main_v166⟫
      = RefTerm.fuse (V ⟪main_v73⟫) (V ⟪main_v80⟫) (V ⟪main_v127⟫) (RefTerm.gn3 x (V ⟪main_arg16⟫) (V ⟪main_arg17⟫))
          (V ⟪main_arg1⟫) := by
  after_results_simp; rw [h146, h148]; rfl

/-! ## The whole line -/

/-- @main's 217 operations: the four windows in order, the second cut at the floor division. -/
abbrev ops : List (HloOp τ sig (Elt F)) := ops0 ++ ((ops1a ++ ops1b) ++ (ops2 ++ ops3))

theorem main_part0_eq (d : Dev nD) : main_part0 (F := F) d = seq ops0 := rfl
/-- The two functions the second window calls are unfolded at their calls by computation. -/
theorem main_part1_eq (d : Dev nD) : main_part1 (F := F) d = seq (ops1a ++ ops1b) := rfl
theorem main_part2_eq (d : Dev nD) : main_part2 (F := F) d = seq ops2 := rfl
theorem main_part3_eq (d : Dev nD) : main_part3 (F := F) d = seq ops3 := rfl

/-- @main is that straight line: window after window, two lines run in a row being their concatenation. -/
theorem main_eq (d : Dev nD) : main (F := F) d = seq ops := by
  show main (F := F) d = seq (ops0 ++ ((ops1a ++ ops1b) ++ (ops2 ++ ops3)))
  rw [seq_append ops0, seq_append (ops1a ++ ops1b), seq_append ops2, ← main_part0_eq d, ← main_part1_eq d, ← main_part2_eq d,
    ← main_part3_eq d]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.2 ⟨ops0_sub, List.forall_append.2
    ⟨List.forall_append.2 ⟨ops1a_sub, ops1b_sub⟩, List.forall_append.2 ⟨ops2_sub, ops3_sub⟩⟩⟩

theorem ops_fresh : ∀ op ∈ (ops : List (HloOp τ sig (Elt F))), op.fresh = ∅ := by
  intro op h
  rcases List.mem_append.1 h with h | h
  · exact ops0_fresh op h
  rcases List.mem_append.1 h with h | h
  · rcases List.mem_append.1 h with h | h
    · exact ops1a_fresh op h
    · exact ops1b_fresh op h
  · rcases List.mem_append.1 h with h | h
    · exact ops2_fresh op h
    · exact ops3_fresh op h

/-! ## The contents window after window, from any contents V -/

section Stages

variable (V : Valuation τ sig (Elt F))

/-- A buffer written by none of the operations so far keeps its contents: through the floor division … -/
theorem keep_s2 (r : Ref sig .tc) (h0 : r ∉ W0) (h1 : r ∉ W1a) : after ops1a (after ops0 V) ⟪r⟫ = V ⟪r⟫ := by
  rw [keep1a _ r h1, keep0 V r h0]

/-- … through the second window … -/
theorem keep_s3 (r : Ref sig .tc) (h0 : r ∉ W0) (h1 : r ∉ W1a) (h2 : r ∉ W1b) : after ops1b (after ops1a (after ops0 V)) ⟪r⟫ = V ⟪r⟫ := by
  rw [keep1b _ r h2, keep_s2 V r h0 h1]

/-- … through the third … -/
theorem keep_s4 (r : Ref sig .tc) (h0 : r ∉ W0) (h1 : r ∉ W1a) (h2 : r ∉ W1b) (h3 : r ∉ W2) :
    after ops2 (after ops1b (after ops1a (after ops0 V))) ⟪r⟫ = V ⟪r⟫ := by
  rw [keep2 _ r h3, keep_s3 V r h0 h1 h2]

/-- … and to the end. -/
theorem keep_all (r : Ref sig .tc) (h0 : r ∉ W0) (h1 : r ∉ W1a) (h2 : r ∉ W1b) (h3 : r ∉ W2) (h4 : r ∉ W3) :
    after ops V ⟪r⟫ = V ⟪r⟫ := by
  show after (ops0 ++ ((ops1a ++ ops1b) ++ (ops2 ++ ops3))) V ⟪r⟫ = _
  rw [after_append, after_append, after_append, after_append, keep3 _ r h4, keep_s4 V r h0 h1 h2 h3]

/-- After the floor division: the first audio branch, normalised in the first window, is still there … -/
theorem s2_v31 : after ops1a (after ops0 V) ⟪main_v31⟫ = RefTerm.gn4 (RefTerm.affine4 (RefTerm.aexp (V ⟪main_arg0⟫)) (V ⟪main_arg2⟫) (V ⟪main_arg3⟫)) (V ⟪main_arg4⟫) (V ⟪main_arg5⟫) := by
  rw [keep1a _ main_v31 (by decide), w0_v31]

/-- … and the second is normalised and cut off at 0. -/
theorem s2_v62 : after ops1a (after ops0 V) ⟪main_v62⟫
    = RefTerm.relu4 (RefTerm.gn4 (RefTerm.affine4 (RefTerm.aexp (V ⟪main_arg0⟫)) (V ⟪main_arg6⟫) (V ⟪main_arg7⟫)) (V ⟪main_arg8⟫) (V ⟪main_arg9⟫)) := by
  rw [w1a_v62 (after ops0 V) _ (w0_v50 V) (w0_v48 V), keep0 V main_arg8 (by decide), keep0 V main_arg9 (by decide)]

/-- After the second window: both audio branches gathered along time … -/
theorem s3_v73 : after ops1b (after ops1a (after ops0 V)) ⟪main_v73⟫ = RefTerm.take4 (RefTerm.gn4 (RefTerm.affine4 (RefTerm.aexp (V ⟪main_arg0⟫)) (V ⟪main_arg2⟫) (V ⟪main_arg3⟫)) (V ⟪main_arg4⟫) (V ⟪main_arg5⟫)) RefTerm.tidx := by
  rw [w1b_v73 (after ops1a (after ops0 V)) (w1a_v66 (after ops0 V)), s2_v31]

theorem s3_v80 : after ops1b (after ops1a (after ops0 V)) ⟪main_v80⟫ = RefTerm.take4 (RefTerm.relu4 (RefTerm.gn4 (RefTerm.affine4 (RefTerm.aexp (V ⟪main_arg0⟫)) (V ⟪main_arg6⟫) (V ⟪main_arg7⟫)) (V ⟪main_arg8⟫) (V ⟪main_arg9⟫))) RefTerm.tidx := by
  rw [w1b_v80 (after ops1a (after ops0 V)) (w1a_v66 (after ops0 V)), s2_v62]

/-- … and the head array scaled and shifted, with its mean and its variance. -/
theorem s3_v88 : after ops1b (after ops1a (after ops0 V)) ⟪main_v88⟫ = RefTerm.affine3h (RefTerm.vrep (V ⟪main_arg1⟫)) (V ⟪main_arg10⟫) (V ⟪main_arg11⟫) := by
  rw [w1b_v88, keep_s2 V main_arg1 (by decide) (by decide), keep_s2 V main_arg10 (by decide) (by decide), keep_s2 V main_arg11 (by decide) (by decide)]

theorem s3_v92 : after ops1b (after ops1a (after ops0 V)) ⟪main_v92⟫ = RefTerm.mean3h (RefTerm.affine3h (RefTerm.vrep (V ⟪main_arg1⟫)) (V ⟪main_arg10⟫) (V ⟪main_arg11⟫)) := by
  rw [w1b_v92, keep_s2 V main_arg1 (by decide) (by decide), keep_s2 V main_arg10 (by decide) (by decide), keep_s2 V main_arg11 (by decide) (by decide)]

theorem s3_v99 : after ops1b (after ops1a (after ops0 V)) ⟪main_v99⟫ = RefTerm.var3h (RefTerm.affine3h (RefTerm.vrep (V ⟪main_arg1⟫)) (V ⟪main_arg10⟫) (V ⟪main_arg11⟫)) := by
  rw [w1b_v99, keep_s2 V main_arg1 (by decide) (by decide), keep_s2 V main_arg10 (by decide) (by decide), keep_s2 V main_arg11 (by decide) (by decide)]

/-- After the third window: the gathered audio still there, the attention weights, and the key branch's centred values and
    variance plus ε. -/
theorem s4_v73 : after ops2 (after ops1b (after ops1a (after ops0 V))) ⟪main_v73⟫ = RefTerm.take4 (RefTerm.gn4 (RefTerm.affine4 (RefTerm.aexp (V ⟪main_arg0⟫)) (V ⟪main_arg2⟫) (V ⟪main_arg3⟫)) (V ⟪main_arg4⟫) (V ⟪main_arg5⟫)) RefTerm.tidx := by
  rw [keep2 _ main_v73 (by decide), s3_v73]

theorem s4_v80 : after ops2 (after ops1b (after ops1a (after ops0 V))) ⟪main_v80⟫ = RefTerm.take4 (RefTerm.relu4 (RefTerm.gn4 (RefTerm.affine4 (RefTerm.aexp (V ⟪main_arg0⟫)) (V ⟪main_arg6⟫) (V ⟪main_arg7⟫)) (V ⟪main_arg8⟫) (V ⟪main_arg9⟫))) RefTerm.tidx := by
  rw [keep2 _ main_v80 (by decide), s3_v80]

theorem s4_v127 : after ops2 (after ops1b (after ops1a (after ops0 V))) ⟪main_v127⟫
    = RefTerm.softmax3 (RefTerm.vmean (RefTerm.gn3h (RefTerm.affine3h (RefTerm.vrep (V ⟪main_arg1⟫)) (V ⟪main_arg10⟫) (V ⟪main_arg11⟫)) (V ⟪main_arg12⟫) (V ⟪main_arg13⟫))) := by
  rw [w2_v127 (after ops1b (after ops1a (after ops0 V))) (by rw [s3_v92, s3_v88]) (by rw [s3_v99, s3_v88]), s3_v88, keep_s3 V main_arg12 (by decide) (by decide) (by decide),
    keep_s3 V main_arg13 (by decide) (by decide) (by decide)]

theorem s4_v146 : after ops2 (after ops1b (after ops1a (after ops0 V))) ⟪main_v146⟫ = RefTerm.cen3 (RefTerm.affine3 (V ⟪main_arg1⟫) (V ⟪main_arg14⟫) (V ⟪main_arg15⟫)) := by
  rw [w2_v146, keep_s3 V main_arg1 (by decide) (by decide) (by decide), keep_s3 V main_arg14 (by decide) (by decide) (by decide), keep_s3 V main_arg15 (by decide) (by decide) (by decide)]

theorem s4_v148 : after ops2 (after ops1b (after ops1a (after ops0 V))) ⟪main_v148⟫
    = addf (RefTerm.var3 (RefTerm.affine3 (V ⟪main_arg1⟫) (V ⟪main_arg14⟫) (V ⟪main_arg15⟫))) (broadcastInDim S4x1x1 ![] bcast_S_S4x1x1 (constant S_ .f32 0x3727C5AC#32)) := by
  rw [w2_v148, keep_s3 V main_arg1 (by decide) (by decide) (by decide), keep_s3 V main_arg14 (by decide) (by decide) (by decide), keep_s3 V main_arg15 (by decide) (by decide) (by decide)]

/-- The result buffer after the whole line is the reference's composition of the argument arrays. -/
theorem out_eq : after ops V ⟪main_v166⟫
    = RefTerm.out (V ⟪main_arg0⟫) (V ⟪main_arg1⟫) (V ⟪main_arg2⟫) (V ⟪main_arg3⟫) (V ⟪main_arg4⟫) (V ⟪main_arg5⟫) (V ⟪main_arg6⟫)
        (V ⟪main_arg7⟫) (V ⟪main_arg8⟫) (V ⟪main_arg9⟫) (V ⟪main_arg10⟫) (V ⟪main_arg11⟫) (V ⟪main_arg12⟫) (V ⟪main_arg13⟫)
        (V ⟪main_arg14⟫) (V ⟪main_arg15⟫) (V ⟪main_arg16⟫) (V ⟪main_arg17⟫) := by
  show after (ops0 ++ ((ops1a ++ ops1b) ++ (ops2 ++ ops3))) V ⟪main_v166⟫ = _
  rw [after_append, after_append, after_append, after_append, w3_v166 (after ops2 (after ops1b (after ops1a (after ops0 V)))) _ (s4_v146 V) (s4_v148 V), s4_v73, s4_v80, s4_v127,
    keep_s4 V main_arg16 (by decide) (by decide) (by decide) (by decide), keep_s4 V main_arg17 (by decide) (by decide) (by decide) (by decide), keep_s4 V main_arg1 (by decide) (by decide) (by decide) (by decide)]
  rfl

end Stages

/-- On every device, from any memory with zero counters: every weakly fair execution of the reference's @main terminates
    with the result at RefTerm.out of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v166) = RefTerm.out (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v166).trans (out_eq _),
      (h c main_arg0).trans (keep_all _ main_arg0 (by decide) (by decide) (by decide) (by decide) (by decide)),
      (h c main_arg1).trans (keep_all _ main_arg1 (by decide) (by decide) (by decide) (by decide) (by decide)),
      (h c main_arg2).trans (keep_all _ main_arg2 (by decide) (by decide) (by decide) (by decide) (by decide)),
      (h c main_arg3).trans (keep_all _ main_arg3 (by decide) (by decide) (by decide) (by decide) (by decide)),
      (h c main_arg4).trans (keep_all _ main_arg4 (by decide) (by decide) (by decide) (by decide) (by decide)),
      (h c main_arg5).trans (keep_all _ main_arg5 (by decide) (by decide) (by decide) (by decide) (by decide)),
      (h c main_arg6).trans (keep_all _ main_arg6 (by decide) (by decide) (by decide) (by decide) (by decide)),
      (h c main_arg7).trans (keep_all _ main_arg7 (by decide) (by decide) (by decide) (by decide) (by decide)),
      (h c main_arg8).trans (keep_all _ main_arg8 (by decide) (by decide) (by decide) (by decide) (by decide)),
      (h c main_arg9).trans (keep_all _ main_arg9 (by decide) (by decide) (by decide) (by decide) (by decide)),
      (h c main_arg10).trans (keep_all _ main_arg10 (by decide) (by decide) (by decide) (by decide) (by decide)),
      (h c main_arg11).trans (keep_all _ main_arg11 (by decide) (by decide) (by decide) (by decide) (by decide)),
      (h c main_arg12).trans (keep_all _ main_arg12 (by decide) (by decide) (by decide) (by decide) (by decide)),
      (h c main_arg13).trans (keep_all _ main_arg13 (by decide) (by decide) (by decide) (by decide) (by decide)),
      (h c main_arg14).trans (keep_all _ main_arg14 (by decide) (by decide) (by decide) (by decide) (by decide)),
      (h c main_arg15).trans (keep_all _ main_arg15 (by decide) (by decide) (by decide) (by decide) (by decide)),
      (h c main_arg16).trans (keep_all _ main_arg16 (by decide) (by decide) (by decide) (by decide) (by decide)),
      (h c main_arg17).trans (keep_all _ main_arg17 (by decide) (by decide) (by decide) (by decide) (by decide))⟩)
    (run_seq scopedRefs_eq scopedSems_eq defs main (fun _ => ops) main_eq (fun _ => ops_sub) m ρ (fun _ => ops_fresh))

end Cert.ReferenceIdeal.RefRun

end
-- ==== Proof.RefReadA.lean ====
/-
  The audio branch of the reference read at an index: on real arrays the normalised, affine audio at (b, c, ta, f) is the
  real the specification's gnA gives for batch element b, and its max(·, 0) likewise.

  The channel repeat is a broadcast to [4, 128, 4, 64, 64] followed by a row-major reshape to [4, 512, 64, 64], so expanded
  channel c = 4 · ⌊c/4⌋ + (c mod 4) reads audio channel ⌊c/4⌋. The mean and the variance are host sums over the axes
  1, 2, 3: the indices that drop to batch element b are exactly those with batch coordinate b, so each sum is the triple
  sum over channel, time and frequency, divided by 2^21. The lemmas on mean, variance and normalisation are stated for
  any array whose entries are the casts of a real array X; the audio branch is the case X = xa.
-/
import proofs.«420707_j90769838834068_3_alg».proof.Proof.RefTerm
import proofs.«420707_j90769838834068_3_alg».proof.Proof.Spec
import proofs.«420707_j90769838834068_3_alg».proof.Proof.SpecMath
import proofs.«420707_j90769838834068_3_alg».proof.Proof.Arr
import proofs.«420707_j90769838834068_3_alg».proof.Proof.LibCoe
import proofs.«420707_j90769838834068_3_alg».proof.Proof.Consts
import proofs.«420707_j90769838834068_3_alg».proof.Proof.LibSums
import Idealize.ShloMosaic.Lib.ValueIdx
import Idealize.ShloMosaic.Lib.ValueLayout
import Idealize.ShloMosaic.Lib.Pipeline.Value
import Idealize.ShloMosaic.Lib.IdealHost
import Idealize.ShloMosaic.PureOps.Reduce
import Idealize.ShloMosaic.PureOps.Ideal.Laws

noncomputable section

open scoped BigOperators

namespace Cert.RefRead

open Idealize.ShloMosaic Idealize.ShloMosaic.ValueIdx Cert.ReferenceIdeal Cert.ReferenceIdeal.RefTerm Cert.Arr
open Cert.ReferenceIdeal.Facts₀

variable [Cert.ReferenceIdeal.Facts]

/-! ## The layout operations of the audio branch read at an index -/

/-- Which of its channel's four copies an expanded channel is: c mod 4. -/
def r4 (c : Fin 512) : Fin 4 := ⟨c.val % 4, Nat.mod_lt _ (by norm_num)⟩

/-- The channel repeat at an index: expanded channel c = 4 · ⌊c/4⌋ + (c mod 4) reads audio channel ⌊c/4⌋. -/
theorem aexp_apply (x : FVec Ideal S4x128x64x64 .f32) (bb : Fin 4) (c : Fin 512) (ta f : Fin 64) :
    aexp (F := Ideal) x (ix4 bb c ta f) = x (ix4 bb (Cert.Spec.q4 c) ta f) := by
  unfold aexp
  rw [shapeCast_apply _ shapeCasts_S4x128x4x64x64_S4x512x64x64 (ix4 bb c ta f)
    (ix5 bb (Cert.Spec.q4 c) (r4 c) ta f) (by
      rw [Shape.rowMajor_val_five, Shape.rowMajor_val_four]
      show ((((bb.val * 128 + c.val / 4) * 4 + c.val % 4) * 64 + ta.val) * 64 + f.val)
        = (((bb.val * 512 + c.val) * 64 + ta.val) * 64 + f.val)
      omega)]
  exact broadcastInDim_apply ![0, 1, 3, 4] bcast_S4x128x64x64_S4x128x4x64x64_0_1_3_4 x
    (ix5 bb (Cert.Spec.q4 c) (r4 c) ta f) (ix4 bb (Cert.Spec.q4 c) ta f) (fun a => by
    match a with
    | ⟨0, _⟩ => rfl
    | ⟨1, _⟩ => rfl
    | ⟨2, _⟩ => rfl
    | ⟨3, _⟩ => rfl)

/-- A [1, 512, 1, 1] array broadcast over batch, time and frequency reads its channel. -/
theorem chanB_apply (y : FVec Ideal S1x512x1x1 .f32) (bb : Fin 4) (c : Fin 512) (ta f : Fin 64) :
    broadcastInDim S4x512x64x64 ![0, 1, 2, 3] bcast_S1x512x1x1_S4x512x64x64_0_1_2_3 y (ix4 bb c ta f)
      = y (ix4 (0 : Fin 1) c (0 : Fin 1) (0 : Fin 1)) :=
  broadcastInDim_apply ![0, 1, 2, 3] bcast_S1x512x1x1_S4x512x64x64_0_1_2_3 y (ix4 bb c ta f)
    (ix4 (0 : Fin 1) c (0 : Fin 1) (0 : Fin 1)) (fun a => by
    match a with
    | ⟨0, _⟩ => rfl
    | ⟨1, _⟩ => rfl
    | ⟨2, _⟩ => rfl
    | ⟨3, _⟩ => rfl)

/-- A per-channel parameter placed on the channel axis by a broadcast, then broadcast: its entry at the channel. -/
theorem chan_apply (w : FVec Ideal S512 .f32) (bb : Fin 4) (c : Fin 512) (ta f : Fin 64) :
    broadcastInDim S4x512x64x64 ![0, 1, 2, 3] bcast_S1x512x1x1_S4x512x64x64_0_1_2_3
      (broadcastInDim S1x512x1x1 ![1] bcast_S512_S1x512x1x1_1 w) (ix4 bb c ta f) = w (ix1 c) := by
  rw [chanB_apply]
  exact broadcastInDim_apply ![1] bcast_S512_S1x512x1x1_1 w (ix4 (0 : Fin 1) c (0 : Fin 1) (0 : Fin 1)) (ix1 c) (fun a => by
    match a with
    | ⟨0, _⟩ => rfl)

/-- The same with the parameter placed on the channel axis by a reshape. -/
theorem chanS_apply (g : FVec Ideal S512 .f32) (bb : Fin 4) (c : Fin 512) (ta f : Fin 64) :
    broadcastInDim S4x512x64x64 ![0, 1, 2, 3] bcast_S1x512x1x1_S4x512x64x64_0_1_2_3
      (shapeCast S1x512x1x1 g shapeCasts_S512_S1x512x1x1) (ix4 bb c ta f) = g (ix1 c) := by
  rw [chanB_apply]
  exact shapeCast_apply g shapeCasts_S512_S1x512x1x1 (ix4 (0 : Fin 1) c (0 : Fin 1) (0 : Fin 1)) (ix1 c) (by
    rw [Shape.rowMajor_val_one, Shape.rowMajor_val_four]
    show c.val = ((0 * 512 + c.val) * 1 + 0) * 1 + 0
    omega)

/-- A per-batch-element statistic [4, 1, 1, 1] broadcast over channel, time and frequency reads its batch element. -/
theorem stat_apply (m : FVec Ideal S4x1x1x1 .f32) (bb : Fin 4) (c : Fin 512) (ta f : Fin 64) :
    broadcastInDim S4x512x64x64 ![0, 1, 2, 3] bcast_S4x1x1x1_S4x512x64x64_0_1_2_3 m (ix4 bb c ta f)
      = m (ix4 bb (0 : Fin 1) (0 : Fin 1) (0 : Fin 1)) :=
  broadcastInDim_apply ![0, 1, 2, 3] bcast_S4x1x1x1_S4x512x64x64_0_1_2_3 m (ix4 bb c ta f)
    (ix4 bb (0 : Fin 1) (0 : Fin 1) (0 : Fin 1)) (fun a => by
    match a with
    | ⟨0, _⟩ => rfl
    | ⟨1, _⟩ => rfl
    | ⟨2, _⟩ => rfl
    | ⟨3, _⟩ => rfl)

/-- The scale and shift at an index. -/
theorem affine4_apply (x : FVec Ideal S4x512x64x64 .f32) (w b : FVec Ideal S512 .f32) (bb : Fin 4) (c : Fin 512)
    (ta f : Fin 64) : affine4 (F := Ideal) x w b (ix4 bb c ta f) = x (ix4 bb c ta f) * w (ix1 c) + b (ix1 c) := by
  unfold affine4
  rw [addf_apply, mulf_apply, chan_apply, chan_apply]

/-- The expanded, scaled and shifted audio on real arrays is the real array xa. -/
theorem affine_aexp_apply (a : Fin 4 → Cert.Spec.Aud) (w b : Cert.Spec.Par) (bb : Fin 4) (c : Fin 512) (ta f : Fin 64) :
    affine4 (F := Ideal) (aexp (arr4 a)) (arr1 w) (arr1 b) (ix4 bb c ta f)
      = ((Cert.Spec.xa (a bb) w b c ta f : ℝ) : EReal) := by
  rw [affine4_apply, aexp_apply, arr4_ix4, arr1_ix1, arr1_ix1, ← EReal.coe_mul, ← EReal.coe_add]
  rfl

/-! ## The sum over channel, time and frequency -/

/-- Dropping channel, time and frequency from an index leaves batch element bb exactly when its batch coordinate is bb. -/
theorem drop123_iff (h : S4x512x64x64.ReducesTo [1, 2, 3] S4) (a bb : Fin 4) (c : Fin 512) (ta f : Fin 64) :
    h.drop (ix4 a c ta f) = ix1 bb ↔ a = bb := by
  constructor
  · intro e
    have e0 := congrArg (fun j : S4.Idx => (j 0).val) e
    have e1 : (h.drop (ix4 a c ta f) 0 : Nat) = a.val := Shape.ReducesTo.drop_apply_val_of_eq h _ 0 0
    exact Fin.ext (e1.symm.trans e0)
  · rintro rfl
    funext b
    match b with
    | ⟨0, _⟩ => exact Fin.ext (Shape.ReducesTo.drop_apply_val_of_eq h _ 0 0)

/-- The host sum over the axes 1, 2, 3 at batch element bb: the initial value plus the triple sum over the coordinates. -/
theorem reduce123 (h : S4x512x64x64.ReducesTo [1, 2, 3] S4) (x : S4x512x64x64.Idx → EReal) (init : EReal) (bb : Fin 4) :
    Ideal.hostReduceAdd h x init (ix1 bb) = init + ∑ c : Fin 512, ∑ ta : Fin 64, ∑ f : Fin 64, x (ix4 bb c ta f) := by
  unfold Ideal.hostReduceAdd
  congr 1
  rw [Finset.sum_filter, Cert.LibSums.sum_idx4, Finset.sum_eq_single bb]
  · refine Finset.sum_congr rfl fun c _ => Finset.sum_congr rfl fun ta _ => Finset.sum_congr rfl fun f _ => ?_
    rw [if_pos ((drop123_iff h bb bb c ta f).mpr rfl)]
  · intro a _ hne
    refine Finset.sum_eq_zero fun c _ => Finset.sum_eq_zero fun ta _ => Finset.sum_eq_zero fun f _ => ?_
    rw [if_neg fun e => hne ((drop123_iff h a bb c ta f).mp e)]
  · intro hn
    exact absurd (Finset.mem_univ _) hn

/-- The cast of a triple sum of reals. -/
theorem coe_sum3 (Y : Fin 512 → Fin 64 → Fin 64 → ℝ) :
    (∑ c, ∑ ta, ∑ f, ((Y c ta f : ℝ) : EReal)) = ((∑ c, ∑ ta, ∑ f, Y c ta f : ℝ) : EReal) := by
  rw [Cert.LibCoe.coe_sum]
  refine Finset.sum_congr rfl fun c _ => ?_
  rw [Cert.LibCoe.coe_sum]
  refine Finset.sum_congr rfl fun ta _ => ?_
  rw [Cert.LibCoe.coe_sum]

/-! ## Mean, variance and the normalisation, for any array whose entries are reals -/

/-- The mean of a 512 × 64 × 64 real array. -/
def mu (Y : Fin 512 → Fin 64 → Fin 64 → ℝ) : ℝ := (∑ c, ∑ ta, ∑ f, Y c ta f) / 2097152
/-- Its variance. -/
def vr (Y : Fin 512 → Fin 64 → Fin 64 → ℝ) : ℝ := (∑ c, ∑ ta, ∑ f, (Y c ta f - mu Y) * (Y c ta f - mu Y)) / 2097152

/-- The reciprocal square root of the host at an index. -/
theorem hostRsqrt_apply {s : Shape} (y : FVec Ideal s .f32) (i : s.Idx) : Host.rsqrt y i = Ideal.rsqrt (y i) := rfl

section Real
variable (x : FVec Ideal S4x512x64x64 .f32) (X : Fin 4 → Fin 512 → Fin 64 → Fin 64 → ℝ)
  (hx : ∀ bb c ta f, x (ix4 bb c ta f) = ((X bb c ta f : ℝ) : EReal))
include hx

/-- The reference's mean at batch element bb is the mean of that element's reals. -/
theorem mean4_apply (bb : Fin 4) (u1 u2 u3 : Fin 1) :
    mean4 (F := Ideal) x (ix4 bb u1 u2 u3) = ((mu (X bb) : ℝ) : EReal) := by
  unfold mean4
  rw [hostDivf_apply,
    broadcastInDim_apply ![0] bcast_S4_S4x1x1x1_0 _ (ix4 bb u1 u2 u3) (ix1 bb) (fun a => by
      match a with
      | ⟨0, _⟩ => rfl),
    broadcastInDim_scalar_apply, constant_apply, Cert.Consts.ofBits_2p21, hostReduceAdd_apply, reduce123,
    constant_apply, Cert.Consts.ofBits_zero, EReal.coe_zero, zero_add]
  simp only [hx]
  rw [coe_sum3, Cert.LibCoe.div_coe_coe _ (by norm_num)]
  rfl

/-- The centred array at an index. -/
theorem cen4_apply (bb : Fin 4) (c : Fin 512) (ta f : Fin 64) :
    cen4 (F := Ideal) x (ix4 bb c ta f) = ((X bb c ta f - mu (X bb) : ℝ) : EReal) := by
  unfold cen4
  rw [subf_apply, stat_apply, mean4_apply x X hx, hx, ← EReal.coe_sub]

/-- The reference's variance at batch element bb: the mean of the squared centred reals. -/
theorem var4_apply (bb : Fin 4) (u1 u2 u3 : Fin 1) :
    var4 (F := Ideal) x (ix4 bb u1 u2 u3) = ((vr (X bb) : ℝ) : EReal) := by
  show mean4 (F := Ideal) (mulf (cen4 x) (cen4 x)) (ix4 bb u1 u2 u3) = _
  rw [mean4_apply (mulf (cen4 x) (cen4 x)) (fun bb c ta f => (X bb c ta f - mu (X bb)) * (X bb c ta f - mu (X bb)))
    (fun bb c ta f => by rw [mulf_apply, cen4_apply x X hx, ← EReal.coe_mul])]
  rfl

/-- The normalisation with its per-channel affine map at an index. -/
theorem gn4_gen (g be : Cert.Spec.Par) (bb : Fin 4) (c : Fin 512) (ta f : Fin 64)
    (hpos : 0 < vr (X bb) + Cert.Spec.eps) :
    gn4 (F := Ideal) x (arr1 g) (arr1 be) (ix4 bb c ta f)
      = (((X bb c ta f - mu (X bb)) * Cert.Spec.rsq (vr (X bb) + Cert.Spec.eps) * g c + be c : ℝ) : EReal) := by
  unfold gn4
  rw [addf_apply, mulf_apply, mulf_apply, cen4_apply x X hx, stat_apply, chanS_apply, chanS_apply, arr1_ix1, arr1_ix1,
    hostRsqrt_apply, addf_apply, var4_apply x X hx, broadcastInDim_scalar_apply, constant_apply, ← Cert.Spec.coe_eps,
    ← EReal.coe_add, Cert.LibCoe.rsqrt_coe_pos hpos, ← EReal.coe_mul, ← EReal.coe_mul, ← EReal.coe_add]
  rfl

end Real

/-! ## The audio branch -/

/-- The normalised, affine audio of the reference at an index. -/
theorem gn4_apply (a : Fin 4 → Cert.Spec.Aud) (w b g be : Cert.Spec.Par) (bb : Fin 4) (c : Fin 512) (ta f : Fin 64) :
    gn4 (F := Ideal) (affine4 (aexp (arr4 a)) (arr1 w) (arr1 b)) (arr1 g) (arr1 be) (ix4 bb c ta f)
      = ((Cert.Spec.gnA (a bb) w b g be c ta f : ℝ) : EReal) := by
  rw [gn4_gen (affine4 (F := Ideal) (aexp (arr4 a)) (arr1 w) (arr1 b)) (fun bb c ta f => Cert.Spec.xa (a bb) w b c ta f)
    (affine_aexp_apply a w b) g be bb c ta f (Cert.Spec.varA_eps_pos (a bb) w b)]
  rfl

/-- … and its max(·, 0). -/
theorem relu_gn4_apply (a : Fin 4 → Cert.Spec.Aud) (w b g be : Cert.Spec.Par) (bb : Fin 4) (c : Fin 512) (ta f : Fin 64) :
    relu4 (F := Ideal) (gn4 (affine4 (aexp (arr4 a)) (arr1 w) (arr1 b)) (arr1 g) (arr1 be)) (ix4 bb c ta f)
      = ((max (Cert.Spec.gnA (a bb) w b g be c ta f) 0 : ℝ) : EReal) := by
  unfold relu4
  rw [maximumf_apply, gn4_apply a w b g be bb c ta f, broadcastInDim_scalar_apply, constant_apply, Cert.Consts.ofBits_zero,
    Cert.LibCoe.max_coe]

end Cert.RefRead

end
-- ==== Proof.LibTake4.lean ====
/-
  A take along axis 2 of a rank-4 array, read at an index: the gather whose offset axes are 0, 1 and 3, whose collapsed
  axis and start index map are axis 2, and whose start indices form a column [T, 1], returns at (a, b, t, f) the operand
  at (a, b, k, f), k the t-th start index read as a signed integer and clamped into [0, n2 - 1].
-/
import Idealize.ShloMosaic.Lib.ValueIdx

noncomputable section

namespace Cert.LibTake4

open Idealize.ShloMosaic Idealize.ShloMosaic.ValueIdx

variable {α : Type}

/-- The dimension numbers of a take along axis 2 of an operand [n0, n1, n2, n3] at a column [T, 1] of start indices:
    offset axes 0, 1, 3, collapsed axis 2, start index map 2, index vector axis 1, slices [n0, n1, 1, n3]. -/
abbrev take4Dims (n0 n1 n2 n3 T : Nat)
    (wf : GatherDims.WF ⟨4, ![n0, n1, n2, n3]⟩ ⟨2, ![T, 1]⟩ ⟨4, ![n0, n1, T, n3]⟩ [0, 1, 3] [2] [] [2] [] 1 ![n0, n1, 1, n3]) :
    GatherDims ⟨4, ![n0, n1, n2, n3]⟩ ⟨2, ![T, 1]⟩ ⟨4, ![n0, n1, T, n3]⟩ where
  offsetDims := [0, 1, 3]
  collapsedSliceDims := [2]
  operandBatchingDims := []
  startIndicesBatchingDims := []
  startIndexMap := [2]
  indexVectorDim := 1
  sliceSizes := ![n0, n1, 1, n3]
  wf := wf

section Coordinates

variable {n0 n1 n2 n3 T w : Nat}
  (wf : GatherDims.WF ⟨4, ![n0, n1, n2, n3]⟩ ⟨2, ![T, 1]⟩ ⟨4, ![n0, n1, T, n3]⟩ [0, 1, 3] [2] [] [2] [] 1 ![n0, n1, 1, n3])
  (idx : IVec ⟨2, ![T, 1]⟩ w) (a : Fin n0) (b : Fin n1) (t : Fin T) (f : Fin n3)

/-- On axis 0 the operand index is the result's coordinate 0: no start, no batching, offset axis 0. -/
theorem operandIdx_0 : ((take4Dims n0 n1 n2 n3 T wf).operandIdx (ix4 a b t f) idx 0).val = a.val := by
  show (take4Dims n0 n1 n2 n3 T wf).start (ix4 a b t f) idx 0 + (take4Dims n0 n1 n2 n3 T wf).batchCoord (ix4 a b t f) 0
    + (take4Dims n0 n1 n2 n3 T wf).offCoord (ix4 a b t f) 0 = a.val
  have h1 : (take4Dims n0 n1 n2 n3 T wf).start (ix4 a b t f) idx 0 = 0 := rfl
  have h2 : (take4Dims n0 n1 n2 n3 T wf).batchCoord (ix4 a b t f) 0 = 0 := rfl
  have h3 : (take4Dims n0 n1 n2 n3 T wf).offCoord (ix4 a b t f) 0 = a.val := rfl
  rw [h1, h2, h3, Nat.zero_add]

/-- On axis 1 the operand index is the result's coordinate 1. -/
theorem operandIdx_1 : ((take4Dims n0 n1 n2 n3 T wf).operandIdx (ix4 a b t f) idx 1).val = b.val := by
  show (take4Dims n0 n1 n2 n3 T wf).start (ix4 a b t f) idx 1 + (take4Dims n0 n1 n2 n3 T wf).batchCoord (ix4 a b t f) 1
    + (take4Dims n0 n1 n2 n3 T wf).offCoord (ix4 a b t f) 1 = b.val
  have h1 : (take4Dims n0 n1 n2 n3 T wf).start (ix4 a b t f) idx 1 = 0 := rfl
  have h2 : (take4Dims n0 n1 n2 n3 T wf).batchCoord (ix4 a b t f) 1 = 0 := rfl
  have h3 : (take4Dims n0 n1 n2 n3 T wf).offCoord (ix4 a b t f) 1 = b.val := rfl
  rw [h1, h2, h3, Nat.zero_add]

/-- On axis 3 the operand index is the result's coordinate 3. -/
theorem operandIdx_3 : ((take4Dims n0 n1 n2 n3 T wf).operandIdx (ix4 a b t f) idx 3).val = f.val := by
  show (take4Dims n0 n1 n2 n3 T wf).start (ix4 a b t f) idx 3 + (take4Dims n0 n1 n2 n3 T wf).batchCoord (ix4 a b t f) 3
    + (take4Dims n0 n1 n2 n3 T wf).offCoord (ix4 a b t f) 3 = f.val
  have h1 : (take4Dims n0 n1 n2 n3 T wf).start (ix4 a b t f) idx 3 = 0 := rfl
  have h2 : (take4Dims n0 n1 n2 n3 T wf).batchCoord (ix4 a b t f) 3 = 0 := rfl
  have h3 : (take4Dims n0 n1 n2 n3 T wf).offCoord (ix4 a b t f) 3 = f.val := rfl
  rw [h1, h2, h3, Nat.zero_add]

/-- The start index of result row t is read at (t, 0). -/
theorem siIdx_eq : (take4Dims n0 n1 n2 n3 T wf).siIdx (ix4 a b t f) ⟨0, Nat.zero_lt_one⟩ = ix2 t 0 := by
  funext c; refine Fin.ext ?_
  match c with
  | ⟨0, _⟩ => rfl
  | ⟨1, _⟩ => rfl

/-- On axis 2 the operand index is the clamped start index: no batching, no offset (the axis is collapsed). -/
theorem operandIdx_2 : ((take4Dims n0 n1 n2 n3 T wf).operandIdx (ix4 a b t f) idx 2).val
    = min (idx (ix2 t 0)).toInt.toNat (n2 - 1) := by
  show (take4Dims n0 n1 n2 n3 T wf).start (ix4 a b t f) idx 2 + (take4Dims n0 n1 n2 n3 T wf).batchCoord (ix4 a b t f) 2
    + (take4Dims n0 n1 n2 n3 T wf).offCoord (ix4 a b t f) 2 = _
  have h1 : (take4Dims n0 n1 n2 n3 T wf).start (ix4 a b t f) idx 2
      = min (idx ((take4Dims n0 n1 n2 n3 T wf).siIdx (ix4 a b t f) ⟨0, Nat.zero_lt_one⟩)).toInt.toNat (n2 - 1) := rfl
  have h2 : (take4Dims n0 n1 n2 n3 T wf).batchCoord (ix4 a b t f) 2 = 0 := rfl
  have h3 : (take4Dims n0 n1 n2 n3 T wf).offCoord (ix4 a b t f) 2 = 0 := rfl
  rw [h1, h2, h3, siIdx_eq, Nat.add_zero]

end Coordinates

/-- The take read at (a, b, t, f): the operand at (a, b, k, f) with k the start index of row t, read signed and clamped
    into [0, n2 - 1]. -/
theorem gather_take4_apply {n0 n1 n2 n3 T w : Nat} (hn : 0 < n2)
    (wf : GatherDims.WF ⟨4, ![n0, n1, n2, n3]⟩ ⟨2, ![T, 1]⟩ ⟨4, ![n0, n1, T, n3]⟩ [0, 1, 3] [2] [] [2] [] 1 ![n0, n1, 1, n3])
    (x : (⟨4, ![n0, n1, n2, n3]⟩ : Shape).Idx → α) (idx : IVec ⟨2, ![T, 1]⟩ w)
    (a : Fin n0) (b : Fin n1) (t : Fin T) (f : Fin n3) :
    Host.gather (take4Dims n0 n1 n2 n3 T wf) x idx (ix4 a b t f)
      = x (ix4 a b ⟨min (idx (ix2 t 0)).toInt.toNat (n2 - 1), by omega⟩ f) := by
  unfold Host.gather
  congr 1
  funext e
  refine Fin.ext ?_
  match e with
  | ⟨0, _⟩ => exact operandIdx_0 wf idx a b t f
  | ⟨1, _⟩ => exact operandIdx_1 wf idx a b t f
  | ⟨2, _⟩ => exact operandIdx_2 wf idx a b t f
  | ⟨3, _⟩ => exact operandIdx_3 wf idx a b t f

end Cert.LibTake4

end
-- ==== Proof.RefReadT.lean ====
/-
  The gather along the time axis read at an index: the reference's index column holds ⌊t/4⌋ at row t (64·t divided by 256,
  never negative, so the wrap-around select leaves it), and the gather of an array x at (b, c, t, f) is x at (b, c, ⌊t/4⌋, f).
-/
import proofs.«420707_j90769838834068_3_alg».proof.Proof.RefTerm
import proofs.«420707_j90769838834068_3_alg».proof.Proof.Spec
import proofs.«420707_j90769838834068_3_alg».proof.Proof.LibTake4
import Idealize.ShloMosaic.Lib.ValueIdx
import Idealize.ShloMosaic.Lib.StableHlo.Predicate

noncomputable section

open scoped BigOperators

namespace Cert.RefRead

open Idealize.ShloMosaic Idealize.ShloMosaic.ValueIdx Cert.ReferenceIdeal Cert.ReferenceIdeal.RefTerm

variable [Cert.ReferenceIdeal.Facts]

/-! ## The index words -/

/-- The sign of a 32-bit integer as a word: 0, 1 or -1. -/
def sgnW (v : BitVec 32) : BitVec 32 := if v = 0 then 0 else if v.msb then -1 else 1

/-- The index word of row t as the integer operations compute it: 64 · t, its truncated quotient by 256 less one where the
    signs of dividend and divisor differ and the remainder is not zero, and 64 more where that is negative. -/
def tw (t : Fin 256) : BitVec 32 :=
  Scalar.select
    (IntOp.cmpi .slt
      (Scalar.select
        (IntOp.andi (IntOp.cmpi .ne (sgnW (IntOp.muli (BitVec.ofNat 32 t.val) 64#32)) (sgnW 256#32))
          (IntOp.cmpi .ne (IntOp.remsi .host (IntOp.muli (BitVec.ofNat 32 t.val) 64#32) 256#32) 0#32))
        (IntOp.subi (IntOp.divsi .host (IntOp.muli (BitVec.ofNat 32 t.val) 64#32) 256#32) 1#32)
        (IntOp.divsi .host (IntOp.muli (BitVec.ofNat 32 t.val) 64#32) 256#32))
      0#32)
    (IntOp.addi
      (Scalar.select
        (IntOp.andi (IntOp.cmpi .ne (sgnW (IntOp.muli (BitVec.ofNat 32 t.val) 64#32)) (sgnW 256#32))
          (IntOp.cmpi .ne (IntOp.remsi .host (IntOp.muli (BitVec.ofNat 32 t.val) 64#32) 256#32) 0#32))
        (IntOp.subi (IntOp.divsi .host (IntOp.muli (BitVec.ofNat 32 t.val) 64#32) 256#32) 1#32)
        (IntOp.divsi .host (IntOp.muli (BitVec.ofNat 32 t.val) 64#32) 256#32))
      64#32)
    (Scalar.select
      (IntOp.andi (IntOp.cmpi .ne (sgnW (IntOp.muli (BitVec.ofNat 32 t.val) 64#32)) (sgnW 256#32))
        (IntOp.cmpi .ne (IntOp.remsi .host (IntOp.muli (BitVec.ofNat 32 t.val) 64#32) 256#32) 0#32))
      (IntOp.subi (IntOp.divsi .host (IntOp.muli (BitVec.ofNat 32 t.val) 64#32) 256#32) 1#32)
      (IntOp.divsi .host (IntOp.muli (BitVec.ofNat 32 t.val) 64#32) 256#32))

/-- 64 · t is a non-negative multiple of 64 below 2¹⁴, so its quotient by 256 is ⌊t/4⌋ with no correction and no
    wrap-around: checked at the 256 rows. -/
theorem tw_eq : ∀ t : Fin 256, tw t = BitVec.ofNat 32 (t.val / 4) := by decide

/-- A vector kept as a column reads, at (t, 0), the vector at t. -/
theorem col_apply {α : Type} (v : S256.Idx → α) (t : Fin 256) :
    broadcastInDim S256x1 ![0] Facts₀.bcast_S256_S256x1_0 v (ix2 t 0) = v (ix1 t) := by
  unfold broadcastInDim
  congr 1
  funext a
  obtain rfl : a = 0 := Subsingleton.elim _ _
  rfl

/-- The index column at row t is the word the integer operations compute there. -/
theorem tidx_apply (t : Fin 256) : tidx (ix2 t 0) = tw t := by
  unfold tidx
  rw [col_apply]
  rfl

/-- The index column holds ⌊t/4⌋ at row t. -/
theorem tidx_eq (t : Fin 256) : tidx (ix2 t 0) = BitVec.ofNat 32 (t.val / 4) := by
  rw [tidx_apply, tw_eq]

/-! ## The gather -/

/-- The gather of the reference at an index. -/
theorem take4_apply (x : FVec Ideal S4x512x64x64 .f32) (bb : Fin 4) (c : Fin 512) (t : Fin 256) (f : Fin 64) :
    take4 (F := Ideal) x tidx (ix4 bb c t f) = x (ix4 bb c (Cert.Spec.t4 t) f) := by
  have hw : take4 (F := Ideal) x tidx
      = Host.gather (Cert.LibTake4.take4Dims 4 512 64 64 256
          Facts₀.gather_S4x512x64x64_S256x1_S4x512x256x64_013_2_n_n_2_1_4512164_wf) x tidx := rfl
  rw [hw, Cert.LibTake4.gather_take4_apply (by norm_num) _ x tidx bb c t f]
  have hk : min (tidx (ix2 t 0)).toInt.toNat (64 - 1) = t.val / 4 := by
    have ht := t.isLt
    rw [tidx_eq, StableHlo.Predicate.toInt_ofNat_small _ (by omega), Int.toNat_natCast]
    omega
  congr 1
  funext e
  match e with
  | ⟨0, _⟩ => rfl
  | ⟨1, _⟩ => rfl
  | ⟨2, _⟩ => exact Fin.ext hk
  | ⟨3, _⟩ => rfl

end Cert.RefRead

end
-- ==== Proof.RefReadV.lean ====
/-
  The attention branch of the reference read at an index: on real arrays the soft-max over time of the head average of the
  normalised, affine heads at (b, c, t) is the real the specification's smax of vmR gives for batch element b.
-/
import proofs.«420707_j90769838834068_3_alg».proof.Proof.RefTerm
import proofs.«420707_j90769838834068_3_alg».proof.Proof.Spec
import proofs.«420707_j90769838834068_3_alg».proof.Proof.SpecMath
import proofs.«420707_j90769838834068_3_alg».proof.Proof.Arr
import proofs.«420707_j90769838834068_3_alg».proof.Proof.LibCoe
import proofs.«420707_j90769838834068_3_alg».proof.Proof.Consts
import proofs.«420707_j90769838834068_3_alg».proof.Proof.LibSums
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.RefRead

open Idealize.ShloMosaic Idealize.ShloMosaic.ValueIdx Cert.ReferenceIdeal Cert.ReferenceIdeal.RefTerm Cert.Arr

variable [Cert.ReferenceIdeal.Facts]

open Cert.ReferenceIdeal.Facts₀ Cert.ReferenceIdeal.Facts

namespace V

/-! ## Head channels and sums over them -/

/-- Head channel 8·c + h. -/
def hc8 (c : Fin 512) (h : Fin 8) : Fin 4096 := ⟨8 * c.val + h.val, by omega⟩

/-- A sum over the 4096 head channels is the sum over the 512 channels of the sum over their eight heads. -/
theorem sum_hc8 {M : Type*} [AddCommMonoid M] (f : Fin 4096 → M) : ∑ ch, f ch = ∑ c : Fin 512, ∑ h : Fin 8, f (hc8 c h) := by
  rw [← Equiv.sum_comp (finProdFinEquiv : Fin 512 × Fin 8 ≃ Fin (512 * 8)) f, Fintype.sum_prod_type]
  refine Finset.sum_congr rfl fun c _ => Finset.sum_congr rfl fun h _ => congrArg f (Fin.ext ?_)
  show h.val + 8 * c.val = 8 * c.val + h.val
  omega

/-- The host's sum over head channel and time at batch element bb: the initial value plus the double sum. -/
theorem hostReduceAdd_batch (hr : S4x4096x256.ReducesTo [1, 2] S4) (x : S4x4096x256.Idx → EReal) (init : EReal) (bb : Fin 4) :
    Ideal.hostReduceAdd hr x init (ix1 bb) = init + ∑ ch : Fin 4096, ∑ t : Fin 256, x (ix3 bb ch t) := by
  have hd : ∀ (a : Fin 4) (ch : Fin 4096) (t : Fin 256), hr.drop (ix3 a ch t) = ix1 bb ↔ a = bb := by
    intro a ch t
    have e : hr.drop (ix3 a ch t) = ix1 a := by
      funext d
      match d with
      | ⟨0, _⟩ => exact Fin.ext (Shape.ReducesTo.drop_apply_val_of_eq hr (ix3 a ch t) 0 0)
    rw [e]
    constructor
    · intro h; exact congrFun h 0
    · intro h; rw [h]
  unfold Ideal.hostReduceAdd
  rw [Finset.sum_filter, Cert.LibSums.sum_idx3]
  refine congrArg (init + ·) (((Finset.sum_congr rfl fun a _ => ?_).trans
    (Finset.sum_ite_eq' Finset.univ bb fun a => ∑ ch : Fin 4096, ∑ t : Fin 256, x (ix3 a ch t))).trans
    (if_pos (Finset.mem_univ _)))
  by_cases hab : a = bb
  · rw [if_pos hab]
    exact Finset.sum_congr rfl fun ch _ => Finset.sum_congr rfl fun t _ => if_pos ((hd a ch t).2 hab)
  · rw [if_neg hab]
    exact Finset.sum_eq_zero fun ch _ => Finset.sum_eq_zero fun t _ => if_neg (fun h => hab ((hd a ch t).1 h))

/-! ## The layout operations of the branch read at an index -/

/-- The head expansion at head channel 8·c + h is the video at channel c. -/
theorem vrep_apply (v : FVec Ideal S4x512x256 .f32) (bb : Fin 4) (c : Fin 512) (h : Fin 8) (t : Fin 256) :
    vrep (F := Ideal) v (ix3 bb (hc8 c h) t) = v (ix3 bb c t) := by
  unfold vrep
  refine (shapeCast_apply _ shapeCasts_S4x512x8x256_S4x4096x256 (ix3 bb (hc8 c h) t) (ix4 bb c h t) ?_).trans ?_
  · rw [Shape.rowMajor_val_four, Shape.rowMajor_val_three]
    show ((bb.val * 512 + c.val) * 8 + h.val) * 256 + t.val = (bb.val * 4096 + (8 * c.val + h.val)) * 256 + t.val
    omega
  · exact broadcastInDim_apply ![0, 1, 3] bcast_S4x512x256_S4x512x8x256_0_1_3 v (ix4 bb c h t) (ix3 bb c t)
      (fun a => match a with | ⟨0, _⟩ => rfl | ⟨1, _⟩ => rfl | ⟨2, _⟩ => rfl)

/-- A per-head-channel vector broadcast over batch and time reads its entry at the head channel. -/
theorem bcast_chan_apply (w : FVec Ideal S4096 .f32) (bb : Fin 4) (ch : Fin 4096) (t : Fin 256) :
    broadcastInDim S4x4096x256 ![0, 1, 2] bcast_S1x4096x1_S4x4096x256_0_1_2
        (broadcastInDim S1x4096x1 ![1] bcast_S4096_S1x4096x1_1 w) (ix3 bb ch t) = w (ix1 ch) := by
  refine (broadcastInDim_apply ![0, 1, 2] bcast_S1x4096x1_S4x4096x256_0_1_2 _ (ix3 bb ch t) (ix3 (0 : Fin 1) ch (0 : Fin 1))
    (fun a => match a with | ⟨0, _⟩ => rfl | ⟨1, _⟩ => rfl | ⟨2, _⟩ => rfl)).trans ?_
  exact broadcastInDim_apply ![1] bcast_S4096_S1x4096x1_1 w (ix3 (0 : Fin 1) ch (0 : Fin 1)) (ix1 ch)
    (fun a => match a with | ⟨0, _⟩ => rfl)

/-- The same for a vector reshaped to [1, 4096, 1] first. -/
theorem cast_chan_apply (g : FVec Ideal S4096 .f32) (bb : Fin 4) (ch : Fin 4096) (t : Fin 256) :
    broadcastInDim S4x4096x256 ![0, 1, 2] bcast_S1x4096x1_S4x4096x256_0_1_2
        (shapeCast S1x4096x1 g shapeCasts_S4096_S1x4096x1) (ix3 bb ch t) = g (ix1 ch) := by
  refine (broadcastInDim_apply ![0, 1, 2] bcast_S1x4096x1_S4x4096x256_0_1_2 _ (ix3 bb ch t) (ix3 (0 : Fin 1) ch (0 : Fin 1))
    (fun a => match a with | ⟨0, _⟩ => rfl | ⟨1, _⟩ => rfl | ⟨2, _⟩ => rfl)).trans ?_
  refine shapeCast_apply g shapeCasts_S4096_S1x4096x1 (ix3 (0 : Fin 1) ch (0 : Fin 1)) (ix1 ch) ?_
  rw [Shape.rowMajor_val_one, Shape.rowMajor_val_three]
  show ch.val = (0 * 4096 + ch.val) * 1 + 0
  omega

/-- A per-batch statistic kept as [4, 1, 1] and broadcast over head channel and time reads its entry at the batch
    element. -/
theorem bcast_stat_apply (m : FVec Ideal S4x1x1 .f32) (bb : Fin 4) (ch : Fin 4096) (t : Fin 256) :
    broadcastInDim S4x4096x256 ![0, 1, 2] bcast_S4x1x1_S4x4096x256_0_1_2 m (ix3 bb ch t)
      = m (ix3 bb (0 : Fin 1) (0 : Fin 1)) :=
  broadcastInDim_apply ![0, 1, 2] bcast_S4x1x1_S4x4096x256_0_1_2 m (ix3 bb ch t) (ix3 bb (0 : Fin 1) (0 : Fin 1))
    (fun a => match a with | ⟨0, _⟩ => rfl | ⟨1, _⟩ => rfl | ⟨2, _⟩ => rfl)

/-- The affine heads at head channel 8·c + h. -/
theorem affine3h_apply (v : Fin 4 → Cert.Spec.Vid) (w b : Fin 4096 → ℝ) (bb : Fin 4) (c : Fin 512) (h : Fin 8) (t : Fin 256) :
    affine3h (F := Ideal) (vrep (arr3 v)) (arr1 w) (arr1 b) (ix3 bb (hc8 c h) t)
      = ((Cert.Spec.xv (v bb) (Cert.Spec.p8 w) (Cert.Spec.p8 b) c h t : ℝ) : EReal) := by
  unfold affine3h
  rw [addf_apply, mulf_apply, bcast_chan_apply, bcast_chan_apply, vrep_apply, arr3_ix3, arr1_ix1, arr1_ix1,
    ← EReal.coe_mul, ← EReal.coe_add]
  rfl

/-! ## The host operations of the branch read at an index -/

theorem hdivf_apply {s : Shape} (x y : FVec Ideal s .f32) (i : s.Idx) : Host.divf x y i = Ideal.div (x i) (y i) := rfl
theorem hrsqrt_apply {s : Shape} (x : FVec Ideal s .f32) (i : s.Idx) : Host.rsqrt x i = Ideal.rsqrt (x i) := rfl
theorem hexp_apply {s : Shape} (x : FVec Ideal s .f32) (i : s.Idx) : Host.exp x i = Ideal.exp (x i) := rfl
theorem hreduceAdd_apply {s t u : Shape} {axes : List (Fin s.rank)} (x : FVec Ideal s .f32) (w : BitVec FTy.f32.bits)
    (h : s.ReducesTo axes t) (hu : 0 < u.numel) (j : t.Idx) :
    Host.reduceAdd x (constant (F := Ideal) u .f32 w) h hu j = Ideal.hostReduceAdd h x (Ideal.ofBits .f32 w) j := rfl

/-! ## The normalisation over head channels and time -/

/-- The mean over head channel and time of an array of reals, at batch element bb. -/
theorem mean3h_real (x : FVec Ideal S4x4096x256 .f32) (R : Fin 4 → Fin 512 → Fin 8 → Fin 256 → ℝ)
    (hx : ∀ bb c h t, x (ix3 bb (hc8 c h) t) = ((R bb c h t : ℝ) : EReal)) (bb : Fin 4) :
    mean3h (F := Ideal) x (ix3 bb (0 : Fin 1) (0 : Fin 1)) = (((∑ c, ∑ h, ∑ t, R bb c h t) / 1048576 : ℝ) : EReal) := by
  unfold mean3h
  rw [hdivf_apply, broadcastInDim_apply ![0] bcast_S4_S4x1x1_0 _ (ix3 bb (0 : Fin 1) (0 : Fin 1)) (ix1 bb)
      (fun a => match a with | ⟨0, _⟩ => rfl),
    broadcastInDim_apply ![] bcast_S_S4x1x1 _ (ix3 bb (0 : Fin 1) (0 : Fin 1)) ix0 (fun a => a.elim0),
    constant_apply, hreduceAdd_apply, hostReduceAdd_batch, sum_hc8, Cert.Consts.ofBits_zero, Cert.Consts.ofBits_2p20]
  have e : (∑ c : Fin 512, ∑ h : Fin 8, ∑ t : Fin 256, x (ix3 bb (hc8 c h) t))
      = (((∑ c, ∑ h, ∑ t, R bb c h t : ℝ)) : EReal) := by
    rw [Cert.LibCoe.coe_sum]
    refine Finset.sum_congr rfl fun c _ => ?_
    rw [Cert.LibCoe.coe_sum]
    refine Finset.sum_congr rfl fun h _ => ?_
    rw [Cert.LibCoe.coe_sum]
    exact Finset.sum_congr rfl fun t _ => hx bb c h t
  rw [e, ← EReal.coe_add, zero_add, Cert.LibCoe.div_coe_coe _ (by norm_num)]

/-- An entry less the mean. -/
theorem cen3h_apply (x : FVec Ideal S4x4096x256 .f32) (bb : Fin 4) (ch : Fin 4096) (t : Fin 256) :
    cen3h (F := Ideal) x (ix3 bb ch t) = x (ix3 bb ch t) - mean3h (F := Ideal) x (ix3 bb (0 : Fin 1) (0 : Fin 1)) := by
  unfold cen3h
  rw [subf_apply, bcast_stat_apply]

/-- The variance over head channel and time of an array of reals, at batch element bb: the mean of the squared
    differences from the mean. -/
theorem var3h_real (x : FVec Ideal S4x4096x256 .f32) (R : Fin 4 → Fin 512 → Fin 8 → Fin 256 → ℝ)
    (hx : ∀ bb c h t, x (ix3 bb (hc8 c h) t) = ((R bb c h t : ℝ) : EReal)) (bb : Fin 4) :
    var3h (F := Ideal) x (ix3 bb (0 : Fin 1) (0 : Fin 1))
      = (((∑ c, ∑ h, ∑ t, (R bb c h t - (∑ c, ∑ h, ∑ t, R bb c h t) / 1048576)
            * (R bb c h t - (∑ c, ∑ h, ∑ t, R bb c h t) / 1048576)) / 1048576 : ℝ) : EReal) := by
  have hv : var3h (F := Ideal) x = mean3h (F := Ideal) (mulf (cen3h x) (cen3h x)) := rfl
  rw [hv]
  refine mean3h_real _ (fun bb c h t => (R bb c h t - (∑ c, ∑ h, ∑ t, R bb c h t) / 1048576)
    * (R bb c h t - (∑ c, ∑ h, ∑ t, R bb c h t) / 1048576)) (fun bb' c h t => ?_) bb
  rw [mulf_apply, cen3h_apply, hx, mean3h_real x R hx bb', ← EReal.coe_sub, ← EReal.coe_mul]

/-- The mean of the affine heads. -/
theorem mean3h_affine (v : Fin 4 → Cert.Spec.Vid) (w b : Fin 4096 → ℝ) (bb : Fin 4) :
    mean3h (F := Ideal) (affine3h (vrep (arr3 v)) (arr1 w) (arr1 b)) (ix3 bb (0 : Fin 1) (0 : Fin 1))
      = ((Cert.Spec.muV (v bb) (Cert.Spec.p8 w) (Cert.Spec.p8 b) : ℝ) : EReal) :=
  mean3h_real _ (fun bb c h t => Cert.Spec.xv (v bb) (Cert.Spec.p8 w) (Cert.Spec.p8 b) c h t)
    (fun bb c h t => affine3h_apply v w b bb c h t) bb

/-- The variance of the affine heads. -/
theorem var3h_affine (v : Fin 4 → Cert.Spec.Vid) (w b : Fin 4096 → ℝ) (bb : Fin 4) :
    var3h (F := Ideal) (affine3h (vrep (arr3 v)) (arr1 w) (arr1 b)) (ix3 bb (0 : Fin 1) (0 : Fin 1))
      = ((Cert.Spec.varV (v bb) (Cert.Spec.p8 w) (Cert.Spec.p8 b) : ℝ) : EReal) :=
  var3h_real _ (fun bb c h t => Cert.Spec.xv (v bb) (Cert.Spec.p8 w) (Cert.Spec.p8 b) c h t)
    (fun bb c h t => affine3h_apply v w b bb c h t) bb

/-- The normalised, affine head (c, h) of the specification. -/
def gnV (v : Cert.Spec.Vid) (w b g be : Cert.Spec.Par8) (c : Fin 512) (h : Fin 8) (t : Fin 256) : ℝ :=
  (Cert.Spec.xv v w b c h t - Cert.Spec.muV v w b) * Cert.Spec.rsq (Cert.Spec.varV v w b + Cert.Spec.eps) * g c h + be c h

/-- The normalised, affine heads at head channel 8·c + h. -/
theorem gn3h_apply (v : Fin 4 → Cert.Spec.Vid) (w b g be : Fin 4096 → ℝ) (bb : Fin 4) (c : Fin 512) (h : Fin 8) (t : Fin 256) :
    gn3h (F := Ideal) (affine3h (vrep (arr3 v)) (arr1 w) (arr1 b)) (arr1 g) (arr1 be) (ix3 bb (hc8 c h) t)
      = ((gnV (v bb) (Cert.Spec.p8 w) (Cert.Spec.p8 b) (Cert.Spec.p8 g) (Cert.Spec.p8 be) c h t : ℝ) : EReal) := by
  unfold gn3h
  rw [addf_apply, mulf_apply, mulf_apply, cen3h_apply, bcast_stat_apply, hrsqrt_apply, addf_apply,
    broadcastInDim_apply ![] bcast_S_S4x1x1 _ (ix3 bb (0 : Fin 1) (0 : Fin 1)) ix0 (fun a => a.elim0), constant_apply,
    cast_chan_apply, cast_chan_apply, affine3h_apply, mean3h_affine, var3h_affine, ← Cert.Spec.coe_eps, ← EReal.coe_add,
    Cert.LibCoe.rsqrt_coe_pos (Cert.Spec.varV_eps_pos _ _ _), arr1_ix1, arr1_ix1, ← EReal.coe_sub, ← EReal.coe_mul,
    ← EReal.coe_mul, ← EReal.coe_add]
  rfl

/-! ## The head average -/

/-- The average over the eight heads of an array of reals. -/
theorem vmean_real (y : FVec Ideal S4x4096x256 .f32) (Q : Fin 4 → Fin 512 → Fin 8 → Fin 256 → ℝ)
    (hy : ∀ bb c h t, y (ix3 bb (hc8 c h) t) = ((Q bb c h t : ℝ) : EReal)) (bb : Fin 4) (c : Fin 512) (t : Fin 256) :
    vmean (F := Ideal) y (ix3 bb c t) = (((∑ h, Q bb c h t) / 8 : ℝ) : EReal) := by
  have hR : S4x512x8x256.Reduces [2] S4x512x256 := by decide
  unfold vmean
  rw [hdivf_apply, hreduceAdd_apply, Ideal.hostReduceAdd_single reducesTo_S4x512x8x256_S4x512x256_d2 hR,
    broadcastInDim_apply ![] bcast_S_S4x512x256 _ (ix3 bb c t) ix0 (fun a => a.elim0), constant_apply,
    Cert.Consts.ofBits_zero, Cert.Consts.ofBits_8]
  have e : (∑ k : Fin (S4x512x8x256.size 2),
        shapeCast S4x512x8x256 y shapeCasts_S4x4096x256_S4x512x8x256 (hR.lift (ix3 bb c t) k))
      = (((∑ h : Fin 8, Q bb c h t : ℝ)) : EReal) := by
    rw [Cert.LibCoe.coe_sum]
    refine Finset.sum_congr rfl fun k _ => ?_
    have hl : hR.lift (ix3 bb c t) k = ix4 bb c k t := by
      funext a
      match a with
      | ⟨0, _⟩ => exact Fin.ext rfl
      | ⟨1, _⟩ => exact Fin.ext rfl
      | ⟨2, _⟩ => exact Fin.ext rfl
      | ⟨3, _⟩ => exact Fin.ext rfl
    rw [hl]
    refine (shapeCast_apply y shapeCasts_S4x4096x256_S4x512x8x256 (ix4 bb c k t) (ix3 bb (hc8 c k) t) ?_).trans (hy bb c k t)
    rw [Shape.rowMajor_val_three, Shape.rowMajor_val_four]
    show (bb.val * 4096 + (8 * c.val + k.val)) * 256 + t.val = ((bb.val * 512 + c.val) * 8 + k.val) * 256 + t.val
    omega
  rw [e, ← EReal.coe_add, zero_add, Cert.LibCoe.div_coe_coe _ (by norm_num)]

/-- The head average of the normalised, affine heads. -/
theorem vmean_gn (v : Fin 4 → Cert.Spec.Vid) (w b g be : Fin 4096 → ℝ) (bb : Fin 4) (c : Fin 512) (t : Fin 256) :
    vmean (F := Ideal) (gn3h (affine3h (vrep (arr3 v)) (arr1 w) (arr1 b)) (arr1 g) (arr1 be)) (ix3 bb c t)
      = ((Cert.Spec.vmR (v bb) (Cert.Spec.p8 w) (Cert.Spec.p8 b) (Cert.Spec.p8 g) (Cert.Spec.p8 be) c t : ℝ) : EReal) :=
  vmean_real _ (fun bb c h t => gnV (v bb) (Cert.Spec.p8 w) (Cert.Spec.p8 b) (Cert.Spec.p8 g) (Cert.Spec.p8 be) c h t)
    (fun bb c h t => gn3h_apply v w b g be bb c h t) bb c t

/-! ## The soft-max over time -/

/-- The index over (bb, c) with time k inserted. -/
theorem lift_time (hR : S4x512x256.Reduces [2] S4x512) (bb : Fin 4) (c : Fin 512) (k : Fin 256) :
    hR.lift (ix2 bb c) k = ix3 bb c k := by
  funext a
  match a with
  | ⟨0, _⟩ => exact Fin.ext rfl
  | ⟨1, _⟩ => exact Fin.ext rfl
  | ⟨2, _⟩ => exact Fin.ext rfl

/-- The row maximum of an array of reals, broadcast back over time. -/
theorem smaxMax_apply (R : Fin 4 → Fin 512 → Fin 256 → ℝ) (bb : Fin 4) (c : Fin 512) (t : Fin 256) :
    smaxMax (F := Ideal) (arr3 R) (ix3 bb c t) = ((Cert.Spec.rowMax (R bb c) : ℝ) : EReal) := by
  have hR : S4x512x256.Reduces [2] S4x512 := by decide
  unfold smaxMax
  rw [broadcastInDim_apply ![0, 1, 2] bcast_S4x512x1_S4x512x256_0_1_2 _ (ix3 bb c t) (ix3 bb c (0 : Fin 1))
      (fun a => match a with | ⟨0, _⟩ => rfl | ⟨1, _⟩ => rfl | ⟨2, _⟩ => rfl),
    broadcastInDim_apply ![0, 1] bcast_S4x512_S4x512x1_0_1 _ (ix3 bb c (0 : Fin 1)) (ix2 bb c)
      (fun a => match a with | ⟨0, _⟩ => rfl | ⟨1, _⟩ => rfl),
    maximumf_apply, broadcastInDim_apply ![] bcast_S_S4x512 _ (ix2 bb c) ix0 (fun a => a.elim0), constant_apply,
    Host.reduce_eq_fold_single (α := Ideal .f32) (FloatOps.maximumf (F := Ideal) (φ := .f32)) _ _ reducesTo_S4x512x256_S4x512_d2 hR h_S_ (ix2 bb c),
    constant_apply, Cert.Consts.ofBits_negInf]
  have h1 : (arr3 R ∘ hR.lift (ix2 bb c)) = fun k : Fin 256 => ((R bb c k : ℝ) : EReal) := by
    funext k
    exact (congrArg (arr3 R) (lift_time hR bb c k)).trans (arr3_ix3 R bb c k)
  rw [h1]
  show max (⊥ : EReal) (Finset.fold max ⊥ (fun k : Fin 256 => ((R bb c k : ℝ) : EReal)) Finset.univ) = _
  rw [Cert.LibCoe.fold_max_bot_coe (R bb c), max_eq_right bot_le]
  rfl

/-- The exponentials of the soft-max of an array of reals. -/
theorem smaxExp_apply (R : Fin 4 → Fin 512 → Fin 256 → ℝ) (bb : Fin 4) (c : Fin 512) (t : Fin 256) :
    smaxExp (F := Ideal) (arr3 R) (ix3 bb c t) = ((Real.exp (R bb c t - Cert.Spec.rowMax (R bb c)) : ℝ) : EReal) := by
  unfold smaxExp
  rw [hexp_apply, subf_apply, smaxMax_apply, arr3_ix3, ← EReal.coe_sub, Cert.LibCoe.exp_coe]

/-- The soft-max over time of an array of reals. -/
theorem softmax3_arr3 (R : Fin 4 → Fin 512 → Fin 256 → ℝ) (bb : Fin 4) (c : Fin 512) (t : Fin 256) :
    softmax3 (F := Ideal) (arr3 R) (ix3 bb c t) = ((Cert.Spec.smax (R bb c) t : ℝ) : EReal) := by
  have hR : S4x512x256.Reduces [2] S4x512 := by decide
  unfold softmax3
  rw [hdivf_apply, broadcastInDim_apply ![0, 1, 2] bcast_S4x512x1_S4x512x256_0_1_2 _ (ix3 bb c t) (ix3 bb c (0 : Fin 1))
      (fun a => match a with | ⟨0, _⟩ => rfl | ⟨1, _⟩ => rfl | ⟨2, _⟩ => rfl),
    broadcastInDim_apply ![0, 1] bcast_S4x512_S4x512x1_0_1 _ (ix3 bb c (0 : Fin 1)) (ix2 bb c)
      (fun a => match a with | ⟨0, _⟩ => rfl | ⟨1, _⟩ => rfl),
    hreduceAdd_apply, Ideal.hostReduceAdd_single reducesTo_S4x512x256_S4x512_d2 hR, smaxExp_apply, Cert.Consts.ofBits_zero]
  have e : (∑ k : Fin (S4x512x256.size 2), smaxExp (F := Ideal) (arr3 R) (hR.lift (ix2 bb c) k))
      = (((∑ t' : Fin 256, Real.exp (R bb c t' - Cert.Spec.rowMax (R bb c)) : ℝ)) : EReal) := by
    rw [Cert.LibCoe.coe_sum]
    refine Finset.sum_congr rfl fun k _ => ?_
    exact (congrArg (smaxExp (F := Ideal) (arr3 R)) (lift_time hR bb c k)).trans (smaxExp_apply R bb c k)
  rw [e, ← EReal.coe_add, zero_add, Cert.LibCoe.div_coe_coe _ (Cert.Spec.sumexp_pos _).ne']
  rfl

end V

open V

/-- The attention of the reference at an index. -/
theorem attn_apply (v : Fin 4 → Cert.Spec.Vid) (w b g be : Fin 4096 → ℝ) (bb : Fin 4) (c : Fin 512) (t : Fin 256) :
    softmax3 (F := Ideal) (vmean (gn3h (affine3h (vrep (arr3 v)) (arr1 w) (arr1 b)) (arr1 g) (arr1 be))) (ix3 bb c t)
      = ((Cert.Spec.smax (Cert.Spec.vmR (v bb) (Cert.Spec.p8 w) (Cert.Spec.p8 b) (Cert.Spec.p8 g) (Cert.Spec.p8 be) c) t : ℝ) : EReal) := by
  have hvm : vmean (F := Ideal) (gn3h (affine3h (vrep (arr3 v)) (arr1 w) (arr1 b)) (arr1 g) (arr1 be))
      = arr3 (fun bb c t => Cert.Spec.vmR (v bb) (Cert.Spec.p8 w) (Cert.Spec.p8 b) (Cert.Spec.p8 g) (Cert.Spec.p8 be) c t) := by
    funext i
    obtain ⟨bb, c, t, rfl⟩ : ∃ (bb : Fin 4) (c : Fin 512) (t : Fin 256), i = ix3 bb c t := ⟨i 0, i 1, i 2, eq_ix3 i⟩
    rw [vmean_gn, arr3_ix3]
  rw [hvm]
  exact softmax3_arr3 _ bb c t

end Cert.RefRead

end
-- ==== Proof.RefReadK.lean ====
/-
  The key branch and the final combination of the reference read at an index: on real arrays the key at (b, c, t) is the real
  the specification's vkey gives for batch element b; the combination at (b, c, t) is the sum over f of aval·attn + agate·key,
  plus the video.
-/
import proofs.«420707_j90769838834068_3_alg».proof.Proof.RefTerm
import proofs.«420707_j90769838834068_3_alg».proof.Proof.Spec
import proofs.«420707_j90769838834068_3_alg».proof.Proof.SpecMath
import proofs.«420707_j90769838834068_3_alg».proof.Proof.Arr
import proofs.«420707_j90769838834068_3_alg».proof.Proof.LibCoe
import proofs.«420707_j90769838834068_3_alg».proof.Proof.Consts
import proofs.«420707_j90769838834068_3_alg».proof.Proof.LibSums
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.RefRead

open Idealize.ShloMosaic Idealize.ShloMosaic.ValueIdx Cert.ReferenceIdeal Cert.ReferenceIdeal.RefTerm Cert.Arr

/-! ## Layout operations of the key branch read at an index

Each lemma takes the shape fact of its operation as a hypothesis, so it applies whatever proof of the fact the reference cites. -/

/-- A per-channel vector broadcast to [1, 512, 1] and then to [4, 512, 256] reads, at (b, c, t), its entry at c. -/
private theorem bc_chan (h1 : S512.BroadcastsInDim S1x512x1 ![1]) (h2 : S1x512x1.BroadcastsInDim S4x512x256 ![0, 1, 2])
    (x : S512.Idx → EReal) (bb : Fin 4) (c : Fin 512) (t : Fin 256) :
    broadcastInDim S4x512x256 ![0, 1, 2] h2 (broadcastInDim S1x512x1 ![1] h1 x) (ix3 bb c t) = x (ix1 c) := by
  rw [broadcastInDim_apply _ h2 _ (ix3 bb c t) (ix3 (0 : Fin 1) c (0 : Fin 1)) (fun a => by fin_cases a <;> rfl),
    broadcastInDim_apply _ h1 _ (ix3 (0 : Fin 1) c (0 : Fin 1)) (ix1 c) (fun a => by fin_cases a; rfl)]

/-- The same with the vector reshaped to [1, 512, 1] instead of broadcast: position c of [512] is position (0, c, 0). -/
private theorem bc_chan_cast (h1 : S512.ShapeCasts S1x512x1) (h2 : S1x512x1.BroadcastsInDim S4x512x256 ![0, 1, 2])
    (x : S512.Idx → EReal) (bb : Fin 4) (c : Fin 512) (t : Fin 256) :
    broadcastInDim S4x512x256 ![0, 1, 2] h2 (shapeCast S1x512x1 x h1) (ix3 bb c t) = x (ix1 c) := by
  rw [broadcastInDim_apply _ h2 _ (ix3 bb c t) (ix3 (0 : Fin 1) c (0 : Fin 1)) (fun a => by fin_cases a <;> rfl),
    shapeCast_apply x h1 (ix3 (0 : Fin 1) c (0 : Fin 1)) (ix1 c) (by
      rw [Shape.rowMajor_val_one, Shape.rowMajor_val_three]
      show c.val = (0 * 512 + c.val) * 1 + 0
      omega)]

/-- A per-batch [4, 1, 1] array broadcast to [4, 512, 256] reads, at (b, c, t), its entry at (b, 0, 0). -/
private theorem bc_batch (h : S4x1x1.BroadcastsInDim S4x512x256 ![0, 1, 2]) (m : S4x1x1.Idx → EReal) (bb : Fin 4)
    (c : Fin 512) (t : Fin 256) :
    broadcastInDim S4x512x256 ![0, 1, 2] h m (ix3 bb c t) = m (ix3 bb (0 : Fin 1) (0 : Fin 1)) := by
  rw [broadcastInDim_apply _ h _ (ix3 bb c t) (ix3 bb (0 : Fin 1) (0 : Fin 1)) (fun a => by fin_cases a <;> rfl)]

/-- A [4] vector broadcast to [4, 1, 1] reads, at (b, 0, 0), its entry at b. -/
private theorem bc_b (h : S4.BroadcastsInDim S4x1x1 ![0]) (y : S4.Idx → EReal) (bb : Fin 4) :
    broadcastInDim S4x1x1 ![0] h y (ix3 bb (0 : Fin 1) (0 : Fin 1)) = y (ix1 bb) := by
  rw [broadcastInDim_apply _ h _ (ix3 bb (0 : Fin 1) (0 : Fin 1)) (ix1 bb) (fun a => by fin_cases a; rfl)]

/-- A scalar constant broadcast to [4, 1, 1] is, everywhere, the extended real its pattern denotes. -/
private theorem bc_const (h : S_.BroadcastsInDim S4x1x1 ![]) (w : BitVec 32) (j : S4x1x1.Idx) :
    broadcastInDim S4x1x1 ![] h (constant (F := Ideal) S_ .f32 w) j = Ideal.ofBits .f32 w := by
  rw [broadcastInDim_apply _ h _ j ix0 (fun a => a.elim0)]
  rfl

/-! ## The host's pointwise operations and its sum, read at an index at the ideal instance -/

section HostOps
variable {s : Shape} {φ : FTy}

private theorem hdivf_apply (x y : FVec Ideal s φ) (i : s.Idx) : Host.divf x y i = Ideal.div (x i) (y i) := rfl
private theorem hrsqrt_apply (x : FVec Ideal s φ) (i : s.Idx) : Host.rsqrt x i = Ideal.rsqrt (x i) := rfl
private theorem hreduceAdd_apply {axes : List (Fin s.rank)} {t u : Shape} (x : FVec Ideal s φ) (init : u.Idx → Ideal φ)
    (h : s.ReducesTo axes t) (hu : 0 < u.numel) (j : t.Idx) :
    Host.reduceAdd x init h hu j = Ideal.hostReduceAdd h x (init (Shape.Idx.first hu)) j := rfl

end HostOps

/-- An index (a, c, t) of [4, 512, 256] reduces over axes 1 and 2 to the index b of [4] exactly when a = b. -/
private theorem drop12_iff (h : S4x512x256.ReducesTo [1, 2] S4) (a bb : Fin 4) (c : Fin 512) (t : Fin 256) :
    h.drop (ix3 a c t) = ix1 bb ↔ a = bb := by
  have e0 : ((h.drop (ix3 a c t) 0 : Fin _) : Nat) = a.val := Shape.ReducesTo.drop_apply_val_of_eq h (ix3 a c t) 0 0
  constructor
  · intro e
    rw [e] at e0
    exact Fin.ext e0.symm
  · rintro rfl
    funext b
    match b with
    | ⟨0, _⟩ => exact Fin.ext e0

/-- The host's sum of a [4, 512, 256] array over axes 1 and 2, at b: the initial value plus the double sum over c and t. -/
private theorem sum_b12 (h : S4x512x256.ReducesTo [1, 2] S4) (X : S4x512x256.Idx → EReal) (init : EReal) (bb : Fin 4) :
    Ideal.hostReduceAdd h X init (ix1 bb) = init + ∑ c : Fin 512, ∑ t : Fin 256, X (ix3 bb c t) := by
  unfold Ideal.hostReduceAdd
  congr 1
  rw [Finset.sum_filter, Cert.LibSums.sum_idx3, Finset.sum_eq_single bb]
  · refine Finset.sum_congr rfl fun c _ => Finset.sum_congr rfl fun t _ => ?_
    rw [if_pos ((drop12_iff h bb bb c t).2 rfl)]
  · intro a _ hne
    refine Finset.sum_eq_zero fun c _ => Finset.sum_eq_zero fun t _ => ?_
    rw [if_neg (fun e => hne ((drop12_iff h a bb c t).1 e))]
  · intro hn
    exact absurd (Finset.mem_univ bb) hn

/-- Inserting the coordinate f on the last axis over the index (b, c, t) gives (b, c, t, f). -/
private theorem lift3 (h : S4x512x256x64.Reduces [3] S4x512x256) (bb : Fin 4) (c : Fin 512) (t : Fin 256) (f : Fin 64) :
    h.lift (ix3 bb c t) f = ix4 bb c t f := by
  funext e
  match e with
  | ⟨0, _⟩ => exact Fin.ext rfl
  | ⟨1, _⟩ => exact Fin.ext rfl
  | ⟨2, _⟩ => exact Fin.ext rfl
  | ⟨3, _⟩ => exact Fin.ext rfl

variable [Cert.ReferenceIdeal.Facts]

/-! ## The key branch on an array of reals

X is an array of extended reals whose entry at (b, c, t) is the real x b c t. Write μ_b = (Σ_c Σ_t x b c t) / 2^17 and
σ²_b = (Σ_c Σ_t (x b c t − μ_b)²) / 2^17. -/

/-- The per-channel scale and shift: x b c t · w c + b c. -/
private theorem affine3_real (X : FVec Ideal S4x512x256 .f32) (x : Fin 4 → Fin 512 → Fin 256 → ℝ)
    (hX : ∀ bb c t, X (ix3 bb c t) = ((x bb c t : ℝ) : EReal)) (w b : Fin 512 → ℝ) (bb : Fin 4) (c : Fin 512) (t : Fin 256) :
    affine3 (F := Ideal) X (arr1 w) (arr1 b) (ix3 bb c t) = ((x bb c t * w c + b c : ℝ) : EReal) := by
  unfold affine3
  rw [addf_apply, mulf_apply, bc_chan, bc_chan, hX, arr1_ix1, arr1_ix1, ← EReal.coe_mul, ← EReal.coe_add]

/-- The mean over the 2^17 entries of a batch element is the real μ_b. -/
private theorem mean3_real (X : FVec Ideal S4x512x256 .f32) (x : Fin 4 → Fin 512 → Fin 256 → ℝ)
    (hX : ∀ bb c t, X (ix3 bb c t) = ((x bb c t : ℝ) : EReal)) (bb : Fin 4) :
    mean3 (F := Ideal) X (ix3 bb (0 : Fin 1) (0 : Fin 1)) = (((∑ c, ∑ t, x bb c t) / 131072 : ℝ) : EReal) := by
  have hs : ∑ c : Fin 512, ∑ t : Fin 256, X (ix3 bb c t) = ((∑ c, ∑ t, x bb c t : ℝ) : EReal) := by
    rw [Cert.LibCoe.coe_sum]
    refine Finset.sum_congr rfl fun c _ => ?_
    rw [Cert.LibCoe.coe_sum]
    exact Finset.sum_congr rfl fun t _ => hX bb c t
  unfold mean3
  rw [hdivf_apply, bc_b, bc_const, hreduceAdd_apply, sum_b12, hs, constant_apply, Cert.Consts.ofBits_zero,
    Cert.Consts.ofBits_2p17, ← EReal.coe_add, zero_add, Cert.LibCoe.div_coe_coe _ (by norm_num)]

/-- The centred entry is x b c t − μ_b. -/
private theorem cen3_real (X : FVec Ideal S4x512x256 .f32) (x : Fin 4 → Fin 512 → Fin 256 → ℝ)
    (hX : ∀ bb c t, X (ix3 bb c t) = ((x bb c t : ℝ) : EReal)) (bb : Fin 4) (c : Fin 512) (t : Fin 256) :
    cen3 (F := Ideal) X (ix3 bb c t) = ((x bb c t - (∑ c, ∑ t, x bb c t) / 131072 : ℝ) : EReal) := by
  unfold cen3
  rw [subf_apply, bc_batch, mean3_real X x hX, hX, ← EReal.coe_sub]

/-- The variance is the mean of the squared centred entries. -/
private theorem var3_eq (X : FVec Ideal S4x512x256 .f32) : var3 (F := Ideal) X = mean3 (mulf (cen3 X) (cen3 X)) := rfl

/-- The normalisation with its per-channel affine map: (x b c t − μ_b) / √(σ²_b + ε) · g c + be c, when σ²_b + ε is positive. -/
private theorem gn3_real (X : FVec Ideal S4x512x256 .f32) (x : Fin 4 → Fin 512 → Fin 256 → ℝ)
    (hX : ∀ bb c t, X (ix3 bb c t) = ((x bb c t : ℝ) : EReal)) (g be : Fin 512 → ℝ) (bb : Fin 4) (c : Fin 512) (t : Fin 256)
    (hpos : 0 < (∑ c', ∑ t', (x bb c' t' - (∑ c, ∑ t, x bb c t) / 131072) * (x bb c' t' - (∑ c, ∑ t, x bb c t) / 131072))
        / 131072 + Cert.Spec.eps) :
    gn3 (F := Ideal) X (arr1 g) (arr1 be) (ix3 bb c t)
      = (((x bb c t - (∑ c, ∑ t, x bb c t) / 131072)
          * Cert.Spec.rsq ((∑ c', ∑ t', (x bb c' t' - (∑ c, ∑ t, x bb c t) / 131072)
              * (x bb c' t' - (∑ c, ∑ t, x bb c t) / 131072)) / 131072 + Cert.Spec.eps)
          * g c + be c : ℝ) : EReal) := by
  have hv := mean3_real (mulf (cen3 X) (cen3 X))
    (fun bb c t => (x bb c t - (∑ c, ∑ t, x bb c t) / 131072) * (x bb c t - (∑ c, ∑ t, x bb c t) / 131072))
    (fun bb c t => by rw [mulf_apply, cen3_real X x hX, ← EReal.coe_mul]) bb
  unfold gn3
  rw [addf_apply, mulf_apply, mulf_apply, bc_batch, bc_chan_cast, bc_chan_cast, hrsqrt_apply, addf_apply, bc_const, var3_eq, hv,
    cen3_real X x hX, ← Cert.Spec.coe_eps, ← EReal.coe_add, Cert.LibCoe.rsqrt_coe_pos hpos, arr1_ix1, arr1_ix1,
    ← EReal.coe_mul, ← EReal.coe_mul, ← EReal.coe_add]
  rfl

/-- The key of the reference at an index. -/
theorem key_apply (v : Fin 4 → Cert.Spec.Vid) (w b g be : Cert.Spec.Par) (bb : Fin 4) (c : Fin 512) (t : Fin 256) :
    gn3 (F := Ideal) (affine3 (arr3 v) (arr1 w) (arr1 b)) (arr1 g) (arr1 be) (ix3 bb c t)
      = ((Cert.Spec.vkey (v bb) w b g be c t : ℝ) : EReal) := by
  have hx : ∀ bb c t, affine3 (F := Ideal) (arr3 v) (arr1 w) (arr1 b) (ix3 bb c t)
      = ((Cert.Spec.xk (v bb) w b c t : ℝ) : EReal) :=
    fun bb c t => affine3_real (arr3 v) (fun bb c t => v bb c t) (fun _ _ _ => rfl) w b bb c t
  exact gn3_real _ (fun bb c t => Cert.Spec.xk (v bb) w b c t) hx g be bb c t (Cert.Spec.varK_eps_pos (v bb) w b)

/-! ## The final combination -/

/-- An array repeated along a new last axis reads, at (b, c, t, f), its entry at (b, c, t). -/
private theorem rep64_apply (x : FVec Ideal S4x512x256 .f32) (bb : Fin 4) (c : Fin 512) (t : Fin 256) (f : Fin 64) :
    rep64 (F := Ideal) x (ix4 bb c t f) = x (ix3 bb c t) := by
  unfold rep64
  rw [broadcastInDim_apply _ _ _ (ix4 bb c t f) (ix4 bb c t (0 : Fin 1)) (fun a => by fin_cases a <;> rfl),
    broadcastInDim_apply _ _ _ (ix4 bb c t (0 : Fin 1)) (ix3 bb c t) (fun a => by fin_cases a <;> rfl)]

/-- The final combination of the reference at an index, for any arrays. -/
theorem fuse_apply (aval agate : FVec Ideal S4x512x256x64 .f32) (attn key vid : FVec Ideal S4x512x256 .f32)
    (bb : Fin 4) (c : Fin 512) (t : Fin 256) :
    fuse (F := Ideal) aval agate attn key vid (ix3 bb c t)
      = (∑ f : Fin 64, (aval (ix4 bb c t f) * attn (ix3 bb c t) + agate (ix4 bb c t f) * key (ix3 bb c t))) + vid (ix3 bb c t) := by
  have hr : S4x512x256x64.Reduces [3] S4x512x256 := by decide
  unfold fuse
  rw [addf_apply, hreduceAdd_apply, Ideal.hostReduceAdd_single _ hr, constant_apply, Cert.Consts.ofBits_zero, EReal.coe_zero,
    zero_add]
  congr 1
  refine Finset.sum_congr rfl fun (f : Fin 64) _ => ?_
  rw [lift3 hr bb c t f, addf_apply, mulf_apply, mulf_apply, rep64_apply, rep64_apply]

end Cert.RefRead

end
-- ==== Proof.RefReadOut.lean ====
/-
  The reference's result read at an index: on real arrays it is the real the specification's refOut gives for the batch
  element, from the readings of the audio branch, the gather, the attention, the key and the final combination.
-/
import proofs.«420707_j90769838834068_3_alg».proof.Proof.RefTerm
import proofs.«420707_j90769838834068_3_alg».proof.Proof.Spec
import proofs.«420707_j90769838834068_3_alg».proof.Proof.SpecMath
import proofs.«420707_j90769838834068_3_alg».proof.Proof.Arr
import proofs.«420707_j90769838834068_3_alg».proof.Proof.LibCoe
import proofs.«420707_j90769838834068_3_alg».proof.Proof.Consts
import proofs.«420707_j90769838834068_3_alg».proof.Proof.LibSums
import Idealize.ShloMosaic.Lib.ValueIdx
import Idealize.ShloMosaic.Lib.ValueLayout
import Idealize.ShloMosaic.Lib.Pipeline.Value
import Idealize.ShloMosaic.PureOps.Ideal.Laws
import proofs.«420707_j90769838834068_3_alg».proof.Proof.RefReadA
import proofs.«420707_j90769838834068_3_alg».proof.Proof.RefReadT
import proofs.«420707_j90769838834068_3_alg».proof.Proof.RefReadV
import proofs.«420707_j90769838834068_3_alg».proof.Proof.RefReadK

noncomputable section

open scoped BigOperators

namespace Cert.RefRead

open Idealize.ShloMosaic Idealize.ShloMosaic.ValueIdx Cert.ReferenceIdeal Cert.ReferenceIdeal.RefTerm Cert.Arr

variable [Cert.ReferenceIdeal.Facts]

/-- The reference's result at (b, c, t). -/
theorem out_apply (a : Fin 4 → Cert.Spec.Aud) (v : Fin 4 → Cert.Spec.Vid) (p1w p1b p1g p1be p2w p2b p2g p2be : Cert.Spec.Par)
    (f1w f1b f1g f1be : Fin 4096 → ℝ) (f2w f2b f2g f2be : Cert.Spec.Par) (bb : Fin 4) (c : Fin 512) (t : Fin 256) :
    RefTerm.out (F := Ideal) (arr4 a) (arr3 v) (arr1 p1w) (arr1 p1b) (arr1 p1g) (arr1 p1be) (arr1 p2w) (arr1 p2b) (arr1 p2g)
        (arr1 p2be) (arr1 f1w) (arr1 f1b) (arr1 f1g) (arr1 f1be) (arr1 f2w) (arr1 f2b) (arr1 f2g) (arr1 f2be) (ix3 bb c t)
      = ((Cert.Spec.refOut (a bb) (v bb) p1w p1b p1g p1be p2w p2b p2g p2be (Cert.Spec.p8 f1w) (Cert.Spec.p8 f1b)
            (Cert.Spec.p8 f1g) (Cert.Spec.p8 f1be) f2w f2b f2g f2be c t : ℝ) : EReal) := by
  have hsum : ∀ f : Fin 64,
      take4 (F := Ideal) (gn4 (affine4 (aexp (arr4 a)) (arr1 p1w) (arr1 p1b)) (arr1 p1g) (arr1 p1be)) tidx (ix4 bb c t f)
          * ((Cert.Spec.smax (Cert.Spec.vmR (v bb) (Cert.Spec.p8 f1w) (Cert.Spec.p8 f1b) (Cert.Spec.p8 f1g) (Cert.Spec.p8 f1be) c)
              t : ℝ) : EReal)
        + take4 (F := Ideal) (relu4 (gn4 (affine4 (aexp (arr4 a)) (arr1 p2w) (arr1 p2b)) (arr1 p2g) (arr1 p2be))) tidx
            (ix4 bb c t f) * ((Cert.Spec.vkey (v bb) f2w f2b f2g f2be c t : ℝ) : EReal)
        = ((Cert.Spec.gnA (a bb) p1w p1b p1g p1be c (Cert.Spec.t4 t) f
              * Cert.Spec.smax (Cert.Spec.vmR (v bb) (Cert.Spec.p8 f1w) (Cert.Spec.p8 f1b) (Cert.Spec.p8 f1g) (Cert.Spec.p8 f1be) c) t
            + max (Cert.Spec.gnA (a bb) p2w p2b p2g p2be c (Cert.Spec.t4 t) f) 0 * Cert.Spec.vkey (v bb) f2w f2b f2g f2be c t : ℝ)
            : EReal) := by
    intro f
    rw [take4_apply, take4_apply, gn4_apply, relu_gn4_apply, ← EReal.coe_mul, ← EReal.coe_mul, ← EReal.coe_add]
  unfold RefTerm.out
  rw [fuse_apply, attn_apply, key_apply, arr3_ix3, Finset.sum_congr rfl (fun f _ => hsum f), ← Cert.LibCoe.coe_sum,
    ← EReal.coe_add]
  rfl

end Cert.RefRead

end
-- ==== Proof.Finite.lean ====
/-
  The precondition read back: when the "every input is finite" predicate of the eighteen input arrays is all ones, every
  entry of every input array is a real number.
-/
import proofs.«420707_j90769838834068_3_alg».proof.Pre_finite_inputs
import proofs.«420707_j90769838834068_3_alg».proof.Proof.LibReal

noncomputable section

namespace Cert.Finite

open Idealize.ShloMosaic Cert.LibReal Cert.Pre_finite_inputs

/-- Every entry of every input array is a real once the finiteness predicate holds. -/
theorem reals_of_pre [Cert.Pre_finite_inputs.Facts]
    (x0 : FVec Ideal S4x128x64x64 .f32) (x1 : FVec Ideal S4x512x256 .f32) (x2 : FVec Ideal S512 .f32) (x3 : FVec Ideal S512 .f32) (x4 : FVec Ideal S512 .f32) (x5 : FVec Ideal S512 .f32) (x6 : FVec Ideal S512 .f32) (x7 : FVec Ideal S512 .f32) (x8 : FVec Ideal S512 .f32) (x9 : FVec Ideal S512 .f32) (x10 : FVec Ideal S4096 .f32) (x11 : FVec Ideal S4096 .f32) (x12 : FVec Ideal S4096 .f32) (x13 : FVec Ideal S4096 .f32) (x14 : FVec Ideal S512 .f32) (x15 : FVec Ideal S512 .f32) (x16 : FVec Ideal S512 .f32) (x17 : FVec Ideal S512 .f32)
    (h : Cert.Pre_finite_inputs.fn (F := Ideal) x0 x1 x2 x3 x4 x5 x6 x7 x8 x9 x10 x11 x12 x13 x14 x15 x16 x17 = fun _ => 1#1) :
    (∀ i, IsReal (x0 i)) ∧ (∀ i, IsReal (x1 i)) ∧ (∀ i, IsReal (x2 i)) ∧ (∀ i, IsReal (x3 i)) ∧ (∀ i, IsReal (x4 i)) ∧ (∀ i, IsReal (x5 i)) ∧ (∀ i, IsReal (x6 i)) ∧ (∀ i, IsReal (x7 i)) ∧ (∀ i, IsReal (x8 i)) ∧ (∀ i, IsReal (x9 i)) ∧ (∀ i, IsReal (x10 i)) ∧ (∀ i, IsReal (x11 i)) ∧ (∀ i, IsReal (x12 i)) ∧ (∀ i, IsReal (x13 i)) ∧ (∀ i, IsReal (x14 i)) ∧ (∀ i, IsReal (x15 i)) ∧ (∀ i, IsReal (x16 i)) ∧ (∀ i, IsReal (x17 i)) := by
  -- The predicate at the one index of the scalar shape.
  have h0 := congrFun h ValueIdx.ix0
  -- Unfold the chain of lets: a left-nested conjunction of eighteen and-reduces, one per input array.
  dsimp only [fn, fn_part1, fn_part2, fn_part3, fn_part4, fn_part5, andi] at h0
  -- A conjunction of one-bit words is 1 only if both are: peel the conjuncts off from the last array to the first.
  obtain ⟨h0, e17⟩ := IntOp.andi_eq_one.1 h0
  obtain ⟨h0, e16⟩ := IntOp.andi_eq_one.1 h0
  obtain ⟨h0, e15⟩ := IntOp.andi_eq_one.1 h0
  obtain ⟨h0, e14⟩ := IntOp.andi_eq_one.1 h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  -- Each conjunct is an and-reduce of |x| < +∞ that came out 1, so every entry of that array is a real.
  exact ⟨isReal_of_all x0 _ _ _ e0,
    isReal_of_all x1 _ _ _ e1,
    isReal_of_all x2 _ _ _ e2,
    isReal_of_all x3 _ _ _ e3,
    isReal_of_all x4 _ _ _ e4,
    isReal_of_all x5 _ _ _ e5,
    isReal_of_all x6 _ _ _ e6,
    isReal_of_all x7 _ _ _ e7,
    isReal_of_all x8 _ _ _ e8,
    isReal_of_all x9 _ _ _ e9,
    isReal_of_all x10 _ _ _ e10,
    isReal_of_all x11 _ _ _ e11,
    isReal_of_all x12 _ _ _ e12,
    isReal_of_all x13 _ _ _ e13,
    isReal_of_all x14 _ _ _ e14,
    isReal_of_all x15 _ _ _ e15,
    isReal_of_all x16 _ _ _ e16,
    isReal_of_all x17 _ _ _ e17⟩

end Cert.Finite

end
-- ==== Proof.lean ====
/-
  The certificate: both programs run, leave their arguments unchanged, and end with equal results as extended reals.

  Under the precondition every input entry is a real number, so both results can be read as casts of real arrays. The
  kernel's result array at (b, c, t) is the body's function of batch element b's blocks (the frame run with its output
  named, the blocks placed in the array), which on real blocks is the cast of the specification's kerOut; the reference's
  run ends at a composition of whole-array functions which on real arrays is the cast of the specification's refOut at
  (b, c, t); and kerOut = refOut over the reals: the sum over the frequency axis moves inside the products, and the head
  average of affine heads is the affine map of the head averages.
-/
import proofs.«420707_j90769838834068_3_alg».proof.Defs
import proofs.«420707_j90769838834068_3_alg».proof.Proof.Gen.Kernel
import proofs.«420707_j90769838834068_3_alg».proof.Proof.Gen.KernelIdeal
import proofs.«420707_j90769838834068_3_alg».proof.Proof.Gen.ReferenceIdeal
import proofs.«420707_j90769838834068_3_alg».proof.Proof.Gen.Pre_finite_inputs
import proofs.«420707_j90769838834068_3_alg».proof.Proof.KFrame
import proofs.«420707_j90769838834068_3_alg».proof.Proof.KIValue
import proofs.«420707_j90769838834068_3_alg».proof.Proof.KBlocks
import proofs.«420707_j90769838834068_3_alg».proof.Proof.KReadOut
import proofs.«420707_j90769838834068_3_alg».proof.Proof.RefRun
import proofs.«420707_j90769838834068_3_alg».proof.Proof.RefReadOut
import proofs.«420707_j90769838834068_3_alg».proof.Proof.Finite
import proofs.«420707_j90769838834068_3_alg».proof.Proof.SpecMath
import Idealize.ShloMosaic.Adequacy
import Idealize.ShloMosaic.Init

set_option maxRecDepth 16384

noncomputable section

namespace Cert.Proof

open Idealize.ShloMosaic Idealize.ShloMosaic.ValueIdx Idealize.SL.Sem Cert.Arr

section Blocks

open Cert.KernelIdeal Cert.KernelIdeal.KBlocks Cert.KRead

/-- Batch element b of a cast real audio array is the cast block of that element. -/
theorem inA_arr4 (a : Fin 4 → Cert.Spec.Aud) (b : Fin 4) : inA (F := Ideal) (arr4 a) b = blkA (a b) := rfl
/-- Batch element b of a cast real video array is the cast block of that element. -/
theorem inV_arr3 (v : Fin 4 → Cert.Spec.Vid) (b : Fin 4) : inV (F := Ideal) (arr3 v) b = blkV (v b) := rfl
/-- A cast real parameter as a column is the cast column. -/
theorem inP_arr1 (w : Cert.Spec.Par) : inP (F := Ideal) (arr1 w) = colP w := rfl
/-- A cast real head parameter as a matrix is the cast of its (channel, head) form. -/
theorem inP8_arr1 (w : Fin 4096 → ℝ) : inP8 (F := Ideal) (arr1 w) = arr2 (Cert.Spec.p8 w) := rfl

end Blocks

variable [hK : Cert.Kernel.Facts] [hKI : Cert.KernelIdeal.Facts] [hR : Cert.ReferenceIdeal.Facts] [hP : Cert.Pre_finite_inputs.Facts]

theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- On real arrays the two programs' results agree entry by entry. -/
theorem results_eq (m : (ℓ : Loc Cert.KernelIdeal.nD Cert.KernelIdeal.τ Cert.KernelIdeal.sig) → Buf (Elt Ideal) ℓ)
    (c : Dev Cert.KernelIdeal.nD) (hpre : Cert.Pre_KernelIdeal m) :
    Cert.ReferenceIdeal.RefTerm.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))
      = (Cert.KernelIdeal.GenP.dats m 0 c).arrAt 18 Cert.KernelIdeal.cfg0.N := by
  obtain ⟨h0, h1, h2, h3, h4, h5, h6, h7, h8, h9, h10, h11, h12, h13, h14, h15, h16, h17⟩ := Cert.Finite.reals_of_pre _ _ _ _ _ _ _ _ _ _ _ _ _ _ _ _ _ _ (hpre c)
  obtain ⟨a, ea⟩ := exists_arr4 _ h0
  obtain ⟨v, ev⟩ := exists_arr3 _ h1
  obtain ⟨p2, e2⟩ := exists_arr1 _ h2
  obtain ⟨p3, e3⟩ := exists_arr1 _ h3
  obtain ⟨p4, e4⟩ := exists_arr1 _ h4
  obtain ⟨p5, e5⟩ := exists_arr1 _ h5
  obtain ⟨p6, e6⟩ := exists_arr1 _ h6
  obtain ⟨p7, e7⟩ := exists_arr1 _ h7
  obtain ⟨p8, e8⟩ := exists_arr1 _ h8
  obtain ⟨p9, e9⟩ := exists_arr1 _ h9
  obtain ⟨p10, e10⟩ := exists_arr1 _ h10
  obtain ⟨p11, e11⟩ := exists_arr1 _ h11
  obtain ⟨p12, e12⟩ := exists_arr1 _ h12
  obtain ⟨p13, e13⟩ := exists_arr1 _ h13
  obtain ⟨p14, e14⟩ := exists_arr1 _ h14
  obtain ⟨p15, e15⟩ := exists_arr1 _ h15
  obtain ⟨p16, e16⟩ := exists_arr1 _ h16
  obtain ⟨p17, e17⟩ := exists_arr1 _ h17
  funext i
  obtain ⟨b, ch, tt, rfl⟩ : ∃ (b : Fin 4) (ch : Fin 512) (tt : Fin 256), i = ix3 b ch tt := ⟨i 0, i 1, i 2, eq_ix3 i⟩
  rw [Cert.KernelIdeal.KBlocks.arrAt_apply m c b ch tt]
  rw [ea, ev, e2, e3, e4, e5, e6, e7, e8, e9, e10, e11, e12, e13, e14, e15, e16, e17]
  rw [Cert.RefRead.out_apply a v p2 p3 p4 p5 p6 p7 p8 p9 p10 p11 p12 p13 p14 p15 p16 p17 b ch tt]
  rw [inA_arr4, inV_arr3, inP_arr1, inP_arr1, inP_arr1, inP_arr1, inP_arr1, inP_arr1, inP_arr1, inP_arr1,
    inP8_arr1, inP8_arr1, inP8_arr1, inP8_arr1, inP_arr1, inP_arr1, inP_arr1, inP_arr1]
  rw [Cert.KRead.out_apply, Cert.Spec.kerOut_eq_refOut]

theorem algebraic : Cert.algebraic_KernelIdeal_ReferenceIdeal := by
  intro m ρ m' ρ' hpre hagree
  refine ⟨fun c => (Cert.KernelIdeal.GenP.dats m 0 c).arrAt 18 Cert.KernelIdeal.cfg0.N,
    Cert.KernelIdeal.ValueP.run_blocks m ρ, ?_⟩
  refine (θ_run Cert.ReferenceIdeal.defs _ _).mono (fun _ h c => ⟨(h c).1.trans ?_, (h c).2⟩)
    (Cert.ReferenceIdeal.RefRun.run (F := Ideal) m' ρ')
  obtain ⟨g0, g1, g2, g3, g4, g5, g6, g7, g8, g9, g10, g11, g12, g13, g14, g15, g16, g17⟩ := hagree c
  rw [g0, g1, g2, g3, g4, g5, g6, g7, g8, g9, g10, g11, g12, g13, g14, g15, g16, g17]
  exact results_eq m c hpre

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
